-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000 : Shape := ⟨1, ![8000000]⟩
abbrev S4000000 : Shape := ⟨1, ![4000000]⟩
abbrev S3000000 : Shape := ⟨1, ![3000000]⟩
abbrev S_ : Shape := ⟨0, ![]⟩

class Facts : Prop where
  bcast_S_S8000000 : S_.BroadcastsInDim S8000000 (![] : Fin 0 → Fin S8000000.rank)
  reducesTo_S8000000_S_d0 : S8000000.ReducesTo [0] S_
  h_S_ : 0 < S_.numel
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_arg2 : FVec F S4000000 .f32) (main_v13 : IVec S_ 1) (main_v15 : IVec S4000000 1) (main_c_5 : IVec S_ 1) : IVec S_ 1 :=
  let main_v16 : IVec S_ 1 := (fun x v => Host.reduce IntOp.andi x v reducesTo_S4000000_S_d0 h_S_) main_v15 main_c_5
  let main_v17 : IVec S_ 1 := andi main_v13 main_v16
  let main_cst_6 : FVec F S_ .f32 := constant S_ .f32 0x40000000#32
  let main_v18 : FVec F S4000000 .f32 := broadcastInDim S4000000 ![] bcast_S_S4000000 main_cst_6
  let main_v19 : IVec S4000000 1 := cmpf .ole main_arg2 main_v18
  let main_c_7 : IVec S_ 1 := constantI S_ 1 1#1
  let main_v20 : IVec S_ 1 := (fun x v => Host.reduce IntOp.andi x v reducesTo_S4000000_S_d0 h_S_) main_v19 main_c_7
  let main_v21 : IVec S_ 1 := andi main_v17 main_v20
  main_v21

def fn {F : FTy → Type} [FloatOps F] (main_arg0 : FVec F S8000000 .f32) (main_arg1 : FVec F S4000000 .f32) (main_arg2 : FVec F S4000000 .f32) (main_arg3 : IVec S3000000 32) : IVec S_ 1 :=
  let main_v0 : FVec F S8000000 .f32 := Host.absf main_arg0
  let main_cst : FVec F S_ .f32 := constant S_ .f32 0x7F800000#32
  let main_v1 : FVec F S8000000 .f32 := broadcastInDim S8000000 ![] bcast_S_S8000000 main_cst
  let main_v2 : IVec S8000000 1 := cmpf .olt main_v0 main_v1
  let main_c : IVec S_ 1 := constantI S_ 1 1#1
  let main_v3 : IVec S_ 1 := (fun x v => Host.reduce IntOp.andi x v reducesTo_S8000000_S_d0 h_S_) main_v2 main_c
  let main_v4 : FVec F S4000000 .f32 := Host.absf main_arg1
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_cst_4 : FVec F S_ .f32 := constant S_ .f32 0x40000000#32
  let main_v14 : FVec F S4000000 .f32 := broadcastInDim S4000000 ![] bcast_S_S4000000 main_cst_4
  let main_v15 : IVec S4000000 1 := cmpf .ole main_arg1 main_v14
  let main_c_5 : IVec S_ 1 := constantI S_ 1 1#1
  fn_part1 (F := F) main_arg2 main_v13 main_v15 main_c_5
-- ==== Kernel.lean ====
abbrev S8000000 : Shape := ⟨1, ![8000000]⟩
abbrev S4000000 : Shape := ⟨1, ![4000000]⟩
abbrev S3000000 : Shape := ⟨1, ![3000000]⟩
abbrev S3000320 : Shape := ⟨1, ![3000320]⟩
abbrev S_ : Shape := ⟨0, ![]⟩
abbrev S320 : Shape := ⟨1, ![320]⟩
abbrev S2x1024x1024 : Shape := ⟨3, ![2, 1024, 1024]⟩
abbrev S256 : Shape := ⟨1, ![256]⟩
abbrev S1x1024x1024 : Shape := ⟨3, ![1, 1024, 1024]⟩
abbrev S1024x1024 : Shape := ⟨2, ![1024, 1024]⟩
abbrev S1x256 : Shape := ⟨2, ![1, 256]⟩
abbrev S1024x1 : Shape := ⟨2, ![1024, 1]⟩
abbrev S1024x256 : Shape := ⟨2, ![1024, 256]⟩
abbrev S2500096 : Shape := ⟨1, ![2500096]⟩
abbrev S2500000 : Shape := ⟨1, ![2500000]⟩

abbrev nBuf : Space → Nat
  | .hbm => 35
  | .vmem => 23
  | .smem => 0
  | _ => 0

abbrev bufTy : (tb : Table) → Fin (tcTables nBuf tb) → BufTy
  | .hbm, ⟨0, _⟩ => ⟨S8000000, .f32⟩
  | .hbm, ⟨1, _⟩ => ⟨S4000000, .f32⟩
  | .hbm, ⟨2, _⟩ => ⟨S4000000, .f32⟩
  | .hbm, ⟨3, _⟩ => ⟨S3000000, .i32⟩
  | .hbm, ⟨4, _⟩ => ⟨S3000320, .f32⟩
  | .hbm, ⟨5, _⟩ => ⟨S3000320, .f32⟩
  | .hbm, ⟨6, _⟩ => ⟨S3000320, .f32⟩
  | .hbm, ⟨7, _⟩ => ⟨S3000320, .f32⟩
  | .hbm, ⟨8, _⟩ => ⟨S_, .i32⟩
  | .hbm, ⟨9, _⟩ => ⟨S320, .i32⟩
  | .hbm, ⟨10, _⟩ => ⟨S3000320, .i32⟩
  | .hbm, ⟨11, _⟩ => ⟨S2x1024x1024, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S2500096, .f32⟩
  | .hbm, ⟨30, _⟩ => ⟨S2500096, .f32⟩
  | .hbm, ⟨31, _⟩ => ⟨S2500096, .f32⟩
  | .hbm, ⟨32, _⟩ => ⟨S2500096, .f32⟩
  | .hbm, ⟨33, _⟩ => ⟨S2500096, .f32⟩
  | .hbm, ⟨34, _⟩ => ⟨S2500000, .f32⟩
  | .local _ .vmem, ⟨0, _⟩ => ⟨S256, .f32⟩
  | .local _ .vmem, ⟨1, _⟩ => ⟨S256, .f32⟩
  | .local _ .vmem, ⟨2, _⟩ => ⟨S256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .i32⟩
  | .local _ .vmem, ⟨9, _⟩ => ⟨S256, .i32⟩
  | .local _ .vmem, ⟨10, _⟩ => ⟨S1x1024x1024, .f32⟩
  | .local _ .vmem, ⟨11, _⟩ => ⟨S1x1024x1024, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S1024x1024, .bf16⟩
  | .local _ .vmem, ⟨21, _⟩ => ⟨S256, .f32⟩
  | .local _ .vmem, ⟨22, _⟩ => ⟨S256, .f32⟩
  | _, _ => ⟨S8000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![2, 5860], ![false, false]⟩

def cc0_transform_0 (i : grid0.Coords) : Fin 1 → Nat :=
  let arg0 : BitVec 32 := BitVec.ofNat 32 (i 0).val
  let arg1 : BitVec 32 := BitVec.ofNat 32 (i 1).val
  let c5860_i32 : BitVec 32 := 5860#32
  let v0 : BitVec 32 := Scalar.muli arg0 c5860_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c5860_i32 : BitVec 32 := 5860#32
  let v0 : BitVec 32 := Scalar.muli arg0 c5860_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c5860_i32 : BitVec 32 := 5860#32
  let v0 : BitVec 32 := Scalar.muli arg0 c5860_i32
  let v1 : BitVec 32 := Scalar.addi v0 arg1
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c5860_i32 : BitVec 32 := 5860#32
  let v0 : BitVec 32 := Scalar.muli arg0 c5860_i32
  let v1 : BitVec 32 := Scalar.addi v0 arg1
  let c0_i32 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let c5860_i32 : BitVec 32 := 5860#32
  let v0 : BitVec 32 := Scalar.muli arg0 c5860_i32
  let v1 : BitVec 32 := Scalar.addi v0 arg1
  let c0_i32 : BitVec 32 := 0#32
  ![v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![9766], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S8000000_S3000320_0 : S8000000.Slices ![0] S3000320
  slices_S8000000_S3000320_4000000 : S8000000.Slices ![4000000] S3000320
  slices_S4000000_S3000320_0 : S4000000.Slices ![0] S3000320
  bcast_S_S320 : S_.BroadcastsInDim S320 (![] : Fin 0 → Fin S320.rank)
  concatenates_S3000000_S320_S3000320_d0 : Shape.Concatenates [S3000000, S320] S3000320 0
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S256_S256_0 : ∀ a, (![0] : Fin 1 → Nat) a + S256.size a ≤ S256.size a
  h_S256 : 0 < S256.numel
  shapeCasts_S256_S256 : S256.ShapeCasts S256
  iota_S1x256_d1_w32 : S1x256.Iotas .tc 32 [1]
  shapeCasts_S1x256_S256 : S1x256.ShapeCasts S256
  natLt_1_32 : 1 < 32
  iota_S1024x1_d0_w32 : S1024x1.Iotas .tc 32 [0]
  shapeCasts_S256_S1x256 : S256.ShapeCasts S1x256
  broadcasts_S1x256_S1024x256 : S1x256.Broadcasts S1024x256
  broadcasts_S1024x1_S1024x256 : S1024x1.Broadcasts S1024x256
  bitsLt_bf16_f32 : FTy.bits .bf16 < FTy.bits .f32
  reducesTo_S2x1024x1024_S1024x1024_d0 : S2x1024x1024.ReducesTo [0] S1024x1024
  h_S_ : 0 < S_.numel
  bcast_S_S1024x1024 : S_.BroadcastsInDim S1024x1024 (![] : Fin 0 → Fin S1024x1024.rank)
  slices_S8000000_S2500096_0 : S8000000.Slices ![0] S2500096
  slices_S8000000_S2500096_4000000 : S8000000.Slices ![4000000] S2500096
  slices_S4000000_S2500096_0 : S4000000.Slices ![0] S2500096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x256_S256 : S1024x256.Reduces [0] S256
  slices_S2500096_S2500000_0 : S2500096.Slices ![0] S2500000
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S3000320.size a
  hwx0_0 : ∀ i : grid0.Coords, EltTy.bits .f32 = 32 ∨ (Rect.block (s := S3000320) S256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S3000320.size a
  hwx0_1 : ∀ i : grid0.Coords, EltTy.bits .f32 = 32 ∨ (Rect.block (s := S3000320) S256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S3000320.size a
  hwx0_2 : ∀ i : grid0.Coords, EltTy.bits .f32 = 32 ∨ (Rect.block (s := S3000320) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S3000320.size a
  hwx0_3 : ∀ i : grid0.Coords, EltTy.bits .f32 = 32 ∨ (Rect.block (s := S3000320) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S3000320.size a
  hwx0_4 : ∀ i : grid0.Coords, EltTy.bits .i32 = 32 ∨ (Rect.block (s := S3000320) S256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S2x1024x1024.size a
  hwx0_5 : ∀ i : grid0.Coords, EltTy.bits .f32 = 32 ∨ (Rect.block (s := S2x1024x1024) S1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256.size a ≤ S2500096.size a
  hwx1_0 : ∀ i : grid1.Coords, EltTy.bits .f32 = 32 ∨ (Rect.block (s := S2500096) S256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S2500096.size a
  hwx1_1 : ∀ i : grid1.Coords, EltTy.bits .f32 = 32 ∨ (Rect.block (s := S2500096) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S2500096.size a
  hwx1_2 : ∀ i : grid1.Coords, EltTy.bits .f32 = 32 ∨ (Rect.block (s := S2500096) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S2500096.size a
  hwx1_3 : ∀ i : grid1.Coords, EltTy.bits .f32 = 32 ∨ (Rect.block (s := S2500096) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S2500096.size a
  hwx1_5 : ∀ i : grid1.Coords, EltTy.bits .f32 = 32 ∨ (Rect.block (s := S2500096) S256.size (cc1_transform_5 i) (hinb1_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8000000 : Shape := ⟨1, ![8000000]⟩
abbrev S4000000 : Shape := ⟨1, ![4000000]⟩
abbrev S3000000 : Shape := ⟨1, ![3000000]⟩
abbrev S_ : Shape := ⟨0, ![]⟩
abbrev S1048576 : Shape := ⟨1, ![1048576]⟩
abbrev S3000000x1 : Shape := ⟨2, ![3000000, 1]⟩
abbrev S2500000 : Shape := ⟨1, ![2500000]⟩
abbrev S2500000x1 : Shape := ⟨2, ![2500000, 1]⟩

abbrev nBuf : Space → Nat
  | .hbm => 1848
  | .vmem => 0
  | .smem => 0
  | _ => 0

abbrev hbmTy0_0 (i : Nat) : BufTy := match i % 128 with
  | 0 => ⟨S8000000, .f32⟩
  | 1 => ⟨S4000000, .f32⟩
  | 2 => ⟨S4000000, .f32⟩
  | 3 => ⟨S3000000, .i32⟩
  | 4 => ⟨S3000000, .f32⟩
  | 5 => ⟨S3000000, .f32⟩
  | 6 => ⟨S_, .f32⟩
  | 7 => ⟨S3000000, .f32⟩
  | 8 => ⟨S3000000, .f32⟩
  | 9 => ⟨S_, .f32⟩
  | 10 => ⟨S3000000, .f32⟩
  | 11 => ⟨S3000000, .f32⟩
  | 12 => ⟨S_, .f32⟩
  | 13 => ⟨S3000000, .f32⟩
  | 14 => ⟨S3000000, .f32⟩
  | 15 => ⟨S_, .f32⟩
  | 16 => ⟨S3000000, .f32⟩
  | 17 => ⟨S3000000, .f32⟩
  | 18 => ⟨S3000000, .f32⟩
  | 19 => ⟨S_, .f32⟩
  | 20 => ⟨S3000000, .f32⟩
  | 21 => ⟨S3000000, .f32⟩
  | 22 => ⟨S3000000, .f32⟩
  | 23 => ⟨S3000000, .f32⟩
  | 24 => ⟨S_, .f32⟩
  | 25 => ⟨S3000000, .f32⟩
  | 26 => ⟨S3000000, .f32⟩
  | 27 => ⟨S3000000, .f32⟩
  | 28 => ⟨S3000000, .f32⟩
  | 29 => ⟨S3000000, .f32⟩
  | 30 => ⟨S3000000, .f32⟩
  | 31 => ⟨S3000000, .f32⟩
  | 32 => ⟨S3000000, .f32⟩
  | 33 => ⟨S_, .f32⟩
  | 34 => ⟨S3000000, .f32⟩
  | 35 => ⟨S3000000, .f32⟩
  | 36 => ⟨S3000000, .f32⟩
  | 37 => ⟨S3000000, .f32⟩
  | 38 => ⟨S_, .f32⟩
  | 39 => ⟨S3000000, .f32⟩
  | 40 => ⟨S3000000, .f32⟩
  | 41 => ⟨S_, .f32⟩
  | 42 => ⟨S3000000, .f32⟩
  | 43 => ⟨S3000000, .f32⟩
  | 44 => ⟨S3000000, .f32⟩
  | 45 => ⟨S3000000, .i32⟩
  | 46 => ⟨S_, .i32⟩
  | 47 => ⟨S_, .i32⟩
  | 48 => ⟨S_, .i32⟩
  | 49 => ⟨S3000000, .i32⟩
  | 50 => ⟨S3000000, .i32⟩
  | 51 => ⟨S_, .i32⟩
  | 52 => ⟨S3000000, .i32⟩
  | 53 => ⟨S3000000, .i32⟩
  | 54 => ⟨S_, .f32⟩
  | 55 => ⟨S3000000, .f32⟩
  | 56 => ⟨S3000000, .f32⟩
  | 57 => ⟨S_, .f32⟩
  | 58 => ⟨S3000000, .f32⟩
  | 59 => ⟨S3000000, .f32⟩
  | 60 => ⟨S3000000, .f32⟩
  | 61 => ⟨S3000000, .i32⟩
  | 62 => ⟨S_, .i32⟩
  | 63 => ⟨S_, .i32⟩
  | 64 => ⟨S_, .i32⟩
  | 65 => ⟨S3000000, .i32⟩
  | 66 => ⟨S3000000, .i32⟩
  | 67 => ⟨S_, .i32⟩
  | 68 => ⟨S3000000, .i32⟩
  | 69 => ⟨S3000000, .i32⟩
  | 70 => ⟨S_, .f32⟩
  | 71 => ⟨S1048576, .f32⟩
  | 72 => ⟨S_, .i32⟩
  | 73 => ⟨S3000000, .i32⟩
  | 74 => ⟨S3000000, .i32⟩
  | 75 => ⟨S3000000, .f32⟩
  | 76 => ⟨S_, .f32⟩
  | 77 => ⟨S3000000, .f32⟩
  | 78 => ⟨S3000000, .f32⟩
  | 79 => ⟨S_, .f32⟩
  | 80 => ⟨S3000000, .f32⟩
  | 81 => ⟨S3000000, .f32⟩
  | 82 => ⟨S_, .f32⟩
  | 83 => ⟨S3000000, .f32⟩
  | 84 => ⟨S3000000, .f32⟩
  | 85 => ⟨S3000000, .f32⟩
  | 86 => ⟨S3000000, .f32⟩
  | 87 => ⟨S3000000, .f32⟩
  | 88 => ⟨S_, .f32⟩
  | 89 => ⟨S_, .f32⟩
  | 90 => ⟨S3000000, .f32⟩
  | 91 => ⟨S3000000, .f32⟩
  | 92 => ⟨S_, .i32⟩
  | 93 => ⟨S3000000, .i32⟩
  | 94 => ⟨S3000000, .i1⟩
  | 95 => ⟨S_, .i32⟩
  | 96 => ⟨S3000000, .i32⟩
  | 97 => ⟨S3000000, .i32⟩
  | 98 => ⟨S3000000, .f32⟩
  | 99 => ⟨S_, .f32⟩
  | 100 => ⟨S3000000, .f32⟩
  | 101 => ⟨S3000000, .f32⟩
  | 102 => ⟨S_, .f32⟩
  | 103 => ⟨S3000000, .f32⟩
  | 104 => ⟨S3000000, .f32⟩
  | 105 => ⟨S_, .f32⟩
  | 106 => ⟨S3000000, .f32⟩
  | 107 => ⟨S3000000, .f32⟩
  | 108 => ⟨S3000000, .f32⟩
  | 109 => ⟨S3000000, .f32⟩
  | 110 => ⟨S3000000, .f32⟩
  | 111 => ⟨S_, .f32⟩
  | 112 => ⟨S_, .f32⟩
  | 113 => ⟨S3000000, .f32⟩
  | 114 => ⟨S3000000, .f32⟩
  | 115 => ⟨S_, .i32⟩
  | 116 => ⟨S3000000, .i32⟩
  | 117 => ⟨S3000000, .i1⟩
  | 118 => ⟨S3000000, .i1⟩
  | 119 => ⟨S_, .i32⟩
  | 120 => ⟨S3000000, .i32⟩
  | 121 => ⟨S3000000, .i32⟩
  | 122 => ⟨S3000000, .i32⟩
  | 123 => ⟨S_, .i32⟩
  | 124 => ⟨S_, .i32⟩
  | 125 => ⟨S3000000, .i32⟩
  | 126 => ⟨S3000000, .i32⟩
  | 127 => ⟨S3000000, .f32⟩
  | _ => ⟨S8000000, .f32⟩

abbrev hbmTy0_1 (i : Nat) : BufTy := match i % 128 with
  | 0 => ⟨S3000000, .f32⟩
  | 1 => ⟨S_, .f32⟩
  | 2 => ⟨S_, .f32⟩
  | 3 => ⟨S3000000, .f32⟩
  | 4 => ⟨S3000000, .f32⟩
  | 5 => ⟨S_, .i32⟩
  | 6 => ⟨S3000000, .i32⟩
  | 7 => ⟨S3000000, .i1⟩
  | 8 => ⟨S_, .i32⟩
  | 9 => ⟨S3000000, .i32⟩
  | 10 => ⟨S3000000, .i32⟩
  | 11 => ⟨S3000000, .i32⟩
  | 12 => ⟨S3000000x1, .i32⟩
  | 13 => ⟨S1048576, .f32⟩
  | 14 => ⟨S_, .i32⟩
  | 15 => ⟨S3000000, .i32⟩
  | 16 => ⟨S3000000, .i32⟩
  | 17 => ⟨S3000000, .f32⟩
  | 18 => ⟨S_, .f32⟩
  | 19 => ⟨S3000000, .f32⟩
  | 20 => ⟨S3000000, .f32⟩
  | 21 => ⟨S_, .f32⟩
  | 22 => ⟨S3000000, .f32⟩
  | 23 => ⟨S3000000, .f32⟩
  | 24 => ⟨S_, .f32⟩
  | 25 => ⟨S3000000, .f32⟩
  | 26 => ⟨S3000000, .f32⟩
  | 27 => ⟨S3000000, .f32⟩
  | 28 => ⟨S3000000, .f32⟩
  | 29 => ⟨S3000000, .f32⟩
  | 30 => ⟨S_, .f32⟩
  | 31 => ⟨S_, .f32⟩
  | 32 => ⟨S3000000, .f32⟩
  | 33 => ⟨S3000000, .f32⟩
  | 34 => ⟨S_, .i32⟩
  | 35 => ⟨S3000000, .i32⟩
  | 36 => ⟨S3000000, .i1⟩
  | 37 => ⟨S3000000, .i1⟩
  | 38 => ⟨S_, .i32⟩
  | 39 => ⟨S3000000, .i32⟩
  | 40 => ⟨S3000000, .i32⟩
  | 41 => ⟨S3000000, .i32⟩
  | 42 => ⟨S_, .i32⟩
  | 43 => ⟨S_, .i32⟩
  | 44 => ⟨S3000000, .i32⟩
  | 45 => ⟨S3000000, .i32⟩
  | 46 => ⟨S3000000, .f32⟩
  | 47 => ⟨S3000000, .f32⟩
  | 48 => ⟨S_, .f32⟩
  | 49 => ⟨S_, .f32⟩
  | 50 => ⟨S3000000, .f32⟩
  | 51 => ⟨S3000000, .f32⟩
  | 52 => ⟨S_, .i32⟩
  | 53 => ⟨S3000000, .i32⟩
  | 54 => ⟨S3000000, .i1⟩
  | 55 => ⟨S_, .i32⟩
  | 56 => ⟨S3000000, .i32⟩
  | 57 => ⟨S3000000, .i32⟩
  | 58 => ⟨S3000000, .i32⟩
  | 59 => ⟨S3000000x1, .i32⟩
  | 60 => ⟨S1048576, .f32⟩
  | 61 => ⟨S_, .i32⟩
  | 62 => ⟨S3000000, .i32⟩
  | 63 => ⟨S3000000, .i32⟩
  | 64 => ⟨S3000000, .f32⟩
  | 65 => ⟨S_, .f32⟩
  | 66 => ⟨S3000000, .f32⟩
  | 67 => ⟨S3000000, .f32⟩
  | 68 => ⟨S_, .f32⟩
  | 69 => ⟨S3000000, .f32⟩
  | 70 => ⟨S3000000, .f32⟩
  | 71 => ⟨S_, .f32⟩
  | 72 => ⟨S3000000, .f32⟩
  | 73 => ⟨S3000000, .f32⟩
  | 74 => ⟨S3000000, .f32⟩
  | 75 => ⟨S3000000, .f32⟩
  | 76 => ⟨S3000000, .f32⟩
  | 77 => ⟨S_, .f32⟩
  | 78 => ⟨S_, .f32⟩
  | 79 => ⟨S3000000, .f32⟩
  | 80 => ⟨S3000000, .f32⟩
  | 81 => ⟨S_, .i32⟩
  | 82 => ⟨S3000000, .i32⟩
  | 83 => ⟨S3000000, .i1⟩
  | 84 => ⟨S3000000, .i1⟩
  | 85 => ⟨S_, .i32⟩
  | 86 => ⟨S3000000, .i32⟩
  | 87 => ⟨S3000000, .i32⟩
  | 88 => ⟨S3000000, .i32⟩
  | 89 => ⟨S_, .i32⟩
  | 90 => ⟨S_, .i32⟩
  | 91 => ⟨S3000000, .i32⟩
  | 92 => ⟨S3000000, .i32⟩
  | 93 => ⟨S3000000, .f32⟩
  | 94 => ⟨S3000000, .f32⟩
  | 95 => ⟨S_, .f32⟩
  | 96 => ⟨S_, .f32⟩
  | 97 => ⟨S3000000, .f32⟩
  | 98 => ⟨S3000000, .f32⟩
  | 99 => ⟨S_, .i32⟩
  | 100 => ⟨S3000000, .i32⟩
  | 101 => ⟨S3000000, .i1⟩
  | 102 => ⟨S_, .i32⟩
  | 103 => ⟨S3000000, .i32⟩
  | 104 => ⟨S3000000, .i32⟩
  | 105 => ⟨S3000000, .i32⟩
  | 106 => ⟨S3000000x1, .i32⟩
  | 107 => ⟨S1048576, .f32⟩
  | 108 => ⟨S_, .i32⟩
  | 109 => ⟨S3000000, .i32⟩
  | 110 => ⟨S3000000, .i32⟩
  | 111 => ⟨S3000000, .f32⟩
  | 112 => ⟨S_, .f32⟩
  | 113 => ⟨S3000000, .f32⟩
  | 114 => ⟨S3000000, .f32⟩
  | 115 => ⟨S_, .f32⟩
  | 116 => ⟨S3000000, .f32⟩
  | 117 => ⟨S3000000, .f32⟩
  | 118 => ⟨S_, .f32⟩
  | 119 => ⟨S3000000, .f32⟩
  | 120 => ⟨S3000000, .f32⟩
  | 121 => ⟨S3000000, .f32⟩
  | 122 => ⟨S3000000, .f32⟩
  | 123 => ⟨S3000000, .f32⟩
  | 124 => ⟨S_, .f32⟩
  | 125 => ⟨S_, .f32⟩
  | 126 => ⟨S3000000, .f32⟩
  | 127 => ⟨S3000000, .f32⟩
  | _ => ⟨S8000000, .f32⟩

abbrev hbmTy0_2 (i : Nat) : BufTy := match i % 128 with
  | 0 => ⟨S_, .i32⟩
  | 1 => ⟨S3000000, .i32⟩
  | 2 => ⟨S3000000, .i1⟩
  | 3 => ⟨S3000000, .i1⟩
  | 4 => ⟨S_, .i32⟩
  | 5 => ⟨S3000000, .i32⟩
  | 6 => ⟨S3000000, .i32⟩
  | 7 => ⟨S3000000, .i32⟩
  | 8 => ⟨S_, .i32⟩
  | 9 => ⟨S_, .i32⟩
  | 10 => ⟨S3000000, .i32⟩
  | 11 => ⟨S3000000, .i32⟩
  | 12 => ⟨S3000000, .f32⟩
  | 13 => ⟨S3000000, .f32⟩
  | 14 => ⟨S_, .f32⟩
  | 15 => ⟨S_, .f32⟩
  | 16 => ⟨S3000000, .f32⟩
  | 17 => ⟨S3000000, .f32⟩
  | 18 => ⟨S_, .i32⟩
  | 19 => ⟨S3000000, .i32⟩
  | 20 => ⟨S3000000, .i1⟩
  | 21 => ⟨S_, .i32⟩
  | 22 => ⟨S3000000, .i32⟩
  | 23 => ⟨S3000000, .i32⟩
  | 24 => ⟨S3000000, .i32⟩
  | 25 => ⟨S3000000x1, .i32⟩
  | 26 => ⟨S1048576, .f32⟩
  | 27 => ⟨S_, .i32⟩
  | 28 => ⟨S3000000, .i32⟩
  | 29 => ⟨S3000000, .i32⟩
  | 30 => ⟨S3000000, .f32⟩
  | 31 => ⟨S_, .f32⟩
  | 32 => ⟨S3000000, .f32⟩
  | 33 => ⟨S3000000, .f32⟩
  | 34 => ⟨S_, .f32⟩
  | 35 => ⟨S3000000, .f32⟩
  | 36 => ⟨S3000000, .f32⟩
  | 37 => ⟨S_, .f32⟩
  | 38 => ⟨S3000000, .f32⟩
  | 39 => ⟨S3000000, .f32⟩
  | 40 => ⟨S3000000, .f32⟩
  | 41 => ⟨S3000000, .f32⟩
  | 42 => ⟨S3000000, .f32⟩
  | 43 => ⟨S_, .f32⟩
  | 44 => ⟨S_, .f32⟩
  | 45 => ⟨S3000000, .f32⟩
  | 46 => ⟨S3000000, .f32⟩
  | 47 => ⟨S_, .i32⟩
  | 48 => ⟨S3000000, .i32⟩
  | 49 => ⟨S3000000, .i1⟩
  | 50 => ⟨S_, .i32⟩
  | 51 => ⟨S3000000, .i32⟩
  | 52 => ⟨S3000000, .i32⟩
  | 53 => ⟨S3000000, .f32⟩
  | 54 => ⟨S_, .f32⟩
  | 55 => ⟨S3000000, .f32⟩
  | 56 => ⟨S3000000, .f32⟩
  | 57 => ⟨S_, .f32⟩
  | 58 => ⟨S3000000, .f32⟩
  | 59 => ⟨S3000000, .f32⟩
  | 60 => ⟨S_, .f32⟩
  | 61 => ⟨S3000000, .f32⟩
  | 62 => ⟨S3000000, .f32⟩
  | 63 => ⟨S3000000, .f32⟩
  | 64 => ⟨S3000000, .f32⟩
  | 65 => ⟨S3000000, .f32⟩
  | 66 => ⟨S_, .f32⟩
  | 67 => ⟨S_, .f32⟩
  | 68 => ⟨S3000000, .f32⟩
  | 69 => ⟨S3000000, .f32⟩
  | 70 => ⟨S_, .i32⟩
  | 71 => ⟨S3000000, .i32⟩
  | 72 => ⟨S3000000, .i1⟩
  | 73 => ⟨S3000000, .i1⟩
  | 74 => ⟨S_, .i32⟩
  | 75 => ⟨S3000000, .i32⟩
  | 76 => ⟨S3000000, .i32⟩
  | 77 => ⟨S3000000, .i32⟩
  | 78 => ⟨S_, .i32⟩
  | 79 => ⟨S_, .i32⟩
  | 80 => ⟨S3000000, .i32⟩
  | 81 => ⟨S3000000, .i32⟩
  | 82 => ⟨S3000000, .f32⟩
  | 83 => ⟨S3000000, .f32⟩
  | 84 => ⟨S_, .f32⟩
  | 85 => ⟨S_, .f32⟩
  | 86 => ⟨S3000000, .f32⟩
  | 87 => ⟨S3000000, .f32⟩
  | 88 => ⟨S_, .i32⟩
  | 89 => ⟨S3000000, .i32⟩
  | 90 => ⟨S3000000, .i1⟩
  | 91 => ⟨S_, .i32⟩
  | 92 => ⟨S3000000, .i32⟩
  | 93 => ⟨S3000000, .i32⟩
  | 94 => ⟨S3000000, .i32⟩
  | 95 => ⟨S3000000x1, .i32⟩
  | 96 => ⟨S1048576, .f32⟩
  | 97 => ⟨S_, .i32⟩
  | 98 => ⟨S3000000, .i32⟩
  | 99 => ⟨S3000000, .i32⟩
  | 100 => ⟨S3000000, .f32⟩
  | 101 => ⟨S_, .f32⟩
  | 102 => ⟨S3000000, .f32⟩
  | 103 => ⟨S3000000, .f32⟩
  | 104 => ⟨S_, .f32⟩
  | 105 => ⟨S3000000, .f32⟩
  | 106 => ⟨S3000000, .f32⟩
  | 107 => ⟨S_, .f32⟩
  | 108 => ⟨S3000000, .f32⟩
  | 109 => ⟨S3000000, .f32⟩
  | 110 => ⟨S3000000, .f32⟩
  | 111 => ⟨S3000000, .f32⟩
  | 112 => ⟨S3000000, .f32⟩
  | 113 => ⟨S_, .f32⟩
  | 114 => ⟨S_, .f32⟩
  | 115 => ⟨S3000000, .f32⟩
  | 116 => ⟨S3000000, .f32⟩
  | 117 => ⟨S_, .i32⟩
  | 118 => ⟨S3000000, .i32⟩
  | 119 => ⟨S3000000, .i1⟩
  | 120 => ⟨S3000000, .i1⟩
  | 121 => ⟨S_, .i32⟩
  | 122 => ⟨S3000000, .i32⟩
  | 123 => ⟨S3000000, .i32⟩
  | 124 => ⟨S3000000, .i32⟩
  | 125 => ⟨S_, .i32⟩
  | 126 => ⟨S_, .i32⟩
  | 127 => ⟨S3000000, .i32⟩
  | _ => ⟨S8000000, .f32⟩

abbrev hbmTy0_3 (i : Nat) : BufTy := match i % 128 with
  | 0 => ⟨S3000000, .i32⟩
  | 1 => ⟨S3000000, .f32⟩
  | 2 => ⟨S3000000, .f32⟩
  | 3 => ⟨S_, .f32⟩
  | 4 => ⟨S_, .f32⟩
  | 5 => ⟨S3000000, .f32⟩
  | 6 => ⟨S3000000, .f32⟩
  | 7 => ⟨S_, .i32⟩
  | 8 => ⟨S3000000, .i32⟩
  | 9 => ⟨S3000000, .i1⟩
  | 10 => ⟨S_, .i32⟩
  | 11 => ⟨S3000000, .i32⟩
  | 12 => ⟨S3000000, .i32⟩
  | 13 => ⟨S3000000, .i32⟩
  | 14 => ⟨S3000000x1, .i32⟩
  | 15 => ⟨S1048576, .f32⟩
  | 16 => ⟨S_, .i32⟩
  | 17 => ⟨S3000000, .i32⟩
  | 18 => ⟨S3000000, .i32⟩
  | 19 => ⟨S3000000, .f32⟩
  | 20 => ⟨S_, .f32⟩
  | 21 => ⟨S3000000, .f32⟩
  | 22 => ⟨S3000000, .f32⟩
  | 23 => ⟨S_, .f32⟩
  | 24 => ⟨S3000000, .f32⟩
  | 25 => ⟨S3000000, .f32⟩
  | 26 => ⟨S_, .f32⟩
  | 27 => ⟨S3000000, .f32⟩
  | 28 => ⟨S3000000, .f32⟩
  | 29 => ⟨S3000000, .f32⟩
  | 30 => ⟨S3000000, .f32⟩
  | 31 => ⟨S3000000, .f32⟩
  | 32 => ⟨S_, .f32⟩
  | 33 => ⟨S_, .f32⟩
  | 34 => ⟨S3000000, .f32⟩
  | 35 => ⟨S3000000, .f32⟩
  | 36 => ⟨S_, .i32⟩
  | 37 => ⟨S3000000, .i32⟩
  | 38 => ⟨S3000000, .i1⟩
  | 39 => ⟨S3000000, .i1⟩
  | 40 => ⟨S_, .i32⟩
  | 41 => ⟨S3000000, .i32⟩
  | 42 => ⟨S3000000, .i32⟩
  | 43 => ⟨S3000000, .i32⟩
  | 44 => ⟨S_, .i32⟩
  | 45 => ⟨S_, .i32⟩
  | 46 => ⟨S3000000, .i32⟩
  | 47 => ⟨S3000000, .i32⟩
  | 48 => ⟨S3000000, .f32⟩
  | 49 => ⟨S3000000, .f32⟩
  | 50 => ⟨S_, .f32⟩
  | 51 => ⟨S_, .f32⟩
  | 52 => ⟨S3000000, .f32⟩
  | 53 => ⟨S3000000, .f32⟩
  | 54 => ⟨S_, .i32⟩
  | 55 => ⟨S3000000, .i32⟩
  | 56 => ⟨S3000000, .i1⟩
  | 57 => ⟨S_, .i32⟩
  | 58 => ⟨S3000000, .i32⟩
  | 59 => ⟨S3000000, .i32⟩
  | 60 => ⟨S3000000, .i32⟩
  | 61 => ⟨S3000000x1, .i32⟩
  | 62 => ⟨S1048576, .f32⟩
  | 63 => ⟨S_, .i32⟩
  | 64 => ⟨S3000000, .i32⟩
  | 65 => ⟨S3000000, .i32⟩
  | 66 => ⟨S3000000, .f32⟩
  | 67 => ⟨S_, .f32⟩
  | 68 => ⟨S3000000, .f32⟩
  | 69 => ⟨S3000000, .f32⟩
  | 70 => ⟨S_, .f32⟩
  | 71 => ⟨S3000000, .f32⟩
  | 72 => ⟨S3000000, .f32⟩
  | 73 => ⟨S_, .f32⟩
  | 74 => ⟨S3000000, .f32⟩
  | 75 => ⟨S3000000, .f32⟩
  | 76 => ⟨S3000000, .f32⟩
  | 77 => ⟨S3000000, .f32⟩
  | 78 => ⟨S3000000, .f32⟩
  | 79 => ⟨S_, .f32⟩
  | 80 => ⟨S_, .f32⟩
  | 81 => ⟨S3000000, .f32⟩
  | 82 => ⟨S3000000, .f32⟩
  | 83 => ⟨S_, .i32⟩
  | 84 => ⟨S3000000, .i32⟩
  | 85 => ⟨S3000000, .i1⟩
  | 86 => ⟨S3000000, .i1⟩
  | 87 => ⟨S_, .i32⟩
  | 88 => ⟨S3000000, .i32⟩
  | 89 => ⟨S3000000, .i32⟩
  | 90 => ⟨S3000000, .i32⟩
  | 91 => ⟨S_, .i32⟩
  | 92 => ⟨S_, .i32⟩
  | 93 => ⟨S3000000, .i32⟩
  | 94 => ⟨S3000000, .i32⟩
  | 95 => ⟨S3000000, .f32⟩
  | 96 => ⟨S3000000, .f32⟩
  | 97 => ⟨S_, .f32⟩
  | 98 => ⟨S_, .f32⟩
  | 99 => ⟨S3000000, .f32⟩
  | 100 => ⟨S3000000, .f32⟩
  | 101 => ⟨S_, .i32⟩
  | 102 => ⟨S3000000, .i32⟩
  | 103 => ⟨S3000000, .i1⟩
  | 104 => ⟨S_, .i32⟩
  | 105 => ⟨S3000000, .i32⟩
  | 106 => ⟨S3000000, .i32⟩
  | 107 => ⟨S3000000, .i32⟩
  | 108 => ⟨S3000000x1, .i32⟩
  | 109 => ⟨S1048576, .f32⟩
  | 110 => ⟨S_, .i32⟩
  | 111 => ⟨S3000000, .i32⟩
  | 112 => ⟨S3000000, .i32⟩
  | 113 => ⟨S3000000, .f32⟩
  | 114 => ⟨S_, .f32⟩
  | 115 => ⟨S3000000, .f32⟩
  | 116 => ⟨S3000000, .f32⟩
  | 117 => ⟨S_, .f32⟩
  | 118 => ⟨S3000000, .f32⟩
  | 119 => ⟨S3000000, .f32⟩
  | 120 => ⟨S_, .f32⟩
  | 121 => ⟨S3000000, .f32⟩
  | 122 => ⟨S3000000, .f32⟩
  | 123 => ⟨S3000000, .f32⟩
  | 124 => ⟨S3000000, .f32⟩
  | 125 => ⟨S3000000, .f32⟩
  | 126 => ⟨S_, .f32⟩
  | 127 => ⟨S_, .f32⟩
  | _ => ⟨S8000000, .f32⟩

abbrev hbmTy0_4 (i : Nat) : BufTy := match i % 128 with
  | 0 => ⟨S3000000, .f32⟩
  | 1 => ⟨S3000000, .f32⟩
  | 2 => ⟨S_, .i32⟩
  | 3 => ⟨S3000000, .i32⟩
  | 4 => ⟨S3000000, .i1⟩
  | 5 => ⟨S_, .i32⟩
  | 6 => ⟨S3000000, .i32⟩
  | 7 => ⟨S3000000, .i32⟩
  | 8 => ⟨S3000000, .f32⟩
  | 9 => ⟨S_, .f32⟩
  | 10 => ⟨S3000000, .f32⟩
  | 11 => ⟨S3000000, .f32⟩
  | 12 => ⟨S_, .f32⟩
  | 13 => ⟨S3000000, .f32⟩
  | 14 => ⟨S3000000, .f32⟩
  | 15 => ⟨S_, .f32⟩
  | 16 => ⟨S3000000, .f32⟩
  | 17 => ⟨S3000000, .f32⟩
  | 18 => ⟨S3000000, .f32⟩
  | 19 => ⟨S3000000, .f32⟩
  | 20 => ⟨S3000000, .f32⟩
  | 21 => ⟨S_, .f32⟩
  | 22 => ⟨S_, .f32⟩
  | 23 => ⟨S3000000, .f32⟩
  | 24 => ⟨S3000000, .f32⟩
  | 25 => ⟨S_, .i32⟩
  | 26 => ⟨S3000000, .i32⟩
  | 27 => ⟨S3000000, .i1⟩
  | 28 => ⟨S3000000, .i1⟩
  | 29 => ⟨S_, .i32⟩
  | 30 => ⟨S3000000, .i32⟩
  | 31 => ⟨S3000000, .i32⟩
  | 32 => ⟨S3000000, .i32⟩
  | 33 => ⟨S_, .i32⟩
  | 34 => ⟨S_, .i32⟩
  | 35 => ⟨S3000000, .i32⟩
  | 36 => ⟨S3000000, .i32⟩
  | 37 => ⟨S3000000, .f32⟩
  | 38 => ⟨S3000000, .f32⟩
  | 39 => ⟨S_, .f32⟩
  | 40 => ⟨S_, .f32⟩
  | 41 => ⟨S3000000, .f32⟩
  | 42 => ⟨S3000000, .f32⟩
  | 43 => ⟨S_, .i32⟩
  | 44 => ⟨S3000000, .i32⟩
  | 45 => ⟨S3000000, .i1⟩
  | 46 => ⟨S_, .i32⟩
  | 47 => ⟨S3000000, .i32⟩
  | 48 => ⟨S3000000, .i32⟩
  | 49 => ⟨S3000000, .i32⟩
  | 50 => ⟨S3000000x1, .i32⟩
  | 51 => ⟨S1048576, .f32⟩
  | 52 => ⟨S_, .i32⟩
  | 53 => ⟨S3000000, .i32⟩
  | 54 => ⟨S3000000, .i32⟩
  | 55 => ⟨S3000000, .f32⟩
  | 56 => ⟨S_, .f32⟩
  | 57 => ⟨S3000000, .f32⟩
  | 58 => ⟨S3000000, .f32⟩
  | 59 => ⟨S_, .f32⟩
  | 60 => ⟨S3000000, .f32⟩
  | 61 => ⟨S3000000, .f32⟩
  | 62 => ⟨S_, .f32⟩
  | 63 => ⟨S3000000, .f32⟩
  | 64 => ⟨S3000000, .f32⟩
  | 65 => ⟨S3000000, .f32⟩
  | 66 => ⟨S3000000, .f32⟩
  | 67 => ⟨S3000000, .f32⟩
  | 68 => ⟨S_, .f32⟩
  | 69 => ⟨S_, .f32⟩
  | 70 => ⟨S3000000, .f32⟩
  | 71 => ⟨S3000000, .f32⟩
  | 72 => ⟨S_, .i32⟩
  | 73 => ⟨S3000000, .i32⟩
  | 74 => ⟨S3000000, .i1⟩
  | 75 => ⟨S3000000, .i1⟩
  | 76 => ⟨S_, .i32⟩
  | 77 => ⟨S3000000, .i32⟩
  | 78 => ⟨S3000000, .i32⟩
  | 79 => ⟨S3000000, .i32⟩
  | 80 => ⟨S_, .i32⟩
  | 81 => ⟨S_, .i32⟩
  | 82 => ⟨S3000000, .i32⟩
  | 83 => ⟨S3000000, .i32⟩
  | 84 => ⟨S3000000, .f32⟩
  | 85 => ⟨S3000000, .f32⟩
  | 86 => ⟨S_, .f32⟩
  | 87 => ⟨S_, .f32⟩
  | 88 => ⟨S3000000, .f32⟩
  | 89 => ⟨S3000000, .f32⟩
  | 90 => ⟨S_, .i32⟩
  | 91 => ⟨S3000000, .i32⟩
  | 92 => ⟨S3000000, .i1⟩
  | 93 => ⟨S_, .i32⟩
  | 94 => ⟨S3000000, .i32⟩
  | 95 => ⟨S3000000, .i32⟩
  | 96 => ⟨S3000000, .i32⟩
  | 97 => ⟨S3000000x1, .i32⟩
  | 98 => ⟨S1048576, .f32⟩
  | 99 => ⟨S_, .i32⟩
  | 100 => ⟨S3000000, .i32⟩
  | 101 => ⟨S3000000, .i32⟩
  | 102 => ⟨S3000000, .f32⟩
  | 103 => ⟨S_, .f32⟩
  | 104 => ⟨S3000000, .f32⟩
  | 105 => ⟨S3000000, .f32⟩
  | 106 => ⟨S_, .f32⟩
  | 107 => ⟨S3000000, .f32⟩
  | 108 => ⟨S3000000, .f32⟩
  | 109 => ⟨S_, .f32⟩
  | 110 => ⟨S3000000, .f32⟩
  | 111 => ⟨S3000000, .f32⟩
  | 112 => ⟨S3000000, .f32⟩
  | 113 => ⟨S3000000, .f32⟩
  | 114 => ⟨S3000000, .f32⟩
  | 115 => ⟨S_, .f32⟩
  | 116 => ⟨S_, .f32⟩
  | 117 => ⟨S3000000, .f32⟩
  | 118 => ⟨S3000000, .f32⟩
  | 119 => ⟨S_, .i32⟩
  | 120 => ⟨S3000000, .i32⟩
  | 121 => ⟨S3000000, .i1⟩
  | 122 => ⟨S3000000, .i1⟩
  | 123 => ⟨S_, .i32⟩
  | 124 => ⟨S3000000, .i32⟩
  | 125 => ⟨S3000000, .i32⟩
  | 126 => ⟨S3000000, .i32⟩
  | 127 => ⟨S_, .i32⟩
  | _ => ⟨S8000000, .f32⟩

abbrev hbmTy0_5 (i : Nat) : BufTy := match i % 128 with
  | 0 => ⟨S_, .i32⟩
  | 1 => ⟨S3000000, .i32⟩
  | 2 => ⟨S3000000, .i32⟩
  | 3 => ⟨S3000000, .f32⟩
  | 4 => ⟨S3000000, .f32⟩
  | 5 => ⟨S_, .f32⟩
  | 6 => ⟨S_, .f32⟩
  | 7 => ⟨S3000000, .f32⟩
  | 8 => ⟨S3000000, .f32⟩
  | 9 => ⟨S_, .i32⟩
  | 10 => ⟨S3000000, .i32⟩
  | 11 => ⟨S3000000, .i1⟩
  | 12 => ⟨S_, .i32⟩
  | 13 => ⟨S3000000, .i32⟩
  | 14 => ⟨S3000000, .i32⟩
  | 15 => ⟨S3000000, .i32⟩
  | 16 => ⟨S3000000x1, .i32⟩
  | 17 => ⟨S1048576, .f32⟩
  | 18 => ⟨S_, .i32⟩
  | 19 => ⟨S3000000, .i32⟩
  | 20 => ⟨S3000000, .i32⟩
  | 21 => ⟨S3000000, .f32⟩
  | 22 => ⟨S_, .f32⟩
  | 23 => ⟨S3000000, .f32⟩
  | 24 => ⟨S3000000, .f32⟩
  | 25 => ⟨S_, .f32⟩
  | 26 => ⟨S3000000, .f32⟩
  | 27 => ⟨S3000000, .f32⟩
  | 28 => ⟨S_, .f32⟩
  | 29 => ⟨S3000000, .f32⟩
  | 30 => ⟨S3000000, .f32⟩
  | 31 => ⟨S3000000, .f32⟩
  | 32 => ⟨S3000000, .f32⟩
  | 33 => ⟨S3000000, .f32⟩
  | 34 => ⟨S_, .f32⟩
  | 35 => ⟨S_, .f32⟩
  | 36 => ⟨S3000000, .f32⟩
  | 37 => ⟨S3000000, .f32⟩
  | 38 => ⟨S_, .i32⟩
  | 39 => ⟨S3000000, .i32⟩
  | 40 => ⟨S3000000, .i1⟩
  | 41 => ⟨S3000000, .i1⟩
  | 42 => ⟨S_, .i32⟩
  | 43 => ⟨S3000000, .i32⟩
  | 44 => ⟨S3000000, .i32⟩
  | 45 => ⟨S3000000, .i32⟩
  | 46 => ⟨S_, .i32⟩
  | 47 => ⟨S_, .i32⟩
  | 48 => ⟨S3000000, .i32⟩
  | 49 => ⟨S3000000, .i32⟩
  | 50 => ⟨S3000000, .f32⟩
  | 51 => ⟨S3000000, .f32⟩
  | 52 => ⟨S_, .f32⟩
  | 53 => ⟨S_, .f32⟩
  | 54 => ⟨S3000000, .f32⟩
  | 55 => ⟨S3000000, .f32⟩
  | 56 => ⟨S_, .i32⟩
  | 57 => ⟨S3000000, .i32⟩
  | 58 => ⟨S3000000, .i1⟩
  | 59 => ⟨S_, .i32⟩
  | 60 => ⟨S3000000, .i32⟩
  | 61 => ⟨S3000000, .i32⟩
  | 62 => ⟨S3000000, .i32⟩
  | 63 => ⟨S3000000x1, .i32⟩
  | 64 => ⟨S1048576, .f32⟩
  | 65 => ⟨S_, .i32⟩
  | 66 => ⟨S3000000, .i32⟩
  | 67 => ⟨S3000000, .i32⟩
  | 68 => ⟨S3000000, .f32⟩
  | 69 => ⟨S_, .f32⟩
  | 70 => ⟨S3000000, .f32⟩
  | 71 => ⟨S3000000, .f32⟩
  | 72 => ⟨S_, .f32⟩
  | 73 => ⟨S3000000, .f32⟩
  | 74 => ⟨S3000000, .f32⟩
  | 75 => ⟨S_, .f32⟩
  | 76 => ⟨S3000000, .f32⟩
  | 77 => ⟨S3000000, .f32⟩
  | 78 => ⟨S3000000, .f32⟩
  | 79 => ⟨S3000000, .f32⟩
  | 80 => ⟨S3000000, .f32⟩
  | 81 => ⟨S_, .f32⟩
  | 82 => ⟨S_, .f32⟩
  | 83 => ⟨S3000000, .f32⟩
  | 84 => ⟨S3000000, .f32⟩
  | 85 => ⟨S_, .i32⟩
  | 86 => ⟨S3000000, .i32⟩
  | 87 => ⟨S3000000, .i1⟩
  | 88 => ⟨S_, .i32⟩
  | 89 => ⟨S3000000, .i32⟩
  | 90 => ⟨S3000000, .i32⟩
  | 91 => ⟨S3000000, .f32⟩
  | 92 => ⟨S_, .f32⟩
  | 93 => ⟨S3000000, .f32⟩
  | 94 => ⟨S3000000, .f32⟩
  | 95 => ⟨S_, .f32⟩
  | 96 => ⟨S3000000, .f32⟩
  | 97 => ⟨S3000000, .f32⟩
  | 98 => ⟨S_, .f32⟩
  | 99 => ⟨S3000000, .f32⟩
  | 100 => ⟨S3000000, .f32⟩
  | 101 => ⟨S3000000, .f32⟩
  | 102 => ⟨S3000000, .f32⟩
  | 103 => ⟨S3000000, .f32⟩
  | 104 => ⟨S_, .f32⟩
  | 105 => ⟨S_, .f32⟩
  | 106 => ⟨S3000000, .f32⟩
  | 107 => ⟨S3000000, .f32⟩
  | 108 => ⟨S_, .i32⟩
  | 109 => ⟨S3000000, .i32⟩
  | 110 => ⟨S3000000, .i1⟩
  | 111 => ⟨S3000000, .i1⟩
  | 112 => ⟨S_, .i32⟩
  | 113 => ⟨S3000000, .i32⟩
  | 114 => ⟨S3000000, .i32⟩
  | 115 => ⟨S3000000, .i32⟩
  | 116 => ⟨S_, .i32⟩
  | 117 => ⟨S_, .i32⟩
  | 118 => ⟨S3000000, .i32⟩
  | 119 => ⟨S3000000, .i32⟩
  | 120 => ⟨S3000000, .f32⟩
  | 121 => ⟨S3000000, .f32⟩
  | 122 => ⟨S_, .f32⟩
  | 123 => ⟨S_, .f32⟩
  | 124 => ⟨S3000000, .f32⟩
  | 125 => ⟨S3000000, .f32⟩
  | 126 => ⟨S_, .i32⟩
  | 127 => ⟨S3000000, .i32⟩
  | _ => ⟨S8000000, .f32⟩

abbrev hbmTy0_6 (i : Nat) : BufTy := match i % 128 with
  | 0 => ⟨S3000000, .i1⟩
  | 1 => ⟨S_, .i32⟩
  | 2 => ⟨S3000000, .i32⟩
  | 3 => ⟨S3000000, .i32⟩
  | 4 => ⟨S3000000, .i32⟩
  | 5 => ⟨S3000000x1, .i32⟩
  | 6 => ⟨S1048576, .f32⟩
  | 7 => ⟨S_, .i32⟩
  | 8 => ⟨S3000000, .i32⟩
  | 9 => ⟨S3000000, .i32⟩
  | 10 => ⟨S3000000, .f32⟩
  | 11 => ⟨S_, .f32⟩
  | 12 => ⟨S3000000, .f32⟩
  | 13 => ⟨S3000000, .f32⟩
  | 14 => ⟨S_, .f32⟩
  | 15 => ⟨S3000000, .f32⟩
  | 16 => ⟨S3000000, .f32⟩
  | 17 => ⟨S_, .f32⟩
  | 18 => ⟨S3000000, .f32⟩
  | 19 => ⟨S3000000, .f32⟩
  | 20 => ⟨S3000000, .f32⟩
  | 21 => ⟨S3000000, .f32⟩
  | 22 => ⟨S3000000, .f32⟩
  | 23 => ⟨S_, .f32⟩
  | 24 => ⟨S_, .f32⟩
  | 25 => ⟨S3000000, .f32⟩
  | 26 => ⟨S3000000, .f32⟩
  | 27 => ⟨S_, .i32⟩
  | 28 => ⟨S3000000, .i32⟩
  | 29 => ⟨S3000000, .i1⟩
  | 30 => ⟨S3000000, .i1⟩
  | 31 => ⟨S_, .i32⟩
  | 32 => ⟨S3000000, .i32⟩
  | 33 => ⟨S3000000, .i32⟩
  | 34 => ⟨S3000000, .i32⟩
  | 35 => ⟨S_, .i32⟩
  | 36 => ⟨S_, .i32⟩
  | 37 => ⟨S3000000, .i32⟩
  | 38 => ⟨S3000000, .i32⟩
  | 39 => ⟨S3000000, .f32⟩
  | 40 => ⟨S3000000, .f32⟩
  | 41 => ⟨S_, .f32⟩
  | 42 => ⟨S_, .f32⟩
  | 43 => ⟨S3000000, .f32⟩
  | 44 => ⟨S3000000, .f32⟩
  | 45 => ⟨S_, .i32⟩
  | 46 => ⟨S3000000, .i32⟩
  | 47 => ⟨S3000000, .i1⟩
  | 48 => ⟨S_, .i32⟩
  | 49 => ⟨S3000000, .i32⟩
  | 50 => ⟨S3000000, .i32⟩
  | 51 => ⟨S3000000, .i32⟩
  | 52 => ⟨S3000000x1, .i32⟩
  | 53 => ⟨S1048576, .f32⟩
  | 54 => ⟨S_, .i32⟩
  | 55 => ⟨S3000000, .i32⟩
  | 56 => ⟨S3000000, .i32⟩
  | 57 => ⟨S3000000, .f32⟩
  | 58 => ⟨S_, .f32⟩
  | 59 => ⟨S3000000, .f32⟩
  | 60 => ⟨S3000000, .f32⟩
  | 61 => ⟨S_, .f32⟩
  | 62 => ⟨S3000000, .f32⟩
  | 63 => ⟨S3000000, .f32⟩
  | 64 => ⟨S_, .f32⟩
  | 65 => ⟨S3000000, .f32⟩
  | 66 => ⟨S3000000, .f32⟩
  | 67 => ⟨S3000000, .f32⟩
  | 68 => ⟨S3000000, .f32⟩
  | 69 => ⟨S3000000, .f32⟩
  | 70 => ⟨S_, .f32⟩
  | 71 => ⟨S_, .f32⟩
  | 72 => ⟨S3000000, .f32⟩
  | 73 => ⟨S3000000, .f32⟩
  | 74 => ⟨S_, .i32⟩
  | 75 => ⟨S3000000, .i32⟩
  | 76 => ⟨S3000000, .i1⟩
  | 77 => ⟨S3000000, .i1⟩
  | 78 => ⟨S_, .i32⟩
  | 79 => ⟨S3000000, .i32⟩
  | 80 => ⟨S3000000, .i32⟩
  | 81 => ⟨S3000000, .i32⟩
  | 82 => ⟨S_, .i32⟩
  | 83 => ⟨S_, .i32⟩
  | 84 => ⟨S3000000, .i32⟩
  | 85 => ⟨S3000000, .i32⟩
  | 86 => ⟨S3000000, .f32⟩
  | 87 => ⟨S3000000, .f32⟩
  | 88 => ⟨S_, .f32⟩
  | 89 => ⟨S_, .f32⟩
  | 90 => ⟨S3000000, .f32⟩
  | 91 => ⟨S3000000, .f32⟩
  | 92 => ⟨S_, .i32⟩
  | 93 => ⟨S3000000, .i32⟩
  | 94 => ⟨S3000000, .i1⟩
  | 95 => ⟨S_, .i32⟩
  | 96 => ⟨S3000000, .i32⟩
  | 97 => ⟨S3000000, .i32⟩
  | 98 => ⟨S3000000, .i32⟩
  | 99 => ⟨S3000000x1, .i32⟩
  | 100 => ⟨S1048576, .f32⟩
  | 101 => ⟨S_, .i32⟩
  | 102 => ⟨S3000000, .i32⟩
  | 103 => ⟨S3000000, .i32⟩
  | 104 => ⟨S3000000, .f32⟩
  | 105 => ⟨S_, .f32⟩
  | 106 => ⟨S3000000, .f32⟩
  | 107 => ⟨S3000000, .f32⟩
  | 108 => ⟨S_, .f32⟩
  | 109 => ⟨S3000000, .f32⟩
  | 110 => ⟨S3000000, .f32⟩
  | 111 => ⟨S_, .f32⟩
  | 112 => ⟨S3000000, .f32⟩
  | 113 => ⟨S3000000, .f32⟩
  | 114 => ⟨S3000000, .f32⟩
  | 115 => ⟨S3000000, .f32⟩
  | 116 => ⟨S3000000, .f32⟩
  | 117 => ⟨S_, .f32⟩
  | 118 => ⟨S_, .f32⟩
  | 119 => ⟨S3000000, .f32⟩
  | 120 => ⟨S3000000, .f32⟩
  | 121 => ⟨S_, .i32⟩
  | 122 => ⟨S3000000, .i32⟩
  | 123 => ⟨S3000000, .i1⟩
  | 124 => ⟨S3000000, .i1⟩
  | 125 => ⟨S_, .i32⟩
  | 126 => ⟨S3000000, .i32⟩
  | 127 => ⟨S3000000, .i32⟩
  | _ => ⟨S8000000, .f32⟩

abbrev hbmTy0_7 (i : Nat) : BufTy := match i % 128 with
  | 0 => ⟨S3000000, .i32⟩
  | 1 => ⟨S_, .i32⟩
  | 2 => ⟨S_, .i32⟩
  | 3 => ⟨S3000000, .i32⟩
  | 4 => ⟨S3000000, .i32⟩
  | 5 => ⟨S3000000, .f32⟩
  | 6 => ⟨S3000000, .f32⟩
  | 7 => ⟨S_, .f32⟩
  | 8 => ⟨S_, .f32⟩
  | 9 => ⟨S3000000, .f32⟩
  | 10 => ⟨S3000000, .f32⟩
  | 11 => ⟨S_, .i32⟩
  | 12 => ⟨S3000000, .i32⟩
  | 13 => ⟨S3000000, .i1⟩
  | 14 => ⟨S_, .i32⟩
  | 15 => ⟨S3000000, .i32⟩
  | 16 => ⟨S3000000, .i32⟩
  | 17 => ⟨S3000000, .i32⟩
  | 18 => ⟨S3000000x1, .i32⟩
  | 19 => ⟨S1048576, .f32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S_, .f32⟩
  | 27 => ⟨S_, .f32⟩
  | 28 => ⟨S_, .f32⟩
  | 29 => ⟨S1048576, .f32⟩
  | 30 => ⟨S1048576, .f32⟩
  | 31 => ⟨S_, .f32⟩
  | 32 => ⟨S1048576, .f32⟩
  | 33 => ⟨S1048576, .f32⟩
  | 34 => ⟨S2500000, .f32⟩
  | 35 => ⟨S2500000, .f32⟩
  | 36 => ⟨S2500000, .f32⟩
  | 37 => ⟨S2500000, .f32⟩
  | 38 => ⟨S_, .f32⟩
  | 39 => ⟨S2500000, .f32⟩
  | 40 => ⟨S2500000, .f32⟩
  | 41 => ⟨S_, .f32⟩
  | 42 => ⟨S2500000, .f32⟩
  | 43 => ⟨S2500000, .f32⟩
  | 44 => ⟨S2500000, .f32⟩
  | 45 => ⟨S2500000, .i32⟩
  | 46 => ⟨S_, .i32⟩
  | 47 => ⟨S_, .i32⟩
  | 48 => ⟨S_, .i32⟩
  | 49 => ⟨S2500000, .i32⟩
  | 50 => ⟨S2500000, .i32⟩
  | 51 => ⟨S_, .i32⟩
  | 52 => ⟨S2500000, .i32⟩
  | 53 => ⟨S2500000, .i32⟩
  | 54 => ⟨S_, .f32⟩
  | 55 => ⟨S2500000, .f32⟩
  | 56 => ⟨S2500000, .f32⟩
  | 57 => ⟨S_, .f32⟩
  | 58 => ⟨S2500000, .f32⟩
  | 59 => ⟨S2500000, .f32⟩
  | 60 => ⟨S2500000, .f32⟩
  | 61 => ⟨S2500000, .i32⟩
  | 62 => ⟨S_, .i32⟩
  | 63 => ⟨S_, .i32⟩
  | 64 => ⟨S_, .i32⟩
  | 65 => ⟨S2500000, .i32⟩
  | 66 => ⟨S2500000, .i32⟩
  | 67 => ⟨S_, .i32⟩
  | 68 => ⟨S2500000, .i32⟩
  | 69 => ⟨S2500000, .i32⟩
  | 70 => ⟨S_, .f32⟩
  | 71 => ⟨S2500000, .f32⟩
  | 72 => ⟨S_, .i32⟩
  | 73 => ⟨S2500000, .i32⟩
  | 74 => ⟨S2500000, .i32⟩
  | 75 => ⟨S2500000, .f32⟩
  | 76 => ⟨S2500000, .f32⟩
  | 77 => ⟨S_, .f32⟩
  | 78 => ⟨S2500000, .f32⟩
  | 79 => ⟨S2500000, .f32⟩
  | 80 => ⟨S_, .f32⟩
  | 81 => ⟨S2500000, .f32⟩
  | 82 => ⟨S2500000, .f32⟩
  | 83 => ⟨S_, .f32⟩
  | 84 => ⟨S2500000, .f32⟩
  | 85 => ⟨S2500000, .f32⟩
  | 86 => ⟨S2500000, .f32⟩
  | 87 => ⟨S2500000, .f32⟩
  | 88 => ⟨S2500000, .f32⟩
  | 89 => ⟨S_, .f32⟩
  | 90 => ⟨S_, .f32⟩
  | 91 => ⟨S2500000, .f32⟩
  | 92 => ⟨S2500000, .f32⟩
  | 93 => ⟨S_, .i32⟩
  | 94 => ⟨S2500000, .i32⟩
  | 95 => ⟨S2500000, .i1⟩
  | 96 => ⟨S_, .i32⟩
  | 97 => ⟨S2500000, .i32⟩
  | 98 => ⟨S2500000, .i32⟩
  | 99 => ⟨S2500000, .f32⟩
  | 100 => ⟨S2500000, .f32⟩
  | 101 => ⟨S_, .f32⟩
  | 102 => ⟨S2500000, .f32⟩
  | 103 => ⟨S2500000, .f32⟩
  | 104 => ⟨S_, .f32⟩
  | 105 => ⟨S2500000, .f32⟩
  | 106 => ⟨S2500000, .f32⟩
  | 107 => ⟨S_, .f32⟩
  | 108 => ⟨S2500000, .f32⟩
  | 109 => ⟨S2500000, .f32⟩
  | 110 => ⟨S2500000, .f32⟩
  | 111 => ⟨S2500000, .f32⟩
  | 112 => ⟨S2500000, .f32⟩
  | 113 => ⟨S_, .f32⟩
  | 114 => ⟨S_, .f32⟩
  | 115 => ⟨S2500000, .f32⟩
  | 116 => ⟨S2500000, .f32⟩
  | 117 => ⟨S_, .i32⟩
  | 118 => ⟨S2500000, .i32⟩
  | 119 => ⟨S2500000, .i1⟩
  | 120 => ⟨S2500000, .i1⟩
  | 121 => ⟨S_, .i32⟩
  | 122 => ⟨S2500000, .i32⟩
  | 123 => ⟨S2500000, .i32⟩
  | 124 => ⟨S2500000, .i32⟩
  | 125 => ⟨S_, .i32⟩
  | 126 => ⟨S_, .i32⟩
  | 127 => ⟨S2500000, .i32⟩
  | _ => ⟨S8000000, .f32⟩

abbrev hbmTy0_8 (i : Nat) : BufTy := match i % 128 with
  | 0 => ⟨S2500000, .i32⟩
  | 1 => ⟨S2500000, .f32⟩
  | 2 => ⟨S_, .i32⟩
  | 3 => ⟨S2500000, .i32⟩
  | 4 => ⟨S2500000, .i1⟩
  | 5 => ⟨S_, .i32⟩
  | 6 => ⟨S2500000, .i32⟩
  | 7 => ⟨S2500000, .i32⟩
  | 8 => ⟨S2500000, .i32⟩
  | 9 => ⟨S2500000x1, .i32⟩
  | 10 => ⟨S2500000, .f32⟩
  | 11 => ⟨S2500000, .f32⟩
  | 12 => ⟨S_, .f32⟩
  | 13 => ⟨S_, .f32⟩
  | 14 => ⟨S2500000, .f32⟩
  | 15 => ⟨S2500000, .f32⟩
  | 16 => ⟨S2500000, .f32⟩
  | 17 => ⟨S_, .i32⟩
  | 18 => ⟨S2500000, .i32⟩
  | 19 => ⟨S2500000, .i32⟩
  | 20 => ⟨S2500000, .f32⟩
  | 21 => ⟨S2500000, .f32⟩
  | 22 => ⟨S_, .f32⟩
  | 23 => ⟨S2500000, .f32⟩
  | 24 => ⟨S2500000, .f32⟩
  | 25 => ⟨S_, .f32⟩
  | 26 => ⟨S2500000, .f32⟩
  | 27 => ⟨S2500000, .f32⟩
  | 28 => ⟨S_, .f32⟩
  | 29 => ⟨S2500000, .f32⟩
  | 30 => ⟨S2500000, .f32⟩
  | 31 => ⟨S2500000, .f32⟩
  | 32 => ⟨S2500000, .f32⟩
  | 33 => ⟨S2500000, .f32⟩
  | 34 => ⟨S_, .f32⟩
  | 35 => ⟨S_, .f32⟩
  | 36 => ⟨S2500000, .f32⟩
  | 37 => ⟨S2500000, .f32⟩
  | 38 => ⟨S_, .i32⟩
  | 39 => ⟨S2500000, .i32⟩
  | 40 => ⟨S2500000, .i1⟩
  | 41 => ⟨S2500000, .i1⟩
  | 42 => ⟨S_, .i32⟩
  | 43 => ⟨S2500000, .i32⟩
  | 44 => ⟨S2500000, .i32⟩
  | 45 => ⟨S2500000, .i32⟩
  | 46 => ⟨S_, .i32⟩
  | 47 => ⟨S_, .i32⟩
  | 48 => ⟨S2500000, .i32⟩
  | 49 => ⟨S2500000, .i32⟩
  | 50 => ⟨S2500000, .f32⟩
  | 51 => ⟨S_, .i32⟩
  | 52 => ⟨S2500000, .i32⟩
  | 53 => ⟨S2500000, .i1⟩
  | 54 => ⟨S_, .i32⟩
  | 55 => ⟨S2500000, .i32⟩
  | 56 => ⟨S2500000, .i32⟩
  | 57 => ⟨S2500000, .i32⟩
  | 58 => ⟨S2500000x1, .i32⟩
  | 59 => ⟨S2500000, .f32⟩
  | 60 => ⟨S2500000, .f32⟩
  | 61 => ⟨S_, .f32⟩
  | 62 => ⟨S_, .f32⟩
  | 63 => ⟨S2500000, .f32⟩
  | 64 => ⟨S2500000, .f32⟩
  | 65 => ⟨S2500000, .f32⟩
  | 66 => ⟨S_, .i32⟩
  | 67 => ⟨S2500000, .i32⟩
  | 68 => ⟨S2500000, .i32⟩
  | 69 => ⟨S2500000, .f32⟩
  | 70 => ⟨S2500000, .f32⟩
  | 71 => ⟨S_, .f32⟩
  | 72 => ⟨S2500000, .f32⟩
  | 73 => ⟨S2500000, .f32⟩
  | 74 => ⟨S_, .f32⟩
  | 75 => ⟨S2500000, .f32⟩
  | 76 => ⟨S2500000, .f32⟩
  | 77 => ⟨S_, .f32⟩
  | 78 => ⟨S2500000, .f32⟩
  | 79 => ⟨S2500000, .f32⟩
  | 80 => ⟨S2500000, .f32⟩
  | 81 => ⟨S2500000, .f32⟩
  | 82 => ⟨S2500000, .f32⟩
  | 83 => ⟨S_, .f32⟩
  | 84 => ⟨S_, .f32⟩
  | 85 => ⟨S2500000, .f32⟩
  | 86 => ⟨S2500000, .f32⟩
  | 87 => ⟨S_, .i32⟩
  | 88 => ⟨S2500000, .i32⟩
  | 89 => ⟨S2500000, .i1⟩
  | 90 => ⟨S2500000, .i1⟩
  | 91 => ⟨S_, .i32⟩
  | 92 => ⟨S2500000, .i32⟩
  | 93 => ⟨S2500000, .i32⟩
  | 94 => ⟨S2500000, .i32⟩
  | 95 => ⟨S_, .i32⟩
  | 96 => ⟨S_, .i32⟩
  | 97 => ⟨S2500000, .i32⟩
  | 98 => ⟨S2500000, .i32⟩
  | 99 => ⟨S2500000, .f32⟩
  | 100 => ⟨S_, .i32⟩
  | 101 => ⟨S2500000, .i32⟩
  | 102 => ⟨S2500000, .i1⟩
  | 103 => ⟨S_, .i32⟩
  | 104 => ⟨S2500000, .i32⟩
  | 105 => ⟨S2500000, .i32⟩
  | 106 => ⟨S2500000, .i32⟩
  | 107 => ⟨S2500000x1, .i32⟩
  | 108 => ⟨S2500000, .f32⟩
  | 109 => ⟨S2500000, .f32⟩
  | 110 => ⟨S_, .f32⟩
  | 111 => ⟨S_, .f32⟩
  | 112 => ⟨S2500000, .f32⟩
  | 113 => ⟨S2500000, .f32⟩
  | 114 => ⟨S2500000, .f32⟩
  | 115 => ⟨S_, .i32⟩
  | 116 => ⟨S2500000, .i32⟩
  | 117 => ⟨S2500000, .i32⟩
  | 118 => ⟨S2500000, .f32⟩
  | 119 => ⟨S2500000, .f32⟩
  | 120 => ⟨S_, .f32⟩
  | 121 => ⟨S2500000, .f32⟩
  | 122 => ⟨S2500000, .f32⟩
  | 123 => ⟨S_, .f32⟩
  | 124 => ⟨S2500000, .f32⟩
  | 125 => ⟨S2500000, .f32⟩
  | 126 => ⟨S_, .f32⟩
  | 127 => ⟨S2500000, .f32⟩
  | _ => ⟨S8000000, .f32⟩

abbrev hbmTy0_9 (i : Nat) : BufTy := match i % 128 with
  | 0 => ⟨S2500000, .f32⟩
  | 1 => ⟨S2500000, .f32⟩
  | 2 => ⟨S2500000, .f32⟩
  | 3 => ⟨S2500000, .f32⟩
  | 4 => ⟨S_, .f32⟩
  | 5 => ⟨S_, .f32⟩
  | 6 => ⟨S2500000, .f32⟩
  | 7 => ⟨S2500000, .f32⟩
  | 8 => ⟨S_, .i32⟩
  | 9 => ⟨S2500000, .i32⟩
  | 10 => ⟨S2500000, .i1⟩
  | 11 => ⟨S2500000, .i1⟩
  | 12 => ⟨S_, .i32⟩
  | 13 => ⟨S2500000, .i32⟩
  | 14 => ⟨S2500000, .i32⟩
  | 15 => ⟨S2500000, .i32⟩
  | 16 => ⟨S_, .i32⟩
  | 17 => ⟨S_, .i32⟩
  | 18 => ⟨S2500000, .i32⟩
  | 19 => ⟨S2500000, .i32⟩
  | 20 => ⟨S2500000, .f32⟩
  | 21 => ⟨S_, .i32⟩
  | 22 => ⟨S2500000, .i32⟩
  | 23 => ⟨S2500000, .i1⟩
  | 24 => ⟨S_, .i32⟩
  | 25 => ⟨S2500000, .i32⟩
  | 26 => ⟨S2500000, .i32⟩
  | 27 => ⟨S2500000, .i32⟩
  | 28 => ⟨S2500000x1, .i32⟩
  | 29 => ⟨S2500000, .f32⟩
  | 30 => ⟨S2500000, .f32⟩
  | 31 => ⟨S_, .f32⟩
  | 32 => ⟨S_, .f32⟩
  | 33 => ⟨S2500000, .f32⟩
  | 34 => ⟨S2500000, .f32⟩
  | 35 => ⟨S2500000, .f32⟩
  | 36 => ⟨S_, .i32⟩
  | 37 => ⟨S2500000, .i32⟩
  | 38 => ⟨S2500000, .i32⟩
  | 39 => ⟨S2500000, .f32⟩
  | 40 => ⟨S2500000, .f32⟩
  | 41 => ⟨S_, .f32⟩
  | 42 => ⟨S2500000, .f32⟩
  | 43 => ⟨S2500000, .f32⟩
  | 44 => ⟨S_, .f32⟩
  | 45 => ⟨S2500000, .f32⟩
  | 46 => ⟨S2500000, .f32⟩
  | 47 => ⟨S_, .f32⟩
  | 48 => ⟨S2500000, .f32⟩
  | 49 => ⟨S2500000, .f32⟩
  | 50 => ⟨S2500000, .f32⟩
  | 51 => ⟨S2500000, .f32⟩
  | 52 => ⟨S2500000, .f32⟩
  | 53 => ⟨S_, .f32⟩
  | 54 => ⟨S_, .f32⟩
  | 55 => ⟨S2500000, .f32⟩
  | 56 => ⟨S2500000, .f32⟩
  | 57 => ⟨S_, .i32⟩
  | 58 => ⟨S2500000, .i32⟩
  | 59 => ⟨S2500000, .i1⟩
  | 60 => ⟨S_, .i32⟩
  | 61 => ⟨S2500000, .i32⟩
  | 62 => ⟨S2500000, .i32⟩
  | 63 => ⟨S2500000, .f32⟩
  | 64 => ⟨S2500000, .f32⟩
  | 65 => ⟨S_, .f32⟩
  | 66 => ⟨S2500000, .f32⟩
  | 67 => ⟨S2500000, .f32⟩
  | 68 => ⟨S_, .f32⟩
  | 69 => ⟨S2500000, .f32⟩
  | 70 => ⟨S2500000, .f32⟩
  | 71 => ⟨S_, .f32⟩
  | 72 => ⟨S2500000, .f32⟩
  | 73 => ⟨S2500000, .f32⟩
  | 74 => ⟨S2500000, .f32⟩
  | 75 => ⟨S2500000, .f32⟩
  | 76 => ⟨S2500000, .f32⟩
  | 77 => ⟨S_, .f32⟩
  | 78 => ⟨S_, .f32⟩
  | 79 => ⟨S2500000, .f32⟩
  | 80 => ⟨S2500000, .f32⟩
  | 81 => ⟨S_, .i32⟩
  | 82 => ⟨S2500000, .i32⟩
  | 83 => ⟨S2500000, .i1⟩
  | 84 => ⟨S2500000, .i1⟩
  | 85 => ⟨S_, .i32⟩
  | 86 => ⟨S2500000, .i32⟩
  | 87 => ⟨S2500000, .i32⟩
  | 88 => ⟨S2500000, .i32⟩
  | 89 => ⟨S_, .i32⟩
  | 90 => ⟨S_, .i32⟩
  | 91 => ⟨S2500000, .i32⟩
  | 92 => ⟨S2500000, .i32⟩
  | 93 => ⟨S2500000, .f32⟩
  | 94 => ⟨S_, .i32⟩
  | 95 => ⟨S2500000, .i32⟩
  | 96 => ⟨S2500000, .i1⟩
  | 97 => ⟨S_, .i32⟩
  | 98 => ⟨S2500000, .i32⟩
  | 99 => ⟨S2500000, .i32⟩
  | 100 => ⟨S2500000, .i32⟩
  | 101 => ⟨S2500000x1, .i32⟩
  | 102 => ⟨S2500000, .f32⟩
  | 103 => ⟨S2500000, .f32⟩
  | 104 => ⟨S_, .f32⟩
  | 105 => ⟨S_, .f32⟩
  | 106 => ⟨S2500000, .f32⟩
  | 107 => ⟨S2500000, .f32⟩
  | 108 => ⟨S2500000, .f32⟩
  | 109 => ⟨S_, .i32⟩
  | 110 => ⟨S2500000, .i32⟩
  | 111 => ⟨S2500000, .i32⟩
  | 112 => ⟨S2500000, .f32⟩
  | 113 => ⟨S2500000, .f32⟩
  | 114 => ⟨S_, .f32⟩
  | 115 => ⟨S2500000, .f32⟩
  | 116 => ⟨S2500000, .f32⟩
  | 117 => ⟨S_, .f32⟩
  | 118 => ⟨S2500000, .f32⟩
  | 119 => ⟨S2500000, .f32⟩
  | 120 => ⟨S_, .f32⟩
  | 121 => ⟨S2500000, .f32⟩
  | 122 => ⟨S2500000, .f32⟩
  | 123 => ⟨S2500000, .f32⟩
  | 124 => ⟨S2500000, .f32⟩
  | 125 => ⟨S2500000, .f32⟩
  | 126 => ⟨S_, .f32⟩
  | 127 => ⟨S_, .f32⟩
  | _ => ⟨S8000000, .f32⟩

abbrev hbmTy0_10 (i : Nat) : BufTy := match i % 128 with
  | 0 => ⟨S2500000, .f32⟩
  | 1 => ⟨S2500000, .f32⟩
  | 2 => ⟨S_, .i32⟩
  | 3 => ⟨S2500000, .i32⟩
  | 4 => ⟨S2500000, .i1⟩
  | 5 => ⟨S2500000, .i1⟩
  | 6 => ⟨S_, .i32⟩
  | 7 => ⟨S2500000, .i32⟩
  | 8 => ⟨S2500000, .i32⟩
  | 9 => ⟨S2500000, .i32⟩
  | 10 => ⟨S_, .i32⟩
  | 11 => ⟨S_, .i32⟩
  | 12 => ⟨S2500000, .i32⟩
  | 13 => ⟨S2500000, .i32⟩
  | 14 => ⟨S2500000, .f32⟩
  | 15 => ⟨S_, .i32⟩
  | 16 => ⟨S2500000, .i32⟩
  | 17 => ⟨S2500000, .i1⟩
  | 18 => ⟨S_, .i32⟩
  | 19 => ⟨S2500000, .i32⟩
  | 20 => ⟨S2500000, .i32⟩
  | 21 => ⟨S2500000, .i32⟩
  | 22 => ⟨S2500000x1, .i32⟩
  | 23 => ⟨S2500000, .f32⟩
  | 24 => ⟨S2500000, .f32⟩
  | 25 => ⟨S_, .f32⟩
  | 26 => ⟨S_, .f32⟩
  | 27 => ⟨S2500000, .f32⟩
  | 28 => ⟨S2500000, .f32⟩
  | 29 => ⟨S2500000, .f32⟩
  | 30 => ⟨S_, .i32⟩
  | 31 => ⟨S2500000, .i32⟩
  | 32 => ⟨S2500000, .i32⟩
  | 33 => ⟨S2500000, .f32⟩
  | 34 => ⟨S2500000, .f32⟩
  | 35 => ⟨S_, .f32⟩
  | 36 => ⟨S2500000, .f32⟩
  | 37 => ⟨S2500000, .f32⟩
  | 38 => ⟨S_, .f32⟩
  | 39 => ⟨S2500000, .f32⟩
  | 40 => ⟨S2500000, .f32⟩
  | 41 => ⟨S_, .f32⟩
  | 42 => ⟨S2500000, .f32⟩
  | 43 => ⟨S2500000, .f32⟩
  | 44 => ⟨S2500000, .f32⟩
  | 45 => ⟨S2500000, .f32⟩
  | 46 => ⟨S2500000, .f32⟩
  | 47 => ⟨S_, .f32⟩
  | 48 => ⟨S_, .f32⟩
  | 49 => ⟨S2500000, .f32⟩
  | 50 => ⟨S2500000, .f32⟩
  | 51 => ⟨S_, .i32⟩
  | 52 => ⟨S2500000, .i32⟩
  | 53 => ⟨S2500000, .i1⟩
  | 54 => ⟨S2500000, .i1⟩
  | 55 => ⟨S_, .i32⟩
  | 56 => ⟨S2500000, .i32⟩
  | 57 => ⟨S2500000, .i32⟩
  | 58 => ⟨S2500000, .i32⟩
  | 59 => ⟨S_, .i32⟩
  | 60 => ⟨S_, .i32⟩
  | 61 => ⟨S2500000, .i32⟩
  | 62 => ⟨S2500000, .i32⟩
  | 63 => ⟨S2500000, .f32⟩
  | 64 => ⟨S_, .i32⟩
  | 65 => ⟨S2500000, .i32⟩
  | 66 => ⟨S2500000, .i1⟩
  | 67 => ⟨S_, .i32⟩
  | 68 => ⟨S2500000, .i32⟩
  | 69 => ⟨S2500000, .i32⟩
  | 70 => ⟨S2500000, .i32⟩
  | 71 => ⟨S2500000x1, .i32⟩
  | 72 => ⟨S2500000, .f32⟩
  | 73 => ⟨S2500000, .f32⟩
  | 74 => ⟨S_, .f32⟩
  | 75 => ⟨S_, .f32⟩
  | 76 => ⟨S2500000, .f32⟩
  | 77 => ⟨S2500000, .f32⟩
  | 78 => ⟨S2500000, .f32⟩
  | 79 => ⟨S_, .i32⟩
  | 80 => ⟨S2500000, .i32⟩
  | 81 => ⟨S2500000, .i32⟩
  | 82 => ⟨S2500000, .f32⟩
  | 83 => ⟨S2500000, .f32⟩
  | 84 => ⟨S_, .f32⟩
  | 85 => ⟨S2500000, .f32⟩
  | 86 => ⟨S2500000, .f32⟩
  | 87 => ⟨S_, .f32⟩
  | 88 => ⟨S2500000, .f32⟩
  | 89 => ⟨S2500000, .f32⟩
  | 90 => ⟨S_, .f32⟩
  | 91 => ⟨S2500000, .f32⟩
  | 92 => ⟨S2500000, .f32⟩
  | 93 => ⟨S2500000, .f32⟩
  | 94 => ⟨S2500000, .f32⟩
  | 95 => ⟨S2500000, .f32⟩
  | 96 => ⟨S_, .f32⟩
  | 97 => ⟨S_, .f32⟩
  | 98 => ⟨S2500000, .f32⟩
  | 99 => ⟨S2500000, .f32⟩
  | 100 => ⟨S_, .i32⟩
  | 101 => ⟨S2500000, .i32⟩
  | 102 => ⟨S2500000, .i1⟩
  | 103 => ⟨S2500000, .i1⟩
  | 104 => ⟨S_, .i32⟩
  | 105 => ⟨S2500000, .i32⟩
  | 106 => ⟨S2500000, .i32⟩
  | 107 => ⟨S2500000, .i32⟩
  | 108 => ⟨S_, .i32⟩
  | 109 => ⟨S_, .i32⟩
  | 110 => ⟨S2500000, .i32⟩
  | 111 => ⟨S2500000, .i32⟩
  | 112 => ⟨S2500000, .f32⟩
  | 113 => ⟨S_, .i32⟩
  | 114 => ⟨S2500000, .i32⟩
  | 115 => ⟨S2500000, .i1⟩
  | 116 => ⟨S_, .i32⟩
  | 117 => ⟨S2500000, .i32⟩
  | 118 => ⟨S2500000, .i32⟩
  | 119 => ⟨S2500000, .i32⟩
  | 120 => ⟨S2500000x1, .i32⟩
  | 121 => ⟨S2500000, .f32⟩
  | 122 => ⟨S2500000, .f32⟩
  | 123 => ⟨S_, .f32⟩
  | 124 => ⟨S_, .f32⟩
  | 125 => ⟨S2500000, .f32⟩
  | 126 => ⟨S2500000, .f32⟩
  | 127 => ⟨S2500000, .f32⟩
  | _ => ⟨S8000000, .f32⟩

abbrev hbmTy0_11 (i : Nat) : BufTy := match i % 128 with
  | 0 => ⟨S_, .i32⟩
  | 1 => ⟨S2500000, .i32⟩
  | 2 => ⟨S2500000, .i32⟩
  | 3 => ⟨S2500000, .f32⟩
  | 4 => ⟨S2500000, .f32⟩
  | 5 => ⟨S_, .f32⟩
  | 6 => ⟨S2500000, .f32⟩
  | 7 => ⟨S2500000, .f32⟩
  | 8 => ⟨S_, .f32⟩
  | 9 => ⟨S2500000, .f32⟩
  | 10 => ⟨S2500000, .f32⟩
  | 11 => ⟨S_, .f32⟩
  | 12 => ⟨S2500000, .f32⟩
  | 13 => ⟨S2500000, .f32⟩
  | 14 => ⟨S2500000, .f32⟩
  | 15 => ⟨S2500000, .f32⟩
  | 16 => ⟨S2500000, .f32⟩
  | 17 => ⟨S_, .f32⟩
  | 18 => ⟨S_, .f32⟩
  | 19 => ⟨S2500000, .f32⟩
  | 20 => ⟨S2500000, .f32⟩
  | 21 => ⟨S_, .i32⟩
  | 22 => ⟨S2500000, .i32⟩
  | 23 => ⟨S2500000, .i1⟩
  | 24 => ⟨S_, .i32⟩
  | 25 => ⟨S2500000, .i32⟩
  | 26 => ⟨S2500000, .i32⟩
  | 27 => ⟨S2500000, .f32⟩
  | 28 => ⟨S2500000, .f32⟩
  | 29 => ⟨S_, .f32⟩
  | 30 => ⟨S2500000, .f32⟩
  | 31 => ⟨S2500000, .f32⟩
  | 32 => ⟨S_, .f32⟩
  | 33 => ⟨S2500000, .f32⟩
  | 34 => ⟨S2500000, .f32⟩
  | 35 => ⟨S_, .f32⟩
  | 36 => ⟨S2500000, .f32⟩
  | 37 => ⟨S2500000, .f32⟩
  | 38 => ⟨S2500000, .f32⟩
  | 39 => ⟨S2500000, .f32⟩
  | 40 => ⟨S2500000, .f32⟩
  | 41 => ⟨S_, .f32⟩
  | 42 => ⟨S_, .f32⟩
  | 43 => ⟨S2500000, .f32⟩
  | 44 => ⟨S2500000, .f32⟩
  | 45 => ⟨S_, .i32⟩
  | 46 => ⟨S2500000, .i32⟩
  | 47 => ⟨S2500000, .i1⟩
  | 48 => ⟨S2500000, .i1⟩
  | 49 => ⟨S_, .i32⟩
  | 50 => ⟨S2500000, .i32⟩
  | 51 => ⟨S2500000, .i32⟩
  | 52 => ⟨S2500000, .i32⟩
  | 53 => ⟨S_, .i32⟩
  | 54 => ⟨S_, .i32⟩
  | 55 => ⟨S2500000, .i32⟩
  | 56 => ⟨S2500000, .i32⟩
  | 57 => ⟨S2500000, .f32⟩
  | 58 => ⟨S_, .i32⟩
  | 59 => ⟨S2500000, .i32⟩
  | 60 => ⟨S2500000, .i1⟩
  | 61 => ⟨S_, .i32⟩
  | 62 => ⟨S2500000, .i32⟩
  | 63 => ⟨S2500000, .i32⟩
  | 64 => ⟨S2500000, .i32⟩
  | 65 => ⟨S2500000x1, .i32⟩
  | 66 => ⟨S2500000, .f32⟩
  | 67 => ⟨S2500000, .f32⟩
  | 68 => ⟨S_, .f32⟩
  | 69 => ⟨S_, .f32⟩
  | 70 => ⟨S2500000, .f32⟩
  | 71 => ⟨S2500000, .f32⟩
  | 72 => ⟨S2500000, .f32⟩
  | 73 => ⟨S_, .i32⟩
  | 74 => ⟨S2500000, .i32⟩
  | 75 => ⟨S2500000, .i32⟩
  | 76 => ⟨S2500000, .f32⟩
  | 77 => ⟨S2500000, .f32⟩
  | 78 => ⟨S_, .f32⟩
  | 79 => ⟨S2500000, .f32⟩
  | 80 => ⟨S2500000, .f32⟩
  | 81 => ⟨S_, .f32⟩
  | 82 => ⟨S2500000, .f32⟩
  | 83 => ⟨S2500000, .f32⟩
  | 84 => ⟨S_, .f32⟩
  | 85 => ⟨S2500000, .f32⟩
  | 86 => ⟨S2500000, .f32⟩
  | 87 => ⟨S2500000, .f32⟩
  | 88 => ⟨S2500000, .f32⟩
  | 89 => ⟨S2500000, .f32⟩
  | 90 => ⟨S_, .f32⟩
  | 91 => ⟨S_, .f32⟩
  | 92 => ⟨S2500000, .f32⟩
  | 93 => ⟨S2500000, .f32⟩
  | 94 => ⟨S_, .i32⟩
  | 95 => ⟨S2500000, .i32⟩
  | 96 => ⟨S2500000, .i1⟩
  | 97 => ⟨S2500000, .i1⟩
  | 98 => ⟨S_, .i32⟩
  | 99 => ⟨S2500000, .i32⟩
  | 100 => ⟨S2500000, .i32⟩
  | 101 => ⟨S2500000, .i32⟩
  | 102 => ⟨S_, .i32⟩
  | 103 => ⟨S_, .i32⟩
  | 104 => ⟨S2500000, .i32⟩
  | 105 => ⟨S2500000, .i32⟩
  | 106 => ⟨S2500000, .f32⟩
  | 107 => ⟨S_, .i32⟩
  | 108 => ⟨S2500000, .i32⟩
  | 109 => ⟨S2500000, .i1⟩
  | 110 => ⟨S_, .i32⟩
  | 111 => ⟨S2500000, .i32⟩
  | 112 => ⟨S2500000, .i32⟩
  | 113 => ⟨S2500000, .i32⟩
  | 114 => ⟨S2500000x1, .i32⟩
  | 115 => ⟨S2500000, .f32⟩
  | 116 => ⟨S2500000, .f32⟩
  | 117 => ⟨S_, .f32⟩
  | 118 => ⟨S_, .f32⟩
  | 119 => ⟨S2500000, .f32⟩
  | 120 => ⟨S2500000, .f32⟩
  | 121 => ⟨S2500000, .f32⟩
  | 122 => ⟨S_, .i32⟩
  | 123 => ⟨S2500000, .i32⟩
  | 124 => ⟨S2500000, .i32⟩
  | 125 => ⟨S2500000, .f32⟩
  | 126 => ⟨S2500000, .f32⟩
  | 127 => ⟨S_, .f32⟩
  | _ => ⟨S8000000, .f32⟩

abbrev hbmTy0_12 (i : Nat) : BufTy := match i % 128 with
  | 0 => ⟨S2500000, .f32⟩
  | 1 => ⟨S2500000, .f32⟩
  | 2 => ⟨S_, .f32⟩
  | 3 => ⟨S2500000, .f32⟩
  | 4 => ⟨S2500000, .f32⟩
  | 5 => ⟨S_, .f32⟩
  | 6 => ⟨S2500000, .f32⟩
  | 7 => ⟨S2500000, .f32⟩
  | 8 => ⟨S2500000, .f32⟩
  | 9 => ⟨S2500000, .f32⟩
  | 10 => ⟨S2500000, .f32⟩
  | 11 => ⟨S_, .f32⟩
  | 12 => ⟨S_, .f32⟩
  | 13 => ⟨S2500000, .f32⟩
  | 14 => ⟨S2500000, .f32⟩
  | 15 => ⟨S_, .i32⟩
  | 16 => ⟨S2500000, .i32⟩
  | 17 => ⟨S2500000, .i1⟩
  | 18 => ⟨S2500000, .i1⟩
  | 19 => ⟨S_, .i32⟩
  | 20 => ⟨S2500000, .i32⟩
  | 21 => ⟨S2500000, .i32⟩
  | 22 => ⟨S2500000, .i32⟩
  | 23 => ⟨S_, .i32⟩
  | 24 => ⟨S_, .i32⟩
  | 25 => ⟨S2500000, .i32⟩
  | 26 => ⟨S2500000, .i32⟩
  | 27 => ⟨S2500000, .f32⟩
  | 28 => ⟨S_, .i32⟩
  | 29 => ⟨S2500000, .i32⟩
  | 30 => ⟨S2500000, .i1⟩
  | 31 => ⟨S_, .i32⟩
  | 32 => ⟨S2500000, .i32⟩
  | 33 => ⟨S2500000, .i32⟩
  | 34 => ⟨S2500000, .i32⟩
  | 35 => ⟨S2500000x1, .i32⟩
  | 36 => ⟨S2500000, .f32⟩
  | 37 => ⟨S2500000, .f32⟩
  | 38 => ⟨S_, .f32⟩
  | 39 => ⟨S_, .f32⟩
  | 40 => ⟨S2500000, .f32⟩
  | 41 => ⟨S2500000, .f32⟩
  | 42 => ⟨S2500000, .f32⟩
  | 43 => ⟨S_, .i32⟩
  | 44 => ⟨S2500000, .i32⟩
  | 45 => ⟨S2500000, .i32⟩
  | 46 => ⟨S2500000, .f32⟩
  | 47 => ⟨S2500000, .f32⟩
  | 48 => ⟨S_, .f32⟩
  | 49 => ⟨S2500000, .f32⟩
  | 50 => ⟨S2500000, .f32⟩
  | 51 => ⟨S_, .f32⟩
  | 52 => ⟨S2500000, .f32⟩
  | 53 => ⟨S2500000, .f32⟩
  | 54 => ⟨S_, .f32⟩
  | 55 => ⟨S2500000, .f32⟩
  | 56 => ⟨S2500000, .f32⟩
  | 57 => ⟨S2500000, .f32⟩
  | 58 => ⟨S2500000, .f32⟩
  | 59 => ⟨S2500000, .f32⟩
  | 60 => ⟨S_, .f32⟩
  | 61 => ⟨S_, .f32⟩
  | 62 => ⟨S2500000, .f32⟩
  | 63 => ⟨S2500000, .f32⟩
  | 64 => ⟨S_, .i32⟩
  | 65 => ⟨S2500000, .i32⟩
  | 66 => ⟨S2500000, .i1⟩
  | 67 => ⟨S2500000, .i1⟩
  | 68 => ⟨S_, .i32⟩
  | 69 => ⟨S2500000, .i32⟩
  | 70 => ⟨S2500000, .i32⟩
  | 71 => ⟨S2500000, .i32⟩
  | 72 => ⟨S_, .i32⟩
  | 73 => ⟨S_, .i32⟩
  | 74 => ⟨S2500000, .i32⟩
  | 75 => ⟨S2500000, .i32⟩
  | 76 => ⟨S2500000, .f32⟩
  | 77 => ⟨S_, .i32⟩
  | 78 => ⟨S2500000, .i32⟩
  | 79 => ⟨S2500000, .i1⟩
  | 80 => ⟨S_, .i32⟩
  | 81 => ⟨S2500000, .i32⟩
  | 82 => ⟨S2500000, .i32⟩
  | 83 => ⟨S2500000, .i32⟩
  | 84 => ⟨S2500000x1, .i32⟩
  | 85 => ⟨S2500000, .f32⟩
  | 86 => ⟨S2500000, .f32⟩
  | 87 => ⟨S_, .f32⟩
  | 88 => ⟨S_, .f32⟩
  | 89 => ⟨S2500000, .f32⟩
  | 90 => ⟨S2500000, .f32⟩
  | 91 => ⟨S2500000, .f32⟩
  | 92 => ⟨S_, .i32⟩
  | 93 => ⟨S2500000, .i32⟩
  | 94 => ⟨S2500000, .i32⟩
  | 95 => ⟨S2500000, .f32⟩
  | 96 => ⟨S2500000, .f32⟩
  | 97 => ⟨S_, .f32⟩
  | 98 => ⟨S2500000, .f32⟩
  | 99 => ⟨S2500000, .f32⟩
  | 100 => ⟨S_, .f32⟩
  | 101 => ⟨S2500000, .f32⟩
  | 102 => ⟨S2500000, .f32⟩
  | 103 => ⟨S_, .f32⟩
  | 104 => ⟨S2500000, .f32⟩
  | 105 => ⟨S2500000, .f32⟩
  | 106 => ⟨S2500000, .f32⟩
  | 107 => ⟨S2500000, .f32⟩
  | 108 => ⟨S2500000, .f32⟩
  | 109 => ⟨S_, .f32⟩
  | 110 => ⟨S_, .f32⟩
  | 111 => ⟨S2500000, .f32⟩
  | 112 => ⟨S2500000, .f32⟩
  | 113 => ⟨S_, .i32⟩
  | 114 => ⟨S2500000, .i32⟩
  | 115 => ⟨S2500000, .i1⟩
  | 116 => ⟨S_, .i32⟩
  | 117 => ⟨S2500000, .i32⟩
  | 118 => ⟨S2500000, .i32⟩
  | 119 => ⟨S2500000, .f32⟩
  | 120 => ⟨S2500000, .f32⟩
  | 121 => ⟨S_, .f32⟩
  | 122 => ⟨S2500000, .f32⟩
  | 123 => ⟨S2500000, .f32⟩
  | 124 => ⟨S_, .f32⟩
  | 125 => ⟨S2500000, .f32⟩
  | 126 => ⟨S2500000, .f32⟩
  | 127 => ⟨S_, .f32⟩
  | _ => ⟨S8000000, .f32⟩

abbrev hbmTy0_13 (i : Nat) : BufTy := match i % 128 with
  | 0 => ⟨S2500000, .f32⟩
  | 1 => ⟨S2500000, .f32⟩
  | 2 => ⟨S2500000, .f32⟩
  | 3 => ⟨S2500000, .f32⟩
  | 4 => ⟨S2500000, .f32⟩
  | 5 => ⟨S_, .f32⟩
  | 6 => ⟨S_, .f32⟩
  | 7 => ⟨S2500000, .f32⟩
  | 8 => ⟨S2500000, .f32⟩
  | 9 => ⟨S_, .i32⟩
  | 10 => ⟨S2500000, .i32⟩
  | 11 => ⟨S2500000, .i1⟩
  | 12 => ⟨S2500000, .i1⟩
  | 13 => ⟨S_, .i32⟩
  | 14 => ⟨S2500000, .i32⟩
  | 15 => ⟨S2500000, .i32⟩
  | 16 => ⟨S2500000, .i32⟩
  | 17 => ⟨S_, .i32⟩
  | 18 => ⟨S_, .i32⟩
  | 19 => ⟨S2500000, .i32⟩
  | 20 => ⟨S2500000, .i32⟩
  | 21 => ⟨S2500000, .f32⟩
  | 22 => ⟨S_, .i32⟩
  | 23 => ⟨S2500000, .i32⟩
  | 24 => ⟨S2500000, .i1⟩
  | 25 => ⟨S_, .i32⟩
  | 26 => ⟨S2500000, .i32⟩
  | 27 => ⟨S2500000, .i32⟩
  | 28 => ⟨S2500000, .i32⟩
  | 29 => ⟨S2500000x1, .i32⟩
  | 30 => ⟨S2500000, .f32⟩
  | 31 => ⟨S2500000, .f32⟩
  | 32 => ⟨S_, .f32⟩
  | 33 => ⟨S_, .f32⟩
  | 34 => ⟨S2500000, .f32⟩
  | 35 => ⟨S2500000, .f32⟩
  | 36 => ⟨S2500000, .f32⟩
  | 37 => ⟨S_, .i32⟩
  | 38 => ⟨S2500000, .i32⟩
  | 39 => ⟨S2500000, .i32⟩
  | 40 => ⟨S2500000, .f32⟩
  | 41 => ⟨S2500000, .f32⟩
  | 42 => ⟨S_, .f32⟩
  | 43 => ⟨S2500000, .f32⟩
  | 44 => ⟨S2500000, .f32⟩
  | 45 => ⟨S_, .f32⟩
  | 46 => ⟨S2500000, .f32⟩
  | 47 => ⟨S2500000, .f32⟩
  | 48 => ⟨S_, .f32⟩
  | 49 => ⟨S2500000, .f32⟩
  | 50 => ⟨S2500000, .f32⟩
  | 51 => ⟨S2500000, .f32⟩
  | 52 => ⟨S2500000, .f32⟩
  | 53 => ⟨S2500000, .f32⟩
  | 54 => ⟨S_, .f32⟩
  | 55 => ⟨S_, .f32⟩
  | 56 => ⟨S2500000, .f32⟩
  | 57 => ⟨S2500000, .f32⟩
  | 58 => ⟨S_, .i32⟩
  | 59 => ⟨S2500000, .i32⟩
  | 60 => ⟨S2500000, .i1⟩
  | 61 => ⟨S2500000, .i1⟩
  | 62 => ⟨S_, .i32⟩
  | 63 => ⟨S2500000, .i32⟩
  | 64 => ⟨S2500000, .i32⟩
  | 65 => ⟨S2500000, .i32⟩
  | 66 => ⟨S_, .i32⟩
  | 67 => ⟨S_, .i32⟩
  | 68 => ⟨S2500000, .i32⟩
  | 69 => ⟨S2500000, .i32⟩
  | 70 => ⟨S2500000, .f32⟩
  | 71 => ⟨S_, .i32⟩
  | 72 => ⟨S2500000, .i32⟩
  | 73 => ⟨S2500000, .i1⟩
  | 74 => ⟨S_, .i32⟩
  | 75 => ⟨S2500000, .i32⟩
  | 76 => ⟨S2500000, .i32⟩
  | 77 => ⟨S2500000, .i32⟩
  | 78 => ⟨S2500000x1, .i32⟩
  | 79 => ⟨S2500000, .f32⟩
  | 80 => ⟨S2500000, .f32⟩
  | 81 => ⟨S_, .f32⟩
  | 82 => ⟨S_, .f32⟩
  | 83 => ⟨S2500000, .f32⟩
  | 84 => ⟨S2500000, .f32⟩
  | 85 => ⟨S2500000, .f32⟩
  | 86 => ⟨S_, .i32⟩
  | 87 => ⟨S2500000, .i32⟩
  | 88 => ⟨S2500000, .i32⟩
  | 89 => ⟨S2500000, .f32⟩
  | 90 => ⟨S2500000, .f32⟩
  | 91 => ⟨S_, .f32⟩
  | 92 => ⟨S2500000, .f32⟩
  | 93 => ⟨S2500000, .f32⟩
  | 94 => ⟨S_, .f32⟩
  | 95 => ⟨S2500000, .f32⟩
  | 96 => ⟨S2500000, .f32⟩
  | 97 => ⟨S_, .f32⟩
  | 98 => ⟨S2500000, .f32⟩
  | 99 => ⟨S2500000, .f32⟩
  | 100 => ⟨S2500000, .f32⟩
  | 101 => ⟨S2500000, .f32⟩
  | 102 => ⟨S2500000, .f32⟩
  | 103 => ⟨S_, .f32⟩
  | 104 => ⟨S_, .f32⟩
  | 105 => ⟨S2500000, .f32⟩
  | 106 => ⟨S2500000, .f32⟩
  | 107 => ⟨S_, .i32⟩
  | 108 => ⟨S2500000, .i32⟩
  | 109 => ⟨S2500000, .i1⟩
  | 110 => ⟨S2500000, .i1⟩
  | 111 => ⟨S_, .i32⟩
  | 112 => ⟨S2500000, .i32⟩
  | 113 => ⟨S2500000, .i32⟩
  | 114 => ⟨S2500000, .i32⟩
  | 115 => ⟨S_, .i32⟩
  | 116 => ⟨S_, .i32⟩
  | 117 => ⟨S2500000, .i32⟩
  | 118 => ⟨S2500000, .i32⟩
  | 119 => ⟨S2500000, .f32⟩
  | 120 => ⟨S_, .i32⟩
  | 121 => ⟨S2500000, .i32⟩
  | 122 => ⟨S2500000, .i1⟩
  | 123 => ⟨S_, .i32⟩
  | 124 => ⟨S2500000, .i32⟩
  | 125 => ⟨S2500000, .i32⟩
  | 126 => ⟨S2500000, .i32⟩
  | 127 => ⟨S2500000x1, .i32⟩
  | _ => ⟨S8000000, .f32⟩

abbrev hbmTy0_14 (i : Nat) : BufTy := match i % 128 with
  | 0 => ⟨S2500000, .f32⟩
  | 1 => ⟨S2500000, .f32⟩
  | 2 => ⟨S_, .f32⟩
  | 3 => ⟨S_, .f32⟩
  | 4 => ⟨S2500000, .f32⟩
  | 5 => ⟨S2500000, .f32⟩
  | 6 => ⟨S2500000, .f32⟩
  | 7 => ⟨S_, .i32⟩
  | 8 => ⟨S2500000, .i32⟩
  | 9 => ⟨S2500000, .i32⟩
  | 10 => ⟨S2500000, .f32⟩
  | 11 => ⟨S2500000, .f32⟩
  | 12 => ⟨S_, .f32⟩
  | 13 => ⟨S2500000, .f32⟩
  | 14 => ⟨S2500000, .f32⟩
  | 15 => ⟨S_, .f32⟩
  | 16 => ⟨S2500000, .f32⟩
  | 17 => ⟨S2500000, .f32⟩
  | 18 => ⟨S_, .f32⟩
  | 19 => ⟨S2500000, .f32⟩
  | 20 => ⟨S2500000, .f32⟩
  | 21 => ⟨S2500000, .f32⟩
  | 22 => ⟨S2500000, .f32⟩
  | 23 => ⟨S2500000, .f32⟩
  | 24 => ⟨S_, .f32⟩
  | 25 => ⟨S_, .f32⟩
  | 26 => ⟨S2500000, .f32⟩
  | 27 => ⟨S2500000, .f32⟩
  | 28 => ⟨S_, .i32⟩
  | 29 => ⟨S2500000, .i32⟩
  | 30 => ⟨S2500000, .i1⟩
  | 31 => ⟨S2500000, .i1⟩
  | 32 => ⟨S_, .i32⟩
  | 33 => ⟨S2500000, .i32⟩
  | 34 => ⟨S2500000, .i32⟩
  | 35 => ⟨S2500000, .i32⟩
  | 36 => ⟨S_, .i32⟩
  | 37 => ⟨S_, .i32⟩
  | 38 => ⟨S2500000, .i32⟩
  | 39 => ⟨S2500000, .i32⟩
  | 40 => ⟨S2500000, .f32⟩
  | 41 => ⟨S_, .i32⟩
  | 42 => ⟨S2500000, .i32⟩
  | 43 => ⟨S2500000, .i1⟩
  | 44 => ⟨S_, .i32⟩
  | 45 => ⟨S2500000, .i32⟩
  | 46 => ⟨S2500000, .i32⟩
  | 47 => ⟨S2500000, .i32⟩
  | 48 => ⟨S2500000x1, .i32⟩
  | 49 => ⟨S2500000, .f32⟩
  | 50 => ⟨S2500000, .f32⟩
  | 51 => ⟨S_, .f32⟩
  | 52 => ⟨S_, .f32⟩
  | 53 => ⟨S2500000, .f32⟩
  | 54 => ⟨S2500000, .f32⟩
  | 55 => ⟨S2500000, .f32⟩
  | _ => ⟨S8000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S8000000, .f32⟩

abbrev bufTy : (tb : Table) → Fin (tcTables nBuf tb) → BufTy
  | .hbm, ⟨i, _⟩ => hbmTy i
  | _, _ => ⟨S8000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_c_8 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_c_12 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_c_14 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_cst_16 : Ref sig .tc := ⟨.hbm, 79, rfl⟩
abbrev main_v47 : Ref sig .tc := ⟨.hbm, 80, rfl⟩
abbrev main_v48 : Ref sig .tc := ⟨.hbm, 81, rfl⟩
abbrev main_cst_17 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_18 : Ref sig .tc := ⟨.hbm, 88, rfl⟩
abbrev main_call2_v0 : Ref sig .tc := ⟨.hbm, 89, rfl⟩
abbrev main_call2_v1 : Ref sig .tc := ⟨.hbm, 90, rfl⟩
abbrev main_v54 : Ref sig .tc := ⟨.hbm, 91, rfl⟩
abbrev main_c_19 : Ref sig .tc := ⟨.hbm, 92, rfl⟩
abbrev main_v55 : Ref sig .tc := ⟨.hbm, 93, rfl⟩
abbrev main_v56 : Ref sig .tc := ⟨.hbm, 94, rfl⟩
abbrev main_c_20 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_21 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_cst_23 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_24 : Ref sig .tc := ⟨.hbm, 111, rfl⟩
abbrev main_call3_v0 : Ref sig .tc := ⟨.hbm, 112, rfl⟩
abbrev main_call3_v1 : Ref sig .tc := ⟨.hbm, 113, rfl⟩
abbrev main_v69 : Ref sig .tc := ⟨.hbm, 114, rfl⟩
abbrev main_c_25 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_26 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_27 : Ref sig .tc := ⟨.hbm, 123, rfl⟩
abbrev main_call4_v0 : Ref sig .tc := ⟨.hbm, 124, rfl⟩
abbrev main_call4_v1 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_28 : Ref sig .tc := ⟨.hbm, 129, rfl⟩
abbrev main_call5_v0 : Ref sig .tc := ⟨.hbm, 130, rfl⟩
abbrev main_call5_v1 : Ref sig .tc := ⟨.hbm, 131, rfl⟩
abbrev main_v79 : Ref sig .tc := ⟨.hbm, 132, rfl⟩
abbrev main_c_29 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_c_31 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_32 : Ref sig .tc := ⟨.hbm, 146, rfl⟩
abbrev main_v90 : Ref sig .tc := ⟨.hbm, 147, rfl⟩
abbrev main_v91 : Ref sig .tc := ⟨.hbm, 148, rfl⟩
abbrev main_cst_33 : Ref sig .tc := ⟨.hbm, 149, rfl⟩
abbrev main_v92 : Ref sig .tc := ⟨.hbm, 150, rfl⟩
abbrev main_v93 : Ref sig .tc := ⟨.hbm, 151, rfl⟩
abbrev main_cst_34 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_35 : Ref sig .tc := ⟨.hbm, 158, rfl⟩
abbrev main_call6_v0 : Ref sig .tc := ⟨.hbm, 159, rfl⟩
abbrev main_call6_v1 : Ref sig .tc := ⟨.hbm, 160, rfl⟩
abbrev main_v99 : Ref sig .tc := ⟨.hbm, 161, rfl⟩
abbrev main_c_36 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_37 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_c_38 : Ref sig .tc := ⟨.hbm, 170, rfl⟩
abbrev main_call7_v0 : Ref sig .tc := ⟨.hbm, 171, rfl⟩
abbrev main_call7_v1 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_39 : Ref sig .tc := ⟨.hbm, 176, rfl⟩
abbrev main_call8_v0 : Ref sig .tc := ⟨.hbm, 177, rfl⟩
abbrev main_call8_v1 : Ref sig .tc := ⟨.hbm, 178, rfl⟩
abbrev main_v109 : Ref sig .tc := ⟨.hbm, 179, rfl⟩
abbrev main_c_40 : Ref sig .tc := ⟨.hbm, 180, rfl⟩
abbrev main_v110 : Ref sig .tc := ⟨.hbm, 181, rfl⟩
abbrev main_v111 : Ref sig .tc := ⟨.hbm, 182, rfl⟩
abbrev main_c_41 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_c_42 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_43 : Ref sig .tc := ⟨.hbm, 193, rfl⟩
abbrev main_v120 : Ref sig .tc := ⟨.hbm, 194, rfl⟩
abbrev main_v121 : Ref sig .tc := ⟨.hbm, 195, rfl⟩
abbrev main_cst_44 : Ref sig .tc := ⟨.hbm, 196, rfl⟩
abbrev main_v122 : Ref sig .tc := ⟨.hbm, 197, rfl⟩
abbrev main_v123 : Ref sig .tc := ⟨.hbm, 198, rfl⟩
abbrev main_cst_45 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_46 : Ref sig .tc := ⟨.hbm, 205, rfl⟩
abbrev main_call9_v0 : Ref sig .tc := ⟨.hbm, 206, rfl⟩
abbrev main_call9_v1 : Ref sig .tc := ⟨.hbm, 207, rfl⟩
abbrev main_v129 : Ref sig .tc := ⟨.hbm, 208, rfl⟩
abbrev main_c_47 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_c_48 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_c_49 : Ref sig .tc := ⟨.hbm, 217, rfl⟩
abbrev main_call10_v0 : Ref sig .tc := ⟨.hbm, 218, rfl⟩
abbrev main_call10_v1 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_50 : Ref sig .tc := ⟨.hbm, 223, rfl⟩
abbrev main_call11_v0 : Ref sig .tc := ⟨.hbm, 224, rfl⟩
abbrev main_call11_v1 : Ref sig .tc := ⟨.hbm, 225, rfl⟩
abbrev main_v139 : Ref sig .tc := ⟨.hbm, 226, rfl⟩
abbrev main_c_51 : Ref sig .tc := ⟨.hbm, 227, rfl⟩
abbrev main_v140 : Ref sig .tc := ⟨.hbm, 228, rfl⟩
abbrev main_v141 : Ref sig .tc := ⟨.hbm, 229, rfl⟩
abbrev main_c_52 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_c_53 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_cst_54 : Ref sig .tc := ⟨.hbm, 240, rfl⟩
abbrev main_v150 : Ref sig .tc := ⟨.hbm, 241, rfl⟩
abbrev main_v151 : Ref sig .tc := ⟨.hbm, 242, rfl⟩
abbrev main_cst_55 : Ref sig .tc := ⟨.hbm, 243, rfl⟩
abbrev main_v152 : Ref sig .tc := ⟨.hbm, 244, rfl⟩
abbrev main_v153 : Ref sig .tc := ⟨.hbm, 245, rfl⟩
abbrev main_cst_56 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_cst_57 : Ref sig .tc := ⟨.hbm, 252, rfl⟩
abbrev main_call12_v0 : Ref sig .tc := ⟨.hbm, 253, rfl⟩
abbrev main_call12_v1 : Ref sig .tc := ⟨.hbm, 254, rfl⟩
abbrev main_v159 : Ref sig .tc := ⟨.hbm, 255, rfl⟩
abbrev main_c_58 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_c_59 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_c_60 : Ref sig .tc := ⟨.hbm, 264, rfl⟩
abbrev main_call13_v0 : Ref sig .tc := ⟨.hbm, 265, rfl⟩
abbrev main_call13_v1 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_cst_61 : Ref sig .tc := ⟨.hbm, 270, rfl⟩
abbrev main_call14_v0 : Ref sig .tc := ⟨.hbm, 271, rfl⟩
abbrev main_call14_v1 : Ref sig .tc := ⟨.hbm, 272, rfl⟩
abbrev main_v169 : Ref sig .tc := ⟨.hbm, 273, rfl⟩
abbrev main_c_62 : Ref sig .tc := ⟨.hbm, 274, rfl⟩
abbrev main_v170 : Ref sig .tc := ⟨.hbm, 275, rfl⟩
abbrev main_v171 : Ref sig .tc := ⟨.hbm, 276, rfl⟩
abbrev main_c_63 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_c_64 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_cst_65 : Ref sig .tc := ⟨.hbm, 287, rfl⟩
abbrev main_v180 : Ref sig .tc := ⟨.hbm, 288, rfl⟩
abbrev main_v181 : Ref sig .tc := ⟨.hbm, 289, rfl⟩
abbrev main_cst_66 : Ref sig .tc := ⟨.hbm, 290, rfl⟩
abbrev main_v182 : Ref sig .tc := ⟨.hbm, 291, rfl⟩
abbrev main_v183 : Ref sig .tc := ⟨.hbm, 292, rfl⟩
abbrev main_cst_67 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_cst_68 : Ref sig .tc := ⟨.hbm, 299, rfl⟩
abbrev main_call15_v0 : Ref sig .tc := ⟨.hbm, 300, rfl⟩
abbrev main_call15_v1 : Ref sig .tc := ⟨.hbm, 301, rfl⟩
abbrev main_v189 : Ref sig .tc := ⟨.hbm, 302, rfl⟩
abbrev main_c_69 : Ref sig .tc := ⟨.hbm, 303, rfl⟩
abbrev main_v190 : Ref sig .tc := ⟨.hbm, 304, rfl⟩
abbrev main_v191 : Ref sig .tc := ⟨.hbm, 305, rfl⟩
abbrev main_c_70 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_cst_71 : Ref sig .tc := ⟨.hbm, 310, rfl⟩
abbrev main_v195 : Ref sig .tc := ⟨.hbm, 311, rfl⟩
abbrev main_v196 : Ref sig .tc := ⟨.hbm, 312, rfl⟩
abbrev main_cst_72 : Ref sig .tc := ⟨.hbm, 313, rfl⟩
abbrev main_v197 : Ref sig .tc := ⟨.hbm, 314, rfl⟩
abbrev main_v198 : Ref sig .tc := ⟨.hbm, 315, rfl⟩
abbrev main_cst_73 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_cst_74 : Ref sig .tc := ⟨.hbm, 322, rfl⟩
abbrev main_call16_v0 : Ref sig .tc := ⟨.hbm, 323, rfl⟩
abbrev main_call16_v1 : Ref sig .tc := ⟨.hbm, 324, rfl⟩
abbrev main_v204 : Ref sig .tc := ⟨.hbm, 325, rfl⟩
abbrev main_c_75 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_c_76 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_c_77 : Ref sig .tc := ⟨.hbm, 334, rfl⟩
abbrev main_call17_v0 : Ref sig .tc := ⟨.hbm, 335, rfl⟩
abbrev main_call17_v1 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_cst_78 : Ref sig .tc := ⟨.hbm, 340, rfl⟩
abbrev main_call18_v0 : Ref sig .tc := ⟨.hbm, 341, rfl⟩
abbrev main_call18_v1 : Ref sig .tc := ⟨.hbm, 342, rfl⟩
abbrev main_v214 : Ref sig .tc := ⟨.hbm, 343, rfl⟩
abbrev main_c_79 : Ref sig .tc := ⟨.hbm, 344, rfl⟩
abbrev main_v215 : Ref sig .tc := ⟨.hbm, 345, rfl⟩
abbrev main_v216 : Ref sig .tc := ⟨.hbm, 346, rfl⟩
abbrev main_c_80 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_c_81 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_cst_82 : Ref sig .tc := ⟨.hbm, 357, rfl⟩
abbrev main_v225 : Ref sig .tc := ⟨.hbm, 358, rfl⟩
abbrev main_v226 : Ref sig .tc := ⟨.hbm, 359, rfl⟩
abbrev main_cst_83 : Ref sig .tc := ⟨.hbm, 360, rfl⟩
abbrev main_v227 : Ref sig .tc := ⟨.hbm, 361, rfl⟩
abbrev main_v228 : Ref sig .tc := ⟨.hbm, 362, rfl⟩
abbrev main_cst_84 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_cst_85 : Ref sig .tc := ⟨.hbm, 369, rfl⟩
abbrev main_call19_v0 : Ref sig .tc := ⟨.hbm, 370, rfl⟩
abbrev main_call19_v1 : Ref sig .tc := ⟨.hbm, 371, rfl⟩
abbrev main_v234 : Ref sig .tc := ⟨.hbm, 372, rfl⟩
abbrev main_c_86 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_c_87 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_c_88 : Ref sig .tc := ⟨.hbm, 381, rfl⟩
abbrev main_call20_v0 : Ref sig .tc := ⟨.hbm, 382, rfl⟩
abbrev main_call20_v1 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_cst_89 : Ref sig .tc := ⟨.hbm, 387, rfl⟩
abbrev main_call21_v0 : Ref sig .tc := ⟨.hbm, 388, rfl⟩
abbrev main_call21_v1 : Ref sig .tc := ⟨.hbm, 389, rfl⟩
abbrev main_v244 : Ref sig .tc := ⟨.hbm, 390, rfl⟩
abbrev main_c_90 : Ref sig .tc := ⟨.hbm, 391, rfl⟩
abbrev main_v245 : Ref sig .tc := ⟨.hbm, 392, rfl⟩
abbrev main_v246 : Ref sig .tc := ⟨.hbm, 393, rfl⟩
abbrev main_c_91 : Ref sig .tc := ⟨.hbm, 394, rfl⟩
abbrev main_v247 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_c_92 : Ref sig .tc := ⟨.hbm, 400, rfl⟩
abbrev main_v252 : Ref sig .tc := ⟨.hbm, 401, rfl⟩
abbrev main_v253 : Ref sig .tc := ⟨.hbm, 402, rfl⟩
abbrev main_v254 : Ref sig .tc := ⟨.hbm, 403, rfl⟩
abbrev main_cst_93 : Ref sig .tc := ⟨.hbm, 404, rfl⟩
abbrev main_v255 : Ref sig .tc := ⟨.hbm, 405, rfl⟩
abbrev main_v256 : Ref sig .tc := ⟨.hbm, 406, rfl⟩
abbrev main_cst_94 : Ref sig .tc := ⟨.hbm, 407, rfl⟩
abbrev main_v257 : Ref sig .tc := ⟨.hbm, 408, rfl⟩
abbrev main_v258 : Ref sig .tc := ⟨.hbm, 409, rfl⟩
abbrev main_cst_95 : Ref sig .tc := ⟨.hbm, 410, rfl⟩
abbrev main_v259 : Ref sig .tc := ⟨.hbm, 411, rfl⟩
abbrev main_v260 : Ref sig .tc := ⟨.hbm, 412, rfl⟩
abbrev main_v261 : Ref sig .tc := ⟨.hbm, 413, rfl⟩
abbrev main_v262 : Ref sig .tc := ⟨.hbm, 414, rfl⟩
abbrev main_v263 : Ref sig .tc := ⟨.hbm, 415, rfl⟩
abbrev main_cst_96 : Ref sig .tc := ⟨.hbm, 416, rfl⟩
abbrev main_call22_v0 : Ref sig .tc := ⟨.hbm, 417, rfl⟩
abbrev main_call22_v1 : Ref sig .tc := ⟨.hbm, 418, rfl⟩
abbrev main_v264 : Ref sig .tc := ⟨.hbm, 419, rfl⟩
abbrev main_c_97 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_c_98 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_c_99 : Ref sig .tc := ⟨.hbm, 428, rfl⟩
abbrev main_call23_v0 : Ref sig .tc := ⟨.hbm, 429, rfl⟩
abbrev main_call23_v1 : Ref sig .tc := ⟨.hbm, 430, rfl⟩
abbrev main_v271 : Ref sig .tc := ⟨.hbm, 431, rfl⟩
abbrev main_v272 : Ref sig .tc := ⟨.hbm, 432, rfl⟩
abbrev main_v273 : Ref sig .tc := ⟨.hbm, 433, rfl⟩
abbrev main_cst_100 : Ref sig .tc := ⟨.hbm, 434, rfl⟩
abbrev main_call24_v0 : Ref sig .tc := ⟨.hbm, 435, rfl⟩
abbrev main_call24_v1 : Ref sig .tc := ⟨.hbm, 436, rfl⟩
abbrev main_v274 : Ref sig .tc := ⟨.hbm, 437, rfl⟩
abbrev main_c_101 : Ref sig .tc := ⟨.hbm, 438, rfl⟩
abbrev main_v275 : Ref sig .tc := ⟨.hbm, 439, rfl⟩
abbrev main_v276 : Ref sig .tc := ⟨.hbm, 440, rfl⟩
abbrev main_c_102 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_c_103 : Ref sig .tc := ⟨.hbm, 447, rfl⟩
abbrev main_v282 : Ref sig .tc := ⟨.hbm, 448, rfl⟩
abbrev main_v283 : Ref sig .tc := ⟨.hbm, 449, rfl⟩
abbrev main_v284 : Ref sig .tc := ⟨.hbm, 450, rfl⟩
abbrev main_cst_104 : Ref sig .tc := ⟨.hbm, 451, rfl⟩
abbrev main_v285 : Ref sig .tc := ⟨.hbm, 452, rfl⟩
abbrev main_v286 : Ref sig .tc := ⟨.hbm, 453, rfl⟩
abbrev main_cst_105 : Ref sig .tc := ⟨.hbm, 454, rfl⟩
abbrev main_v287 : Ref sig .tc := ⟨.hbm, 455, rfl⟩
abbrev main_v288 : Ref sig .tc := ⟨.hbm, 456, rfl⟩
abbrev main_cst_106 : Ref sig .tc := ⟨.hbm, 457, rfl⟩
abbrev main_v289 : Ref sig .tc := ⟨.hbm, 458, rfl⟩
abbrev main_v290 : Ref sig .tc := ⟨.hbm, 459, rfl⟩
abbrev main_v291 : Ref sig .tc := ⟨.hbm, 460, rfl⟩
abbrev main_v292 : Ref sig .tc := ⟨.hbm, 461, rfl⟩
abbrev main_v293 : Ref sig .tc := ⟨.hbm, 462, rfl⟩
abbrev main_cst_107 : Ref sig .tc := ⟨.hbm, 463, rfl⟩
abbrev main_call25_v0 : Ref sig .tc := ⟨.hbm, 464, rfl⟩
abbrev main_call25_v1 : Ref sig .tc := ⟨.hbm, 465, rfl⟩
abbrev main_v294 : Ref sig .tc := ⟨.hbm, 466, rfl⟩
abbrev main_c_108 : Ref sig .tc := ⟨.hbm, 467, rfl⟩
abbrev main_v295 : Ref sig .tc := ⟨.hbm, 468, rfl⟩
abbrev main_v296 : Ref sig .tc := ⟨.hbm, 469, rfl⟩
abbrev main_v297 : Ref sig .tc := ⟨.hbm, 470, rfl⟩
abbrev main_c_109 : Ref sig .tc := ⟨.hbm, 471, rfl⟩
abbrev main_v298 : Ref sig .tc := ⟨.hbm, 472, rfl⟩
abbrev main_v299 : Ref sig .tc := ⟨.hbm, 473, rfl⟩
abbrev main_v300 : Ref sig .tc := ⟨.hbm, 474, rfl⟩
abbrev main_c_110 : Ref sig .tc := ⟨.hbm, 475, rfl⟩
abbrev main_call26_v0 : Ref sig .tc := ⟨.hbm, 476, rfl⟩
abbrev main_call26_v1 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_cst_111 : Ref sig .tc := ⟨.hbm, 481, rfl⟩
abbrev main_call27_v0 : Ref sig .tc := ⟨.hbm, 482, rfl⟩
abbrev main_call27_v1 : Ref sig .tc := ⟨.hbm, 483, rfl⟩
abbrev main_v304 : Ref sig .tc := ⟨.hbm, 484, rfl⟩
abbrev main_c_112 : Ref sig .tc := ⟨.hbm, 485, rfl⟩
abbrev main_v305 : Ref sig .tc := ⟨.hbm, 486, rfl⟩
abbrev main_v306 : Ref sig .tc := ⟨.hbm, 487, rfl⟩
abbrev main_c_113 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_c_114 : Ref sig .tc := ⟨.hbm, 494, rfl⟩
abbrev main_v312 : Ref sig .tc := ⟨.hbm, 495, rfl⟩
abbrev main_v313 : Ref sig .tc := ⟨.hbm, 496, rfl⟩
abbrev main_v314 : Ref sig .tc := ⟨.hbm, 497, rfl⟩
abbrev main_cst_115 : Ref sig .tc := ⟨.hbm, 498, rfl⟩
abbrev main_v315 : Ref sig .tc := ⟨.hbm, 499, rfl⟩
abbrev main_v316 : Ref sig .tc := ⟨.hbm, 500, rfl⟩
abbrev main_cst_116 : Ref sig .tc := ⟨.hbm, 501, rfl⟩
abbrev main_v317 : Ref sig .tc := ⟨.hbm, 502, rfl⟩
abbrev main_v318 : Ref sig .tc := ⟨.hbm, 503, rfl⟩
abbrev main_cst_117 : Ref sig .tc := ⟨.hbm, 504, rfl⟩
abbrev main_v319 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_v323 : Ref sig .tc := ⟨.hbm, 509, rfl⟩
abbrev main_cst_118 : Ref sig .tc := ⟨.hbm, 510, rfl⟩
abbrev main_call28_v0 : Ref sig .tc := ⟨.hbm, 511, rfl⟩
abbrev main_call28_v1 : Ref sig .tc := ⟨.hbm, 512, rfl⟩
abbrev main_v324 : Ref sig .tc := ⟨.hbm, 513, rfl⟩
abbrev main_c_119 : Ref sig .tc := ⟨.hbm, 514, rfl⟩
abbrev main_v325 : Ref sig .tc := ⟨.hbm, 515, rfl⟩
abbrev main_v326 : Ref sig .tc := ⟨.hbm, 516, rfl⟩
abbrev main_c_120 : Ref sig .tc := ⟨.hbm, 517, rfl⟩
abbrev main_v327 : Ref sig .tc := ⟨.hbm, 518, rfl⟩
abbrev main_v328 : Ref sig .tc := ⟨.hbm, 519, rfl⟩
abbrev main_v329 : Ref sig .tc := ⟨.hbm, 520, rfl⟩
abbrev main_cst_121 : Ref sig .tc := ⟨.hbm, 521, rfl⟩
abbrev main_v330 : Ref sig .tc := ⟨.hbm, 522, rfl⟩
abbrev main_v331 : Ref sig .tc := ⟨.hbm, 523, rfl⟩
abbrev main_cst_122 : Ref sig .tc := ⟨.hbm, 524, rfl⟩
abbrev main_v332 : Ref sig .tc := ⟨.hbm, 525, rfl⟩
abbrev main_v333 : Ref sig .tc := ⟨.hbm, 526, rfl⟩
abbrev main_cst_123 : Ref sig .tc := ⟨.hbm, 527, rfl⟩
abbrev main_v334 : Ref sig .tc := ⟨.hbm, 528, rfl⟩
abbrev main_v335 : Ref sig .tc := ⟨.hbm, 529, rfl⟩
abbrev main_v336 : Ref sig .tc := ⟨.hbm, 530, rfl⟩
abbrev main_v337 : Ref sig .tc := ⟨.hbm, 531, rfl⟩
abbrev main_v338 : Ref sig .tc := ⟨.hbm, 532, rfl⟩
abbrev main_cst_124 : Ref sig .tc := ⟨.hbm, 533, rfl⟩
abbrev main_call29_v0 : Ref sig .tc := ⟨.hbm, 534, rfl⟩
abbrev main_call29_v1 : Ref sig .tc := ⟨.hbm, 535, rfl⟩
abbrev main_v339 : Ref sig .tc := ⟨.hbm, 536, rfl⟩
abbrev main_c_125 : Ref sig .tc := ⟨.hbm, 537, rfl⟩
abbrev main_v340 : Ref sig .tc := ⟨.hbm, 538, rfl⟩
abbrev main_v341 : Ref sig .tc := ⟨.hbm, 539, rfl⟩
abbrev main_v342 : Ref sig .tc := ⟨.hbm, 540, rfl⟩
abbrev main_c_126 : Ref sig .tc := ⟨.hbm, 541, rfl⟩
abbrev main_v343 : Ref sig .tc := ⟨.hbm, 542, rfl⟩
abbrev main_v344 : Ref sig .tc := ⟨.hbm, 543, rfl⟩
abbrev main_v345 : Ref sig .tc := ⟨.hbm, 544, rfl⟩
abbrev main_c_127 : Ref sig .tc := ⟨.hbm, 545, rfl⟩
abbrev main_call30_v0 : Ref sig .tc := ⟨.hbm, 546, rfl⟩
abbrev main_call30_v1 : Ref sig .tc := ⟨.hbm, 547, rfl⟩
abbrev main_v346 : Ref sig .tc := ⟨.hbm, 548, rfl⟩
abbrev main_v347 : Ref sig .tc := ⟨.hbm, 549, rfl⟩
abbrev main_v348 : Ref sig .tc := ⟨.hbm, 550, rfl⟩
abbrev main_cst_128 : Ref sig .tc := ⟨.hbm, 551, rfl⟩
abbrev main_call31_v0 : Ref sig .tc := ⟨.hbm, 552, rfl⟩
abbrev main_call31_v1 : Ref sig .tc := ⟨.hbm, 553, rfl⟩
abbrev main_v349 : Ref sig .tc := ⟨.hbm, 554, rfl⟩
abbrev main_c_129 : Ref sig .tc := ⟨.hbm, 555, rfl⟩
abbrev main_v350 : Ref sig .tc := ⟨.hbm, 556, rfl⟩
abbrev main_v351 : Ref sig .tc := ⟨.hbm, 557, rfl⟩
abbrev main_c_130 : Ref sig .tc := ⟨.hbm, 558, rfl⟩
abbrev main_v352 : Ref sig .tc := ⟨.hbm, 559, rfl⟩
abbrev main_v353 : Ref sig .tc := ⟨.hbm, 560, rfl⟩
abbrev main_v354 : Ref sig .tc := ⟨.hbm, 561, rfl⟩
abbrev main_v355 : Ref sig .tc := ⟨.hbm, 562, rfl⟩
abbrev main_v356 : Ref sig .tc := ⟨.hbm, 563, rfl⟩
abbrev main_c_131 : Ref sig .tc := ⟨.hbm, 564, rfl⟩
abbrev main_v357 : Ref sig .tc := ⟨.hbm, 565, rfl⟩
abbrev main_v358 : Ref sig .tc := ⟨.hbm, 566, rfl⟩
abbrev main_v359 : Ref sig .tc := ⟨.hbm, 567, rfl⟩
abbrev main_cst_132 : Ref sig .tc := ⟨.hbm, 568, rfl⟩
abbrev main_v360 : Ref sig .tc := ⟨.hbm, 569, rfl⟩
abbrev main_v361 : Ref sig .tc := ⟨.hbm, 570, rfl⟩
abbrev main_cst_133 : Ref sig .tc := ⟨.hbm, 571, rfl⟩
abbrev main_v362 : Ref sig .tc := ⟨.hbm, 572, rfl⟩
abbrev main_v363 : Ref sig .tc := ⟨.hbm, 573, rfl⟩
abbrev main_cst_134 : Ref sig .tc := ⟨.hbm, 574, rfl⟩
abbrev main_v364 : Ref sig .tc := ⟨.hbm, 575, rfl⟩
abbrev main_v365 : Ref sig .tc := ⟨.hbm, 576, rfl⟩
abbrev main_v366 : Ref sig .tc := ⟨.hbm, 577, rfl⟩
abbrev main_v367 : Ref sig .tc := ⟨.hbm, 578, rfl⟩
abbrev main_v368 : Ref sig .tc := ⟨.hbm, 579, rfl⟩
abbrev main_cst_135 : Ref sig .tc := ⟨.hbm, 580, rfl⟩
abbrev main_call32_v0 : Ref sig .tc := ⟨.hbm, 581, rfl⟩
abbrev main_call32_v1 : Ref sig .tc := ⟨.hbm, 582, rfl⟩
abbrev main_v369 : Ref sig .tc := ⟨.hbm, 583, rfl⟩
abbrev main_c_136 : Ref sig .tc := ⟨.hbm, 584, rfl⟩
abbrev main_v370 : Ref sig .tc := ⟨.hbm, 585, rfl⟩
abbrev main_v371 : Ref sig .tc := ⟨.hbm, 586, rfl⟩
abbrev main_v372 : Ref sig .tc := ⟨.hbm, 587, rfl⟩
abbrev main_c_137 : Ref sig .tc := ⟨.hbm, 588, rfl⟩
abbrev main_v373 : Ref sig .tc := ⟨.hbm, 589, rfl⟩
abbrev main_v374 : Ref sig .tc := ⟨.hbm, 590, rfl⟩
abbrev main_v375 : Ref sig .tc := ⟨.hbm, 591, rfl⟩
abbrev main_c_138 : Ref sig .tc := ⟨.hbm, 592, rfl⟩
abbrev main_call33_v0 : Ref sig .tc := ⟨.hbm, 593, rfl⟩
abbrev main_call33_v1 : Ref sig .tc := ⟨.hbm, 594, rfl⟩
abbrev main_v376 : Ref sig .tc := ⟨.hbm, 595, rfl⟩
abbrev main_v377 : Ref sig .tc := ⟨.hbm, 596, rfl⟩
abbrev main_v378 : Ref sig .tc := ⟨.hbm, 597, rfl⟩
abbrev main_cst_139 : Ref sig .tc := ⟨.hbm, 598, rfl⟩
abbrev main_call34_v0 : Ref sig .tc := ⟨.hbm, 599, rfl⟩
abbrev main_call34_v1 : Ref sig .tc := ⟨.hbm, 600, rfl⟩
abbrev main_v379 : Ref sig .tc := ⟨.hbm, 601, rfl⟩
abbrev main_c_140 : Ref sig .tc := ⟨.hbm, 602, rfl⟩
abbrev main_v380 : Ref sig .tc := ⟨.hbm, 603, rfl⟩
abbrev main_v381 : Ref sig .tc := ⟨.hbm, 604, rfl⟩
abbrev main_c_141 : Ref sig .tc := ⟨.hbm, 605, rfl⟩
abbrev main_v382 : Ref sig .tc := ⟨.hbm, 606, rfl⟩
abbrev main_v383 : Ref sig .tc := ⟨.hbm, 607, rfl⟩
abbrev main_v384 : Ref sig .tc := ⟨.hbm, 608, rfl⟩
abbrev main_v385 : Ref sig .tc := ⟨.hbm, 609, rfl⟩
abbrev main_v386 : Ref sig .tc := ⟨.hbm, 610, rfl⟩
abbrev main_c_142 : Ref sig .tc := ⟨.hbm, 611, rfl⟩
abbrev main_v387 : Ref sig .tc := ⟨.hbm, 612, rfl⟩
abbrev main_v388 : Ref sig .tc := ⟨.hbm, 613, rfl⟩
abbrev main_v389 : Ref sig .tc := ⟨.hbm, 614, rfl⟩
abbrev main_cst_143 : Ref sig .tc := ⟨.hbm, 615, rfl⟩
abbrev main_v390 : Ref sig .tc := ⟨.hbm, 616, rfl⟩
abbrev main_v391 : Ref sig .tc := ⟨.hbm, 617, rfl⟩
abbrev main_cst_144 : Ref sig .tc := ⟨.hbm, 618, rfl⟩
abbrev main_v392 : Ref sig .tc := ⟨.hbm, 619, rfl⟩
abbrev main_v393 : Ref sig .tc := ⟨.hbm, 620, rfl⟩
abbrev main_cst_145 : Ref sig .tc := ⟨.hbm, 621, rfl⟩
abbrev main_v394 : Ref sig .tc := ⟨.hbm, 622, rfl⟩
abbrev main_v395 : Ref sig .tc := ⟨.hbm, 623, rfl⟩
abbrev main_v396 : Ref sig .tc := ⟨.hbm, 624, rfl⟩
abbrev main_v397 : Ref sig .tc := ⟨.hbm, 625, rfl⟩
abbrev main_v398 : Ref sig .tc := ⟨.hbm, 626, rfl⟩
abbrev main_cst_146 : Ref sig .tc := ⟨.hbm, 627, rfl⟩
abbrev main_call35_v0 : Ref sig .tc := ⟨.hbm, 628, rfl⟩
abbrev main_call35_v1 : Ref sig .tc := ⟨.hbm, 629, rfl⟩
abbrev main_v399 : Ref sig .tc := ⟨.hbm, 630, rfl⟩
abbrev main_c_147 : Ref sig .tc := ⟨.hbm, 631, rfl⟩
abbrev main_v400 : Ref sig .tc := ⟨.hbm, 632, rfl⟩
abbrev main_v401 : Ref sig .tc := ⟨.hbm, 633, rfl⟩
abbrev main_v402 : Ref sig .tc := ⟨.hbm, 634, rfl⟩
abbrev main_c_148 : Ref sig .tc := ⟨.hbm, 635, rfl⟩
abbrev main_v403 : Ref sig .tc := ⟨.hbm, 636, rfl⟩
abbrev main_v404 : Ref sig .tc := ⟨.hbm, 637, rfl⟩
abbrev main_v405 : Ref sig .tc := ⟨.hbm, 638, rfl⟩
abbrev main_c_149 : Ref sig .tc := ⟨.hbm, 639, rfl⟩
abbrev main_call36_v0 : Ref sig .tc := ⟨.hbm, 640, rfl⟩
abbrev main_call36_v1 : Ref sig .tc := ⟨.hbm, 641, rfl⟩
abbrev main_v406 : Ref sig .tc := ⟨.hbm, 642, rfl⟩
abbrev main_v407 : Ref sig .tc := ⟨.hbm, 643, rfl⟩
abbrev main_v408 : Ref sig .tc := ⟨.hbm, 644, rfl⟩
abbrev main_cst_150 : Ref sig .tc := ⟨.hbm, 645, rfl⟩
abbrev main_call37_v0 : Ref sig .tc := ⟨.hbm, 646, rfl⟩
abbrev main_call37_v1 : Ref sig .tc := ⟨.hbm, 647, rfl⟩
abbrev main_v409 : Ref sig .tc := ⟨.hbm, 648, rfl⟩
abbrev main_c_151 : Ref sig .tc := ⟨.hbm, 649, rfl⟩
abbrev main_v410 : Ref sig .tc := ⟨.hbm, 650, rfl⟩
abbrev main_v411 : Ref sig .tc := ⟨.hbm, 651, rfl⟩
abbrev main_c_152 : Ref sig .tc := ⟨.hbm, 652, rfl⟩
abbrev main_v412 : Ref sig .tc := ⟨.hbm, 653, rfl⟩
abbrev main_v413 : Ref sig .tc := ⟨.hbm, 654, rfl⟩
abbrev main_v414 : Ref sig .tc := ⟨.hbm, 655, rfl⟩
abbrev main_v415 : Ref sig .tc := ⟨.hbm, 656, rfl⟩
abbrev main_v416 : Ref sig .tc := ⟨.hbm, 657, rfl⟩
abbrev main_c_153 : Ref sig .tc := ⟨.hbm, 658, rfl⟩
abbrev main_v417 : Ref sig .tc := ⟨.hbm, 659, rfl⟩
abbrev main_v418 : Ref sig .tc := ⟨.hbm, 660, rfl⟩
abbrev main_v419 : Ref sig .tc := ⟨.hbm, 661, rfl⟩
abbrev main_cst_154 : Ref sig .tc := ⟨.hbm, 662, rfl⟩
abbrev main_v420 : Ref sig .tc := ⟨.hbm, 663, rfl⟩
abbrev main_v421 : Ref sig .tc := ⟨.hbm, 664, rfl⟩
abbrev main_cst_155 : Ref sig .tc := ⟨.hbm, 665, rfl⟩
abbrev main_v422 : Ref sig .tc := ⟨.hbm, 666, rfl⟩
abbrev main_v423 : Ref sig .tc := ⟨.hbm, 667, rfl⟩
abbrev main_cst_156 : Ref sig .tc := ⟨.hbm, 668, rfl⟩
abbrev main_v424 : Ref sig .tc := ⟨.hbm, 669, rfl⟩
abbrev main_v425 : Ref sig .tc := ⟨.hbm, 670, rfl⟩
abbrev main_v426 : Ref sig .tc := ⟨.hbm, 671, rfl⟩
abbrev main_v427 : Ref sig .tc := ⟨.hbm, 672, rfl⟩
abbrev main_v428 : Ref sig .tc := ⟨.hbm, 673, rfl⟩
abbrev main_cst_157 : Ref sig .tc := ⟨.hbm, 674, rfl⟩
abbrev main_call38_v0 : Ref sig .tc := ⟨.hbm, 675, rfl⟩
abbrev main_call38_v1 : Ref sig .tc := ⟨.hbm, 676, rfl⟩
abbrev main_v429 : Ref sig .tc := ⟨.hbm, 677, rfl⟩
abbrev main_c_158 : Ref sig .tc := ⟨.hbm, 678, rfl⟩
abbrev main_v430 : Ref sig .tc := ⟨.hbm, 679, rfl⟩
abbrev main_v431 : Ref sig .tc := ⟨.hbm, 680, rfl⟩
abbrev main_v432 : Ref sig .tc := ⟨.hbm, 681, rfl⟩
abbrev main_c_159 : Ref sig .tc := ⟨.hbm, 682, rfl⟩
abbrev main_v433 : Ref sig .tc := ⟨.hbm, 683, rfl⟩
abbrev main_v434 : Ref sig .tc := ⟨.hbm, 684, rfl⟩
abbrev main_v435 : Ref sig .tc := ⟨.hbm, 685, rfl⟩
abbrev main_c_160 : Ref sig .tc := ⟨.hbm, 686, rfl⟩
abbrev main_call39_v0 : Ref sig .tc := ⟨.hbm, 687, rfl⟩
abbrev main_call39_v1 : Ref sig .tc := ⟨.hbm, 688, rfl⟩
abbrev main_v436 : Ref sig .tc := ⟨.hbm, 689, rfl⟩
abbrev main_v437 : Ref sig .tc := ⟨.hbm, 690, rfl⟩
abbrev main_v438 : Ref sig .tc := ⟨.hbm, 691, rfl⟩
abbrev main_cst_161 : Ref sig .tc := ⟨.hbm, 692, rfl⟩
abbrev main_call40_v0 : Ref sig .tc := ⟨.hbm, 693, rfl⟩
abbrev main_call40_v1 : Ref sig .tc := ⟨.hbm, 694, rfl⟩
abbrev main_v439 : Ref sig .tc := ⟨.hbm, 695, rfl⟩
abbrev main_c_162 : Ref sig .tc := ⟨.hbm, 696, rfl⟩
abbrev main_v440 : Ref sig .tc := ⟨.hbm, 697, rfl⟩
abbrev main_v441 : Ref sig .tc := ⟨.hbm, 698, rfl⟩
abbrev main_c_163 : Ref sig .tc := ⟨.hbm, 699, rfl⟩
abbrev main_v442 : Ref sig .tc := ⟨.hbm, 700, rfl⟩
abbrev main_v443 : Ref sig .tc := ⟨.hbm, 701, rfl⟩
abbrev main_v444 : Ref sig .tc := ⟨.hbm, 702, rfl⟩
abbrev main_v445 : Ref sig .tc := ⟨.hbm, 703, rfl⟩
abbrev main_v446 : Ref sig .tc := ⟨.hbm, 704, rfl⟩
abbrev main_c_164 : Ref sig .tc := ⟨.hbm, 705, rfl⟩
abbrev main_v447 : Ref sig .tc := ⟨.hbm, 706, rfl⟩
abbrev main_v448 : Ref sig .tc := ⟨.hbm, 707, rfl⟩
abbrev main_v449 : Ref sig .tc := ⟨.hbm, 708, rfl⟩
abbrev main_cst_165 : Ref sig .tc := ⟨.hbm, 709, rfl⟩
abbrev main_v450 : Ref sig .tc := ⟨.hbm, 710, rfl⟩
abbrev main_v451 : Ref sig .tc := ⟨.hbm, 711, rfl⟩
abbrev main_cst_166 : Ref sig .tc := ⟨.hbm, 712, rfl⟩
abbrev main_v452 : Ref sig .tc := ⟨.hbm, 713, rfl⟩
abbrev main_v453 : Ref sig .tc := ⟨.hbm, 714, rfl⟩
abbrev main_cst_167 : Ref sig .tc := ⟨.hbm, 715, rfl⟩
abbrev main_v454 : Ref sig .tc := ⟨.hbm, 716, rfl⟩
abbrev main_v455 : Ref sig .tc := ⟨.hbm, 717, rfl⟩
abbrev main_v456 : Ref sig .tc := ⟨.hbm, 718, rfl⟩
abbrev main_v457 : Ref sig .tc := ⟨.hbm, 719, rfl⟩
abbrev main_v458 : Ref sig .tc := ⟨.hbm, 720, rfl⟩
abbrev main_cst_168 : Ref sig .tc := ⟨.hbm, 721, rfl⟩
abbrev main_call41_v0 : Ref sig .tc := ⟨.hbm, 722, rfl⟩
abbrev main_call41_v1 : Ref sig .tc := ⟨.hbm, 723, rfl⟩
abbrev main_v459 : Ref sig .tc := ⟨.hbm, 724, rfl⟩
abbrev main_c_169 : Ref sig .tc := ⟨.hbm, 725, rfl⟩
abbrev main_v460 : Ref sig .tc := ⟨.hbm, 726, rfl⟩
abbrev main_v461 : Ref sig .tc := ⟨.hbm, 727, rfl⟩
abbrev main_c_170 : Ref sig .tc := ⟨.hbm, 728, rfl⟩
abbrev main_v462 : Ref sig .tc := ⟨.hbm, 729, rfl⟩
abbrev main_v463 : Ref sig .tc := ⟨.hbm, 730, rfl⟩
abbrev main_v464 : Ref sig .tc := ⟨.hbm, 731, rfl⟩
abbrev main_cst_171 : Ref sig .tc := ⟨.hbm, 732, rfl⟩
abbrev main_v465 : Ref sig .tc := ⟨.hbm, 733, rfl⟩
abbrev main_v466 : Ref sig .tc := ⟨.hbm, 734, rfl⟩
abbrev main_cst_172 : Ref sig .tc := ⟨.hbm, 735, rfl⟩
abbrev main_v467 : Ref sig .tc := ⟨.hbm, 736, rfl⟩
abbrev main_v468 : Ref sig .tc := ⟨.hbm, 737, rfl⟩
abbrev main_cst_173 : Ref sig .tc := ⟨.hbm, 738, rfl⟩
abbrev main_v469 : Ref sig .tc := ⟨.hbm, 739, rfl⟩
abbrev main_v470 : Ref sig .tc := ⟨.hbm, 740, rfl⟩
abbrev main_v471 : Ref sig .tc := ⟨.hbm, 741, rfl⟩
abbrev main_v472 : Ref sig .tc := ⟨.hbm, 742, rfl⟩
abbrev main_v473 : Ref sig .tc := ⟨.hbm, 743, rfl⟩
abbrev main_cst_174 : Ref sig .tc := ⟨.hbm, 744, rfl⟩
abbrev main_call42_v0 : Ref sig .tc := ⟨.hbm, 745, rfl⟩
abbrev main_call42_v1 : Ref sig .tc := ⟨.hbm, 746, rfl⟩
abbrev main_v474 : Ref sig .tc := ⟨.hbm, 747, rfl⟩
abbrev main_c_175 : Ref sig .tc := ⟨.hbm, 748, rfl⟩
abbrev main_v475 : Ref sig .tc := ⟨.hbm, 749, rfl⟩
abbrev main_v476 : Ref sig .tc := ⟨.hbm, 750, rfl⟩
abbrev main_v477 : Ref sig .tc := ⟨.hbm, 751, rfl⟩
abbrev main_c_176 : Ref sig .tc := ⟨.hbm, 752, rfl⟩
abbrev main_v478 : Ref sig .tc := ⟨.hbm, 753, rfl⟩
abbrev main_v479 : Ref sig .tc := ⟨.hbm, 754, rfl⟩
abbrev main_v480 : Ref sig .tc := ⟨.hbm, 755, rfl⟩
abbrev main_c_177 : Ref sig .tc := ⟨.hbm, 756, rfl⟩
abbrev main_call43_v0 : Ref sig .tc := ⟨.hbm, 757, rfl⟩
abbrev main_call43_v1 : Ref sig .tc := ⟨.hbm, 758, rfl⟩
abbrev main_v481 : Ref sig .tc := ⟨.hbm, 759, rfl⟩
abbrev main_v482 : Ref sig .tc := ⟨.hbm, 760, rfl⟩
abbrev main_v483 : Ref sig .tc := ⟨.hbm, 761, rfl⟩
abbrev main_cst_178 : Ref sig .tc := ⟨.hbm, 762, rfl⟩
abbrev main_call44_v0 : Ref sig .tc := ⟨.hbm, 763, rfl⟩
abbrev main_call44_v1 : Ref sig .tc := ⟨.hbm, 764, rfl⟩
abbrev main_v484 : Ref sig .tc := ⟨.hbm, 765, rfl⟩
abbrev main_c_179 : Ref sig .tc := ⟨.hbm, 766, rfl⟩
abbrev main_v485 : Ref sig .tc := ⟨.hbm, 767, rfl⟩
abbrev main_v486 : Ref sig .tc := ⟨.hbm, 768, rfl⟩
abbrev main_c_180 : Ref sig .tc := ⟨.hbm, 769, rfl⟩
abbrev main_v487 : Ref sig .tc := ⟨.hbm, 770, rfl⟩
abbrev main_v488 : Ref sig .tc := ⟨.hbm, 771, rfl⟩
abbrev main_v489 : Ref sig .tc := ⟨.hbm, 772, rfl⟩
abbrev main_v490 : Ref sig .tc := ⟨.hbm, 773, rfl⟩
abbrev main_v491 : Ref sig .tc := ⟨.hbm, 774, rfl⟩
abbrev main_c_181 : Ref sig .tc := ⟨.hbm, 775, rfl⟩
abbrev main_v492 : Ref sig .tc := ⟨.hbm, 776, rfl⟩
abbrev main_v493 : Ref sig .tc := ⟨.hbm, 777, rfl⟩
abbrev main_v494 : Ref sig .tc := ⟨.hbm, 778, rfl⟩
abbrev main_cst_182 : Ref sig .tc := ⟨.hbm, 779, rfl⟩
abbrev main_v495 : Ref sig .tc := ⟨.hbm, 780, rfl⟩
abbrev main_v496 : Ref sig .tc := ⟨.hbm, 781, rfl⟩
abbrev main_cst_183 : Ref sig .tc := ⟨.hbm, 782, rfl⟩
abbrev main_v497 : Ref sig .tc := ⟨.hbm, 783, rfl⟩
abbrev main_v498 : Ref sig .tc := ⟨.hbm, 784, rfl⟩
abbrev main_cst_184 : Ref sig .tc := ⟨.hbm, 785, rfl⟩
abbrev main_v499 : Ref sig .tc := ⟨.hbm, 786, rfl⟩
abbrev main_v500 : Ref sig .tc := ⟨.hbm, 787, rfl⟩
abbrev main_v501 : Ref sig .tc := ⟨.hbm, 788, rfl⟩
abbrev main_v502 : Ref sig .tc := ⟨.hbm, 789, rfl⟩
abbrev main_v503 : Ref sig .tc := ⟨.hbm, 790, rfl⟩
abbrev main_cst_185 : Ref sig .tc := ⟨.hbm, 791, rfl⟩
abbrev main_call45_v0 : Ref sig .tc := ⟨.hbm, 792, rfl⟩
abbrev main_call45_v1 : Ref sig .tc := ⟨.hbm, 793, rfl⟩
abbrev main_v504 : Ref sig .tc := ⟨.hbm, 794, rfl⟩
abbrev main_c_186 : Ref sig .tc := ⟨.hbm, 795, rfl⟩
abbrev main_v505 : Ref sig .tc := ⟨.hbm, 796, rfl⟩
abbrev main_v506 : Ref sig .tc := ⟨.hbm, 797, rfl⟩
abbrev main_v507 : Ref sig .tc := ⟨.hbm, 798, rfl⟩
abbrev main_c_187 : Ref sig .tc := ⟨.hbm, 799, rfl⟩
abbrev main_v508 : Ref sig .tc := ⟨.hbm, 800, rfl⟩
abbrev main_v509 : Ref sig .tc := ⟨.hbm, 801, rfl⟩
abbrev main_v510 : Ref sig .tc := ⟨.hbm, 802, rfl⟩
abbrev main_c_188 : Ref sig .tc := ⟨.hbm, 803, rfl⟩
abbrev main_call46_v0 : Ref sig .tc := ⟨.hbm, 804, rfl⟩
abbrev main_call46_v1 : Ref sig .tc := ⟨.hbm, 805, rfl⟩
abbrev main_v511 : Ref sig .tc := ⟨.hbm, 806, rfl⟩
abbrev main_v512 : Ref sig .tc := ⟨.hbm, 807, rfl⟩
abbrev main_v513 : Ref sig .tc := ⟨.hbm, 808, rfl⟩
abbrev main_cst_189 : Ref sig .tc := ⟨.hbm, 809, rfl⟩
abbrev main_call47_v0 : Ref sig .tc := ⟨.hbm, 810, rfl⟩
abbrev main_call47_v1 : Ref sig .tc := ⟨.hbm, 811, rfl⟩
abbrev main_v514 : Ref sig .tc := ⟨.hbm, 812, rfl⟩
abbrev main_c_190 : Ref sig .tc := ⟨.hbm, 813, rfl⟩
abbrev main_v515 : Ref sig .tc := ⟨.hbm, 814, rfl⟩
abbrev main_v516 : Ref sig .tc := ⟨.hbm, 815, rfl⟩
abbrev main_c_191 : Ref sig .tc := ⟨.hbm, 816, rfl⟩
abbrev main_v517 : Ref sig .tc := ⟨.hbm, 817, rfl⟩
abbrev main_v518 : Ref sig .tc := ⟨.hbm, 818, rfl⟩
abbrev main_v519 : Ref sig .tc := ⟨.hbm, 819, rfl⟩
abbrev main_v520 : Ref sig .tc := ⟨.hbm, 820, rfl⟩
abbrev main_v521 : Ref sig .tc := ⟨.hbm, 821, rfl⟩
abbrev main_c_192 : Ref sig .tc := ⟨.hbm, 822, rfl⟩
abbrev main_v522 : Ref sig .tc := ⟨.hbm, 823, rfl⟩
abbrev main_v523 : Ref sig .tc := ⟨.hbm, 824, rfl⟩
abbrev main_v524 : Ref sig .tc := ⟨.hbm, 825, rfl⟩
abbrev main_cst_193 : Ref sig .tc := ⟨.hbm, 826, rfl⟩
abbrev main_v525 : Ref sig .tc := ⟨.hbm, 827, rfl⟩
abbrev main_v526 : Ref sig .tc := ⟨.hbm, 828, rfl⟩
abbrev main_cst_194 : Ref sig .tc := ⟨.hbm, 829, rfl⟩
abbrev main_v527 : Ref sig .tc := ⟨.hbm, 830, rfl⟩
abbrev main_v528 : Ref sig .tc := ⟨.hbm, 831, rfl⟩
abbrev main_cst_195 : Ref sig .tc := ⟨.hbm, 832, rfl⟩
abbrev main_v529 : Ref sig .tc := ⟨.hbm, 833, rfl⟩
abbrev main_v530 : Ref sig .tc := ⟨.hbm, 834, rfl⟩
abbrev main_v531 : Ref sig .tc := ⟨.hbm, 835, rfl⟩
abbrev main_v532 : Ref sig .tc := ⟨.hbm, 836, rfl⟩
abbrev main_v533 : Ref sig .tc := ⟨.hbm, 837, rfl⟩
abbrev main_cst_196 : Ref sig .tc := ⟨.hbm, 838, rfl⟩
abbrev main_call48_v0 : Ref sig .tc := ⟨.hbm, 839, rfl⟩
abbrev main_call48_v1 : Ref sig .tc := ⟨.hbm, 840, rfl⟩
abbrev main_v534 : Ref sig .tc := ⟨.hbm, 841, rfl⟩
abbrev main_c_197 : Ref sig .tc := ⟨.hbm, 842, rfl⟩
abbrev main_v535 : Ref sig .tc := ⟨.hbm, 843, rfl⟩
abbrev main_v536 : Ref sig .tc := ⟨.hbm, 844, rfl⟩
abbrev main_v537 : Ref sig .tc := ⟨.hbm, 845, rfl⟩
abbrev main_c_198 : Ref sig .tc := ⟨.hbm, 846, rfl⟩
abbrev main_v538 : Ref sig .tc := ⟨.hbm, 847, rfl⟩
abbrev main_v539 : Ref sig .tc := ⟨.hbm, 848, rfl⟩
abbrev main_v540 : Ref sig .tc := ⟨.hbm, 849, rfl⟩
abbrev main_c_199 : Ref sig .tc := ⟨.hbm, 850, rfl⟩
abbrev main_call49_v0 : Ref sig .tc := ⟨.hbm, 851, rfl⟩
abbrev main_call49_v1 : Ref sig .tc := ⟨.hbm, 852, rfl⟩
abbrev main_v541 : Ref sig .tc := ⟨.hbm, 853, rfl⟩
abbrev main_v542 : Ref sig .tc := ⟨.hbm, 854, rfl⟩
abbrev main_v543 : Ref sig .tc := ⟨.hbm, 855, rfl⟩
abbrev main_cst_200 : Ref sig .tc := ⟨.hbm, 856, rfl⟩
abbrev main_call50_v0 : Ref sig .tc := ⟨.hbm, 857, rfl⟩
abbrev main_call50_v1 : Ref sig .tc := ⟨.hbm, 858, rfl⟩
abbrev main_v544 : Ref sig .tc := ⟨.hbm, 859, rfl⟩
abbrev main_c_201 : Ref sig .tc := ⟨.hbm, 860, rfl⟩
abbrev main_v545 : Ref sig .tc := ⟨.hbm, 861, rfl⟩
abbrev main_v546 : Ref sig .tc := ⟨.hbm, 862, rfl⟩
abbrev main_c_202 : Ref sig .tc := ⟨.hbm, 863, rfl⟩
abbrev main_v547 : Ref sig .tc := ⟨.hbm, 864, rfl⟩
abbrev main_v548 : Ref sig .tc := ⟨.hbm, 865, rfl⟩
abbrev main_v549 : Ref sig .tc := ⟨.hbm, 866, rfl⟩
abbrev main_v550 : Ref sig .tc := ⟨.hbm, 867, rfl⟩
abbrev main_v551 : Ref sig .tc := ⟨.hbm, 868, rfl⟩
abbrev main_c_203 : Ref sig .tc := ⟨.hbm, 869, rfl⟩
abbrev main_v552 : Ref sig .tc := ⟨.hbm, 870, rfl⟩
abbrev main_v553 : Ref sig .tc := ⟨.hbm, 871, rfl⟩
abbrev main_v554 : Ref sig .tc := ⟨.hbm, 872, rfl⟩
abbrev main_cst_204 : Ref sig .tc := ⟨.hbm, 873, rfl⟩
abbrev main_v555 : Ref sig .tc := ⟨.hbm, 874, rfl⟩
abbrev main_v556 : Ref sig .tc := ⟨.hbm, 875, rfl⟩
abbrev main_cst_205 : Ref sig .tc := ⟨.hbm, 876, rfl⟩
abbrev main_v557 : Ref sig .tc := ⟨.hbm, 877, rfl⟩
abbrev main_v558 : Ref sig .tc := ⟨.hbm, 878, rfl⟩
abbrev main_cst_206 : Ref sig .tc := ⟨.hbm, 879, rfl⟩
abbrev main_v559 : Ref sig .tc := ⟨.hbm, 880, rfl⟩
abbrev main_v560 : Ref sig .tc := ⟨.hbm, 881, rfl⟩
abbrev main_v561 : Ref sig .tc := ⟨.hbm, 882, rfl⟩
abbrev main_v562 : Ref sig .tc := ⟨.hbm, 883, rfl⟩
abbrev main_v563 : Ref sig .tc := ⟨.hbm, 884, rfl⟩
abbrev main_cst_207 : Ref sig .tc := ⟨.hbm, 885, rfl⟩
abbrev main_call51_v0 : Ref sig .tc := ⟨.hbm, 886, rfl⟩
abbrev main_call51_v1 : Ref sig .tc := ⟨.hbm, 887, rfl⟩
abbrev main_v564 : Ref sig .tc := ⟨.hbm, 888, rfl⟩
abbrev main_c_208 : Ref sig .tc := ⟨.hbm, 889, rfl⟩
abbrev main_v565 : Ref sig .tc := ⟨.hbm, 890, rfl⟩
abbrev main_v566 : Ref sig .tc := ⟨.hbm, 891, rfl⟩
abbrev main_v567 : Ref sig .tc := ⟨.hbm, 892, rfl⟩
abbrev main_c_209 : Ref sig .tc := ⟨.hbm, 893, rfl⟩
abbrev main_v568 : Ref sig .tc := ⟨.hbm, 894, rfl⟩
abbrev main_v569 : Ref sig .tc := ⟨.hbm, 895, rfl⟩
abbrev main_v570 : Ref sig .tc := ⟨.hbm, 896, rfl⟩
abbrev main_c_210 : Ref sig .tc := ⟨.hbm, 897, rfl⟩
abbrev main_call52_v0 : Ref sig .tc := ⟨.hbm, 898, rfl⟩
abbrev main_call52_v1 : Ref sig .tc := ⟨.hbm, 899, rfl⟩
abbrev main_v571 : Ref sig .tc := ⟨.hbm, 900, rfl⟩
abbrev main_v572 : Ref sig .tc := ⟨.hbm, 901, rfl⟩
abbrev main_v573 : Ref sig .tc := ⟨.hbm, 902, rfl⟩
abbrev main_cst_211 : Ref sig .tc := ⟨.hbm, 903, rfl⟩
abbrev main_call53_v0 : Ref sig .tc := ⟨.hbm, 904, rfl⟩
abbrev main_call53_v1 : Ref sig .tc := ⟨.hbm, 905, rfl⟩
abbrev main_v574 : Ref sig .tc := ⟨.hbm, 906, rfl⟩
abbrev main_c_212 : Ref sig .tc := ⟨.hbm, 907, rfl⟩
abbrev main_v575 : Ref sig .tc := ⟨.hbm, 908, rfl⟩
abbrev main_v576 : Ref sig .tc := ⟨.hbm, 909, rfl⟩
abbrev main_c_213 : Ref sig .tc := ⟨.hbm, 910, rfl⟩
abbrev main_v577 : Ref sig .tc := ⟨.hbm, 911, rfl⟩
abbrev main_v578 : Ref sig .tc := ⟨.hbm, 912, rfl⟩
abbrev main_v579 : Ref sig .tc := ⟨.hbm, 913, rfl⟩
abbrev main_v580 : Ref sig .tc := ⟨.hbm, 914, rfl⟩
abbrev main_v581 : Ref sig .tc := ⟨.hbm, 915, rfl⟩
abbrev main_cst_214 : Ref sig .tc := ⟨.hbm, 916, rfl⟩
abbrev main_v582 : Ref sig .tc := ⟨.hbm, 917, rfl⟩
abbrev main_v583 : Ref sig .tc := ⟨.hbm, 918, rfl⟩
abbrev main_cst_215 : Ref sig .tc := ⟨.hbm, 919, rfl⟩
abbrev main_v584 : Ref sig .tc := ⟨.hbm, 920, rfl⟩
abbrev main_v585 : Ref sig .tc := ⟨.hbm, 921, rfl⟩
abbrev main_cst_216 : Ref sig .tc := ⟨.hbm, 922, rfl⟩
abbrev main_cst_217 : Ref sig .tc := ⟨.hbm, 923, rfl⟩
abbrev main_call54_v0 : Ref sig .tc := ⟨.hbm, 924, rfl⟩
abbrev main_call54_v1 : Ref sig .tc := ⟨.hbm, 925, rfl⟩
abbrev main_call54_v2 : Ref sig .tc := ⟨.hbm, 926, rfl⟩
abbrev main_call54_v3 : Ref sig .tc := ⟨.hbm, 927, rfl⟩
abbrev main_call54_v4 : Ref sig .tc := ⟨.hbm, 928, rfl⟩
abbrev main_v586 : Ref sig .tc := ⟨.hbm, 929, rfl⟩
abbrev main_v587 : Ref sig .tc := ⟨.hbm, 930, rfl⟩
abbrev main_v588 : Ref sig .tc := ⟨.hbm, 931, rfl⟩
abbrev main_v589 : Ref sig .tc := ⟨.hbm, 932, rfl⟩
abbrev main_v590 : Ref sig .tc := ⟨.hbm, 933, rfl⟩
abbrev main_cst_218 : Ref sig .tc := ⟨.hbm, 934, rfl⟩
abbrev main_v591 : Ref sig .tc := ⟨.hbm, 935, rfl⟩
abbrev main_v592 : Ref sig .tc := ⟨.hbm, 936, rfl⟩
abbrev main_cst_219 : Ref sig .tc := ⟨.hbm, 937, rfl⟩
abbrev main_v593 : Ref sig .tc := ⟨.hbm, 938, rfl⟩
abbrev main_v594 : Ref sig .tc := ⟨.hbm, 939, rfl⟩
abbrev main_v595 : Ref sig .tc := ⟨.hbm, 940, rfl⟩
abbrev main_v596 : Ref sig .tc := ⟨.hbm, 941, rfl⟩
abbrev main_c_220 : Ref sig .tc := ⟨.hbm, 942, rfl⟩
abbrev main_c_221 : Ref sig .tc := ⟨.hbm, 943, rfl⟩
abbrev main_call55_v0 : Ref sig .tc := ⟨.hbm, 944, rfl⟩
abbrev main_call55_v1 : Ref sig .tc := ⟨.hbm, 945, rfl⟩
abbrev main_call55_v2 : Ref sig .tc := ⟨.hbm, 946, rfl⟩
abbrev main_call55_v3 : Ref sig .tc := ⟨.hbm, 947, rfl⟩
abbrev main_call55_v4 : Ref sig .tc := ⟨.hbm, 948, rfl⟩
abbrev main_v597 : Ref sig .tc := ⟨.hbm, 949, rfl⟩
abbrev main_cst_222 : Ref sig .tc := ⟨.hbm, 950, rfl⟩
abbrev main_v598 : Ref sig .tc := ⟨.hbm, 951, rfl⟩
abbrev main_v599 : Ref sig .tc := ⟨.hbm, 952, rfl⟩
abbrev main_cst_223 : Ref sig .tc := ⟨.hbm, 953, rfl⟩
abbrev main_v600 : Ref sig .tc := ⟨.hbm, 954, rfl⟩
abbrev main_v601 : Ref sig .tc := ⟨.hbm, 955, rfl⟩
abbrev main_v602 : Ref sig .tc := ⟨.hbm, 956, rfl⟩
abbrev main_v603 : Ref sig .tc := ⟨.hbm, 957, rfl⟩
abbrev main_c_224 : Ref sig .tc := ⟨.hbm, 958, rfl⟩
abbrev main_c_225 : Ref sig .tc := ⟨.hbm, 959, rfl⟩
abbrev main_call56_v0 : Ref sig .tc := ⟨.hbm, 960, rfl⟩
abbrev main_call56_v1 : Ref sig .tc := ⟨.hbm, 961, rfl⟩
abbrev main_call56_v2 : Ref sig .tc := ⟨.hbm, 962, rfl⟩
abbrev main_call56_v3 : Ref sig .tc := ⟨.hbm, 963, rfl⟩
abbrev main_call56_v4 : Ref sig .tc := ⟨.hbm, 964, rfl⟩
abbrev main_v604 : Ref sig .tc := ⟨.hbm, 965, rfl⟩
abbrev main_cst_226 : Ref sig .tc := ⟨.hbm, 966, rfl⟩
abbrev main_v605 : Ref sig .tc := ⟨.hbm, 967, rfl⟩
abbrev main_c_227 : Ref sig .tc := ⟨.hbm, 968, rfl⟩
abbrev main_v606 : Ref sig .tc := ⟨.hbm, 969, rfl⟩
abbrev main_v607 : Ref sig .tc := ⟨.hbm, 970, rfl⟩
abbrev main_v608 : Ref sig .tc := ⟨.hbm, 971, rfl⟩
abbrev main_v609 : Ref sig .tc := ⟨.hbm, 972, rfl⟩
abbrev main_cst_228 : Ref sig .tc := ⟨.hbm, 973, rfl⟩
abbrev main_v610 : Ref sig .tc := ⟨.hbm, 974, rfl⟩
abbrev main_v611 : Ref sig .tc := ⟨.hbm, 975, rfl⟩
abbrev main_cst_229 : Ref sig .tc := ⟨.hbm, 976, rfl⟩
abbrev main_v612 : Ref sig .tc := ⟨.hbm, 977, rfl⟩
abbrev main_v613 : Ref sig .tc := ⟨.hbm, 978, rfl⟩
abbrev main_cst_230 : Ref sig .tc := ⟨.hbm, 979, rfl⟩
abbrev main_v614 : Ref sig .tc := ⟨.hbm, 980, rfl⟩
abbrev main_v615 : Ref sig .tc := ⟨.hbm, 981, rfl⟩
abbrev main_v616 : Ref sig .tc := ⟨.hbm, 982, rfl⟩
abbrev main_v617 : Ref sig .tc := ⟨.hbm, 983, rfl⟩
abbrev main_v618 : Ref sig .tc := ⟨.hbm, 984, rfl⟩
abbrev main_cst_231 : Ref sig .tc := ⟨.hbm, 985, rfl⟩
abbrev main_call57_v0 : Ref sig .tc := ⟨.hbm, 986, rfl⟩
abbrev main_call57_v1 : Ref sig .tc := ⟨.hbm, 987, rfl⟩
abbrev main_v619 : Ref sig .tc := ⟨.hbm, 988, rfl⟩
abbrev main_c_232 : Ref sig .tc := ⟨.hbm, 989, rfl⟩
abbrev main_v620 : Ref sig .tc := ⟨.hbm, 990, rfl⟩
abbrev main_v621 : Ref sig .tc := ⟨.hbm, 991, rfl⟩
abbrev main_c_233 : Ref sig .tc := ⟨.hbm, 992, rfl⟩
abbrev main_v622 : Ref sig .tc := ⟨.hbm, 993, rfl⟩
abbrev main_v623 : Ref sig .tc := ⟨.hbm, 994, rfl⟩
abbrev main_v624 : Ref sig .tc := ⟨.hbm, 995, rfl⟩
abbrev main_v625 : Ref sig .tc := ⟨.hbm, 996, rfl⟩
abbrev main_cst_234 : Ref sig .tc := ⟨.hbm, 997, rfl⟩
abbrev main_v626 : Ref sig .tc := ⟨.hbm, 998, rfl⟩
abbrev main_v627 : Ref sig .tc := ⟨.hbm, 999, rfl⟩
abbrev main_cst_235 : Ref sig .tc := ⟨.hbm, 1000, rfl⟩
abbrev main_v628 : Ref sig .tc := ⟨.hbm, 1001, rfl⟩
abbrev main_v629 : Ref sig .tc := ⟨.hbm, 1002, rfl⟩
abbrev main_cst_236 : Ref sig .tc := ⟨.hbm, 1003, rfl⟩
abbrev main_v630 : Ref sig .tc := ⟨.hbm, 1004, rfl⟩
abbrev main_v631 : Ref sig .tc := ⟨.hbm, 1005, rfl⟩
abbrev main_v632 : Ref sig .tc := ⟨.hbm, 1006, rfl⟩
abbrev main_v633 : Ref sig .tc := ⟨.hbm, 1007, rfl⟩
abbrev main_v634 : Ref sig .tc := ⟨.hbm, 1008, rfl⟩
abbrev main_cst_237 : Ref sig .tc := ⟨.hbm, 1009, rfl⟩
abbrev main_call58_v0 : Ref sig .tc := ⟨.hbm, 1010, rfl⟩
abbrev main_call58_v1 : Ref sig .tc := ⟨.hbm, 1011, rfl⟩
abbrev main_v635 : Ref sig .tc := ⟨.hbm, 1012, rfl⟩
abbrev main_c_238 : Ref sig .tc := ⟨.hbm, 1013, rfl⟩
abbrev main_v636 : Ref sig .tc := ⟨.hbm, 1014, rfl⟩
abbrev main_v637 : Ref sig .tc := ⟨.hbm, 1015, rfl⟩
abbrev main_v638 : Ref sig .tc := ⟨.hbm, 1016, rfl⟩
abbrev main_c_239 : Ref sig .tc := ⟨.hbm, 1017, rfl⟩
abbrev main_v639 : Ref sig .tc := ⟨.hbm, 1018, rfl⟩
abbrev main_v640 : Ref sig .tc := ⟨.hbm, 1019, rfl⟩
abbrev main_v641 : Ref sig .tc := ⟨.hbm, 1020, rfl⟩
abbrev main_c_240 : Ref sig .tc := ⟨.hbm, 1021, rfl⟩
abbrev main_call59_v0 : Ref sig .tc := ⟨.hbm, 1022, rfl⟩
abbrev main_call59_v1 : Ref sig .tc := ⟨.hbm, 1023, rfl⟩
abbrev main_v642 : Ref sig .tc := ⟨.hbm, 1024, rfl⟩
abbrev main_v643 : Ref sig .tc := ⟨.hbm, 1025, rfl⟩
abbrev main_c_241 : Ref sig .tc := ⟨.hbm, 1026, rfl⟩
abbrev main_v644 : Ref sig .tc := ⟨.hbm, 1027, rfl⟩
abbrev main_v645 : Ref sig .tc := ⟨.hbm, 1028, rfl⟩
abbrev main_c_242 : Ref sig .tc := ⟨.hbm, 1029, rfl⟩
abbrev main_v646 : Ref sig .tc := ⟨.hbm, 1030, rfl⟩
abbrev main_v647 : Ref sig .tc := ⟨.hbm, 1031, rfl⟩
abbrev main_v648 : Ref sig .tc := ⟨.hbm, 1032, rfl⟩
abbrev main_v649 : Ref sig .tc := ⟨.hbm, 1033, rfl⟩
abbrev main_v650 : Ref sig .tc := ⟨.hbm, 1034, rfl⟩
abbrev main_v651 : Ref sig .tc := ⟨.hbm, 1035, rfl⟩
abbrev main_cst_243 : Ref sig .tc := ⟨.hbm, 1036, rfl⟩
abbrev main_call60_v0 : Ref sig .tc := ⟨.hbm, 1037, rfl⟩
abbrev main_call60_v1 : Ref sig .tc := ⟨.hbm, 1038, rfl⟩
abbrev main_v652 : Ref sig .tc := ⟨.hbm, 1039, rfl⟩
abbrev main_v653 : Ref sig .tc := ⟨.hbm, 1040, rfl⟩
abbrev main_c_244 : Ref sig .tc := ⟨.hbm, 1041, rfl⟩
abbrev main_v654 : Ref sig .tc := ⟨.hbm, 1042, rfl⟩
abbrev main_v655 : Ref sig .tc := ⟨.hbm, 1043, rfl⟩
abbrev main_v656 : Ref sig .tc := ⟨.hbm, 1044, rfl⟩
abbrev main_v657 : Ref sig .tc := ⟨.hbm, 1045, rfl⟩
abbrev main_cst_245 : Ref sig .tc := ⟨.hbm, 1046, rfl⟩
abbrev main_v658 : Ref sig .tc := ⟨.hbm, 1047, rfl⟩
abbrev main_v659 : Ref sig .tc := ⟨.hbm, 1048, rfl⟩
abbrev main_cst_246 : Ref sig .tc := ⟨.hbm, 1049, rfl⟩
abbrev main_v660 : Ref sig .tc := ⟨.hbm, 1050, rfl⟩
abbrev main_v661 : Ref sig .tc := ⟨.hbm, 1051, rfl⟩
abbrev main_cst_247 : Ref sig .tc := ⟨.hbm, 1052, rfl⟩
abbrev main_v662 : Ref sig .tc := ⟨.hbm, 1053, rfl⟩
abbrev main_v663 : Ref sig .tc := ⟨.hbm, 1054, rfl⟩
abbrev main_v664 : Ref sig .tc := ⟨.hbm, 1055, rfl⟩
abbrev main_v665 : Ref sig .tc := ⟨.hbm, 1056, rfl⟩
abbrev main_v666 : Ref sig .tc := ⟨.hbm, 1057, rfl⟩
abbrev main_cst_248 : Ref sig .tc := ⟨.hbm, 1058, rfl⟩
abbrev main_call61_v0 : Ref sig .tc := ⟨.hbm, 1059, rfl⟩
abbrev main_call61_v1 : Ref sig .tc := ⟨.hbm, 1060, rfl⟩
abbrev main_v667 : Ref sig .tc := ⟨.hbm, 1061, rfl⟩
abbrev main_c_249 : Ref sig .tc := ⟨.hbm, 1062, rfl⟩
abbrev main_v668 : Ref sig .tc := ⟨.hbm, 1063, rfl⟩
abbrev main_v669 : Ref sig .tc := ⟨.hbm, 1064, rfl⟩
abbrev main_v670 : Ref sig .tc := ⟨.hbm, 1065, rfl⟩
abbrev main_c_250 : Ref sig .tc := ⟨.hbm, 1066, rfl⟩
abbrev main_v671 : Ref sig .tc := ⟨.hbm, 1067, rfl⟩
abbrev main_v672 : Ref sig .tc := ⟨.hbm, 1068, rfl⟩
abbrev main_v673 : Ref sig .tc := ⟨.hbm, 1069, rfl⟩
abbrev main_c_251 : Ref sig .tc := ⟨.hbm, 1070, rfl⟩
abbrev main_call62_v0 : Ref sig .tc := ⟨.hbm, 1071, rfl⟩
abbrev main_call62_v1 : Ref sig .tc := ⟨.hbm, 1072, rfl⟩
abbrev main_v674 : Ref sig .tc := ⟨.hbm, 1073, rfl⟩
abbrev main_v675 : Ref sig .tc := ⟨.hbm, 1074, rfl⟩
abbrev main_c_252 : Ref sig .tc := ⟨.hbm, 1075, rfl⟩
abbrev main_v676 : Ref sig .tc := ⟨.hbm, 1076, rfl⟩
abbrev main_v677 : Ref sig .tc := ⟨.hbm, 1077, rfl⟩
abbrev main_c_253 : Ref sig .tc := ⟨.hbm, 1078, rfl⟩
abbrev main_v678 : Ref sig .tc := ⟨.hbm, 1079, rfl⟩
abbrev main_v679 : Ref sig .tc := ⟨.hbm, 1080, rfl⟩
abbrev main_v680 : Ref sig .tc := ⟨.hbm, 1081, rfl⟩
abbrev main_v681 : Ref sig .tc := ⟨.hbm, 1082, rfl⟩
abbrev main_v682 : Ref sig .tc := ⟨.hbm, 1083, rfl⟩
abbrev main_v683 : Ref sig .tc := ⟨.hbm, 1084, rfl⟩
abbrev main_cst_254 : Ref sig .tc := ⟨.hbm, 1085, rfl⟩
abbrev main_call63_v0 : Ref sig .tc := ⟨.hbm, 1086, rfl⟩
abbrev main_call63_v1 : Ref sig .tc := ⟨.hbm, 1087, rfl⟩
abbrev main_v684 : Ref sig .tc := ⟨.hbm, 1088, rfl⟩
abbrev main_v685 : Ref sig .tc := ⟨.hbm, 1089, rfl⟩
abbrev main_c_255 : Ref sig .tc := ⟨.hbm, 1090, rfl⟩
abbrev main_v686 : Ref sig .tc := ⟨.hbm, 1091, rfl⟩
abbrev main_v687 : Ref sig .tc := ⟨.hbm, 1092, rfl⟩
abbrev main_v688 : Ref sig .tc := ⟨.hbm, 1093, rfl⟩
abbrev main_v689 : Ref sig .tc := ⟨.hbm, 1094, rfl⟩
abbrev main_cst_256 : Ref sig .tc := ⟨.hbm, 1095, rfl⟩
abbrev main_v690 : Ref sig .tc := ⟨.hbm, 1096, rfl⟩
abbrev main_v691 : Ref sig .tc := ⟨.hbm, 1097, rfl⟩
abbrev main_cst_257 : Ref sig .tc := ⟨.hbm, 1098, rfl⟩
abbrev main_v692 : Ref sig .tc := ⟨.hbm, 1099, rfl⟩
abbrev main_v693 : Ref sig .tc := ⟨.hbm, 1100, rfl⟩
abbrev main_cst_258 : Ref sig .tc := ⟨.hbm, 1101, rfl⟩
abbrev main_v694 : Ref sig .tc := ⟨.hbm, 1102, rfl⟩
abbrev main_v695 : Ref sig .tc := ⟨.hbm, 1103, rfl⟩
abbrev main_v696 : Ref sig .tc := ⟨.hbm, 1104, rfl⟩
abbrev main_v697 : Ref sig .tc := ⟨.hbm, 1105, rfl⟩
abbrev main_v698 : Ref sig .tc := ⟨.hbm, 1106, rfl⟩
abbrev main_cst_259 : Ref sig .tc := ⟨.hbm, 1107, rfl⟩
abbrev main_call64_v0 : Ref sig .tc := ⟨.hbm, 1108, rfl⟩
abbrev main_call64_v1 : Ref sig .tc := ⟨.hbm, 1109, rfl⟩
abbrev main_v699 : Ref sig .tc := ⟨.hbm, 1110, rfl⟩
abbrev main_c_260 : Ref sig .tc := ⟨.hbm, 1111, rfl⟩
abbrev main_v700 : Ref sig .tc := ⟨.hbm, 1112, rfl⟩
abbrev main_v701 : Ref sig .tc := ⟨.hbm, 1113, rfl⟩
abbrev main_v702 : Ref sig .tc := ⟨.hbm, 1114, rfl⟩
abbrev main_c_261 : Ref sig .tc := ⟨.hbm, 1115, rfl⟩
abbrev main_v703 : Ref sig .tc := ⟨.hbm, 1116, rfl⟩
abbrev main_v704 : Ref sig .tc := ⟨.hbm, 1117, rfl⟩
abbrev main_v705 : Ref sig .tc := ⟨.hbm, 1118, rfl⟩
abbrev main_c_262 : Ref sig .tc := ⟨.hbm, 1119, rfl⟩
abbrev main_call65_v0 : Ref sig .tc := ⟨.hbm, 1120, rfl⟩
abbrev main_call65_v1 : Ref sig .tc := ⟨.hbm, 1121, rfl⟩
abbrev main_v706 : Ref sig .tc := ⟨.hbm, 1122, rfl⟩
abbrev main_v707 : Ref sig .tc := ⟨.hbm, 1123, rfl⟩
abbrev main_c_263 : Ref sig .tc := ⟨.hbm, 1124, rfl⟩
abbrev main_v708 : Ref sig .tc := ⟨.hbm, 1125, rfl⟩
abbrev main_v709 : Ref sig .tc := ⟨.hbm, 1126, rfl⟩
abbrev main_c_264 : Ref sig .tc := ⟨.hbm, 1127, rfl⟩
abbrev main_v710 : Ref sig .tc := ⟨.hbm, 1128, rfl⟩
abbrev main_v711 : Ref sig .tc := ⟨.hbm, 1129, rfl⟩
abbrev main_v712 : Ref sig .tc := ⟨.hbm, 1130, rfl⟩
abbrev main_v713 : Ref sig .tc := ⟨.hbm, 1131, rfl⟩
abbrev main_v714 : Ref sig .tc := ⟨.hbm, 1132, rfl⟩
abbrev main_v715 : Ref sig .tc := ⟨.hbm, 1133, rfl⟩
abbrev main_cst_265 : Ref sig .tc := ⟨.hbm, 1134, rfl⟩
abbrev main_call66_v0 : Ref sig .tc := ⟨.hbm, 1135, rfl⟩
abbrev main_call66_v1 : Ref sig .tc := ⟨.hbm, 1136, rfl⟩
abbrev main_v716 : Ref sig .tc := ⟨.hbm, 1137, rfl⟩
abbrev main_v717 : Ref sig .tc := ⟨.hbm, 1138, rfl⟩
abbrev main_c_266 : Ref sig .tc := ⟨.hbm, 1139, rfl⟩
abbrev main_v718 : Ref sig .tc := ⟨.hbm, 1140, rfl⟩
abbrev main_v719 : Ref sig .tc := ⟨.hbm, 1141, rfl⟩
abbrev main_v720 : Ref sig .tc := ⟨.hbm, 1142, rfl⟩
abbrev main_v721 : Ref sig .tc := ⟨.hbm, 1143, rfl⟩
abbrev main_cst_267 : Ref sig .tc := ⟨.hbm, 1144, rfl⟩
abbrev main_v722 : Ref sig .tc := ⟨.hbm, 1145, rfl⟩
abbrev main_v723 : Ref sig .tc := ⟨.hbm, 1146, rfl⟩
abbrev main_cst_268 : Ref sig .tc := ⟨.hbm, 1147, rfl⟩
abbrev main_v724 : Ref sig .tc := ⟨.hbm, 1148, rfl⟩
abbrev main_v725 : Ref sig .tc := ⟨.hbm, 1149, rfl⟩
abbrev main_cst_269 : Ref sig .tc := ⟨.hbm, 1150, rfl⟩
abbrev main_v726 : Ref sig .tc := ⟨.hbm, 1151, rfl⟩
abbrev main_v727 : Ref sig .tc := ⟨.hbm, 1152, rfl⟩
abbrev main_v728 : Ref sig .tc := ⟨.hbm, 1153, rfl⟩
abbrev main_v729 : Ref sig .tc := ⟨.hbm, 1154, rfl⟩
abbrev main_v730 : Ref sig .tc := ⟨.hbm, 1155, rfl⟩
abbrev main_cst_270 : Ref sig .tc := ⟨.hbm, 1156, rfl⟩
abbrev main_call67_v0 : Ref sig .tc := ⟨.hbm, 1157, rfl⟩
abbrev main_call67_v1 : Ref sig .tc := ⟨.hbm, 1158, rfl⟩
abbrev main_v731 : Ref sig .tc := ⟨.hbm, 1159, rfl⟩
abbrev main_c_271 : Ref sig .tc := ⟨.hbm, 1160, rfl⟩
abbrev main_v732 : Ref sig .tc := ⟨.hbm, 1161, rfl⟩
abbrev main_v733 : Ref sig .tc := ⟨.hbm, 1162, rfl⟩
abbrev main_v734 : Ref sig .tc := ⟨.hbm, 1163, rfl⟩
abbrev main_c_272 : Ref sig .tc := ⟨.hbm, 1164, rfl⟩
abbrev main_v735 : Ref sig .tc := ⟨.hbm, 1165, rfl⟩
abbrev main_v736 : Ref sig .tc := ⟨.hbm, 1166, rfl⟩
abbrev main_v737 : Ref sig .tc := ⟨.hbm, 1167, rfl⟩
abbrev main_c_273 : Ref sig .tc := ⟨.hbm, 1168, rfl⟩
abbrev main_call68_v0 : Ref sig .tc := ⟨.hbm, 1169, rfl⟩
abbrev main_call68_v1 : Ref sig .tc := ⟨.hbm, 1170, rfl⟩
abbrev main_v738 : Ref sig .tc := ⟨.hbm, 1171, rfl⟩
abbrev main_v739 : Ref sig .tc := ⟨.hbm, 1172, rfl⟩
abbrev main_c_274 : Ref sig .tc := ⟨.hbm, 1173, rfl⟩
abbrev main_v740 : Ref sig .tc := ⟨.hbm, 1174, rfl⟩
abbrev main_v741 : Ref sig .tc := ⟨.hbm, 1175, rfl⟩
abbrev main_c_275 : Ref sig .tc := ⟨.hbm, 1176, rfl⟩
abbrev main_v742 : Ref sig .tc := ⟨.hbm, 1177, rfl⟩
abbrev main_v743 : Ref sig .tc := ⟨.hbm, 1178, rfl⟩
abbrev main_v744 : Ref sig .tc := ⟨.hbm, 1179, rfl⟩
abbrev main_v745 : Ref sig .tc := ⟨.hbm, 1180, rfl⟩
abbrev main_v746 : Ref sig .tc := ⟨.hbm, 1181, rfl⟩
abbrev main_v747 : Ref sig .tc := ⟨.hbm, 1182, rfl⟩
abbrev main_cst_276 : Ref sig .tc := ⟨.hbm, 1183, rfl⟩
abbrev main_call69_v0 : Ref sig .tc := ⟨.hbm, 1184, rfl⟩
abbrev main_call69_v1 : Ref sig .tc := ⟨.hbm, 1185, rfl⟩
abbrev main_v748 : Ref sig .tc := ⟨.hbm, 1186, rfl⟩
abbrev main_v749 : Ref sig .tc := ⟨.hbm, 1187, rfl⟩
abbrev main_c_277 : Ref sig .tc := ⟨.hbm, 1188, rfl⟩
abbrev main_v750 : Ref sig .tc := ⟨.hbm, 1189, rfl⟩
abbrev main_v751 : Ref sig .tc := ⟨.hbm, 1190, rfl⟩
abbrev main_v752 : Ref sig .tc := ⟨.hbm, 1191, rfl⟩
abbrev main_v753 : Ref sig .tc := ⟨.hbm, 1192, rfl⟩
abbrev main_cst_278 : Ref sig .tc := ⟨.hbm, 1193, rfl⟩
abbrev main_v754 : Ref sig .tc := ⟨.hbm, 1194, rfl⟩
abbrev main_v755 : Ref sig .tc := ⟨.hbm, 1195, rfl⟩
abbrev main_cst_279 : Ref sig .tc := ⟨.hbm, 1196, rfl⟩
abbrev main_v756 : Ref sig .tc := ⟨.hbm, 1197, rfl⟩
abbrev main_v757 : Ref sig .tc := ⟨.hbm, 1198, rfl⟩
abbrev main_cst_280 : Ref sig .tc := ⟨.hbm, 1199, rfl⟩
abbrev main_v758 : Ref sig .tc := ⟨.hbm, 1200, rfl⟩
abbrev main_v759 : Ref sig .tc := ⟨.hbm, 1201, rfl⟩
abbrev main_v760 : Ref sig .tc := ⟨.hbm, 1202, rfl⟩
abbrev main_v761 : Ref sig .tc := ⟨.hbm, 1203, rfl⟩
abbrev main_v762 : Ref sig .tc := ⟨.hbm, 1204, rfl⟩
abbrev main_cst_281 : Ref sig .tc := ⟨.hbm, 1205, rfl⟩
abbrev main_call70_v0 : Ref sig .tc := ⟨.hbm, 1206, rfl⟩
abbrev main_call70_v1 : Ref sig .tc := ⟨.hbm, 1207, rfl⟩
abbrev main_v763 : Ref sig .tc := ⟨.hbm, 1208, rfl⟩
abbrev main_c_282 : Ref sig .tc := ⟨.hbm, 1209, rfl⟩
abbrev main_v764 : Ref sig .tc := ⟨.hbm, 1210, rfl⟩
abbrev main_v765 : Ref sig .tc := ⟨.hbm, 1211, rfl⟩
abbrev main_c_283 : Ref sig .tc := ⟨.hbm, 1212, rfl⟩
abbrev main_v766 : Ref sig .tc := ⟨.hbm, 1213, rfl⟩
abbrev main_v767 : Ref sig .tc := ⟨.hbm, 1214, rfl⟩
abbrev main_v768 : Ref sig .tc := ⟨.hbm, 1215, rfl⟩
abbrev main_v769 : Ref sig .tc := ⟨.hbm, 1216, rfl⟩
abbrev main_cst_284 : Ref sig .tc := ⟨.hbm, 1217, rfl⟩
abbrev main_v770 : Ref sig .tc := ⟨.hbm, 1218, rfl⟩
abbrev main_v771 : Ref sig .tc := ⟨.hbm, 1219, rfl⟩
abbrev main_cst_285 : Ref sig .tc := ⟨.hbm, 1220, rfl⟩
abbrev main_v772 : Ref sig .tc := ⟨.hbm, 1221, rfl⟩
abbrev main_v773 : Ref sig .tc := ⟨.hbm, 1222, rfl⟩
abbrev main_cst_286 : Ref sig .tc := ⟨.hbm, 1223, rfl⟩
abbrev main_v774 : Ref sig .tc := ⟨.hbm, 1224, rfl⟩
abbrev main_v775 : Ref sig .tc := ⟨.hbm, 1225, rfl⟩
abbrev main_v776 : Ref sig .tc := ⟨.hbm, 1226, rfl⟩
abbrev main_v777 : Ref sig .tc := ⟨.hbm, 1227, rfl⟩
abbrev main_v778 : Ref sig .tc := ⟨.hbm, 1228, rfl⟩
abbrev main_cst_287 : Ref sig .tc := ⟨.hbm, 1229, rfl⟩
abbrev main_call71_v0 : Ref sig .tc := ⟨.hbm, 1230, rfl⟩
abbrev main_call71_v1 : Ref sig .tc := ⟨.hbm, 1231, rfl⟩
abbrev main_v779 : Ref sig .tc := ⟨.hbm, 1232, rfl⟩
abbrev main_c_288 : Ref sig .tc := ⟨.hbm, 1233, rfl⟩
abbrev main_v780 : Ref sig .tc := ⟨.hbm, 1234, rfl⟩
abbrev main_v781 : Ref sig .tc := ⟨.hbm, 1235, rfl⟩
abbrev main_v782 : Ref sig .tc := ⟨.hbm, 1236, rfl⟩
abbrev main_c_289 : Ref sig .tc := ⟨.hbm, 1237, rfl⟩
abbrev main_v783 : Ref sig .tc := ⟨.hbm, 1238, rfl⟩
abbrev main_v784 : Ref sig .tc := ⟨.hbm, 1239, rfl⟩
abbrev main_v785 : Ref sig .tc := ⟨.hbm, 1240, rfl⟩
abbrev main_c_290 : Ref sig .tc := ⟨.hbm, 1241, rfl⟩
abbrev main_call72_v0 : Ref sig .tc := ⟨.hbm, 1242, rfl⟩
abbrev main_call72_v1 : Ref sig .tc := ⟨.hbm, 1243, rfl⟩
abbrev main_v786 : Ref sig .tc := ⟨.hbm, 1244, rfl⟩
abbrev main_v787 : Ref sig .tc := ⟨.hbm, 1245, rfl⟩
abbrev main_c_291 : Ref sig .tc := ⟨.hbm, 1246, rfl⟩
abbrev main_v788 : Ref sig .tc := ⟨.hbm, 1247, rfl⟩
abbrev main_v789 : Ref sig .tc := ⟨.hbm, 1248, rfl⟩
abbrev main_c_292 : Ref sig .tc := ⟨.hbm, 1249, rfl⟩
abbrev main_v790 : Ref sig .tc := ⟨.hbm, 1250, rfl⟩
abbrev main_v791 : Ref sig .tc := ⟨.hbm, 1251, rfl⟩
abbrev main_v792 : Ref sig .tc := ⟨.hbm, 1252, rfl⟩
abbrev main_v793 : Ref sig .tc := ⟨.hbm, 1253, rfl⟩
abbrev main_v794 : Ref sig .tc := ⟨.hbm, 1254, rfl⟩
abbrev main_v795 : Ref sig .tc := ⟨.hbm, 1255, rfl⟩
abbrev main_cst_293 : Ref sig .tc := ⟨.hbm, 1256, rfl⟩
abbrev main_call73_v0 : Ref sig .tc := ⟨.hbm, 1257, rfl⟩
abbrev main_call73_v1 : Ref sig .tc := ⟨.hbm, 1258, rfl⟩
abbrev main_v796 : Ref sig .tc := ⟨.hbm, 1259, rfl⟩
abbrev main_v797 : Ref sig .tc := ⟨.hbm, 1260, rfl⟩
abbrev main_c_294 : Ref sig .tc := ⟨.hbm, 1261, rfl⟩
abbrev main_v798 : Ref sig .tc := ⟨.hbm, 1262, rfl⟩
abbrev main_v799 : Ref sig .tc := ⟨.hbm, 1263, rfl⟩
abbrev main_v800 : Ref sig .tc := ⟨.hbm, 1264, rfl⟩
abbrev main_v801 : Ref sig .tc := ⟨.hbm, 1265, rfl⟩
abbrev main_cst_295 : Ref sig .tc := ⟨.hbm, 1266, rfl⟩
abbrev main_v802 : Ref sig .tc := ⟨.hbm, 1267, rfl⟩
abbrev main_v803 : Ref sig .tc := ⟨.hbm, 1268, rfl⟩
abbrev main_cst_296 : Ref sig .tc := ⟨.hbm, 1269, rfl⟩
abbrev main_v804 : Ref sig .tc := ⟨.hbm, 1270, rfl⟩
abbrev main_v805 : Ref sig .tc := ⟨.hbm, 1271, rfl⟩
abbrev main_cst_297 : Ref sig .tc := ⟨.hbm, 1272, rfl⟩
abbrev main_v806 : Ref sig .tc := ⟨.hbm, 1273, rfl⟩
abbrev main_v807 : Ref sig .tc := ⟨.hbm, 1274, rfl⟩
abbrev main_v808 : Ref sig .tc := ⟨.hbm, 1275, rfl⟩
abbrev main_v809 : Ref sig .tc := ⟨.hbm, 1276, rfl⟩
abbrev main_v810 : Ref sig .tc := ⟨.hbm, 1277, rfl⟩
abbrev main_cst_298 : Ref sig .tc := ⟨.hbm, 1278, rfl⟩
abbrev main_call74_v0 : Ref sig .tc := ⟨.hbm, 1279, rfl⟩
abbrev main_call74_v1 : Ref sig .tc := ⟨.hbm, 1280, rfl⟩
abbrev main_v811 : Ref sig .tc := ⟨.hbm, 1281, rfl⟩
abbrev main_c_299 : Ref sig .tc := ⟨.hbm, 1282, rfl⟩
abbrev main_v812 : Ref sig .tc := ⟨.hbm, 1283, rfl⟩
abbrev main_v813 : Ref sig .tc := ⟨.hbm, 1284, rfl⟩
abbrev main_v814 : Ref sig .tc := ⟨.hbm, 1285, rfl⟩
abbrev main_c_300 : Ref sig .tc := ⟨.hbm, 1286, rfl⟩
abbrev main_v815 : Ref sig .tc := ⟨.hbm, 1287, rfl⟩
abbrev main_v816 : Ref sig .tc := ⟨.hbm, 1288, rfl⟩
abbrev main_v817 : Ref sig .tc := ⟨.hbm, 1289, rfl⟩
abbrev main_c_301 : Ref sig .tc := ⟨.hbm, 1290, rfl⟩
abbrev main_call75_v0 : Ref sig .tc := ⟨.hbm, 1291, rfl⟩
abbrev main_call75_v1 : Ref sig .tc := ⟨.hbm, 1292, rfl⟩
abbrev main_v818 : Ref sig .tc := ⟨.hbm, 1293, rfl⟩
abbrev main_v819 : Ref sig .tc := ⟨.hbm, 1294, rfl⟩
abbrev main_c_302 : Ref sig .tc := ⟨.hbm, 1295, rfl⟩
abbrev main_v820 : Ref sig .tc := ⟨.hbm, 1296, rfl⟩
abbrev main_v821 : Ref sig .tc := ⟨.hbm, 1297, rfl⟩
abbrev main_c_303 : Ref sig .tc := ⟨.hbm, 1298, rfl⟩
abbrev main_v822 : Ref sig .tc := ⟨.hbm, 1299, rfl⟩
abbrev main_v823 : Ref sig .tc := ⟨.hbm, 1300, rfl⟩
abbrev main_v824 : Ref sig .tc := ⟨.hbm, 1301, rfl⟩
abbrev main_v825 : Ref sig .tc := ⟨.hbm, 1302, rfl⟩
abbrev main_v826 : Ref sig .tc := ⟨.hbm, 1303, rfl⟩
abbrev main_v827 : Ref sig .tc := ⟨.hbm, 1304, rfl⟩
abbrev main_cst_304 : Ref sig .tc := ⟨.hbm, 1305, rfl⟩
abbrev main_call76_v0 : Ref sig .tc := ⟨.hbm, 1306, rfl⟩
abbrev main_call76_v1 : Ref sig .tc := ⟨.hbm, 1307, rfl⟩
abbrev main_v828 : Ref sig .tc := ⟨.hbm, 1308, rfl⟩
abbrev main_v829 : Ref sig .tc := ⟨.hbm, 1309, rfl⟩
abbrev main_c_305 : Ref sig .tc := ⟨.hbm, 1310, rfl⟩
abbrev main_v830 : Ref sig .tc := ⟨.hbm, 1311, rfl⟩
abbrev main_v831 : Ref sig .tc := ⟨.hbm, 1312, rfl⟩
abbrev main_v832 : Ref sig .tc := ⟨.hbm, 1313, rfl⟩
abbrev main_v833 : Ref sig .tc := ⟨.hbm, 1314, rfl⟩
abbrev main_cst_306 : Ref sig .tc := ⟨.hbm, 1315, rfl⟩
abbrev main_v834 : Ref sig .tc := ⟨.hbm, 1316, rfl⟩
abbrev main_v835 : Ref sig .tc := ⟨.hbm, 1317, rfl⟩
abbrev main_cst_307 : Ref sig .tc := ⟨.hbm, 1318, rfl⟩
abbrev main_v836 : Ref sig .tc := ⟨.hbm, 1319, rfl⟩
abbrev main_v837 : Ref sig .tc := ⟨.hbm, 1320, rfl⟩
abbrev main_cst_308 : Ref sig .tc := ⟨.hbm, 1321, rfl⟩
abbrev main_v838 : Ref sig .tc := ⟨.hbm, 1322, rfl⟩
abbrev main_v839 : Ref sig .tc := ⟨.hbm, 1323, rfl⟩
abbrev main_v840 : Ref sig .tc := ⟨.hbm, 1324, rfl⟩
abbrev main_v841 : Ref sig .tc := ⟨.hbm, 1325, rfl⟩
abbrev main_v842 : Ref sig .tc := ⟨.hbm, 1326, rfl⟩
abbrev main_cst_309 : Ref sig .tc := ⟨.hbm, 1327, rfl⟩
abbrev main_call77_v0 : Ref sig .tc := ⟨.hbm, 1328, rfl⟩
abbrev main_call77_v1 : Ref sig .tc := ⟨.hbm, 1329, rfl⟩
abbrev main_v843 : Ref sig .tc := ⟨.hbm, 1330, rfl⟩
abbrev main_c_310 : Ref sig .tc := ⟨.hbm, 1331, rfl⟩
abbrev main_v844 : Ref sig .tc := ⟨.hbm, 1332, rfl⟩
abbrev main_v845 : Ref sig .tc := ⟨.hbm, 1333, rfl⟩
abbrev main_v846 : Ref sig .tc := ⟨.hbm, 1334, rfl⟩
abbrev main_c_311 : Ref sig .tc := ⟨.hbm, 1335, rfl⟩
abbrev main_v847 : Ref sig .tc := ⟨.hbm, 1336, rfl⟩
abbrev main_v848 : Ref sig .tc := ⟨.hbm, 1337, rfl⟩
abbrev main_v849 : Ref sig .tc := ⟨.hbm, 1338, rfl⟩
abbrev main_c_312 : Ref sig .tc := ⟨.hbm, 1339, rfl⟩
abbrev main_call78_v0 : Ref sig .tc := ⟨.hbm, 1340, rfl⟩
abbrev main_call78_v1 : Ref sig .tc := ⟨.hbm, 1341, rfl⟩
abbrev main_v850 : Ref sig .tc := ⟨.hbm, 1342, rfl⟩
abbrev main_v851 : Ref sig .tc := ⟨.hbm, 1343, rfl⟩
abbrev main_c_313 : Ref sig .tc := ⟨.hbm, 1344, rfl⟩
abbrev main_v852 : Ref sig .tc := ⟨.hbm, 1345, rfl⟩
abbrev main_v853 : Ref sig .tc := ⟨.hbm, 1346, rfl⟩
abbrev main_c_314 : Ref sig .tc := ⟨.hbm, 1347, rfl⟩
abbrev main_v854 : Ref sig .tc := ⟨.hbm, 1348, rfl⟩
abbrev main_v855 : Ref sig .tc := ⟨.hbm, 1349, rfl⟩
abbrev main_v856 : Ref sig .tc := ⟨.hbm, 1350, rfl⟩
abbrev main_v857 : Ref sig .tc := ⟨.hbm, 1351, rfl⟩
abbrev main_v858 : Ref sig .tc := ⟨.hbm, 1352, rfl⟩
abbrev main_v859 : Ref sig .tc := ⟨.hbm, 1353, rfl⟩
abbrev main_cst_315 : Ref sig .tc := ⟨.hbm, 1354, rfl⟩
abbrev main_call79_v0 : Ref sig .tc := ⟨.hbm, 1355, rfl⟩
abbrev main_call79_v1 : Ref sig .tc := ⟨.hbm, 1356, rfl⟩
abbrev main_v860 : Ref sig .tc := ⟨.hbm, 1357, rfl⟩
abbrev main_v861 : Ref sig .tc := ⟨.hbm, 1358, rfl⟩
abbrev main_c_316 : Ref sig .tc := ⟨.hbm, 1359, rfl⟩
abbrev main_v862 : Ref sig .tc := ⟨.hbm, 1360, rfl⟩
abbrev main_v863 : Ref sig .tc := ⟨.hbm, 1361, rfl⟩
abbrev main_v864 : Ref sig .tc := ⟨.hbm, 1362, rfl⟩
abbrev main_v865 : Ref sig .tc := ⟨.hbm, 1363, rfl⟩
abbrev main_cst_317 : Ref sig .tc := ⟨.hbm, 1364, rfl⟩
abbrev main_v866 : Ref sig .tc := ⟨.hbm, 1365, rfl⟩
abbrev main_v867 : Ref sig .tc := ⟨.hbm, 1366, rfl⟩
abbrev main_cst_318 : Ref sig .tc := ⟨.hbm, 1367, rfl⟩
abbrev main_v868 : Ref sig .tc := ⟨.hbm, 1368, rfl⟩
abbrev main_v869 : Ref sig .tc := ⟨.hbm, 1369, rfl⟩
abbrev main_cst_319 : Ref sig .tc := ⟨.hbm, 1370, rfl⟩
abbrev main_v870 : Ref sig .tc := ⟨.hbm, 1371, rfl⟩
abbrev main_v871 : Ref sig .tc := ⟨.hbm, 1372, rfl⟩
abbrev main_v872 : Ref sig .tc := ⟨.hbm, 1373, rfl⟩
abbrev main_v873 : Ref sig .tc := ⟨.hbm, 1374, rfl⟩
abbrev main_v874 : Ref sig .tc := ⟨.hbm, 1375, rfl⟩
abbrev main_cst_320 : Ref sig .tc := ⟨.hbm, 1376, rfl⟩
abbrev main_call80_v0 : Ref sig .tc := ⟨.hbm, 1377, rfl⟩
abbrev main_call80_v1 : Ref sig .tc := ⟨.hbm, 1378, rfl⟩
abbrev main_v875 : Ref sig .tc := ⟨.hbm, 1379, rfl⟩
abbrev main_c_321 : Ref sig .tc := ⟨.hbm, 1380, rfl⟩
abbrev main_v876 : Ref sig .tc := ⟨.hbm, 1381, rfl⟩
abbrev main_v877 : Ref sig .tc := ⟨.hbm, 1382, rfl⟩
abbrev main_v878 : Ref sig .tc := ⟨.hbm, 1383, rfl⟩
abbrev main_c_322 : Ref sig .tc := ⟨.hbm, 1384, rfl⟩
abbrev main_v879 : Ref sig .tc := ⟨.hbm, 1385, rfl⟩
abbrev main_v880 : Ref sig .tc := ⟨.hbm, 1386, rfl⟩
abbrev main_v881 : Ref sig .tc := ⟨.hbm, 1387, rfl⟩
abbrev main_c_323 : Ref sig .tc := ⟨.hbm, 1388, rfl⟩
abbrev main_call81_v0 : Ref sig .tc := ⟨.hbm, 1389, rfl⟩
abbrev main_call81_v1 : Ref sig .tc := ⟨.hbm, 1390, rfl⟩
abbrev main_v882 : Ref sig .tc := ⟨.hbm, 1391, rfl⟩
abbrev main_v883 : Ref sig .tc := ⟨.hbm, 1392, rfl⟩
abbrev main_c_324 : Ref sig .tc := ⟨.hbm, 1393, rfl⟩
abbrev main_v884 : Ref sig .tc := ⟨.hbm, 1394, rfl⟩
abbrev main_v885 : Ref sig .tc := ⟨.hbm, 1395, rfl⟩
abbrev main_c_325 : Ref sig .tc := ⟨.hbm, 1396, rfl⟩
abbrev main_v886 : Ref sig .tc := ⟨.hbm, 1397, rfl⟩
abbrev main_v887 : Ref sig .tc := ⟨.hbm, 1398, rfl⟩
abbrev main_v888 : Ref sig .tc := ⟨.hbm, 1399, rfl⟩
abbrev main_v889 : Ref sig .tc := ⟨.hbm, 1400, rfl⟩
abbrev main_v890 : Ref sig .tc := ⟨.hbm, 1401, rfl⟩
abbrev main_v891 : Ref sig .tc := ⟨.hbm, 1402, rfl⟩
abbrev main_cst_326 : Ref sig .tc := ⟨.hbm, 1403, rfl⟩
abbrev main_call82_v0 : Ref sig .tc := ⟨.hbm, 1404, rfl⟩
abbrev main_call82_v1 : Ref sig .tc := ⟨.hbm, 1405, rfl⟩
abbrev main_v892 : Ref sig .tc := ⟨.hbm, 1406, rfl⟩
abbrev main_v893 : Ref sig .tc := ⟨.hbm, 1407, rfl⟩
abbrev main_c_327 : Ref sig .tc := ⟨.hbm, 1408, rfl⟩
abbrev main_v894 : Ref sig .tc := ⟨.hbm, 1409, rfl⟩
abbrev main_v895 : Ref sig .tc := ⟨.hbm, 1410, rfl⟩
abbrev main_v896 : Ref sig .tc := ⟨.hbm, 1411, rfl⟩
abbrev main_v897 : Ref sig .tc := ⟨.hbm, 1412, rfl⟩
abbrev main_cst_328 : Ref sig .tc := ⟨.hbm, 1413, rfl⟩
abbrev main_v898 : Ref sig .tc := ⟨.hbm, 1414, rfl⟩
abbrev main_v899 : Ref sig .tc := ⟨.hbm, 1415, rfl⟩
abbrev main_cst_329 : Ref sig .tc := ⟨.hbm, 1416, rfl⟩
abbrev main_v900 : Ref sig .tc := ⟨.hbm, 1417, rfl⟩
abbrev main_v901 : Ref sig .tc := ⟨.hbm, 1418, rfl⟩
abbrev main_cst_330 : Ref sig .tc := ⟨.hbm, 1419, rfl⟩
abbrev main_v902 : Ref sig .tc := ⟨.hbm, 1420, rfl⟩
abbrev main_v903 : Ref sig .tc := ⟨.hbm, 1421, rfl⟩
abbrev main_v904 : Ref sig .tc := ⟨.hbm, 1422, rfl⟩
abbrev main_v905 : Ref sig .tc := ⟨.hbm, 1423, rfl⟩
abbrev main_v906 : Ref sig .tc := ⟨.hbm, 1424, rfl⟩
abbrev main_cst_331 : Ref sig .tc := ⟨.hbm, 1425, rfl⟩
abbrev main_call83_v0 : Ref sig .tc := ⟨.hbm, 1426, rfl⟩
abbrev main_call83_v1 : Ref sig .tc := ⟨.hbm, 1427, rfl⟩
abbrev main_v907 : Ref sig .tc := ⟨.hbm, 1428, rfl⟩
abbrev main_c_332 : Ref sig .tc := ⟨.hbm, 1429, rfl⟩
abbrev main_v908 : Ref sig .tc := ⟨.hbm, 1430, rfl⟩
abbrev main_v909 : Ref sig .tc := ⟨.hbm, 1431, rfl⟩
abbrev main_c_333 : Ref sig .tc := ⟨.hbm, 1432, rfl⟩
abbrev main_v910 : Ref sig .tc := ⟨.hbm, 1433, rfl⟩
abbrev main_v911 : Ref sig .tc := ⟨.hbm, 1434, rfl⟩
abbrev main_v912 : Ref sig .tc := ⟨.hbm, 1435, rfl⟩
abbrev main_v913 : Ref sig .tc := ⟨.hbm, 1436, rfl⟩
abbrev main_cst_334 : Ref sig .tc := ⟨.hbm, 1437, rfl⟩
abbrev main_v914 : Ref sig .tc := ⟨.hbm, 1438, rfl⟩
abbrev main_v915 : Ref sig .tc := ⟨.hbm, 1439, rfl⟩
abbrev main_cst_335 : Ref sig .tc := ⟨.hbm, 1440, rfl⟩
abbrev main_v916 : Ref sig .tc := ⟨.hbm, 1441, rfl⟩
abbrev main_v917 : Ref sig .tc := ⟨.hbm, 1442, rfl⟩
abbrev main_cst_336 : Ref sig .tc := ⟨.hbm, 1443, rfl⟩
abbrev main_v918 : Ref sig .tc := ⟨.hbm, 1444, rfl⟩
abbrev main_v919 : Ref sig .tc := ⟨.hbm, 1445, rfl⟩
abbrev main_v920 : Ref sig .tc := ⟨.hbm, 1446, rfl⟩
abbrev main_v921 : Ref sig .tc := ⟨.hbm, 1447, rfl⟩
abbrev main_v922 : Ref sig .tc := ⟨.hbm, 1448, rfl⟩
abbrev main_cst_337 : Ref sig .tc := ⟨.hbm, 1449, rfl⟩
abbrev main_call84_v0 : Ref sig .tc := ⟨.hbm, 1450, rfl⟩
abbrev main_call84_v1 : Ref sig .tc := ⟨.hbm, 1451, rfl⟩
abbrev main_v923 : Ref sig .tc := ⟨.hbm, 1452, rfl⟩
abbrev main_c_338 : Ref sig .tc := ⟨.hbm, 1453, rfl⟩
abbrev main_v924 : Ref sig .tc := ⟨.hbm, 1454, rfl⟩
abbrev main_v925 : Ref sig .tc := ⟨.hbm, 1455, rfl⟩
abbrev main_v926 : Ref sig .tc := ⟨.hbm, 1456, rfl⟩
abbrev main_c_339 : Ref sig .tc := ⟨.hbm, 1457, rfl⟩
abbrev main_v927 : Ref sig .tc := ⟨.hbm, 1458, rfl⟩
abbrev main_v928 : Ref sig .tc := ⟨.hbm, 1459, rfl⟩
abbrev main_v929 : Ref sig .tc := ⟨.hbm, 1460, rfl⟩
abbrev main_c_340 : Ref sig .tc := ⟨.hbm, 1461, rfl⟩
abbrev main_call85_v0 : Ref sig .tc := ⟨.hbm, 1462, rfl⟩
abbrev main_call85_v1 : Ref sig .tc := ⟨.hbm, 1463, rfl⟩
abbrev main_v930 : Ref sig .tc := ⟨.hbm, 1464, rfl⟩
abbrev main_v931 : Ref sig .tc := ⟨.hbm, 1465, rfl⟩
abbrev main_c_341 : Ref sig .tc := ⟨.hbm, 1466, rfl⟩
abbrev main_v932 : Ref sig .tc := ⟨.hbm, 1467, rfl⟩
abbrev main_v933 : Ref sig .tc := ⟨.hbm, 1468, rfl⟩
abbrev main_c_342 : Ref sig .tc := ⟨.hbm, 1469, rfl⟩
abbrev main_v934 : Ref sig .tc := ⟨.hbm, 1470, rfl⟩
abbrev main_v935 : Ref sig .tc := ⟨.hbm, 1471, rfl⟩
abbrev main_v936 : Ref sig .tc := ⟨.hbm, 1472, rfl⟩
abbrev main_v937 : Ref sig .tc := ⟨.hbm, 1473, rfl⟩
abbrev main_v938 : Ref sig .tc := ⟨.hbm, 1474, rfl⟩
abbrev main_v939 : Ref sig .tc := ⟨.hbm, 1475, rfl⟩
abbrev main_cst_343 : Ref sig .tc := ⟨.hbm, 1476, rfl⟩
abbrev main_call86_v0 : Ref sig .tc := ⟨.hbm, 1477, rfl⟩
abbrev main_call86_v1 : Ref sig .tc := ⟨.hbm, 1478, rfl⟩
abbrev main_v940 : Ref sig .tc := ⟨.hbm, 1479, rfl⟩
abbrev main_v941 : Ref sig .tc := ⟨.hbm, 1480, rfl⟩
abbrev main_c_344 : Ref sig .tc := ⟨.hbm, 1481, rfl⟩
abbrev main_v942 : Ref sig .tc := ⟨.hbm, 1482, rfl⟩
abbrev main_v943 : Ref sig .tc := ⟨.hbm, 1483, rfl⟩
abbrev main_v944 : Ref sig .tc := ⟨.hbm, 1484, rfl⟩
abbrev main_v945 : Ref sig .tc := ⟨.hbm, 1485, rfl⟩
abbrev main_cst_345 : Ref sig .tc := ⟨.hbm, 1486, rfl⟩
abbrev main_v946 : Ref sig .tc := ⟨.hbm, 1487, rfl⟩
abbrev main_v947 : Ref sig .tc := ⟨.hbm, 1488, rfl⟩
abbrev main_cst_346 : Ref sig .tc := ⟨.hbm, 1489, rfl⟩
abbrev main_v948 : Ref sig .tc := ⟨.hbm, 1490, rfl⟩
abbrev main_v949 : Ref sig .tc := ⟨.hbm, 1491, rfl⟩
abbrev main_cst_347 : Ref sig .tc := ⟨.hbm, 1492, rfl⟩
abbrev main_v950 : Ref sig .tc := ⟨.hbm, 1493, rfl⟩
abbrev main_v951 : Ref sig .tc := ⟨.hbm, 1494, rfl⟩
abbrev main_v952 : Ref sig .tc := ⟨.hbm, 1495, rfl⟩
abbrev main_v953 : Ref sig .tc := ⟨.hbm, 1496, rfl⟩
abbrev main_v954 : Ref sig .tc := ⟨.hbm, 1497, rfl⟩
abbrev main_cst_348 : Ref sig .tc := ⟨.hbm, 1498, rfl⟩
abbrev main_call87_v0 : Ref sig .tc := ⟨.hbm, 1499, rfl⟩
abbrev main_call87_v1 : Ref sig .tc := ⟨.hbm, 1500, rfl⟩
abbrev main_v955 : Ref sig .tc := ⟨.hbm, 1501, rfl⟩
abbrev main_c_349 : Ref sig .tc := ⟨.hbm, 1502, rfl⟩
abbrev main_v956 : Ref sig .tc := ⟨.hbm, 1503, rfl⟩
abbrev main_v957 : Ref sig .tc := ⟨.hbm, 1504, rfl⟩
abbrev main_v958 : Ref sig .tc := ⟨.hbm, 1505, rfl⟩
abbrev main_c_350 : Ref sig .tc := ⟨.hbm, 1506, rfl⟩
abbrev main_v959 : Ref sig .tc := ⟨.hbm, 1507, rfl⟩
abbrev main_v960 : Ref sig .tc := ⟨.hbm, 1508, rfl⟩
abbrev main_v961 : Ref sig .tc := ⟨.hbm, 1509, rfl⟩
abbrev main_c_351 : Ref sig .tc := ⟨.hbm, 1510, rfl⟩
abbrev main_call88_v0 : Ref sig .tc := ⟨.hbm, 1511, rfl⟩
abbrev main_call88_v1 : Ref sig .tc := ⟨.hbm, 1512, rfl⟩
abbrev main_v962 : Ref sig .tc := ⟨.hbm, 1513, rfl⟩
abbrev main_v963 : Ref sig .tc := ⟨.hbm, 1514, rfl⟩
abbrev main_c_352 : Ref sig .tc := ⟨.hbm, 1515, rfl⟩
abbrev main_v964 : Ref sig .tc := ⟨.hbm, 1516, rfl⟩
abbrev main_v965 : Ref sig .tc := ⟨.hbm, 1517, rfl⟩
abbrev main_c_353 : Ref sig .tc := ⟨.hbm, 1518, rfl⟩
abbrev main_v966 : Ref sig .tc := ⟨.hbm, 1519, rfl⟩
abbrev main_v967 : Ref sig .tc := ⟨.hbm, 1520, rfl⟩
abbrev main_v968 : Ref sig .tc := ⟨.hbm, 1521, rfl⟩
abbrev main_v969 : Ref sig .tc := ⟨.hbm, 1522, rfl⟩
abbrev main_v970 : Ref sig .tc := ⟨.hbm, 1523, rfl⟩
abbrev main_v971 : Ref sig .tc := ⟨.hbm, 1524, rfl⟩
abbrev main_cst_354 : Ref sig .tc := ⟨.hbm, 1525, rfl⟩
abbrev main_call89_v0 : Ref sig .tc := ⟨.hbm, 1526, rfl⟩
abbrev main_call89_v1 : Ref sig .tc := ⟨.hbm, 1527, rfl⟩
abbrev main_v972 : Ref sig .tc := ⟨.hbm, 1528, rfl⟩
abbrev main_v973 : Ref sig .tc := ⟨.hbm, 1529, rfl⟩
abbrev main_c_355 : Ref sig .tc := ⟨.hbm, 1530, rfl⟩
abbrev main_v974 : Ref sig .tc := ⟨.hbm, 1531, rfl⟩
abbrev main_v975 : Ref sig .tc := ⟨.hbm, 1532, rfl⟩
abbrev main_v976 : Ref sig .tc := ⟨.hbm, 1533, rfl⟩
abbrev main_v977 : Ref sig .tc := ⟨.hbm, 1534, rfl⟩
abbrev main_cst_356 : Ref sig .tc := ⟨.hbm, 1535, rfl⟩
abbrev main_v978 : Ref sig .tc := ⟨.hbm, 1536, rfl⟩
abbrev main_v979 : Ref sig .tc := ⟨.hbm, 1537, rfl⟩
abbrev main_cst_357 : Ref sig .tc := ⟨.hbm, 1538, rfl⟩
abbrev main_v980 : Ref sig .tc := ⟨.hbm, 1539, rfl⟩
abbrev main_v981 : Ref sig .tc := ⟨.hbm, 1540, rfl⟩
abbrev main_cst_358 : Ref sig .tc := ⟨.hbm, 1541, rfl⟩
abbrev main_v982 : Ref sig .tc := ⟨.hbm, 1542, rfl⟩
abbrev main_v983 : Ref sig .tc := ⟨.hbm, 1543, rfl⟩
abbrev main_v984 : Ref sig .tc := ⟨.hbm, 1544, rfl⟩
abbrev main_v985 : Ref sig .tc := ⟨.hbm, 1545, rfl⟩
abbrev main_v986 : Ref sig .tc := ⟨.hbm, 1546, rfl⟩
abbrev main_cst_359 : Ref sig .tc := ⟨.hbm, 1547, rfl⟩
abbrev main_call90_v0 : Ref sig .tc := ⟨.hbm, 1548, rfl⟩
abbrev main_call90_v1 : Ref sig .tc := ⟨.hbm, 1549, rfl⟩
abbrev main_v987 : Ref sig .tc := ⟨.hbm, 1550, rfl⟩
abbrev main_c_360 : Ref sig .tc := ⟨.hbm, 1551, rfl⟩
abbrev main_v988 : Ref sig .tc := ⟨.hbm, 1552, rfl⟩
abbrev main_v989 : Ref sig .tc := ⟨.hbm, 1553, rfl⟩
abbrev main_v990 : Ref sig .tc := ⟨.hbm, 1554, rfl⟩
abbrev main_c_361 : Ref sig .tc := ⟨.hbm, 1555, rfl⟩
abbrev main_v991 : Ref sig .tc := ⟨.hbm, 1556, rfl⟩
abbrev main_v992 : Ref sig .tc := ⟨.hbm, 1557, rfl⟩
abbrev main_v993 : Ref sig .tc := ⟨.hbm, 1558, rfl⟩
abbrev main_c_362 : Ref sig .tc := ⟨.hbm, 1559, rfl⟩
abbrev main_call91_v0 : Ref sig .tc := ⟨.hbm, 1560, rfl⟩
abbrev main_call91_v1 : Ref sig .tc := ⟨.hbm, 1561, rfl⟩
abbrev main_v994 : Ref sig .tc := ⟨.hbm, 1562, rfl⟩
abbrev main_v995 : Ref sig .tc := ⟨.hbm, 1563, rfl⟩
abbrev main_c_363 : Ref sig .tc := ⟨.hbm, 1564, rfl⟩
abbrev main_v996 : Ref sig .tc := ⟨.hbm, 1565, rfl⟩
abbrev main_v997 : Ref sig .tc := ⟨.hbm, 1566, rfl⟩
abbrev main_c_364 : Ref sig .tc := ⟨.hbm, 1567, rfl⟩
abbrev main_v998 : Ref sig .tc := ⟨.hbm, 1568, rfl⟩
abbrev main_v999 : Ref sig .tc := ⟨.hbm, 1569, rfl⟩
abbrev main_v1000 : Ref sig .tc := ⟨.hbm, 1570, rfl⟩
abbrev main_v1001 : Ref sig .tc := ⟨.hbm, 1571, rfl⟩
abbrev main_v1002 : Ref sig .tc := ⟨.hbm, 1572, rfl⟩
abbrev main_v1003 : Ref sig .tc := ⟨.hbm, 1573, rfl⟩
abbrev main_cst_365 : Ref sig .tc := ⟨.hbm, 1574, rfl⟩
abbrev main_call92_v0 : Ref sig .tc := ⟨.hbm, 1575, rfl⟩
abbrev main_call92_v1 : Ref sig .tc := ⟨.hbm, 1576, rfl⟩
abbrev main_v1004 : Ref sig .tc := ⟨.hbm, 1577, rfl⟩
abbrev main_v1005 : Ref sig .tc := ⟨.hbm, 1578, rfl⟩
abbrev main_c_366 : Ref sig .tc := ⟨.hbm, 1579, rfl⟩
abbrev main_v1006 : Ref sig .tc := ⟨.hbm, 1580, rfl⟩
abbrev main_v1007 : Ref sig .tc := ⟨.hbm, 1581, rfl⟩
abbrev main_v1008 : Ref sig .tc := ⟨.hbm, 1582, rfl⟩
abbrev main_v1009 : Ref sig .tc := ⟨.hbm, 1583, rfl⟩
abbrev main_cst_367 : Ref sig .tc := ⟨.hbm, 1584, rfl⟩
abbrev main_v1010 : Ref sig .tc := ⟨.hbm, 1585, rfl⟩
abbrev main_v1011 : Ref sig .tc := ⟨.hbm, 1586, rfl⟩
abbrev main_cst_368 : Ref sig .tc := ⟨.hbm, 1587, rfl⟩
abbrev main_v1012 : Ref sig .tc := ⟨.hbm, 1588, rfl⟩
abbrev main_v1013 : Ref sig .tc := ⟨.hbm, 1589, rfl⟩
abbrev main_cst_369 : Ref sig .tc := ⟨.hbm, 1590, rfl⟩
abbrev main_v1014 : Ref sig .tc := ⟨.hbm, 1591, rfl⟩
abbrev main_v1015 : Ref sig .tc := ⟨.hbm, 1592, rfl⟩
abbrev main_v1016 : Ref sig .tc := ⟨.hbm, 1593, rfl⟩
abbrev main_v1017 : Ref sig .tc := ⟨.hbm, 1594, rfl⟩
abbrev main_v1018 : Ref sig .tc := ⟨.hbm, 1595, rfl⟩
abbrev main_cst_370 : Ref sig .tc := ⟨.hbm, 1596, rfl⟩
abbrev main_call93_v0 : Ref sig .tc := ⟨.hbm, 1597, rfl⟩
abbrev main_call93_v1 : Ref sig .tc := ⟨.hbm, 1598, rfl⟩
abbrev main_v1019 : Ref sig .tc := ⟨.hbm, 1599, rfl⟩
abbrev main_c_371 : Ref sig .tc := ⟨.hbm, 1600, rfl⟩
abbrev main_v1020 : Ref sig .tc := ⟨.hbm, 1601, rfl⟩
abbrev main_v1021 : Ref sig .tc := ⟨.hbm, 1602, rfl⟩
abbrev main_v1022 : Ref sig .tc := ⟨.hbm, 1603, rfl⟩
abbrev main_c_372 : Ref sig .tc := ⟨.hbm, 1604, rfl⟩
abbrev main_v1023 : Ref sig .tc := ⟨.hbm, 1605, rfl⟩
abbrev main_v1024 : Ref sig .tc := ⟨.hbm, 1606, rfl⟩
abbrev main_v1025 : Ref sig .tc := ⟨.hbm, 1607, rfl⟩
abbrev main_c_373 : Ref sig .tc := ⟨.hbm, 1608, rfl⟩
abbrev main_call94_v0 : Ref sig .tc := ⟨.hbm, 1609, rfl⟩
abbrev main_call94_v1 : Ref sig .tc := ⟨.hbm, 1610, rfl⟩
abbrev main_v1026 : Ref sig .tc := ⟨.hbm, 1611, rfl⟩
abbrev main_v1027 : Ref sig .tc := ⟨.hbm, 1612, rfl⟩
abbrev main_c_374 : Ref sig .tc := ⟨.hbm, 1613, rfl⟩
abbrev main_v1028 : Ref sig .tc := ⟨.hbm, 1614, rfl⟩
abbrev main_v1029 : Ref sig .tc := ⟨.hbm, 1615, rfl⟩
abbrev main_c_375 : Ref sig .tc := ⟨.hbm, 1616, rfl⟩
abbrev main_v1030 : Ref sig .tc := ⟨.hbm, 1617, rfl⟩
abbrev main_v1031 : Ref sig .tc := ⟨.hbm, 1618, rfl⟩
abbrev main_v1032 : Ref sig .tc := ⟨.hbm, 1619, rfl⟩
abbrev main_v1033 : Ref sig .tc := ⟨.hbm, 1620, rfl⟩
abbrev main_v1034 : Ref sig .tc := ⟨.hbm, 1621, rfl⟩
abbrev main_v1035 : Ref sig .tc := ⟨.hbm, 1622, rfl⟩
abbrev main_cst_376 : Ref sig .tc := ⟨.hbm, 1623, rfl⟩
abbrev main_call95_v0 : Ref sig .tc := ⟨.hbm, 1624, rfl⟩
abbrev main_call95_v1 : Ref sig .tc := ⟨.hbm, 1625, rfl⟩
abbrev main_v1036 : Ref sig .tc := ⟨.hbm, 1626, rfl⟩
abbrev main_v1037 : Ref sig .tc := ⟨.hbm, 1627, rfl⟩
abbrev main_c_377 : Ref sig .tc := ⟨.hbm, 1628, rfl⟩
abbrev main_v1038 : Ref sig .tc := ⟨.hbm, 1629, rfl⟩
abbrev main_v1039 : Ref sig .tc := ⟨.hbm, 1630, rfl⟩
abbrev main_v1040 : Ref sig .tc := ⟨.hbm, 1631, rfl⟩
abbrev main_v1041 : Ref sig .tc := ⟨.hbm, 1632, rfl⟩
abbrev main_cst_378 : Ref sig .tc := ⟨.hbm, 1633, rfl⟩
abbrev main_v1042 : Ref sig .tc := ⟨.hbm, 1634, rfl⟩
abbrev main_v1043 : Ref sig .tc := ⟨.hbm, 1635, rfl⟩
abbrev main_cst_379 : Ref sig .tc := ⟨.hbm, 1636, rfl⟩
abbrev main_v1044 : Ref sig .tc := ⟨.hbm, 1637, rfl⟩
abbrev main_v1045 : Ref sig .tc := ⟨.hbm, 1638, rfl⟩
abbrev main_cst_380 : Ref sig .tc := ⟨.hbm, 1639, rfl⟩
abbrev main_v1046 : Ref sig .tc := ⟨.hbm, 1640, rfl⟩
abbrev main_v1047 : Ref sig .tc := ⟨.hbm, 1641, rfl⟩
abbrev main_v1048 : Ref sig .tc := ⟨.hbm, 1642, rfl⟩
abbrev main_v1049 : Ref sig .tc := ⟨.hbm, 1643, rfl⟩
abbrev main_v1050 : Ref sig .tc := ⟨.hbm, 1644, rfl⟩
abbrev main_cst_381 : Ref sig .tc := ⟨.hbm, 1645, rfl⟩
abbrev main_call96_v0 : Ref sig .tc := ⟨.hbm, 1646, rfl⟩
abbrev main_call96_v1 : Ref sig .tc := ⟨.hbm, 1647, rfl⟩
abbrev main_v1051 : Ref sig .tc := ⟨.hbm, 1648, rfl⟩
abbrev main_c_382 : Ref sig .tc := ⟨.hbm, 1649, rfl⟩
abbrev main_v1052 : Ref sig .tc := ⟨.hbm, 1650, rfl⟩
abbrev main_v1053 : Ref sig .tc := ⟨.hbm, 1651, rfl⟩
abbrev main_c_383 : Ref sig .tc := ⟨.hbm, 1652, rfl⟩
abbrev main_v1054 : Ref sig .tc := ⟨.hbm, 1653, rfl⟩
abbrev main_v1055 : Ref sig .tc := ⟨.hbm, 1654, rfl⟩
abbrev main_v1056 : Ref sig .tc := ⟨.hbm, 1655, rfl⟩
abbrev main_v1057 : Ref sig .tc := ⟨.hbm, 1656, rfl⟩
abbrev main_cst_384 : Ref sig .tc := ⟨.hbm, 1657, rfl⟩
abbrev main_v1058 : Ref sig .tc := ⟨.hbm, 1658, rfl⟩
abbrev main_v1059 : Ref sig .tc := ⟨.hbm, 1659, rfl⟩
abbrev main_cst_385 : Ref sig .tc := ⟨.hbm, 1660, rfl⟩
abbrev main_v1060 : Ref sig .tc := ⟨.hbm, 1661, rfl⟩
abbrev main_v1061 : Ref sig .tc := ⟨.hbm, 1662, rfl⟩
abbrev main_cst_386 : Ref sig .tc := ⟨.hbm, 1663, rfl⟩
abbrev main_v1062 : Ref sig .tc := ⟨.hbm, 1664, rfl⟩
abbrev main_v1063 : Ref sig .tc := ⟨.hbm, 1665, rfl⟩
abbrev main_v1064 : Ref sig .tc := ⟨.hbm, 1666, rfl⟩
abbrev main_v1065 : Ref sig .tc := ⟨.hbm, 1667, rfl⟩
abbrev main_v1066 : Ref sig .tc := ⟨.hbm, 1668, rfl⟩
abbrev main_cst_387 : Ref sig .tc := ⟨.hbm, 1669, rfl⟩
abbrev main_call97_v0 : Ref sig .tc := ⟨.hbm, 1670, rfl⟩
abbrev main_call97_v1 : Ref sig .tc := ⟨.hbm, 1671, rfl⟩
abbrev main_v1067 : Ref sig .tc := ⟨.hbm, 1672, rfl⟩
abbrev main_c_388 : Ref sig .tc := ⟨.hbm, 1673, rfl⟩
abbrev main_v1068 : Ref sig .tc := ⟨.hbm, 1674, rfl⟩
abbrev main_v1069 : Ref sig .tc := ⟨.hbm, 1675, rfl⟩
abbrev main_v1070 : Ref sig .tc := ⟨.hbm, 1676, rfl⟩
abbrev main_c_389 : Ref sig .tc := ⟨.hbm, 1677, rfl⟩
abbrev main_v1071 : Ref sig .tc := ⟨.hbm, 1678, rfl⟩
abbrev main_v1072 : Ref sig .tc := ⟨.hbm, 1679, rfl⟩
abbrev main_v1073 : Ref sig .tc := ⟨.hbm, 1680, rfl⟩
abbrev main_c_390 : Ref sig .tc := ⟨.hbm, 1681, rfl⟩
abbrev main_call98_v0 : Ref sig .tc := ⟨.hbm, 1682, rfl⟩
abbrev main_call98_v1 : Ref sig .tc := ⟨.hbm, 1683, rfl⟩
abbrev main_v1074 : Ref sig .tc := ⟨.hbm, 1684, rfl⟩
abbrev main_v1075 : Ref sig .tc := ⟨.hbm, 1685, rfl⟩
abbrev main_c_391 : Ref sig .tc := ⟨.hbm, 1686, rfl⟩
abbrev main_v1076 : Ref sig .tc := ⟨.hbm, 1687, rfl⟩
abbrev main_v1077 : Ref sig .tc := ⟨.hbm, 1688, rfl⟩
abbrev main_c_392 : Ref sig .tc := ⟨.hbm, 1689, rfl⟩
abbrev main_v1078 : Ref sig .tc := ⟨.hbm, 1690, rfl⟩
abbrev main_v1079 : Ref sig .tc := ⟨.hbm, 1691, rfl⟩
abbrev main_v1080 : Ref sig .tc := ⟨.hbm, 1692, rfl⟩
abbrev main_v1081 : Ref sig .tc := ⟨.hbm, 1693, rfl⟩
abbrev main_v1082 : Ref sig .tc := ⟨.hbm, 1694, rfl⟩
abbrev main_v1083 : Ref sig .tc := ⟨.hbm, 1695, rfl⟩
abbrev main_cst_393 : Ref sig .tc := ⟨.hbm, 1696, rfl⟩
abbrev main_call99_v0 : Ref sig .tc := ⟨.hbm, 1697, rfl⟩
abbrev main_call99_v1 : Ref sig .tc := ⟨.hbm, 1698, rfl⟩
abbrev main_v1084 : Ref sig .tc := ⟨.hbm, 1699, rfl⟩
abbrev main_v1085 : Ref sig .tc := ⟨.hbm, 1700, rfl⟩
abbrev main_c_394 : Ref sig .tc := ⟨.hbm, 1701, rfl⟩
abbrev main_v1086 : Ref sig .tc := ⟨.hbm, 1702, rfl⟩
abbrev main_v1087 : Ref sig .tc := ⟨.hbm, 1703, rfl⟩
abbrev main_v1088 : Ref sig .tc := ⟨.hbm, 1704, rfl⟩
abbrev main_v1089 : Ref sig .tc := ⟨.hbm, 1705, rfl⟩
abbrev main_cst_395 : Ref sig .tc := ⟨.hbm, 1706, rfl⟩
abbrev main_v1090 : Ref sig .tc := ⟨.hbm, 1707, rfl⟩
abbrev main_v1091 : Ref sig .tc := ⟨.hbm, 1708, rfl⟩
abbrev main_cst_396 : Ref sig .tc := ⟨.hbm, 1709, rfl⟩
abbrev main_v1092 : Ref sig .tc := ⟨.hbm, 1710, rfl⟩
abbrev main_v1093 : Ref sig .tc := ⟨.hbm, 1711, rfl⟩
abbrev main_cst_397 : Ref sig .tc := ⟨.hbm, 1712, rfl⟩
abbrev main_v1094 : Ref sig .tc := ⟨.hbm, 1713, rfl⟩
abbrev main_v1095 : Ref sig .tc := ⟨.hbm, 1714, rfl⟩
abbrev main_v1096 : Ref sig .tc := ⟨.hbm, 1715, rfl⟩
abbrev main_v1097 : Ref sig .tc := ⟨.hbm, 1716, rfl⟩
abbrev main_v1098 : Ref sig .tc := ⟨.hbm, 1717, rfl⟩
abbrev main_cst_398 : Ref sig .tc := ⟨.hbm, 1718, rfl⟩
abbrev main_call100_v0 : Ref sig .tc := ⟨.hbm, 1719, rfl⟩
abbrev main_call100_v1 : Ref sig .tc := ⟨.hbm, 1720, rfl⟩
abbrev main_v1099 : Ref sig .tc := ⟨.hbm, 1721, rfl⟩
abbrev main_c_399 : Ref sig .tc := ⟨.hbm, 1722, rfl⟩
abbrev main_v1100 : Ref sig .tc := ⟨.hbm, 1723, rfl⟩
abbrev main_v1101 : Ref sig .tc := ⟨.hbm, 1724, rfl⟩
abbrev main_v1102 : Ref sig .tc := ⟨.hbm, 1725, rfl⟩
abbrev main_c_400 : Ref sig .tc := ⟨.hbm, 1726, rfl⟩
abbrev main_v1103 : Ref sig .tc := ⟨.hbm, 1727, rfl⟩
abbrev main_v1104 : Ref sig .tc := ⟨.hbm, 1728, rfl⟩
abbrev main_v1105 : Ref sig .tc := ⟨.hbm, 1729, rfl⟩
abbrev main_c_401 : Ref sig .tc := ⟨.hbm, 1730, rfl⟩
abbrev main_call101_v0 : Ref sig .tc := ⟨.hbm, 1731, rfl⟩
abbrev main_call101_v1 : Ref sig .tc := ⟨.hbm, 1732, rfl⟩
abbrev main_v1106 : Ref sig .tc := ⟨.hbm, 1733, rfl⟩
abbrev main_v1107 : Ref sig .tc := ⟨.hbm, 1734, rfl⟩
abbrev main_c_402 : Ref sig .tc := ⟨.hbm, 1735, rfl⟩
abbrev main_v1108 : Ref sig .tc := ⟨.hbm, 1736, rfl⟩
abbrev main_v1109 : Ref sig .tc := ⟨.hbm, 1737, rfl⟩
abbrev main_c_403 : Ref sig .tc := ⟨.hbm, 1738, rfl⟩
abbrev main_v1110 : Ref sig .tc := ⟨.hbm, 1739, rfl⟩
abbrev main_v1111 : Ref sig .tc := ⟨.hbm, 1740, rfl⟩
abbrev main_v1112 : Ref sig .tc := ⟨.hbm, 1741, rfl⟩
abbrev main_v1113 : Ref sig .tc := ⟨.hbm, 1742, rfl⟩
abbrev main_v1114 : Ref sig .tc := ⟨.hbm, 1743, rfl⟩
abbrev main_v1115 : Ref sig .tc := ⟨.hbm, 1744, rfl⟩
abbrev main_cst_404 : Ref sig .tc := ⟨.hbm, 1745, rfl⟩
abbrev main_call102_v0 : Ref sig .tc := ⟨.hbm, 1746, rfl⟩
abbrev main_call102_v1 : Ref sig .tc := ⟨.hbm, 1747, rfl⟩
abbrev main_v1116 : Ref sig .tc := ⟨.hbm, 1748, rfl⟩
abbrev main_v1117 : Ref sig .tc := ⟨.hbm, 1749, rfl⟩
abbrev main_c_405 : Ref sig .tc := ⟨.hbm, 1750, rfl⟩
abbrev main_v1118 : Ref sig .tc := ⟨.hbm, 1751, rfl⟩
abbrev main_v1119 : Ref sig .tc := ⟨.hbm, 1752, rfl⟩
abbrev main_v1120 : Ref sig .tc := ⟨.hbm, 1753, rfl⟩
abbrev main_v1121 : Ref sig .tc := ⟨.hbm, 1754, rfl⟩
abbrev main_cst_406 : Ref sig .tc := ⟨.hbm, 1755, rfl⟩
abbrev main_v1122 : Ref sig .tc := ⟨.hbm, 1756, rfl⟩
abbrev main_v1123 : Ref sig .tc := ⟨.hbm, 1757, rfl⟩
abbrev main_cst_407 : Ref sig .tc := ⟨.hbm, 1758, rfl⟩
abbrev main_v1124 : Ref sig .tc := ⟨.hbm, 1759, rfl⟩
abbrev main_v1125 : Ref sig .tc := ⟨.hbm, 1760, rfl⟩
abbrev main_cst_408 : Ref sig .tc := ⟨.hbm, 1761, rfl⟩
abbrev main_v1126 : Ref sig .tc := ⟨.hbm, 1762, rfl⟩
abbrev main_v1127 : Ref sig .tc := ⟨.hbm, 1763, rfl⟩
abbrev main_v1128 : Ref sig .tc := ⟨.hbm, 1764, rfl⟩
abbrev main_v1129 : Ref sig .tc := ⟨.hbm, 1765, rfl⟩
abbrev main_v1130 : Ref sig .tc := ⟨.hbm, 1766, rfl⟩
abbrev main_cst_409 : Ref sig .tc := ⟨.hbm, 1767, rfl⟩
abbrev main_call103_v0 : Ref sig .tc := ⟨.hbm, 1768, rfl⟩
abbrev main_call103_v1 : Ref sig .tc := ⟨.hbm, 1769, rfl⟩
abbrev main_v1131 : Ref sig .tc := ⟨.hbm, 1770, rfl⟩
abbrev main_c_410 : Ref sig .tc := ⟨.hbm, 1771, rfl⟩
abbrev main_v1132 : Ref sig .tc := ⟨.hbm, 1772, rfl⟩
abbrev main_v1133 : Ref sig .tc := ⟨.hbm, 1773, rfl⟩
abbrev main_v1134 : Ref sig .tc := ⟨.hbm, 1774, rfl⟩
abbrev main_c_411 : Ref sig .tc := ⟨.hbm, 1775, rfl⟩
abbrev main_v1135 : Ref sig .tc := ⟨.hbm, 1776, rfl⟩
abbrev main_v1136 : Ref sig .tc := ⟨.hbm, 1777, rfl⟩
abbrev main_v1137 : Ref sig .tc := ⟨.hbm, 1778, rfl⟩
abbrev main_c_412 : Ref sig .tc := ⟨.hbm, 1779, rfl⟩
abbrev main_call104_v0 : Ref sig .tc := ⟨.hbm, 1780, rfl⟩
abbrev main_call104_v1 : Ref sig .tc := ⟨.hbm, 1781, rfl⟩
abbrev main_v1138 : Ref sig .tc := ⟨.hbm, 1782, rfl⟩
abbrev main_v1139 : Ref sig .tc := ⟨.hbm, 1783, rfl⟩
abbrev main_c_413 : Ref sig .tc := ⟨.hbm, 1784, rfl⟩
abbrev main_v1140 : Ref sig .tc := ⟨.hbm, 1785, rfl⟩
abbrev main_v1141 : Ref sig .tc := ⟨.hbm, 1786, rfl⟩
abbrev main_c_414 : Ref sig .tc := ⟨.hbm, 1787, rfl⟩
abbrev main_v1142 : Ref sig .tc := ⟨.hbm, 1788, rfl⟩
abbrev main_v1143 : Ref sig .tc := ⟨.hbm, 1789, rfl⟩
abbrev main_v1144 : Ref sig .tc := ⟨.hbm, 1790, rfl⟩
abbrev main_v1145 : Ref sig .tc := ⟨.hbm, 1791, rfl⟩
abbrev main_v1146 : Ref sig .tc := ⟨.hbm, 1792, rfl⟩
abbrev main_v1147 : Ref sig .tc := ⟨.hbm, 1793, rfl⟩
abbrev main_cst_415 : Ref sig .tc := ⟨.hbm, 1794, rfl⟩
abbrev main_call105_v0 : Ref sig .tc := ⟨.hbm, 1795, rfl⟩
abbrev main_call105_v1 : Ref sig .tc := ⟨.hbm, 1796, rfl⟩
abbrev main_v1148 : Ref sig .tc := ⟨.hbm, 1797, rfl⟩
abbrev main_v1149 : Ref sig .tc := ⟨.hbm, 1798, rfl⟩
abbrev main_c_416 : Ref sig .tc := ⟨.hbm, 1799, rfl⟩
abbrev main_v1150 : Ref sig .tc := ⟨.hbm, 1800, rfl⟩
abbrev main_v1151 : Ref sig .tc := ⟨.hbm, 1801, rfl⟩
abbrev main_v1152 : Ref sig .tc := ⟨.hbm, 1802, rfl⟩
abbrev main_v1153 : Ref sig .tc := ⟨.hbm, 1803, rfl⟩
abbrev main_cst_417 : Ref sig .tc := ⟨.hbm, 1804, rfl⟩
abbrev main_v1154 : Ref sig .tc := ⟨.hbm, 1805, rfl⟩
abbrev main_v1155 : Ref sig .tc := ⟨.hbm, 1806, rfl⟩
abbrev main_cst_418 : Ref sig .tc := ⟨.hbm, 1807, rfl⟩
abbrev main_v1156 : Ref sig .tc := ⟨.hbm, 1808, rfl⟩
abbrev main_v1157 : Ref sig .tc := ⟨.hbm, 1809, rfl⟩
abbrev main_cst_419 : Ref sig .tc := ⟨.hbm, 1810, rfl⟩
abbrev main_v1158 : Ref sig .tc := ⟨.hbm, 1811, rfl⟩
abbrev main_v1159 : Ref sig .tc := ⟨.hbm, 1812, rfl⟩
abbrev main_v1160 : Ref sig .tc := ⟨.hbm, 1813, rfl⟩
abbrev main_v1161 : Ref sig .tc := ⟨.hbm, 1814, rfl⟩
abbrev main_v1162 : Ref sig .tc := ⟨.hbm, 1815, rfl⟩
abbrev main_cst_420 : Ref sig .tc := ⟨.hbm, 1816, rfl⟩
abbrev main_call106_v0 : Ref sig .tc := ⟨.hbm, 1817, rfl⟩
abbrev main_call106_v1 : Ref sig .tc := ⟨.hbm, 1818, rfl⟩
abbrev main_v1163 : Ref sig .tc := ⟨.hbm, 1819, rfl⟩
abbrev main_c_421 : Ref sig .tc := ⟨.hbm, 1820, rfl⟩
abbrev main_v1164 : Ref sig .tc := ⟨.hbm, 1821, rfl⟩
abbrev main_v1165 : Ref sig .tc := ⟨.hbm, 1822, rfl⟩
abbrev main_v1166 : Ref sig .tc := ⟨.hbm, 1823, rfl⟩
abbrev main_c_422 : Ref sig .tc := ⟨.hbm, 1824, rfl⟩
abbrev main_v1167 : Ref sig .tc := ⟨.hbm, 1825, rfl⟩
abbrev main_v1168 : Ref sig .tc := ⟨.hbm, 1826, rfl⟩
abbrev main_v1169 : Ref sig .tc := ⟨.hbm, 1827, rfl⟩
abbrev main_c_423 : Ref sig .tc := ⟨.hbm, 1828, rfl⟩
abbrev main_call107_v0 : Ref sig .tc := ⟨.hbm, 1829, rfl⟩
abbrev main_call107_v1 : Ref sig .tc := ⟨.hbm, 1830, rfl⟩
abbrev main_v1170 : Ref sig .tc := ⟨.hbm, 1831, rfl⟩
abbrev main_v1171 : Ref sig .tc := ⟨.hbm, 1832, rfl⟩
abbrev main_c_424 : Ref sig .tc := ⟨.hbm, 1833, rfl⟩
abbrev main_v1172 : Ref sig .tc := ⟨.hbm, 1834, rfl⟩
abbrev main_v1173 : Ref sig .tc := ⟨.hbm, 1835, rfl⟩
abbrev main_c_425 : Ref sig .tc := ⟨.hbm, 1836, rfl⟩
abbrev main_v1174 : Ref sig .tc := ⟨.hbm, 1837, rfl⟩
abbrev main_v1175 : Ref sig .tc := ⟨.hbm, 1838, rfl⟩
abbrev main_v1176 : Ref sig .tc := ⟨.hbm, 1839, rfl⟩
abbrev main_v1177 : Ref sig .tc := ⟨.hbm, 1840, rfl⟩
abbrev main_v1178 : Ref sig .tc := ⟨.hbm, 1841, rfl⟩
abbrev main_v1179 : Ref sig .tc := ⟨.hbm, 1842, rfl⟩
abbrev main_cst_426 : Ref sig .tc := ⟨.hbm, 1843, rfl⟩
abbrev main_call108_v0 : Ref sig .tc := ⟨.hbm, 1844, rfl⟩
abbrev main_call108_v1 : Ref sig .tc := ⟨.hbm, 1845, rfl⟩
abbrev main_v1180 : Ref sig .tc := ⟨.hbm, 1846, rfl⟩
abbrev main_v1181 : Ref sig .tc := ⟨.hbm, 1847, rfl⟩

abbrev nD : Nat := 1
abbrev τ : Topo := Topo.v7x

variable {F : FTy → Type} [FloatOps F]

class Facts₀ : Prop where
  slices_S4000000_S3000000_0 : S4000000.Slices ![0] S3000000
  bcast_S_S3000000 : S_.BroadcastsInDim S3000000 (![] : Fin 0 → Fin S3000000.rank)
  slices_S8000000_S3000000_0 : S8000000.Slices ![0] S3000000
  slices_S8000000_S3000000_4000000 : S8000000.Slices ![4000000] S3000000
  bcast_S_S1048576 : S_.BroadcastsInDim S1048576 (![] : Fin 0 → Fin S1048576.rank)
  bcast_S3000000_S3000000x1_0 : S3000000.BroadcastsInDim S3000000x1 (![0] : Fin 1 → Fin S3000000x1.rank)
  slices_S8000000_S2500000_0 : S8000000.Slices ![0] S2500000
  slices_S8000000_S2500000_4000000 : S8000000.Slices ![4000000] S2500000
  slices_S4000000_S2500000_0 : S4000000.Slices ![0] S2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  scatter_S1048576_S3000000x1_S3000000_n_0_0_1_wf : ScatterDims.WF S1048576 S3000000x1 S3000000 [] [0] [0] 1
  gather_S1048576_S2500000x1_S2500000_n_0_n_n_0_1_1_wf : GatherDims.WF S1048576 S2500000x1 S2500000 [] [0] [] [0] [] 1 ![1]

variable [Facts₀]

def scatter_S1048576_S3000000x1_S3000000_n_0_0_1 : ScatterDims S1048576 S3000000x1 S3000000 where
  updateWindowDims := []
  insertedWindowDims := [0]
  scatterDimsToOperandDims := [0]
  indexVectorDim := 1
  wf := scatter_S1048576_S3000000x1_S3000000_n_0_0_1_wf
def gather_S1048576_S2500000x1_S2500000_n_0_n_n_0_1_1 : GatherDims S1048576 S2500000x1 S2500000 where
  offsetDims := []
  collapsedSliceDims := [0]
  operandBatchingDims := []
  startIndicesBatchingDims := []
  startIndexMap := [0]
  indexVectorDim := 1
  sliceSizes := ![1]
  wf := gather_S1048576_S2500000x1_S2500000_n_0_n_n_0_1_1_wf

class Facts : Prop extends Facts₀ where

variable [Facts]
-- ==== Proof.Spec.lean ====
/-
  The mathematics both programs compute, stated once over plain sequences (no program is imported here).

  A placement instance: positions `px k`, `py k`, sizes `sx k`, `sy k` and integer pin weights `w k` of nodes `k`.
  Phase 1 builds a pin-density map on the 1024 × 1024 unit bins from the first 3,000,000 nodes: each node is a box
  of half-extents `hx = max(c, sx/2)`, `hy = max(c, sy/2)` around its centre carrying the density
  `w / (4·hx·hy)`; bin `(x, y)` receives density × (overlap length with `[x, x+1]`) × (overlap length with `[y, y+1]`).
  The map is turned into an adjustment factor clipped to `[cLo, cHi]`, and phase 2 integrates the factor over each
  node's own footprint `[px, px+sx] × [py, py+sy]`.

  `area` sums over ALL bins (the overlap with a far bin is zero); `areaR` visits only the 4 × 4 bins starting at
  the bin that holds the box's lower corner, scattering and gathering by flat cell number. The two agree when
  every box meets at most four bins per axis, which sizes at most 2 (two bin widths) guarantee.
-/
import Idealize.ShloMosaic.PureOps.Ideal
import Idealize.ShloMosaic.Lib.ValueIdx

noncomputable section

open scoped BigOperators

namespace Cert.Spec

open Idealize.ShloMosaic

/-- Entry `k` of a rank-one float array, `0` past its end. -/
def at1 {n : ℕ} (v : (⟨1, ![n]⟩ : Shape).Idx → EReal) (k : ℕ) : EReal :=
  if h : k < n then v (ValueIdx.ix1 ⟨k, h⟩) else 0

/-- Entry `k` of a rank-one array of 32-bit words, read as a signed integer, `0` past its end. -/
def atW {n : ℕ} (v : (⟨1, ![n]⟩ : Shape).Idx → BitVec 32) (k : ℕ) : ℤ :=
  if h : k < n then (v (ValueIdx.ix1 ⟨k, h⟩)).toInt else 0

/-- One half. -/
def half : EReal := ((1 / 2 : ℝ) : EReal)
/-- The single-precision number nearest 0.707: the least half-extent of a stretched box. -/
def c707 : EReal := ((11861492 / 16777216 : ℝ) : EReal)
/-- The single-precision number nearest 1.414, exactly twice `c707`. -/
def c1414 : EReal := ((11861492 / 8388608 : ℝ) : EReal)
/-- The lower clip of the adjustment factor (the single-precision number nearest 0.4). -/
def cLo : EReal := Ideal.ofBits .f32 0x3ECCCCCD#32
/-- The upper clip of the adjustment factor (2.5). -/
def cHi : EReal := Ideal.ofBits .f32 0x40200000#32

/-- Length of the overlap of `[lo, hi]` with the unit bin `[b, b + 1]`, zero when they are disjoint. -/
def ov (lo hi : EReal) (b : ℕ) : EReal :=
  max 0 (min hi (((b : ℝ) : EReal) + 1) - max lo ((b : ℝ) : EReal))

/-- The bin a lower corner `lo` falls in, clamped to `0 … 1023`. -/
def bstart (lo : EReal) : ℕ :=
  (min 1023 (max 0 (Ideal.toIntClamped (-(2 ^ 31 : ℕ)) ((2 ^ 31 : ℕ) - 1) (Ideal.liftRound Int.floor lo)))).toNat

/-- The density map's value turned into the clipped adjustment factor. -/
def adjOf (p : EReal) : EReal := min cHi (max cLo (Ideal.div (Ideal.div p 1) 2))

section Instance

variable (px py sx sy : ℕ → EReal) (w : ℕ → ℤ)

/-- Half-extent of node `k`'s stretched box along x. -/
def hx (k : ℕ) : EReal := max c707 (half * sx k)
/-- Half-extent of node `k`'s stretched box along y. -/
def hy (k : ℕ) : EReal := max c707 (half * sy k)
/-- The stretched box's lower x edge. -/
def xlo (k : ℕ) : EReal := (px k + half * sx k) - hx sx k
/-- The stretched box's upper x edge. -/
def xhi (k : ℕ) : EReal := (px k + half * sx k) + hx sx k
/-- The stretched box's lower y edge. -/
def ylo (k : ℕ) : EReal := (py k + half * sy k) - hy sy k
/-- The stretched box's upper y edge. -/
def yhi (k : ℕ) : EReal := (py k + half * sy k) + hy sy k
/-- Pins per unit area of node `k`'s stretched box. -/
def dens (k : ℕ) : EReal := Ideal.div (((w k : ℤ) : ℝ) : EReal) ((4 : EReal) * hx sx k * hy sy k)

/-- THE DENSE FORM of the pin-density map at bin `(x, y)`: every physical node against this bin. -/
def pm (x y : ℕ) : EReal :=
  ∑ k ∈ Finset.range 3000000, dens sx sy w k * ov (xlo px sx k) (xhi px sx k) x * ov (ylo py sy k) (yhi py sy k) y

/-- THE DENSE FORM of node `n`'s adjusted area: its footprint against every bin of the adjusted map. -/
def area (n : ℕ) : EReal :=
  ∑ x ∈ Finset.range 1024, ov (px n) (px n + sx n) x *
    ∑ y ∈ Finset.range 1024, adjOf (pm px py sx sy w x y) * ov (py n) (py n + sy n) y

/-- Whether the bin at offsets `(di, dj)` from node `k`'s start bin lies on the map. -/
def onMap1 (di dj k : ℕ) : Prop := bstart (xlo px sx k) + di < 1024 ∧ bstart (ylo py sy k) + dj < 1024

instance (di dj k : ℕ) : Decidable (onMap1 px py sx sy di dj k) := by unfold onMap1; infer_instance

/-- The flat cell number node `k` scatters to in pass `(di, dj)` (cell 0 when off the map). -/
def cell1 (di dj k : ℕ) : ℕ :=
  if onMap1 px py sx sy di dj k then (bstart (xlo px sx k) + di) * 1024 + (bstart (ylo py sy k) + dj) else 0

/-- What node `k` scatters in pass `(di, dj)` (nothing when off the map). -/
def contrib1 (di dj k : ℕ) : EReal :=
  if onMap1 px py sx sy di dj k then
    dens sx sy w k * ov (xlo px sx k) (xhi px sx k) (bstart (xlo px sx k) + di)
      * ov (ylo py sy k) (yhi py sy k) (bstart (ylo py sy k) + dj)
  else 0

/-- One scatter pass: the map so far plus, cell by cell, what the nodes landing there scatter. -/
def pass1 (di dj : ℕ) (acc : ℕ → EReal) (i : ℕ) : EReal :=
  acc i + ∑ k ∈ (Finset.range 3000000).filter (fun k => cell1 px py sx sy di dj k = i), contrib1 px py sx sy w di dj k

/-- The sixteen offsets in the order the passes run: `di` outer, `dj` inner. -/
def offsets : List (ℕ × ℕ) :=
  [(0, 0), (0, 1), (0, 2), (0, 3), (1, 0), (1, 1), (1, 2), (1, 3),
   (2, 0), (2, 1), (2, 2), (2, 3), (3, 0), (3, 1), (3, 2), (3, 3)]

/-- THE SCATTERED FORM of the pin-density map, by flat cell number: sixteen passes from the zero map. -/
def pmR : ℕ → EReal :=
  offsets.foldl (fun acc d => pass1 px py sx sy w d.1 d.2 acc) (fun _ => 0)

/-- Whether the bin at offsets `(di, dj)` from node `n`'s own start bin lies on the map. -/
def onMap2 (di dj n : ℕ) : Prop := bstart (px n) + di < 1024 ∧ bstart (py n) + dj < 1024

instance (di dj n : ℕ) : Decidable (onMap2 px py di dj n) := by unfold onMap2; infer_instance

/-- Node `n`'s footprint against the bin at offsets `(di, dj)`, weighted by the adjusted scattered map there. -/
def term2 (di dj n : ℕ) : EReal :=
  if onMap2 px py di dj n then
    ov (px n) (px n + sx n) (bstart (px n) + di) * ov (py n) (py n + sy n) (bstart (py n) + dj)
      * adjOf (pmR px py sx sy w ((bstart (px n) + di) * 1024 + (bstart (py n) + dj)))
  else 0

/-- THE GATHERED FORM of node `n`'s adjusted area: the sixteen bins from its start bin, added in pass order. -/
def areaR (n : ℕ) : EReal :=
  offsets.foldl (fun acc d => acc + term2 px py sx sy w d.1 d.2 n) 0

end Instance

end Cert.Spec

end
-- ==== Proof.KSpec.lean ====
/-
  The two kernel regions' results as functions of the arrays each region finds, in the vocabulary of the
  specification: the first region leaves, per half of the node range, the sum over its 5860 tiles of 256 nodes of
  density × x-overlap × y-overlap (a padding node's density is multiplied by zero); the second leaves each node's
  footprint integrated against a given 1024 × 1024 table.
-/
import proofs.«430719_j53558242181775_3_alg».proof.Proof.Spec

noncomputable section

open scoped BigOperators

namespace Cert.Spec

open Idealize.ShloMosaic

/-- Entry `(x, y)` of a rank-two float array, `0` outside it. -/
def at2 {a b : ℕ} (v : (⟨2, ![a, b]⟩ : Shape).Idx → EReal) (x y : ℕ) : EReal :=
  if h : x < a ∧ y < b then v (ValueIdx.ix2 ⟨x, h.1⟩ ⟨y, h.2⟩) else 0

/-- Entry `(p, x, y)` of a rank-three float array, `0` outside it. -/
def at3 {a b d : ℕ} (v : (⟨3, ![a, b, d]⟩ : Shape).Idx → EReal) (p x y : ℕ) : EReal :=
  if h : p < a ∧ x < b ∧ y < d then v (ValueIdx.ix3 ⟨p, h.1⟩ ⟨x, h.2.1⟩ ⟨y, h.2.2⟩) else 0

/-- Node `n`'s footprint integrated against a table `adj` over all 1024 × 1024 bins. -/
def areaOn (mx my msx msy : ℕ → EReal) (adj : ℕ → ℕ → EReal) (n : ℕ) : EReal :=
  ∑ x ∈ Finset.range 1024, ov (mx n) (mx n + msx n) x *
    ∑ y ∈ Finset.range 1024, adj x y * ov (my n) (my n + msy n) y

/-- Half `p` of the padded node range (5860 tiles of 256 nodes) against bin `(x, y)`: density, zeroed from node
    3,000,000 on, times the two overlaps. -/
def shardOn (px py sx sy : ℕ → EReal) (w : ℕ → ℤ) (p x y : ℕ) : EReal :=
  ∑ s ∈ Finset.range 5860, ∑ j ∈ Finset.range 256,
    (dens sx sy w ((p * 5860 + s) * 256 + j) * (if (p * 5860 + s) * 256 + j < 3000000 then (1 : EReal) else 0))
      * ov (xlo px sx ((p * 5860 + s) * 256 + j)) (xhi px sx ((p * 5860 + s) * 256 + j)) x
      * ov (ylo py sy ((p * 5860 + s) * 256 + j)) (yhi py sy ((p * 5860 + s) * 256 + j)) y

end Cert.Spec

end
-- ==== Proof.KHost.lean ====
/-
  The host operations around the two kernel regions, read entry by entry: the slices and the zero-padding that
  feed the first region, the sum of the two halves and its clipped rescaling that feed the second, and the final
  slice that is the program's result.
-/
import proofs.«430719_j53558242181775_3_alg».proof.Proof.KSpec
import proofs.«430719_j53558242181775_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.KHost

open Cert.KernelIdeal Cert.KernelIdeal.Gen Cert.Spec

variable (m : (ℓ : Loc nD τ sig) → Buf (Elt Ideal) ℓ) (ρ : Dev nD → PrngReg)

/-- A reference that no operation of a stretch writes keeps its contents through the stretch. -/
local macro "keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    Finset.mem_singleton]
  repeat' apply And.intro
  all_goals exact StableHlo.devRef_ne_of_ne (by decide)))

/-- The position array leaves the first region as launched: neither the first host stretch nor the region writes it. -/
private theorem W2_arg0 (c : Dev nD) : W2 m ρ c (Proc.devRef .tc main_arg0) = m ((c.tc : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by keeps hostOps0
    _ = m ((c.tc : Thread nD τ).loc main_arg0) := rfl
/-- So does the array of x sizes. -/
private theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by keeps hostOps0
    _ = m ((c.tc : Thread nD τ).loc main_arg1) := rfl
/-- So does the array of y sizes. -/
private theorem W2_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by keeps hostOps0
    _ = m ((c.tc : Thread nD τ).loc main_arg2) := rfl

/-- The program's result is the first 2,500,000 entries of the second region's output array. -/
theorem result_read (c : Dev nD) (i : S2500000.Idx) :
    (W7 m ρ c (Proc.devRef .tc main_v19) : FVec Ideal S2500000 .f32) i
      = (W6 m ρ c (Proc.devRef .tc main_v18) : FVec Ideal S2500096 .f32)
          (ValueIdx.ix1 ⟨(i 0).val, Nat.lt_of_lt_of_le (i 0).isLt (by decide)⟩) := by
  show StableHlo.after hostOps2 (W6 m ρ c) (Proc.devRef .tc main_v19) i = _
  simp only [hostOps2]
  after_results
  refine extractStridedSlice_apply _ _ _ i _ fun a => ?_
  match a with
  | ⟨0, _⟩ => show (i 0).val = 0 + (i 0).val; omega

/-- The second region's output array after the region is what its write-backs leave. -/
theorem W6_v18 (c : Dev nD) : W6 m ρ c (Proc.devRef .tc main_v18) = (dat1 (V5 m ρ) c).arrAt 5 cfg1.N :=
  (hF1 m ρ c 5).symm

/-- The first region's output array after the region is what its write-backs leave. -/
theorem W2_v6 (c : Dev nD) : W2 m ρ c (Proc.devRef .tc main_v6) = (dat0 (V1 m ρ) c).arrAt 5 cfg0.N :=
  (hF0 m ρ c 5).symm

/-- Entering region 1: x positions of the first 2,500,096 nodes. -/
theorem V5_v14 (c : Dev nD) (k : ℕ) (hk : k < 2500096) :
    at1 (V5 m ρ c main_v14 : FVec Ideal S2500096 .f32) k = at1 (m ((c.tc : Thread nD τ).loc main_arg0) : FVec Ideal S8000000 .f32) k := by
  have e : (V5 m ρ c main_v14 : FVec Ideal S2500096 .f32)
      = extractStridedSlice S2500096 ![0] (m ((c.tc : Thread nD τ).loc main_arg0)) slices_S8000000_S2500096_0 := by
    show StableHlo.after hostOps1_2 (W4 m ρ c) (Proc.devRef .tc main_v14) = _
    simp only [hostOps1_2]
    after_results
    rw [W2_arg0]
  unfold at1
  rw [dif_pos hk, dif_pos (show k < 8000000 by omega), e]
  refine extractStridedSlice_apply _ _ _ _ _ fun a => ?_
  match a with
  | ⟨0, _⟩ => show k = 0 + k; omega
/-- Entering region 1: y positions (the second half of the position array). -/
theorem V5_v15 (c : Dev nD) (k : ℕ) (hk : k < 2500096) :
    at1 (V5 m ρ c main_v15 : FVec Ideal S2500096 .f32) k = at1 (m ((c.tc : Thread nD τ).loc main_arg0) : FVec Ideal S8000000 .f32) (4000000 + k) := by
  have e : (V5 m ρ c main_v15 : FVec Ideal S2500096 .f32)
      = extractStridedSlice S2500096 ![4000000] (m ((c.tc : Thread nD τ).loc main_arg0)) slices_S8000000_S2500096_4000000 := by
    show StableHlo.after hostOps1_2 (W4 m ρ c) (Proc.devRef .tc main_v15) = _
    simp only [hostOps1_2]
    after_results
    rw [W2_arg0]
  unfold at1
  rw [dif_pos hk, dif_pos (show 4000000 + k < 8000000 by omega), e]
  refine extractStridedSlice_apply _ _ _ _ _ fun a => ?_
  match a with
  | ⟨0, _⟩ => rfl
/-- Entering region 1: x sizes. -/
theorem V5_v16 (c : Dev nD) (k : ℕ) (hk : k < 2500096) :
    at1 (V5 m ρ c main_v16 : FVec Ideal S2500096 .f32) k = at1 (m ((c.tc : Thread nD τ).loc main_arg1) : FVec Ideal S4000000 .f32) k := by
  have e : (V5 m ρ c main_v16 : FVec Ideal S2500096 .f32)
      = extractStridedSlice S2500096 ![0] (m ((c.tc : Thread nD τ).loc main_arg1)) slices_S4000000_S2500096_0 := by
    show StableHlo.after hostOps1_2 (W4 m ρ c) (Proc.devRef .tc main_v16) = _
    simp only [hostOps1_2]
    after_results
    rw [W2_arg1]
  unfold at1
  rw [dif_pos hk, dif_pos (show k < 4000000 by omega), e]
  refine extractStridedSlice_apply _ _ _ _ _ fun a => ?_
  match a with
  | ⟨0, _⟩ => show k = 0 + k; omega
/-- Entering region 1: y sizes. -/
theorem V5_v17 (c : Dev nD) (k : ℕ) (hk : k < 2500096) :
    at1 (V5 m ρ c main_v17 : FVec Ideal S2500096 .f32) k = at1 (m ((c.tc : Thread nD τ).loc main_arg2) : FVec Ideal S4000000 .f32) k := by
  have e : (V5 m ρ c main_v17 : FVec Ideal S2500096 .f32)
      = extractStridedSlice S2500096 ![0] (m ((c.tc : Thread nD τ).loc main_arg2)) slices_S4000000_S2500096_0 := by
    show StableHlo.after hostOps1_2 (W4 m ρ c) (Proc.devRef .tc main_v17) = _
    simp only [hostOps1_2]
    after_results
    rw [W2_arg2]
  unfold at1
  rw [dif_pos hk, dif_pos (show k < 4000000 by omega), e]
  refine extractStridedSlice_apply _ _ _ _ _ fun a => ?_
  match a with
  | ⟨0, _⟩ => show k = 0 + k; omega

/-- The single-precision word of one is the extended real one. -/
private theorem ofBits_one : Ideal.ofBits .f32 0x3F800000#32 = 1 := by
  rw [show (1 : EReal) = ((1 : ℝ) : EReal) by norm_cast]
  simp [Ideal.ofBits, Ideal.ieee, -EReal.coe_mul]; norm_num

/-- The single-precision word of two is the extended real two. -/
private theorem ofBits_two : Ideal.ofBits .f32 0x40000000#32 = 2 := by
  rw [show (2 : EReal) = ((2 : ℝ) : EReal) by norm_cast]
  simp [Ideal.ofBits, Ideal.ieee, -EReal.coe_mul]; norm_num

/-- The sum along the leading axis of a [2, 1024, 1024] array at bin (x, y) is the sum of its two halves there. -/
private theorem sum_halves (A : S2x1024x1024.Idx → EReal) (hR : S2x1024x1024.Reduces [0] S1024x1024)
    (x y : ℕ) (hx : x < 1024) (hy : y < 1024) :
    ∑ k : Fin (S2x1024x1024.size 0), A (hR.lift (ValueIdx.ix2 ⟨x, hx⟩ ⟨y, hy⟩) k)
      = ∑ p ∈ Finset.range 2, at3 A p x y := by
  show ∑ k : Fin 2, _ = _
  rw [Fin.sum_univ_two, Finset.sum_range_succ, Finset.sum_range_one]
  unfold at3
  rw [dif_pos ⟨by decide, hx, hy⟩, dif_pos ⟨by decide, hx, hy⟩]
  congr 1 <;>
  · congr 1
    funext a
    apply Fin.ext
    match a with
    | ⟨0, _⟩ => rfl
    | ⟨1, _⟩ => rfl
    | ⟨2, _⟩ => rfl

/-- Entering region 1: the adjustment table is the clipped rescaling of the sum of the first region's two halves. -/
theorem V5_v13 (c : Dev nD) (x y : ℕ) (hx : x < 1024) (hy : y < 1024) :
    at2 (V5 m ρ c main_v13 : FVec Ideal S1024x1024 .bf16) x y
      = adjOf (∑ p ∈ Finset.range 2, at3 (W2 m ρ c (Proc.devRef .tc main_v6) : FVec Ideal S2x1024x1024 .f32) p x y) := by
  have e : (V5 m ρ c main_v13 : FVec Ideal S1024x1024 .bf16)
      = (truncf .bf16 (minimumf (broadcastInDim S1024x1024 ![] bcast_S_S1024x1024 (constant S_ .f32 0x40200000#32))
          (maximumf (broadcastInDim S1024x1024 ![] bcast_S_S1024x1024 (constant S_ .f32 0x3ECCCCCD#32))
            (Host.divf
              (Host.divf
                (Host.reduceAdd (W2 m ρ c (Proc.devRef .tc main_v6) : FVec Ideal S2x1024x1024 .f32)
                  (constant S_ .f32 0x00000000#32) reducesTo_S2x1024x1024_S1024x1024_d0 h_S_)
                (broadcastInDim S1024x1024 ![] bcast_S_S1024x1024 (constant S_ .f32 0x3F800000#32)))
              (broadcastInDim S1024x1024 ![] bcast_S_S1024x1024 (constant S_ .f32 0x40000000#32))))) bitsLt_bf16_f32
          : FVec Ideal S1024x1024 .bf16) := by
    show StableHlo.after hostOps1_2 (StableHlo.after hostOps1_1 (StableHlo.after hostOps1 (W2 m ρ c)))
      (Proc.devRef .tc main_v13) = _
    simp only [hostOps1_2, hostOps1_1, hostOps1]
    after_results
    all_goals rfl
  -- at bin (x, y): the initial zero plus the sum over the leading axis, divided by one and by two, then clipped
  have hR : S2x1024x1024.Reduces [0] S1024x1024 := by decide
  unfold at2
  rw [dif_pos ⟨hx, hy⟩, e]
  show min (Ideal.ofBits .f32 0x40200000#32) (max (Ideal.ofBits .f32 0x3ECCCCCD#32)
      (Ideal.div (Ideal.div (Ideal.hostReduceAdd reducesTo_S2x1024x1024_S1024x1024_d0
        (W2 m ρ c (Proc.devRef .tc main_v6)) (Ideal.ofBits .f32 0x00000000#32) (ValueIdx.ix2 ⟨x, hx⟩ ⟨y, hy⟩))
        (Ideal.ofBits .f32 0x3F800000#32)) (Ideal.ofBits .f32 0x40000000#32))) = _
  rw [Ideal.hostReduceAdd_single reducesTo_S2x1024x1024_S1024x1024_d0 hR, Ideal.ofBits_zero_f32, zero_add, ofBits_one,
    ofBits_two, sum_halves]
  rfl

/-- Entering region 0: x positions of the first 3,000,320 nodes. -/
theorem V1_v0 (c : Dev nD) (k : ℕ) (hk : k < 3000320) :
    at1 (V1 m ρ c main_v0 : FVec Ideal S3000320 .f32) k = at1 (m ((c.tc : Thread nD τ).loc main_arg0) : FVec Ideal S8000000 .f32) k := by
  have e : (V1 m ρ c main_v0 : FVec Ideal S3000320 .f32)
      = extractStridedSlice S3000320 ![0] (m ((c.tc : Thread nD τ).loc main_arg0)) slices_S8000000_S3000320_0 := by
    show StableHlo.after hostOps0 (W0 m ρ c) (Proc.devRef .tc main_v0) = _
    simp only [hostOps0]
    after_results
  unfold at1
  rw [dif_pos hk, dif_pos (show k < 8000000 by omega), e]
  refine extractStridedSlice_apply _ _ _ _ _ fun a => ?_
  match a with
  | ⟨0, _⟩ => show k = 0 + k; omega
/-- Entering region 0: y positions. -/
theorem V1_v1 (c : Dev nD) (k : ℕ) (hk : k < 3000320) :
    at1 (V1 m ρ c main_v1 : FVec Ideal S3000320 .f32) k = at1 (m ((c.tc : Thread nD τ).loc main_arg0) : FVec Ideal S8000000 .f32) (4000000 + k) := by
  have e : (V1 m ρ c main_v1 : FVec Ideal S3000320 .f32)
      = extractStridedSlice S3000320 ![4000000] (m ((c.tc : Thread nD τ).loc main_arg0)) slices_S8000000_S3000320_4000000 := by
    show StableHlo.after hostOps0 (W0 m ρ c) (Proc.devRef .tc main_v1) = _
    simp only [hostOps0]
    after_results
  unfold at1
  rw [dif_pos hk, dif_pos (show 4000000 + k < 8000000 by omega), e]
  refine extractStridedSlice_apply _ _ _ _ _ fun a => ?_
  match a with
  | ⟨0, _⟩ => rfl
/-- Entering region 0: x sizes. -/
theorem V1_v2 (c : Dev nD) (k : ℕ) (hk : k < 3000320) :
    at1 (V1 m ρ c main_v2 : FVec Ideal S3000320 .f32) k = at1 (m ((c.tc : Thread nD τ).loc main_arg1) : FVec Ideal S4000000 .f32) k := by
  have e : (V1 m ρ c main_v2 : FVec Ideal S3000320 .f32)
      = extractStridedSlice S3000320 ![0] (m ((c.tc : Thread nD τ).loc main_arg1)) slices_S4000000_S3000320_0 := by
    show StableHlo.after hostOps0 (W0 m ρ c) (Proc.devRef .tc main_v2) = _
    simp only [hostOps0]
    after_results
  unfold at1
  rw [dif_pos hk, dif_pos (show k < 4000000 by omega), e]
  refine extractStridedSlice_apply _ _ _ _ _ fun a => ?_
  match a with
  | ⟨0, _⟩ => show k = 0 + k; omega
/-- Entering region 0: y sizes. -/
theorem V1_v3 (c : Dev nD) (k : ℕ) (hk : k < 3000320) :
    at1 (V1 m ρ c main_v3 : FVec Ideal S3000320 .f32) k = at1 (m ((c.tc : Thread nD τ).loc main_arg2) : FVec Ideal S4000000 .f32) k := by
  have e : (V1 m ρ c main_v3 : FVec Ideal S3000320 .f32)
      = extractStridedSlice S3000320 ![0] (m ((c.tc : Thread nD τ).loc main_arg2)) slices_S4000000_S3000320_0 := by
    show StableHlo.after hostOps0 (W0 m ρ c) (Proc.devRef .tc main_v3) = _
    simp only [hostOps0]
    after_results
  unfold at1
  rw [dif_pos hk, dif_pos (show k < 4000000 by omega), e]
  refine extractStridedSlice_apply _ _ _ _ _ fun a => ?_
  match a with
  | ⟨0, _⟩ => show k = 0 + k; omega
/-- Entering region 0: the pin weights, padded with 320 zeros. -/
theorem V1_v5 (c : Dev nD) (k : ℕ) :
    atW (V1 m ρ c main_v5 : IVec S3000320 32) k = if k < 3000000 then atW (m ((c.tc : Thread nD τ).loc main_arg3) : IVec S3000000 32) k else 0 := by
  have e : (V1 m ρ c main_v5 : IVec S3000320 32)
      = concatenate S3000320 0 [⟨S3000000, (m ((c.tc : Thread nD τ).loc main_arg3) : IVec S3000000 32)⟩,
          ⟨S320, (broadcastInDim S320 ![] bcast_S_S320 (constantI S_ 32 0#32) : IVec S320 32)⟩]
          concatenates_S3000000_S320_S3000320_d0 := by
    show StableHlo.after hostOps0 (W0 m ρ c) (Proc.devRef .tc main_v5) = _
    simp only [hostOps0]
    after_results
  unfold atW
  by_cases h3 : k < 3000000
  · rw [if_pos h3, dif_pos (show k < 3000320 by omega), dif_pos h3, e]
    congr 1
    refine concatenate_pair_apply_left (t := S3000320) (s₁ := S3000000) (s₂ := S320) 0 _ _ _ _ rfl
      (ValueIdx.ix1 ⟨k, h3⟩) fun b => ?_
    match b with
    | ⟨0, _⟩ => rfl
  · rw [if_neg h3]
    by_cases h4 : k < 3000320
    · rw [dif_pos h4, e]
      have hi : k - 3000000 < 320 := by omega
      rw [concatenate_pair_apply_right (t := S3000320) (s₁ := S3000000) (s₂ := S320) 0 _ _ _ _ rfl rfl
        (ValueIdx.ix1 ⟨k - 3000000, hi⟩)
        (fun b hb => absurd (Fin.ext (by have h1 : b.val < 1 := b.isLt; show b.val = 0; omega)) hb)
        (by show (k - 3000000) + 3000000 = k; omega)]
      rfl
    · rw [dif_neg h4]

end Cert.KernelIdeal.KHost

end
-- ==== Proof.KMap.lean ====
/-
  The first kernel region, read as a value: its output block for half `p` of the node range is reset at the half's
  first tile and then accumulates, tile after tile, the product of the (density × x-overlap) matrix with the
  y-overlap matrix over the tile's 256 nodes; after the half's last tile the block is written back. So the array
  it leaves holds, at `(p, x, y)`, the sum over the half's 5860 tiles and each tile's 256 nodes.

  The steps: what one tile leaves in the block, as a term of the five input blocks and the block before; that term
  at an entry `(x, y)` — the block before plus the sum over the tile's nodes of density × validity × x-overlap ×
  y-overlap, the product contracting the node axis of both matrices; a tile's blocks as stretches of the five
  arrays (tile `t` reads entries `256 t … 256 t + 255`, and a node's number never leaves the signed 32-bit
  range, so the validity factor is "node below 3,000,000"); the running sum by induction on the tile; and the
  write-backs, one per half, which together cover the output array.
-/
import proofs.«430719_j53558242181775_3_alg».proof.Proof.KSpec
import proofs.«430719_j53558242181775_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KMap

open Cert.KernelIdeal Cert.KernelIdeal.Gen Cert.Spec

/-! ## What one tile leaves in the output block -/

section Pieces

variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a <;> rfl

/-- The index of a tile's first node as the body computes it from the grid coordinates:
    (half · 5860 + tile) · 256, in 32-bit words. -/
abbrev tileBase (i : grid0.Coords) : BitVec 32 :=
  Scalar.muli (Scalar.addi (Scalar.muli (BitVec.ofNat 32 (i 0).val) 5860#32) (BitVec.ofNat 32 (i 1).val)) 256#32

/-- The block after one tile: the block before (`acc`) plus the product of the tile's two overlap matrices,
    as a term of the five input blocks (x positions, y positions, x sizes, y sizes, pin weights). -/
def tileStep (i : grid0.Coords) (x0 x1 x2 x3 : Vec F S256 .f32) (x4 : Vec F S256 .i32) (acc : Vec F S1x1024x1024 .f32) :
    Vec F S1x1024x1024 .f32 :=
  k0_pay1 (k0_pay15 (k0_pay9 x2 x0) (k0_pay10 x2 x0) (k0_pay13 x2 x3 x4) k0_pay14 (tileBase i))
    (k0_pay16 (k0_pay11 x3 x1) (k0_pay12 x3 x1)) acc

/-- An accumulating tile leaves the block it found plus its product. -/
theorem out_B (c : Dev nD) (i : grid0.Coords) (a2 : Memref sig .tc .vmem S256 .f32) (h2 : a2.IsWhole) (a3 : Memref sig .tc .vmem S256 .f32) (h3 : a3.IsWhole) (a4 : Memref sig .tc .vmem S256 .f32) (h4 : a4.IsWhole) (a5 : Memref sig .tc .vmem S256 .f32) (h5 : a5.IsWhole) (a6 : Memref sig .tc .vmem S256 .i32) (h6 : a6.IsWhole) (a7 : Memref sig .tc .vmem S1x1024x1024 .f32) (h7 : a7.IsWhole) (hc : ¬cond0_0 i)
    (x0 x1 x2 x3 : Vec F S256 .f32) (x4 : Vec F S256 .i32) (xo5 : Vec F S1x1024x1024 .f32) :
    out0_B_5 c i a2 h2 a3 h3 a4 h4 a5 h5 a6 h6 a7 h7 hc x0 x1 x2 x3 x4 xo5 = tileStep i x0 x1 x2 x3 x4 xo5 := by
  unfold out0_B_5
  rw [View.read_writes_eq_canon _ _ _ (cover0_B_5 c i a2 h2 a3 h3 a4 h4 a5 h5 a6 h6 a7 h7 hc x0 x1 x2 x3 x4 xo5)]
  unfold kernelRun0_B
  dsimp only
  sl_unfold_words
  rw [View.canon_unit_zero hz3]
  unfold tileStep tileBase
  simp only [View.readAt_eq_ld, h2.read_unread, h3.read_unread, h4.read_unread, h5.read_unread, h6.read_unread,
    h7.read_unread, View.ld_unit_zero (S := S256) hz1, View.ld_unit_zero (S := S1x1024x1024) hz3]

/-- A resetting tile leaves the zero block plus its product. -/
theorem out_A (c : Dev nD) (i : grid0.Coords) (a2 : Memref sig .tc .vmem S256 .f32) (h2 : a2.IsWhole) (a3 : Memref sig .tc .vmem S256 .f32) (h3 : a3.IsWhole) (a4 : Memref sig .tc .vmem S256 .f32) (h4 : a4.IsWhole) (a5 : Memref sig .tc .vmem S256 .f32) (h5 : a5.IsWhole) (a6 : Memref sig .tc .vmem S256 .i32) (h6 : a6.IsWhole) (a7 : Memref sig .tc .vmem S1x1024x1024 .f32) (h7 : a7.IsWhole) (hc : cond0_0 i)
    (x0 x1 x2 x3 : Vec F S256 .f32) (x4 : Vec F S256 .i32) :
    out0_A_5 c i a2 h2 a3 h3 a4 h4 a5 h5 a6 h6 a7 h7 hc x0 x1 x2 x3 x4 = tileStep i x0 x1 x2 x3 x4 (k0_pay2 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1024x1024) hz3]
  unfold tileStep tileBase
  simp only [View.readAt_eq_ld, h2.read_unread, h3.read_unread, h4.read_unread, h5.read_unread, h6.read_unread,
    View.ld_unit_zero (S := S256) hz1, View.readCov_unit_zero (S := S1x1024x1024) _ hz3]

end Pieces

/-! ## The layout operations of the tile's two matrices, read at an index -/

section Layout

/-- A 256-vector laid as one row and repeated down 1024 rows reads, at `(x, j)`, its entry `j`. -/
theorem rowBc_apply {α : Type} (v : S256.Idx → α) (x : Fin 1024) (j : Fin 256) :
    broadcastTo S1024x256 (shapeCast S1x256 v shapeCasts_S256_S1x256) broadcasts_S1x256_S1024x256 (ix2 x j) = v (ix1 j) :=
  (broadcastTo_1b_ab_apply _ broadcasts_S1x256_S1024x256 x j).trans (shapeCast_a_1a_apply v shapeCasts_S256_S1x256 0 j)

/-- A 1024-column repeated across 256 columns reads, at `(x, j)`, its entry `x`. -/
theorem colBc_apply {α : Type} (v : S1024x1.Idx → α) (x : Fin 1024) (j : Fin 256) :
    broadcastTo S1024x256 v broadcasts_S1024x1_S1024x256 (ix2 x j) = v (ix2 x (0 : Fin 1)) := by
  refine broadcastTo_apply v broadcasts_S1024x1_S1024x256 (ix2 x j) (ix2 x (0 : Fin 1)) fun ax => ?_
  match ax with
  | ⟨0, _⟩ => rfl
  | ⟨1, _⟩ => rfl

/-- The row counter down the 1024 rows reads the row's number. -/
theorem iotaCol_apply (x : Fin 1024) (u : Fin 1) :
    iota .tc S1024x1 32 [0] iota_S1024x1_d0_w32 (ix2 x u) = BitVec.ofNat 32 x.val :=
  iota_single_apply .tc S1024x1 32 0 iota_S1024x1_d0_w32 (ix2 x u)

/-- The lane counter along the 256 nodes of a tile reads the lane's number. -/
theorem lane_apply (j : Fin 256) : k0_pay14 (ix1 j) = BitVec.ofNat 32 j.val := by
  unfold k0_pay14
  refine (shapeCast_1a_a_apply _ shapeCasts_S1x256_S256 j).trans ?_
  exact iota_single_apply .tc S1x256 32 1 iota_S1x256_d1_w32 (ix2 (0 : Fin 1) j)

end Layout

/-! ## The product of the two matrices contracts the tile's 256 nodes -/

section Product

theorem lhsD_0 (j : S1024x1024.Idx) (k : dot_S1024x256_S1024x256_S1024x1024_1_1_0_0_n_n.contr.Idx) :
    (dot_S1024x256_S1024x256_S1024x1024_1_1_0_0_n_n.lhsIdx j k 0 : ℕ) = j 0 := by
  simp [DotDims.lhsIdx, dot_S1024x256_S1024x256_S1024x1024_1_1_0_0_n_n]; rfl
theorem lhsD_1 (j : S1024x1024.Idx) (k : dot_S1024x256_S1024x256_S1024x1024_1_1_0_0_n_n.contr.Idx) :
    (dot_S1024x256_S1024x256_S1024x1024_1_1_0_0_n_n.lhsIdx j k 1 : ℕ) = k ⟨0, by decide⟩ :=
  dot_S1024x256_S1024x256_S1024x1024_1_1_0_0_n_n.lhsIdx_val_of_single rfl j k
theorem rhsD_0 (j : S1024x1024.Idx) (k : dot_S1024x256_S1024x256_S1024x1024_1_1_0_0_n_n.contr.Idx) :
    (dot_S1024x256_S1024x256_S1024x1024_1_1_0_0_n_n.rhsIdx j k 0 : ℕ) = j 1 := by
  simp [DotDims.rhsIdx, dot_S1024x256_S1024x256_S1024x1024_1_1_0_0_n_n]; rfl
theorem rhsD_1 (j : S1024x1024.Idx) (k : dot_S1024x256_S1024x256_S1024x1024_1_1_0_0_n_n.contr.Idx) :
    (dot_S1024x256_S1024x256_S1024x1024_1_1_0_0_n_n.rhsIdx j k 1 : ℕ) = k ⟨0, by decide⟩ :=
  dot_S1024x256_S1024x256_S1024x1024_1_1_0_0_n_n.rhsIdx_val_of_single rfl j k

/-- Entry `(x, y)` of the product into a zero accumulator: the sum over the tile's nodes `j` of
    `A (x, j) · B (y, j)`. -/
theorem matmul_at (A B : FVec Ideal S1024x256 .bf16) (x y : Fin 1024) :
    matmul dot_S1024x256_S1024x256_S1024x1024_1_1_0_0_n_n none A B
        (constant (F := Ideal) S1024x1024 .f32 0x00000000#32) (ix2 x y)
      = ∑ j : Fin 256, A (ix2 x j) * B (ix2 y j) := by
  refine (Ideal.matmul_constant_zero_apply dot_S1024x256_S1024x256_S1024x1024_1_1_0_0_n_n none A B (ix2 x y)).trans ?_
  rw [← Equiv.sum_comp (contrEquiv1 dot_S1024x256_S1024x256_S1024x1024_1_1_0_0_n_n 256 rfl rfl).symm]
  refine Finset.sum_congr rfl fun j _ => ?_
  congr 2
  · apply Shape.idx_ext₂
    · exact lhsD_0 _ _
    · exact (lhsD_1 _ _).trans (contrEquiv1_symm_val _ 256 rfl rfl j)
  · apply Shape.idx_ext₂
    · exact rhsD_0 _ _
    · exact (rhsD_1 _ _).trans (contrEquiv1_symm_val _ 256 rfl rfl j)

end Product

/-! ## The literals, and the words of the node counter -/

section Words

theorem lit_zero : Ideal.ofBits .f32 0x00000000#32 = 0 := Ideal.ofBits_zero_f32
theorem lit_one : Ideal.ofBits .f32 0x3F800000#32 = 1 := by
  simp [Ideal.ofBits, Ideal.ieee, -EReal.coe_mul]; norm_num
theorem lit_half : Ideal.ofBits .f32 0x3F000000#32 = Spec.half := by
  unfold Spec.half
  simp [Ideal.ofBits, Ideal.ieee, -EReal.coe_mul]; norm_num
theorem lit_c707 : Ideal.ofBits .f32 0x3F34FDF4#32 = Spec.c707 := by
  unfold Spec.c707
  simp [Ideal.ofBits, Ideal.ieee, -EReal.coe_mul]; norm_num
theorem lit_four : Ideal.ofBits .f32 0x40800000#32 = 4 := by
  simp [Ideal.ofBits, Ideal.ieee, -EReal.coe_mul]; norm_num; norm_cast

/-- A natural below 2³¹ survives the trip through a 32-bit word read signed. -/
theorem toInt_ofNat32 (n : ℕ) (h : n < 2 ^ 31) : (BitVec.ofNat 32 n).toInt = (n : ℤ) := by
  rw [BitVec.toInt_eq_toNat_of_lt (by rw [BitVec.toNat_ofNat]; omega), BitVec.toNat_ofNat]
  congr 1
  omega

/-- The validity factor of a node: 1 below node 3,000,000 and 0 from there on. -/
theorem valid_word (n : ℕ) (h : n < 2 ^ 31) :
    (((((IntOp.cmpi .slt (BitVec.ofNat 32 n) 3000000#32).setWidth 32).toInt : ℤ) : ℝ) : EReal)
      = if n < 3000000 then 1 else 0 := by
  have e : (BitVec.ofNat 32 n).slt 3000000#32 = decide (n < 3000000) := by
    unfold BitVec.slt
    rw [toInt_ofNat32 n h]
    have : (3000000#32 : BitVec 32).toInt = 3000000 := by decide
    rw [this]
    simp
  unfold IntOp.cmpi
  dsimp only
  rw [e]
  by_cases hn : n < 3000000
  · rw [if_pos hn, decide_eq_true hn]; simp
  · rw [if_neg hn, decide_eq_false hn]; simp

/-- The node counter: the tile's first node plus the lane, as one word. -/
theorem node_word (a b j : ℕ) :
    IntOp.addi (Scalar.muli (Scalar.addi (Scalar.muli (BitVec.ofNat 32 a) 5860#32) (BitVec.ofNat 32 b)) 256#32) (BitVec.ofNat 32 j)
      = BitVec.ofNat 32 ((a * 5860 + b) * 256 + j) := by
  unfold Scalar.muli Scalar.addi IntOp.muli IntOp.addi
  rw [BitVec.ofNat_add, BitVec.ofNat_mul, BitVec.ofNat_add, BitVec.ofNat_mul]

end Words

/-! ## The tile's vectors and matrices, entry by entry -/

section Payloads

/-- Entry `j` of a block of 256 floats, as entry `j` of the sequence the block spells. -/
theorem at1_blk (v : Vec Ideal S256 .f32) (j : Fin 256) : at1 v j.val = v (ix1 j) := by
  unfold at1; rw [dif_pos j.isLt]
/-- The same for a block of 256 words read as signed integers. -/
theorem atW_blk (v : Vec Ideal S256 .i32) (j : Fin 256) : atW v j.val = (v (ix1 j)).toInt := by
  unfold atW; rw [dif_pos j.isLt]

theorem pay5_at (x2 : Vec Ideal S256 .f32) (j : Fin 256) : k0_pay5 x2 (ix1 j) = hx (at1 x2) j.val := by
  unfold k0_pay5 k0_pay3 hx
  rw [at1_blk]
  simp only [maximumf_apply, mulf_apply, broadcast_apply, shapeCast_self, Ideal.ofBits_def, lit_half, lit_c707]

theorem pay6_at (x3 : Vec Ideal S256 .f32) (j : Fin 256) : k0_pay6 x3 (ix1 j) = hy (at1 x3) j.val := by
  unfold k0_pay6 k0_pay4 hy
  rw [at1_blk]
  simp only [maximumf_apply, mulf_apply, broadcast_apply, shapeCast_self, Ideal.ofBits_def, lit_half, lit_c707]

theorem pay7_at (x2 x0 : Vec Ideal S256 .f32) (j : Fin 256) :
    k0_pay7 x2 x0 (ix1 j) = at1 x0 j.val + half * at1 x2 j.val := by
  unfold k0_pay7 k0_pay3
  rw [at1_blk, at1_blk]
  simp only [addf_apply, mulf_apply, broadcast_apply, shapeCast_self, Ideal.ofBits_def, lit_half]

theorem pay8_at (x3 x1 : Vec Ideal S256 .f32) (j : Fin 256) :
    k0_pay8 x3 x1 (ix1 j) = at1 x1 j.val + half * at1 x3 j.val := by
  unfold k0_pay8 k0_pay4
  rw [at1_blk, at1_blk]
  simp only [addf_apply, mulf_apply, broadcast_apply, shapeCast_self, Ideal.ofBits_def, lit_half]

theorem pay9_at (x2 x0 : Vec Ideal S256 .f32) (j : Fin 256) :
    k0_pay9 x2 x0 (ix1 j) = xlo (at1 x0) (at1 x2) j.val := by
  unfold k0_pay9 xlo
  simp only [subf_apply, pay7_at, pay5_at]

theorem pay10_at (x2 x0 : Vec Ideal S256 .f32) (j : Fin 256) :
    k0_pay10 x2 x0 (ix1 j) = xhi (at1 x0) (at1 x2) j.val := by
  unfold k0_pay10 xhi
  simp only [addf_apply, pay7_at, pay5_at]

theorem pay11_at (x3 x1 : Vec Ideal S256 .f32) (j : Fin 256) :
    k0_pay11 x3 x1 (ix1 j) = ylo (at1 x1) (at1 x3) j.val := by
  unfold k0_pay11 ylo
  simp only [subf_apply, pay8_at, pay6_at]

theorem pay12_at (x3 x1 : Vec Ideal S256 .f32) (j : Fin 256) :
    k0_pay12 x3 x1 (ix1 j) = yhi (at1 x1) (at1 x3) j.val := by
  unfold k0_pay12 yhi
  simp only [addf_apply, pay8_at, pay6_at]

theorem pay13_at (x2 x3 : Vec Ideal S256 .f32) (x4 : Vec Ideal S256 .i32) (j : Fin 256) :
    k0_pay13 x2 x3 x4 (ix1 j) = dens (at1 x2) (at1 x3) (atW x4) j.val := by
  unfold k0_pay13 dens
  rw [atW_blk]
  simp only [divf_apply, mulf_apply, broadcast_apply, sitofp_apply, shapeCast_self, pay5_at, pay6_at,
    Ideal.ofBits_def, lit_four]
  rfl

end Payloads

section Matrices

/-- The factor the body multiplies a node's density by: the node's word, read signed, against 3,000,000. -/
def validOf (wd : BitVec 32) : EReal := ((((IntOp.cmpi .slt wd 3000000#32).setWidth 32).toInt : ℤ) : ℝ)

theorem addi_at {s : Shape} {w : ℕ} (a b : IVec s w) (i : s.Idx) : addi a b i = IntOp.addi (a i) (b i) := rfl
theorem cmpi_at {s : Shape} {w : ℕ} (p : CmpIPredicate) (a b : IVec s w) (i : s.Idx) :
    cmpi p a b i = IntOp.cmpi p (a i) (b i) := rfl

/-- Row `x`'s number, converted from the row counter's word, is the real number `x`. -/
theorem row_real (x : Fin 1024) (u : Fin 1) :
    FloatOps.sitofp (F := Ideal) .f32 (iota .tc S1024x1 32 [0] iota_S1024x1_d0_w32 (ix2 x u)) = ((x.val : ℝ) : EReal) := by
  rw [iotaCol_apply]
  show ((((BitVec.ofNat 32 x.val).toInt : ℤ) : ℝ) : EReal) = _
  rw [toInt_ofNat32 _ (by have := x.isLt; omega)]
  norm_cast

/-- The right matrix: entry `(y, j)` is the overlap of node `j`'s y-extent with bin `y`. -/
theorem pay16_at (v27 v28 : FVec Ideal S256 .f32) (y : Fin 1024) (j : Fin 256) :
    k0_pay16 v27 v28 (ix2 y j) = ov (v27 (ix1 j)) (v28 (ix1 j)) y.val := by
  unfold k0_pay16 ov
  simp only [truncf_apply, maximumf_apply, subf_apply, minimumf_apply, addf_apply, mulf_apply, broadcast_apply,
    rowBc_apply, colBc_apply, sitofp_apply, Ideal.ofBits_def, lit_zero, lit_one, zero_add, mul_one]
  rw [row_real]

/-- The left matrix: entry `(x, j)` is node `j`'s density, times its validity factor, times the overlap of
    its x-extent with bin `x`. -/
theorem pay15_at (v25 v26 v35 : FVec Ideal S256 .f32) (v40 : BitVec 32) (x : Fin 1024) (j : Fin 256) :
    k0_pay15 v25 v26 v35 k0_pay14 v40 (ix2 x j)
      = (v35 (ix1 j) * validOf (IntOp.addi v40 (BitVec.ofNat 32 j.val))) * ov (v25 (ix1 j)) (v26 (ix1 j)) x.val := by
  unfold k0_pay15 ov validOf
  simp only [truncf_apply, maximumf_apply, subf_apply, minimumf_apply, addf_apply, mulf_apply, broadcast_apply,
    rowBc_apply, colBc_apply, sitofp_apply, extui_apply, addi_at, cmpi_at, lane_apply,
    Ideal.ofBits_def, lit_zero, lit_one, zero_add, mul_one]
  rw [row_real]
  rfl

/-- One node's contribution to bin `(x, y)`: its density, a validity factor, its x-overlap and its y-overlap. -/
def nodeTerm (px py sx sy : ℕ → EReal) (w : ℕ → ℤ) (valid : EReal) (x y k : ℕ) : EReal :=
  (dens sx sy w k * valid) * ov (xlo px sx k) (xhi px sx k) x * ov (ylo py sy k) (yhi py sy k) y

/-- THE TILE AT AN ENTRY: the block after a tile holds, at `(x, y)`, what it held plus the sum over the tile's
    256 nodes of their contributions to bin `(x, y)`. -/
theorem tileStep_at (i : grid0.Coords) (x0 x1 x2 x3 : Vec Ideal S256 .f32) (x4 : Vec Ideal S256 .i32)
    (acc : Vec Ideal S1x1024x1024 .f32) (u : Fin 1) (x y : Fin 1024) :
    tileStep i x0 x1 x2 x3 x4 acc (ix3 u x y)
      = acc (ix3 (0 : Fin 1) x y) + ∑ j : Fin 256, nodeTerm (at1 x0) (at1 x1) (at1 x2) (at1 x3) (atW x4)
          (validOf (IntOp.addi (tileBase i) (BitVec.ofNat 32 j.val))) x.val y.val j.val := by
  unfold tileStep k0_pay1
  refine (shapeCast_ab_1ab_apply _ shapeCasts_S1024x1024_S1x1024x1024 u x y).trans ?_
  refine congrArg₂ (· + ·) (shapeCast_1ab_ab_apply acc shapeCasts_S1x1024x1024_S1024x1024 x y) ?_
  refine (matmul_at _ _ x y).trans ?_
  refine Finset.sum_congr rfl fun j _ => ?_
  rw [pay15_at, pay16_at, pay9_at, pay10_at, pay11_at, pay12_at, pay13_at]
  rfl

end Matrices

/-! ## Where a tile's blocks sit in the arrays -/

section Schedule

theorem lt_N (t : Fin cfg0.N) : t.val < 11720 := lt_of_lt_of_eq t.isLt (show cfg0.N = 11720 from N_0)

/-- Tile `t`'s two grid coordinates: its half and its number within the half. -/
theorem coords0 (t : Fin cfg0.N) : (grid0.coords t 0).val = t.val / 5860 % 2 := rfl
theorem coords1 (t : Fin cfg0.N) : (grid0.coords t 1).val = t.val / 1 % 5860 := rfl

theorem coords_fact (t : Fin cfg0.N) : (grid0.coords t 0).val * 5860 + (grid0.coords t 1).val = t.val := by
  have := lt_N t
  rw [coords0, coords1]; omega

/-- half · 5860 + tile, in 32-bit words, is the word of that number. -/
theorem tile_word (a b : ℕ) :
    Scalar.addi (Scalar.muli (BitVec.ofNat 32 a) 5860#32) (BitVec.ofNat 32 b) = BitVec.ofNat 32 (a * 5860 + b) := by
  unfold Scalar.muli Scalar.addi IntOp.muli IntOp.addi
  rw [BitVec.ofNat_add, BitVec.ofNat_mul]

/-- Tile `t` reads block `t` of each input array … -/
theorem idx_in (t : Fin cfg0.N) : win0_0.index t (0 : Fin 1) = t.val := by
  have := lt_N t
  show (Scalar.addi (Scalar.muli (BitVec.ofNat 32 (grid0.coords t 0).val) 5860#32)
    (BitVec.ofNat 32 (grid0.coords t 1).val)).toNat = t.val
  rw [tile_word, coords_fact, BitVec.toNat_ofNat]
  omega
theorem idx_in1 (t : Fin cfg0.N) : win0_1.index t (0 : Fin 1) = win0_0.index t (0 : Fin 1) := rfl
theorem idx_in2 (t : Fin cfg0.N) : win0_2.index t (0 : Fin 1) = win0_0.index t (0 : Fin 1) := rfl
theorem idx_in3 (t : Fin cfg0.N) : win0_3.index t (0 : Fin 1) = win0_0.index t (0 : Fin 1) := rfl
theorem idx_in4 (t : Fin cfg0.N) : win0_4.index t (0 : Fin 1) = win0_0.index t (0 : Fin 1) := rfl
/-- … and works on block `(t / 5860, 0, 0)` of the output. -/
theorem idx_out (t : Fin cfg0.N) : win0_5.index t (0 : Fin 3) = t.val / 5860 := by
  have := lt_N t
  show (BitVec.ofNat 32 (grid0.coords t 0).val).toNat = t.val / 5860
  rw [coords0, BitVec.toNat_ofNat]
  omega
theorem idx_out1 (t : Fin cfg0.N) : win0_5.index t (1 : Fin 3) = 0 := rfl
theorem idx_out2 (t : Fin cfg0.N) : win0_5.index t (2 : Fin 3) = 0 := rfl

end Schedule

section Blocks

variable (V : (c : Dev nD) → (b : Ref sig .tc) → Buf (Elt Ideal) ((c : Thread nD τ).loc b))

/-- The five arrays the region reads, as it finds them: x positions, y positions, x sizes, y sizes, pin weights. -/
abbrev arr0 (c : Dev nD) : FVec Ideal S3000320 .f32 := V c main_v0
abbrev arr1 (c : Dev nD) : FVec Ideal S3000320 .f32 := V c main_v1
abbrev arr2 (c : Dev nD) : FVec Ideal S3000320 .f32 := V c main_v2
abbrev arr3 (c : Dev nD) : FVec Ideal S3000320 .f32 := V c main_v3
abbrev arr4 (c : Dev nD) : IVec S3000320 32 := V c main_v5

/-- Their blocks at tile `t`. -/
abbrev blk0 (c : Dev nD) (t : Fin cfg0.N) : Vec Ideal S256 .f32 := iblk0 V c 0 t
abbrev blk1 (c : Dev nD) (t : Fin cfg0.N) : Vec Ideal S256 .f32 := iblk0 V c 1 t
abbrev blk2 (c : Dev nD) (t : Fin cfg0.N) : Vec Ideal S256 .f32 := iblk0 V c 2 t
abbrev blk3 (c : Dev nD) (t : Fin cfg0.N) : Vec Ideal S256 .f32 := iblk0 V c 3 t
abbrev blk4 (c : Dev nD) (t : Fin cfg0.N) : Vec Ideal S256 .i32 := iblk0 V c 4 t

/-- Entry `j` of tile `t`'s block is entry `256 t + j` of the array, window by window. -/
theorem blk0_at (c : Dev nD) (t : Fin cfg0.N) (j : Fin 256) :
    at1 (blk0 V c t) j.val = at1 (arr0 V c) (t.val * 256 + j.val) := by
  have hN := lt_N t
  have hj := j.isLt
  rw [at1_blk]
  unfold at1
  rw [dif_pos (show t.val * 256 + j.val < 3000320 by omega)]
  unfold blk0 iblk0
  rw [View.read_apply]
  show V c main_v0 _ = V c main_v0 _
  congr 1
  funext a
  apply Fin.ext
  match a with
  | ⟨0, _⟩ => show win0_0.index t 0 * 256 + 1 * j.val = t.val * 256 + j.val; rw [idx_in t]; omega

theorem blk1_at (c : Dev nD) (t : Fin cfg0.N) (j : Fin 256) :
    at1 (blk1 V c t) j.val = at1 (arr1 V c) (t.val * 256 + j.val) := by
  have hN := lt_N t
  have hj := j.isLt
  rw [at1_blk]
  unfold at1
  rw [dif_pos (show t.val * 256 + j.val < 3000320 by omega)]
  unfold blk1 iblk0
  rw [View.read_apply]
  show V c main_v1 _ = V c main_v1 _
  congr 1
  funext a
  apply Fin.ext
  match a with
  | ⟨0, _⟩ => show win0_1.index t 0 * 256 + 1 * j.val = t.val * 256 + j.val; rw [idx_in1 t, idx_in t]; omega

theorem blk2_at (c : Dev nD) (t : Fin cfg0.N) (j : Fin 256) :
    at1 (blk2 V c t) j.val = at1 (arr2 V c) (t.val * 256 + j.val) := by
  have hN := lt_N t
  have hj := j.isLt
  rw [at1_blk]
  unfold at1
  rw [dif_pos (show t.val * 256 + j.val < 3000320 by omega)]
  unfold blk2 iblk0
  rw [View.read_apply]
  show V c main_v2 _ = V c main_v2 _
  congr 1
  funext a
  apply Fin.ext
  match a with
  | ⟨0, _⟩ => show win0_2.index t 0 * 256 + 1 * j.val = t.val * 256 + j.val; rw [idx_in2 t, idx_in t]; omega

theorem blk3_at (c : Dev nD) (t : Fin cfg0.N) (j : Fin 256) :
    at1 (blk3 V c t) j.val = at1 (arr3 V c) (t.val * 256 + j.val) := by
  have hN := lt_N t
  have hj := j.isLt
  rw [at1_blk]
  unfold at1
  rw [dif_pos (show t.val * 256 + j.val < 3000320 by omega)]
  unfold blk3 iblk0
  rw [View.read_apply]
  show V c main_v3 _ = V c main_v3 _
  congr 1
  funext a
  apply Fin.ext
  match a with
  | ⟨0, _⟩ => show win0_3.index t 0 * 256 + 1 * j.val = t.val * 256 + j.val; rw [idx_in3 t, idx_in t]; omega

theorem blk4_at (c : Dev nD) (t : Fin cfg0.N) (j : Fin 256) :
    atW (blk4 V c t) j.val = atW (arr4 V c) (t.val * 256 + j.val) := by
  have hN := lt_N t
  have hj := j.isLt
  rw [atW_blk]
  unfold atW
  rw [dif_pos (show t.val * 256 + j.val < 3000320 by omega)]
  unfold blk4 iblk0
  rw [View.read_apply]
  show (V c main_v5 _).toInt = (V c main_v5 _).toInt
  congr 2
  funext a
  apply Fin.ext
  match a with
  | ⟨0, _⟩ => show win0_4.index t 0 * 256 + 1 * j.val = t.val * 256 + j.val; rw [idx_in4 t, idx_in t]; omega

end Blocks

/-! ## The running contents of the output block, and the array the region leaves -/

section Run

variable (V : (c : Dev nD) → (b : Ref sig .tc) → Buf (Elt Ideal) ((c : Thread nD τ).loc b))

/-- A node's contribution depends on the five sequences only through their entries at that node. -/
theorem nodeTerm_congr {px py sx sy px' py' sx' sy' : ℕ → EReal} {w w' : ℕ → ℤ} {k k' : ℕ} (valid : EReal) (x y : ℕ)
    (h0 : px k = px' k') (h1 : py k = py' k') (h2 : sx k = sx' k') (h3 : sy k = sy' k') (h4 : w k = w' k') :
    nodeTerm px py sx sy w valid x y k = nodeTerm px' py' sx' sy' w' valid x y k' := by
  unfold nodeTerm dens xlo xhi ylo yhi hx hy
  rw [h0, h1, h2, h3, h4]

/-- Node `k`'s contribution to bin `(x, y)`, read off the five arrays; nodes from 3,000,000 on contribute zero
    times their density. -/
def term (c : Dev nD) (x y k : ℕ) : EReal :=
  nodeTerm (at1 (arr0 V c)) (at1 (arr1 V c)) (at1 (arr2 V c)) (at1 (arr3 V c)) (atW (arr4 V c))
    (if k < 3000000 then 1 else 0) x y k

/-- Tile `t`'s contribution to bin `(x, y)`: that of its 256 nodes `256 t … 256 t + 255`. -/
def tileSum (c : Dev nD) (x y t : ℕ) : EReal := ∑ j ∈ Finset.range 256, term V c x y (t * 256 + j)

/-- The zero block holds zero. -/
theorem zero_at (u : Fin 1) (x y : Fin 1024) : (k0_pay2 (F := Ideal)) (ix3 u x y) = 0 := by
  unfold k0_pay2
  refine (shapeCast_ab_1ab_apply _ shapeCasts_S1024x1024_S1x1024x1024 u x y).trans ?_
  exact lit_zero

/-- TILE `t` AT AN ENTRY: on the blocks tile `t` reads, the block after holds at `(x, y)` what it held plus
    the tile's contribution to that bin. -/
theorem tile_at (c : Dev nD) (t : Fin cfg0.N) (acc : Vec Ideal S1x1024x1024 .f32) (u : Fin 1) (x y : Fin 1024) :
    tileStep (grid0.coords t) (blk0 V c t) (blk1 V c t) (blk2 V c t) (blk3 V c t) (blk4 V c t) acc (ix3 u x y)
      = acc (ix3 (0 : Fin 1) x y) + tileSum V c x.val y.val t.val := by
  refine (tileStep_at (grid0.coords t) (blk0 V c t) (blk1 V c t) (blk2 V c t) (blk3 V c t) (blk4 V c t) acc u x y).trans ?_
  refine congrArg (acc (ix3 (0 : Fin 1) x y) + ·) ?_
  unfold tileSum
  rw [← Fin.sum_univ_eq_sum_range (fun j => term V c x.val y.val (t.val * 256 + j)) 256]
  refine Finset.sum_congr rfl fun j _ => ?_
  have hv : validOf (IntOp.addi (tileBase (grid0.coords t)) (BitVec.ofNat 32 j.val))
      = if t.val * 256 + j.val < 3000000 then 1 else 0 := by
    unfold validOf tileBase
    rw [node_word, coords_fact t]
    exact valid_word _ (by have := lt_N t; have := j.isLt; omega)
  rw [hv]
  exact nodeTerm_congr _ _ _ (blk0_at V c t j) (blk1_at V c t j) (blk2_at V c t j) (blk3_at V c t j) (blk4_at V c t j)

/-- At a half's first tile the block is the zero block after that tile. -/
theorem step_A (c : Dev nD) (t : Fin cfg0.N) (h0 : t.val % 5860 = 0) :
    outsAt0 V c t.val t.isLt
      = tileStep (grid0.coords t) (blk0 V c t) (blk1 V c t) (blk2 V c t) (blk3 V c t) (blk4 V c t) (k0_pay2 (F := Ideal)) :=
  (outsAt0_A V c t h0).trans
    (out_A c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0)
      (iblk0 V c 0 t) (iblk0 V c 1 t) (iblk0 V c 2 t) (iblk0 V c 3 t) (iblk0 V c 4 t))

/-- At every other tile it is what the tile before left, after this tile. -/
theorem step_B (c : Dev nD) (t : Fin cfg0.N) (h0 : ¬t.val % 5860 = 0) :
    outsAt0 V c t.val t.isLt
      = tileStep (grid0.coords t) (blk0 V c t) (blk1 V c t) (blk2 V c t) (blk3 V c t) (blk4 V c t)
          (outsAt0 V c (t.val - 1) (Nat.lt_of_le_of_lt (Nat.sub_le _ _) t.isLt)) :=
  (outsAt0_B V c t h0).trans
    (out_B c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h))
      (iblk0 V c 0 t) (iblk0 V c 1 t) (iblk0 V c 2 t) (iblk0 V c 3 t) (iblk0 V c 4 t)
      (outsAt0 V c (t.val - 1) (Nat.lt_of_le_of_lt (Nat.sub_le _ _) t.isLt)))

/-- After a half's first tile the block holds that tile's contribution. -/
theorem first_at (c : Dev nD) (x y : Fin 1024) (t : Fin cfg0.N) (h0 : t.val % 5860 = 0) :
    outsAt0 V c t.val t.isLt (ix3 (0 : Fin 1) x y)
      = ∑ s ∈ Finset.range (t.val % 5860 + 1), tileSum V c x.val y.val (t.val / 5860 * 5860 + s) := by
  refine (congrFun (step_A V c t h0) (ix3 (0 : Fin 1) x y)).trans ?_
  refine (tile_at V c t (k0_pay2 (F := Ideal)) 0 x y).trans ?_
  rw [zero_at, zero_add, h0, Nat.zero_add, Finset.sum_range_one]
  have e : t.val / 5860 * 5860 + 0 = t.val := by omega
  rw [e]

/-- THE RUNNING SUM. After tile `n` the block holds, at `(x, y)`, the contributions of the tiles of `n`'s half
    up to `n`: those numbered `5860 (n / 5860) + s` for `s ≤ n % 5860`. -/
theorem outsAt_at (c : Dev nD) (x y : Fin 1024) (n : ℕ) : ∀ (hn : n < cfg0.N),
    outsAt0 V c n hn (ix3 (0 : Fin 1) x y)
      = ∑ s ∈ Finset.range (n % 5860 + 1), tileSum V c x.val y.val (n / 5860 * 5860 + s) := by
  induction n with
  | zero => exact fun hn => first_at V c x y ⟨0, hn⟩ rfl
  | succ n ih =>
    intro hn
    by_cases h0 : (n + 1) % 5860 = 0
    · exact first_at V c x y ⟨n + 1, hn⟩ h0
    · refine (congrFun (step_B V c ⟨n + 1, hn⟩ h0) (ix3 (0 : Fin 1) x y)).trans ?_
      refine (tile_at V c ⟨n + 1, hn⟩ _ 0 x y).trans ?_
      show outsAt0 V c n (Nat.lt_of_succ_lt hn) (ix3 (0 : Fin 1) x y) + tileSum V c x.val y.val (n + 1) = _
      rw [ih (Nat.lt_of_succ_lt hn)]
      have e1 : (n + 1) % 5860 = n % 5860 + 1 := by omega
      have e2 : (n + 1) / 5860 = n / 5860 := by omega
      have e3 : n / 5860 * 5860 + (n % 5860 + 1) = n + 1 := by omega
      rw [e1, e2, Finset.sum_range_succ _ (n % 5860 + 1), e3]

/-- The same at any index of the block. -/
theorem outsAt_idx (c : Dev nD) (n : ℕ) (hn : n < cfg0.N) (i : S1x1024x1024.Idx) :
    outsAt0 V c n hn i = ∑ s ∈ Finset.range (n % 5860 + 1), tileSum V c (i 1).val (i 2).val (n / 5860 * 5860 + s) := by
  obtain ⟨u, x, y, rfl⟩ : ∃ (u : Fin 1) (x y : Fin 1024), i = ix3 u x y := ⟨i 0, i 1, i 2, eq_ix3 i⟩
  obtain rfl : u = 0 := Subsingleton.elim _ _
  exact outsAt_at V c x y n hn

/-- What the region leaves at `(p, x, y)`: the contributions of half `p`'s 5860 tiles to bin `(x, y)`. -/
def shard (c : Dev nD) (p x y : ℕ) : EReal := ∑ s ∈ Finset.range 5860, tileSum V c x y (p * 5860 + s)

/-- The array the region leaves. -/
def result (c : Dev nD) : FVec Ideal S2x1024x1024 .f32 := fun i => shard V c (i 0).val (i 1).val (i 2).val

/-- A half's last tile writes back its block of that array. -/
theorem flushed_eq (c : Dev nD) (t : Fin cfg0.N) (hf : (cfg0.win 5).flush t = true) :
    (dat0 V c).flushed 5 t = ((cfg0.win 5).blk t).view.read (Elt Ideal) (result V c) := by
  have hN := lt_N t
  have h59 : t.val % 5860 = 5859 := (flush0_5 t).mp hf
  show (cfg0.win 5).cut (grid0.coords t) ((dat0 V c).after 5 t) = _
  rw [after0_5]
  funext j
  rw [View.read_apply]
  refine (outsAt_idx V c t.val t.isLt _).trans ?_
  have hj0 : (j 0).val < 1 := (j 0).isLt
  have e0 : ((((cfg0.win 5).blk t).view.emb j) 0).val = t.val / 5860 := by
    show win0_5.index t 0 * 1 + 1 * (j 0).val = t.val / 5860
    rw [idx_out t]; omega
  have e1 : ((((cfg0.win 5).blk t).view.emb j) 1).val = (j 1).val := by
    show win0_5.index t 1 * 1024 + 1 * (j 1).val = (j 1).val
    rw [idx_out1 t]; omega
  have e2 : ((((cfg0.win 5).blk t).view.emb j) 2).val = (j 2).val := by
    show win0_5.index t 2 * 1024 + 1 * (j 2).val = (j 2).val
    rw [idx_out2 t]; omega
  show _ = shard V c ((((cfg0.win 5).blk t).view.emb j) 0).val ((((cfg0.win 5).blk t).view.emb j) 1).val
    ((((cfg0.win 5).blk t).view.emb j) 2).val
  rw [e0, e1, e2, h59]
  rfl

/-- An entry of the array is in tile `t`'s output block when each coordinate is in the block's range. -/
theorem mem_blk (t : Fin cfg0.N) (i : S2x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v6).slice (win0_5.rect t)).set ↔ _
  rw [View.set_slice_whole, Rect.mem_set_unit]
  exact Iff.rfl

/-- Every entry of the array is in the block some half's last tile writes back. -/
theorem cover (c : Dev nD) (i : S2x1024x1024.Idx) :
    ∃ t : Fin cfg0.N, (cfg0.win 5).flush t = true ∧ i ∈ ((cfg0.win 5).blk t).view.set := by
  have h0 : (i 0).val < 2 := (i 0).isLt
  have h1 : (i 1).val < 1024 := (i 1).isLt
  have h2 : (i 2).val < 1024 := (i 2).isLt
  have hlt : (i 0).val * 5860 + 5859 < cfg0.N := by rw [show cfg0.N = 11720 from N_0]; omega
  obtain ⟨t, ht⟩ : ∃ t : Fin cfg0.N, t.val = (i 0).val * 5860 + 5859 := ⟨⟨_, hlt⟩, rfl⟩
  refine ⟨t, (flush0_5 t).mpr (by omega), ?_⟩
  rw [mem_blk]
  intro a
  match a with
  | ⟨0, _⟩ =>
    show win0_5.index t 0 * 1 ≤ (i 0).val ∧ (i 0).val < win0_5.index t 0 * 1 + 1
    rw [idx_out t]; omega
  | ⟨1, _⟩ =>
    show win0_5.index t 1 * 1024 ≤ (i 1).val ∧ (i 1).val < win0_5.index t 1 * 1024 + 1024
    rw [idx_out1 t]; omega
  | ⟨2, _⟩ =>
    show win0_5.index t 2 * 1024 ≤ (i 2).val ∧ (i 2).val < win0_5.index t 2 * 1024 + 1024
    rw [idx_out2 t]; omega

/-- The array region 0 leaves in its output, entry by entry, from the five arrays it reads as the region finds
    them (positions x and y, sizes x and y, padded pin weights). -/
theorem region0_array (c : Dev nD) (i : S2x1024x1024.Idx) :
    (dat0 (F := Ideal) V c).arrAt 5 cfg0.N i
      = shardOn (at1 (V c main_v0 : FVec Ideal S3000320 .f32)) (at1 (V c main_v1 : FVec Ideal S3000320 .f32))
          (at1 (V c main_v2 : FVec Ideal S3000320 .f32)) (at1 (V c main_v3 : FVec Ideal S3000320 .f32))
          (atW (V c main_v5 : IVec S3000320 32)) (i 0).val (i 1).val (i 2).val := by
  rw [(dat0 V c).arrAt_eq_of_cover 5 (result V c) (flushed_eq V c) (cover c)]
  rfl

end Run

end Cert.KernelIdeal.KMap

end
-- ==== Proof.KArea.lean ====
/-
  The second kernel region, read as a value: the array it writes holds, at node `n`, the node's footprint
  `[mx, mx+msx] × [my, my+msy]` integrated against the table the region was given — the sum over bins `x` of the
  x-overlap times the sum over bins `y` of (table entry × y-overlap): a matrix product with the y-overlaps, then a
  sum down the x axis.
-/
import proofs.«430719_j53558242181775_3_alg».proof.Proof.KSpec
import proofs.«430719_j53558242181775_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KArea

open Cert.KernelIdeal Cert.KernelIdeal.Gen Cert.Spec

/-! ## The body's arithmetic, entry by entry -/

/-- The single-precision word of one is the number one. -/
private theorem one_f32 : Ideal.ofBits .f32 0x3F800000#32 = 1 := by
  simp [Ideal.ofBits, Ideal.ieee, -EReal.coe_mul]; norm_num

/-- A column of 1024 entries spread over 256 lanes reads, at row `x` and any lane, the column's entry at row `x`. -/
private theorem col_apply {α : Type} (u : S1024x1.Idx → α) (x : Fin 1024) (j : Fin 256) :
    broadcastTo S1024x256 u broadcasts_S1024x1_S1024x256 (ix2 x j) = u (ix2 x (0 : Fin 1)) := by
  refine broadcastTo_apply u broadcasts_S1024x1_S1024x256 (ix2 x j) (ix2 x (0 : Fin 1)) fun ax => ?_
  match ax with
  | ⟨0, _⟩ => rfl
  | ⟨1, _⟩ => rfl

/-- A row of 256 lanes spread over 1024 rows reads, at any row and lane `j`, the row's entry at lane `j`. -/
private theorem row_apply {α : Type} (v : S256.Idx → α) (x : Fin 1024) (j : Fin 256) :
    broadcastTo S1024x256 (shapeCast S1x256 v shapeCasts_S256_S1x256) broadcasts_S1x256_S1024x256 (ix2 x j) = v (ix1 j) := by
  rw [broadcastTo_1b_ab_apply, shapeCast_a_1a_apply]

/-- The row counter as a number: row `x` of the counting column, converted, is the real `x`. -/
private theorem count_apply (x : Fin 1024) :
    (sitofp .f32 (iota .tc S1024x1 32 [0] iota_S1024x1_d0_w32) : FVec Ideal S1024x1 .f32) (ix2 x (0 : Fin 1)) = ((x.val : ℝ) : EReal) := by
  rw [sitofp_apply, iota_single_apply]
  show (((BitVec.ofNat 32 x.val).toInt : ℝ) : EReal) = _
  have h : (BitVec.ofNat 32 x.val).toInt = (x.val : ℤ) := by
    have hx := x.isLt
    rw [BitVec.toInt_eq_toNat_cond, BitVec.toNat_ofNat, Nat.mod_eq_of_lt (by omega : x.val < 2 ^ 32), if_pos (by omega)]
  rw [h]
  norm_cast

/-- The unclipped overlap table: at bin `x` and lane `j`, the lesser of the upper edge `a j + b j` and the bin's upper
    edge `x + 1`, less the greater of the lower edge `a j` and the bin's lower edge `x`. -/
private theorem rawOverlap_apply (a b : FVec Ideal S256 .f32) (x : Fin 1024) (j : Fin 256) :
    k1_pay3 (F := Ideal) a b (ix2 x j)
      = min (a (ix1 j) + b (ix1 j)) (((x.val : ℝ) : EReal) + 1) - max (a (ix1 j)) ((x.val : ℝ) : EReal) := by
  unfold k1_pay3
  simp only [shapeCast_self]
  show min (broadcastTo S1024x256 (shapeCast S1x256 (addf a b) shapeCasts_S256_S1x256) broadcasts_S1x256_S1024x256 (ix2 x j))
        (broadcastTo S1024x256 _ broadcasts_S1024x1_S1024x256 (ix2 x j))
      - max (broadcastTo S1024x256 (shapeCast S1x256 a shapeCasts_S256_S1x256) broadcasts_S1x256_S1024x256 (ix2 x j))
        (broadcastTo S1024x256 _ broadcasts_S1024x1_S1024x256 (ix2 x j)) = _
  rw [row_apply, row_apply, col_apply, col_apply]
  show min (a (ix1 j) + b (ix1 j))
        ((Ideal.ofBits .f32 0x00000000#32 + (sitofp .f32 (iota .tc S1024x1 32 [0] iota_S1024x1_d0_w32) : FVec Ideal S1024x1 .f32) (ix2 x (0 : Fin 1)) * Ideal.ofBits .f32 0x3F800000#32) + Ideal.ofBits .f32 0x3F800000#32)
      - max (a (ix1 j))
        (Ideal.ofBits .f32 0x00000000#32 + (sitofp .f32 (iota .tc S1024x1 32 [0] iota_S1024x1_d0_w32) : FVec Ideal S1024x1 .f32) (ix2 x (0 : Fin 1)) * Ideal.ofBits .f32 0x3F800000#32) = _
  rw [count_apply, one_f32, Ideal.ofBits_zero_f32, mul_one, zero_add]

/-- The clipped x-overlap table is the specification's overlap of `[a j, a j + b j]` with bin `x`. -/
private theorem overlap_apply (a b : FVec Ideal S256 .f32) (x : Fin 1024) (j : Fin 256) :
    k1_pay2 (F := Ideal) a b (ix2 x j) = ov (a (ix1 j)) (a (ix1 j) + b (ix1 j)) x.val := by
  unfold k1_pay2
  simp only [shapeCast_self]
  show max (Ideal.ofBits .f32 0x00000000#32)
      (min (broadcastTo S1024x256 (shapeCast S1x256 (addf a b) shapeCasts_S256_S1x256) broadcasts_S1x256_S1024x256 (ix2 x j))
        (broadcastTo S1024x256 _ broadcasts_S1024x1_S1024x256 (ix2 x j))
      - max (broadcastTo S1024x256 (shapeCast S1x256 a shapeCasts_S256_S1x256) broadcasts_S1x256_S1024x256 (ix2 x j))
        (broadcastTo S1024x256 _ broadcasts_S1024x1_S1024x256 (ix2 x j))) = _
  rw [row_apply, row_apply, col_apply, col_apply]
  show max (Ideal.ofBits .f32 0x00000000#32) (min (a (ix1 j) + b (ix1 j))
        ((Ideal.ofBits .f32 0x00000000#32 + (sitofp .f32 (iota .tc S1024x1 32 [0] iota_S1024x1_d0_w32) : FVec Ideal S1024x1 .f32) (ix2 x (0 : Fin 1)) * Ideal.ofBits .f32 0x3F800000#32) + Ideal.ofBits .f32 0x3F800000#32)
      - max (a (ix1 j))
        (Ideal.ofBits .f32 0x00000000#32 + (sitofp .f32 (iota .tc S1024x1 32 [0] iota_S1024x1_d0_w32) : FVec Ideal S1024x1 .f32) (ix2 x (0 : Fin 1)) * Ideal.ofBits .f32 0x3F800000#32)) = _
  rw [count_apply, one_f32, Ideal.ofBits_zero_f32, mul_one, zero_add]
  rfl

/-! ## The product with the table, and the sum down the bins -/

/-! The product's index maps, axis by axis: output entry `(x, j)` with contraction position `y` reads the table at
    `(x, y)` and the other factor at `(y, j)`. -/

private theorem lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl

private theorem lhs_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q

private theorem rhs_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q

private theorem rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The matrix product of the table with a 1024 × 256 array, from zero: entry `(x, j)` is the sum over the bins `y`
    of table entry `(x, y)` times the array's entry `(y, j)`. -/
private theorem product_apply (T : FVec Ideal S1024x1024 .bf16) (B : FVec Ideal S1024x256 .bf16) (x : Fin 1024) (j : Fin 256) :
    matmul dot_S1024x1024_S1024x256_S1024x256_1_0_0_1_n_n none T B (constant (F := Ideal) S1024x256 .f32 0x00000000#32) (ix2 x j)
      = ∑ y : Fin 1024, T (ix2 x y) * B (ix2 y j) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 x j) ((contrEquiv1 dot_S1024x1024_S1024x256_S1024x256_1_0_0_1_n_n 1024 rfl rfl).symm k) = ix2 x k := funext fun a => Fin.ext (by
    match a with
    | ⟨0, _⟩ => exact lhs_0 _ _
    | ⟨1, _⟩ => exact (lhs_1 _ _).trans hk)
  have er : dot_S1024x1024_S1024x256_S1024x256_1_0_0_1_n_n.rhsIdx (ix2 x j) ((contrEquiv1 dot_S1024x1024_S1024x256_S1024x256_1_0_0_1_n_n 1024 rfl rfl).symm k) = ix2 k j := funext fun a => Fin.ext (by
    match a with
    | ⟨0, _⟩ => exact (rhs_0 _ _).trans hk
    | ⟨1, _⟩ => exact rhs_1 _ _)
  rw [el, er]

/-- The y-overlap table after its clip at zero (and a change of format, which alters nothing) is the specification's
    overlap of `[a j, a j + b j]` with bin `y`. -/
private theorem clipped_apply (a b : FVec Ideal S256 .f32) (y : Fin 1024) (j : Fin 256) :
    (truncf .bf16 (maximumf (k1_pay4 (F := Ideal)) (k1_pay3 (F := Ideal) a b)) bitsLt_bf16_f32 : FVec Ideal S1024x256 .bf16) (ix2 y j)
      = ov (a (ix1 j)) (a (ix1 j) + b (ix1 j)) y.val := by
  show max (Ideal.ofBits .f32 0x00000000#32) (k1_pay3 (F := Ideal) a b (ix2 y j)) = _
  rw [rawOverlap_apply, Ideal.ofBits_zero_f32]
  rfl

/-- The sum down the bin axis of a 1024 × 256 array, at lane `j`. -/
private theorem columnSum_apply (M : FVec Ideal S1024x256 .f32) (hacc : (0x00000000#32 : BitVec 32) = 0x00000000#32) (j : Fin 256) :
    multiReduction .add [0] S256 M 0x00000000#32 reduces_S1024x256_S256 (.inl rfl) hacc (ix1 j) = ∑ x : Fin 1024, M (ix2 x j) := by
  refine (Ideal.multiReduction_add_single M 0x00000000#32 reduces_S1024x256_S256 (.inl rfl) hacc (ix1 j)).trans ?_
  show ∑ x : Fin 1024, M (reduces_S1024x256_S256.lift (ix1 j) x) = _
  refine Finset.sum_congr rfl fun x _ => congrArg M (funext fun a => ?_)
  match a with
  | ⟨0, _⟩ => rfl
  | ⟨1, _⟩ => rfl

/-- The body's one stored value at lane `j`: the sum over bins `x` of the x-overlap times the sum over bins `y` of
    (table entry × y-overlap). -/
private theorem body_apply (p q r s : FVec Ideal S256 .f32) (T : FVec Ideal S1024x1024 .bf16) (j : Fin 256) :
    k1_pay1 (F := Ideal) (k1_pay2 p r) (k1_pay3 q s) (k1_pay4 (F := Ideal)) T (ix1 j)
      = ∑ x : Fin 1024, ov (p (ix1 j)) (p (ix1 j) + r (ix1 j)) x.val
          * ∑ y : Fin 1024, T (ix2 x y) * ov (q (ix1 j)) (q (ix1 j) + s (ix1 j)) y.val := by
  unfold k1_pay1
  simp only [shapeCast_self]
  refine (columnSum_apply _ rfl j).trans ?_
  refine Finset.sum_congr rfl fun x _ => ?_
  show k1_pay2 (F := Ideal) p r (ix2 x j) * matmul dot_S1024x1024_S1024x256_S1024x256_1_0_0_1_n_n none T _ (constant (F := Ideal) S1024x256 .f32 0x00000000#32) (ix2 x j) = _
  rw [overlap_apply, product_apply]
  refine congrArg _ (Finset.sum_congr rfl fun y _ => ?_)
  rw [clipped_apply]

/-! ## One grid point's block of the output -/

private theorem hz1 : (![0] : Fin 1 → Nat) = fun _ => 0 := funext fun a => by fin_cases a; rfl
private theorem hz2 : (![0, 0] : Fin 2 → Nat) = fun _ => 0 := funext fun a => by fin_cases a <;> rfl

/-- What a point leaves in the output's block at lane `y`, once the four node blocks are known there to be the
    position and size sequences at node `n`: node `n`'s footprint integrated against the table block. -/
private theorem point_value (x0 x1 x2 x3 : Vec Ideal S256 .f32) (x4 : Vec Ideal S1024x1024 .bf16)
    (mx my msx msy : ℕ → EReal) (n : ℕ) (y : S256.Idx)
    (h0 : x0 y = mx n) (h1 : x1 y = my n) (h2 : x2 y = msx n) (h3 : x3 y = msy n) :
    out1_5 x0 x1 x2 x3 x4 y = areaOn mx my msx msy (at2 x4) n := by
  obtain ⟨j, rfl⟩ : ∃ j : Fin 256, y = ix1 j := ⟨y 0, eq_ix1 y⟩
  unfold out1_5
  rw [View.canon_unit_zero hz1]
  simp only [View.ld_unit_zero (S := S256) hz1, View.ld_unit_zero (S := S1024x1024) hz2]
  refine (body_apply x0 x1 x2 x3 x4 j).trans ?_
  rw [h0, h1, h2, h3]
  unfold areaOn
  rw [Finset.sum_range]
  refine Finset.sum_congr rfl fun x _ => congrArg _ ?_
  rw [Finset.sum_range]
  refine Finset.sum_congr rfl fun y _ => ?_
  unfold at2
  rw [dif_pos ⟨x.isLt, y.isLt⟩]

/-! ## From the blocks to the array -/

variable (V : (c : Dev nD) → (b : Ref sig .tc) → Buf (Elt Ideal) ((c : Thread nD τ).loc b))

/-- The index maps over the grid: at point `t` each of the four node windows and the output window sits at block
    `t`, the table window at block `(0, 0)`. -/
private theorem idx_facts : ∀ t : Fin cfg1.N, win1_0.index t (0 : Fin 1) = t.val ∧ win1_1.index t (0 : Fin 1) = t.val
    ∧ win1_2.index t (0 : Fin 1) = t.val ∧ win1_3.index t (0 : Fin 1) = t.val ∧ win1_5.index t (0 : Fin 1) = t.val
    ∧ win1_4.index t (0 : Fin 2) = 0 ∧ win1_4.index t (1 : Fin 2) = 0 :=
  (by decide +kernel : ∀ t : Fin grid1.N, _)

/-- The x-position block at point `t` holds nodes `256 t … 256 t + 255` of the x-position array. -/
private theorem xpos_block (c : Dev nD) (t : Fin cfg1.N) (y : S256.Idx) :
    (iblk1 V c 0 t : Vec Ideal S256 .f32) y = at1 (V c main_v14 : FVec Ideal S2500096 .f32) (t.val * 256 + (y 0).val) := by
  have hi := (idx_facts t).1
  have ht : t.val < 9766 := lt_of_lt_of_eq t.isLt N_1
  have hy : (y 0).val < 256 := (y 0).isLt
  unfold at1
  rw [dif_pos (by omega)]
  unfold iblk1
  rw [View.read_apply]
  show V c main_v14 _ = V c main_v14 _
  congr 1
  funext a
  apply Fin.ext
  match a with
  | ⟨0, _⟩ => show win1_0.index t 0 * 256 + 1 * (y 0).val = t.val * 256 + (y 0).val; rw [hi]; omega

/-- The y-position block at point `t` likewise. -/
private theorem ypos_block (c : Dev nD) (t : Fin cfg1.N) (y : S256.Idx) :
    (iblk1 V c 1 t : Vec Ideal S256 .f32) y = at1 (V c main_v15 : FVec Ideal S2500096 .f32) (t.val * 256 + (y 0).val) := by
  have hi := (idx_facts t).2.1
  have ht : t.val < 9766 := lt_of_lt_of_eq t.isLt N_1
  have hy : (y 0).val < 256 := (y 0).isLt
  unfold at1
  rw [dif_pos (by omega)]
  unfold iblk1
  rw [View.read_apply]
  show V c main_v15 _ = V c main_v15 _
  congr 1
  funext a
  apply Fin.ext
  match a with
  | ⟨0, _⟩ => show win1_1.index t 0 * 256 + 1 * (y 0).val = t.val * 256 + (y 0).val; rw [hi]; omega

/-- The x-size block at point `t` likewise. -/
private theorem xsize_block (c : Dev nD) (t : Fin cfg1.N) (y : S256.Idx) :
    (iblk1 V c 2 t : Vec Ideal S256 .f32) y = at1 (V c main_v16 : FVec Ideal S2500096 .f32) (t.val * 256 + (y 0).val) := by
  have hi := (idx_facts t).2.2.1
  have ht : t.val < 9766 := lt_of_lt_of_eq t.isLt N_1
  have hy : (y 0).val < 256 := (y 0).isLt
  unfold at1
  rw [dif_pos (by omega)]
  unfold iblk1
  rw [View.read_apply]
  show V c main_v16 _ = V c main_v16 _
  congr 1
  funext a
  apply Fin.ext
  match a with
  | ⟨0, _⟩ => show win1_2.index t 0 * 256 + 1 * (y 0).val = t.val * 256 + (y 0).val; rw [hi]; omega

/-- The y-size block at point `t` likewise. -/
private theorem ysize_block (c : Dev nD) (t : Fin cfg1.N) (y : S256.Idx) :
    (iblk1 V c 3 t : Vec Ideal S256 .f32) y = at1 (V c main_v17 : FVec Ideal S2500096 .f32) (t.val * 256 + (y 0).val) := by
  have hi := (idx_facts t).2.2.2.1
  have ht : t.val < 9766 := lt_of_lt_of_eq t.isLt N_1
  have hy : (y 0).val < 256 := (y 0).isLt
  unfold at1
  rw [dif_pos (by omega)]
  unfold iblk1
  rw [View.read_apply]
  show V c main_v17 _ = V c main_v17 _
  congr 1
  funext a
  apply Fin.ext
  match a with
  | ⟨0, _⟩ => show win1_3.index t 0 * 256 + 1 * (y 0).val = t.val * 256 + (y 0).val; rw [hi]; omega

/-- The table window's block is the whole table at every point. -/
private theorem table_block (c : Dev nD) (t : Fin cfg1.N) :
    (iblk1 V c 4 t : Vec Ideal S1024x1024 .bf16) = (V c main_v13 : FVec Ideal S1024x1024 .bf16) := by
  obtain ⟨-, -, -, -, -, h0, h1⟩ := idx_facts t
  funext y
  unfold iblk1
  rw [View.read_apply]
  show V c main_v13 _ = V c main_v13 _
  congr 1
  funext a
  apply Fin.ext
  match a with
  | ⟨0, _⟩ => show win1_4.index t 0 * 1024 + 1 * (y 0).val = (y 0).val; rw [h0]; omega
  | ⟨1, _⟩ => show win1_4.index t 1 * 1024 + 1 * (y 1).val = (y 1).val; rw [h1]; omega

/-- What the output array ends holding: at node `n`, the node's footprint integrated against the table. -/
private abbrev target (c : Dev nD) : S2500096.Idx → EReal := fun i =>
  areaOn (at1 (V c main_v14 : FVec Ideal S2500096 .f32)) (at1 (V c main_v15 : FVec Ideal S2500096 .f32))
    (at1 (V c main_v16 : FVec Ideal S2500096 .f32)) (at1 (V c main_v17 : FVec Ideal S2500096 .f32))
    (at2 (V c main_v13 : FVec Ideal S1024x1024 .bf16)) (i 0).val

/-- What point `t` writes back is block `t` of that function. -/
private theorem flushed_eq (c : Dev nD) (t : Fin cfg1.N) :
    (dat1 (F := Ideal) V c).flushed 5 t = ((cfg1.win 5).blk t).view.read (Elt Ideal) (target V c) := by
  show (cfg1.win 5).cut (grid1.coords t) ((dat1 (F := Ideal) V c).after 5 t) = _
  rw [after1_5]
  funext y
  have hn : ((((cfg1.win 5).blk t).view.emb y) 0).val = t.val * 256 + (y 0).val := by
    show win1_5.index t 0 * 256 + 1 * (y 0).val = _
    rw [(idx_facts t).2.2.2.2.1]; omega
  show out1_5 (iblk1 V c 0 t) (iblk1 V c 1 t) (iblk1 V c 2 t) (iblk1 V c 3 t) (iblk1 V c 4 t) y
    = areaOn (at1 (V c main_v14 : FVec Ideal S2500096 .f32)) (at1 (V c main_v15 : FVec Ideal S2500096 .f32))
        (at1 (V c main_v16 : FVec Ideal S2500096 .f32)) (at1 (V c main_v17 : FVec Ideal S2500096 .f32))
        (at2 (V c main_v13 : FVec Ideal S1024x1024 .bf16)) ((((cfg1.win 5).blk t).view.emb y) 0).val
  rw [hn, ← table_block V c t]
  exact point_value (iblk1 V c 0 t) (iblk1 V c 1 t) (iblk1 V c 2 t) (iblk1 V c 3 t) (iblk1 V c 4 t)
    (at1 (V c main_v14 : FVec Ideal S2500096 .f32)) (at1 (V c main_v15 : FVec Ideal S2500096 .f32))
    (at1 (V c main_v16 : FVec Ideal S2500096 .f32)) (at1 (V c main_v17 : FVec Ideal S2500096 .f32))
    (t.val * 256 + (y 0).val) y (xpos_block V c t y) (ypos_block V c t y) (xsize_block V c t y) (ysize_block V c t y)

/-- Node `n` lies in the block of point `n / 256`, and every point writes its block back. -/
private theorem cover (i : S2500096.Idx) :
    ∃ t : Fin cfg1.N, (cfg1.win 5).flush t = true ∧ i ∈ ((cfg1.win 5).blk t).view.set := by
  have hi : (i 0).val < 2500096 := (i 0).isLt
  obtain ⟨t, ht⟩ : ∃ t : Fin cfg1.N, t.val = (i 0).val / 256 :=
    ⟨⟨(i 0).val / 256, lt_of_lt_of_eq (by omega : (i 0).val / 256 < 9766) N_1.symm⟩, rfl⟩
  refine ⟨t, flush1_5 t, ?_⟩
  show i ∈ ((View.whole main_v18).slice (win1_5.rect t)).set
  rw [View.set_slice_whole, Rect.mem_set_unit]
  intro a
  match a with
  | ⟨0, _⟩ =>
    show win1_5.index t 0 * 256 ≤ (i 0).val ∧ (i 0).val < win1_5.index t 0 * 256 + 256
    rw [(idx_facts t).2.2.2.2.1, ht]
    omega

/-- The array region 1 leaves in its output (every one of its 9766 points writes its own block of 256 nodes),
    entry by entry, from the five arrays it reads as the region finds them. -/
theorem region1_array (c : Dev nD) (i : S2500096.Idx) :
    (dat1 (F := Ideal) V c).arrAt 5 cfg1.N i
      = areaOn (at1 (V c main_v14 : FVec Ideal S2500096 .f32)) (at1 (V c main_v15 : FVec Ideal S2500096 .f32))
          (at1 (V c main_v16 : FVec Ideal S2500096 .f32)) (at1 (V c main_v17 : FVec Ideal S2500096 .f32))
          (at2 (V c main_v13 : FVec Ideal S1024x1024 .bf16)) (i 0).val :=
  congrFun ((dat1 (F := Ideal) V c).arrAt_eq_of_cover 5 (target V c) (fun t _ => flushed_eq V c t) cover) i

end Cert.KernelIdeal.KArea

end
-- ==== Proof.KValue.lean ====
/-
  The idealized kernel program's result is the dense form of the adjusted area: the second region integrates each
  node's footprint against the clipped rescaling of the first region's two halves added together, and the two
  halves' tiles together run over exactly the nodes 0 … 3,000,319, of which those from 3,000,000 on contribute
  zero.
-/
import proofs.«430719_j53558242181775_3_alg».proof.Proof.KSpec
import proofs.«430719_j53558242181775_3_alg».proof.Proof.Gen.KernelIdeal.Frame
import proofs.«430719_j53558242181775_3_alg».proof.Proof.KHost
import proofs.«430719_j53558242181775_3_alg».proof.Proof.KMap
import proofs.«430719_j53558242181775_3_alg».proof.Proof.KArea
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- A double sum over a rectangle of indices, read row by row, is one sum over the flattened range. -/
private theorem sum_range_mul {M : Type*} [AddCommMonoid M] (A B : ℕ) (g : ℕ → M) :
    ∑ a ∈ Finset.range A, ∑ b ∈ Finset.range B, g (a * B + b) = ∑ k ∈ Finset.range (A * B), g k := by
  induction A with
  | zero => simp
  | succ A ih =>
    rw [Finset.sum_range_succ, ih, Nat.succ_mul, Finset.sum_range_add]

/-- A half's tile sum only looks at nodes below 3,000,320, and at the weights only below 3,000,000 (from there on
    the density is multiplied by zero): two instances that agree there have the same tile sums. -/
private theorem shardOn_congr (px py sx sy px' py' sx' sy' : ℕ → EReal) (w w' : ℕ → ℤ) (p x y : ℕ) (hp : p < 2)
    (hpx : ∀ k, k < 3000320 → px k = px' k) (hpy : ∀ k, k < 3000320 → py k = py' k)
    (hsx : ∀ k, k < 3000320 → sx k = sx' k) (hsy : ∀ k, k < 3000320 → sy k = sy' k)
    (hw : ∀ k, k < 3000000 → w k = w' k) :
    shardOn px py sx sy w p x y = shardOn px' py' sx' sy' w' p x y := by
  unfold shardOn
  apply Finset.sum_congr rfl
  intro s hs
  apply Finset.sum_congr rfl
  intro j hj
  have hs' : s < 5860 := Finset.mem_range.mp hs
  have hj' : j < 256 := Finset.mem_range.mp hj
  have hk : (p * 5860 + s) * 256 + j < 3000320 := by omega
  generalize (p * 5860 + s) * 256 + j = k at hk
  simp only [dens, xlo, xhi, ylo, yhi, hx, hy, hpx k hk, hpy k hk, hsx k hk, hsy k hk]
  by_cases h3 : k < 3000000
  · rw [hw k h3]
  · simp only [if_neg h3, mul_zero, zero_mul]

/-- The two halves' tile sums together are the dense map over the 3,000,000 physical nodes. -/
theorem shards_eq_pm (px py sx sy : ℕ → EReal) (w : ℕ → ℤ) (x y : ℕ) :
    ∑ p ∈ Finset.range 2, shardOn px py sx sy w p x y = pm px py sx sy w x y := by
  -- `F k` is node `k`'s term against bin `(x, y)`, with the factor that switches off the padding nodes.
  let F : ℕ → EReal := fun k =>
    (dens sx sy w k * (if k < 3000000 then (1 : EReal) else 0))
      * ov (xlo px sx k) (xhi px sx k) x * ov (ylo py sy k) (yhi py sy k) y
  have h1 : ∀ p, shardOn px py sx sy w p x y
      = ∑ s ∈ Finset.range 5860, (fun a => ∑ j ∈ Finset.range 256, F (a * 256 + j)) (p * 5860 + s) := by
    intro p; rfl
  -- Halves × tiles × nodes of a tile, flattened twice: one sum over the nodes below 2 · 5860 · 256 = 3,000,320.
  simp only [h1]
  rw [sum_range_mul 2 5860 (fun a => ∑ j ∈ Finset.range 256, F (a * 256 + j))]
  rw [sum_range_mul (2 * 5860) 256 F]
  rw [show 2 * 5860 * 256 = 3000000 + 320 from by norm_num, Finset.sum_range_add]
  -- The last 320 nodes carry the factor zero.
  have htail : ∑ k ∈ Finset.range 320, F (3000000 + k) = 0 := by
    apply Finset.sum_eq_zero
    intro k _
    have hk : ¬ (3000000 + k < 3000000) := by omega
    simp only [F, if_neg hk, mul_zero, zero_mul]
  rw [htail, add_zero]
  -- Below 3,000,000 the factor is one.
  unfold pm
  apply Finset.sum_congr rfl
  intro k hk
  have hk' : k < 3000000 := Finset.mem_range.mp hk
  simp only [F, if_pos hk', mul_one]

/-- THE KERNEL'S VALUE: entry `i` of the result buffer at the last boundary is the dense adjusted area of node `i`
    of the launch arrays. -/
theorem kernel_value (c : Dev nD) (i : S2500000.Idx) :
    (W7 m ρ c (Proc.devRef .tc main_v19) : FVec Ideal S2500000 .f32) i
      = area (at1 (m ((c.tc : Thread nD τ).loc main_arg0) : FVec Ideal S8000000 .f32))
          (fun k => at1 (m ((c.tc : Thread nD τ).loc main_arg0) : FVec Ideal S8000000 .f32) (4000000 + k))
          (at1 (m ((c.tc : Thread nD τ).loc main_arg1) : FVec Ideal S4000000 .f32))
          (at1 (m ((c.tc : Thread nD τ).loc main_arg2) : FVec Ideal S4000000 .f32))
          (atW (m ((c.tc : Thread nD τ).loc main_arg3) : IVec S3000000 32)) (i 0).val := by
  have hn : (i 0).val < 2500096 := Nat.lt_of_lt_of_le (i 0).isLt (by decide)
  -- The result entry is the second region's output at node `n = i 0`: the footprint of node `n`, read from the
  -- arrays that region finds, integrated against the table it finds.
  rw [KHost.result_read m ρ c i, KHost.W6_v18 m ρ c, KArea.region1_array (V5 m ρ) c]
  show areaOn _ _ _ _ _ (i 0).val = _
  unfold areaOn area
  -- Those position and size arrays are the launch arrays at node `n`.
  rw [KHost.V5_v14 m ρ c _ hn, KHost.V5_v15 m ρ c _ hn, KHost.V5_v16 m ρ c _ hn, KHost.V5_v17 m ρ c _ hn]
  apply Finset.sum_congr rfl
  intro x hx
  have hx' : x < 1024 := Finset.mem_range.mp hx
  congr 1
  apply Finset.sum_congr rfl
  intro y hy
  have hy' : y < 1024 := Finset.mem_range.mp hy
  congr 1
  -- The table at bin `(x, y)` is the clipped rescaling of the two halves of the first region's output added up.
  rw [KHost.V5_v13 m ρ c x y hx' hy']
  refine congrArg adjOf ?_
  rw [← shards_eq_pm]
  apply Finset.sum_congr rfl
  intro p hp
  have hp' : p < 2 := Finset.mem_range.mp hp
  -- Half `p` of that output at `(x, y)` is the half's tile sum over the arrays the first region finds, which agree
  -- with the launch arrays wherever the tile sum looks at them.
  rw [KHost.W2_v6 m ρ c, at3, dif_pos ⟨hp', hx', hy'⟩, KMap.region0_array (V1 m ρ) c]
  show shardOn _ _ _ _ _ p x y = _
  exact shardOn_congr _ _ _ _ _ _ _ _ _ _ p x y hp'
    (fun k hk => KHost.V1_v0 m ρ c k hk) (fun k hk => KHost.V1_v1 m ρ c k hk)
    (fun k hk => KHost.V1_v2 m ρ c k hk) (fun k hk => KHost.V1_v3 m ρ c k hk)
    (fun k hk => by rw [KHost.V1_v5 m ρ c k, if_pos hk])

end Cert.KernelIdeal.KValue

end
-- ==== Proof.RMap.lean ====
/-
  The reference's first phase, read: its sixteen scatter-add passes from the zero map leave, at flat cell `i`, the
  scattered form of the pin-density map, and the clipped rescaling of it is the adjustment table the second phase
  gathers from.
-/
import proofs.«430719_j53558242181775_3_alg».proof.Proof.RefRead
import proofs.«430719_j53558242181775_3_alg».proof.Proof.Spec
import Idealize.ShloMosaic.Lib.ValueIdx
import Idealize.ShloMosaic.Lib.ValueIdxRank1
import Idealize.ShloMosaic.Lib.StableHlo.Predicate
import Idealize.ShloMosaic.Lib.Pipeline.Value
import Idealize.ShloMosaic.PureOps.Ideal.Laws

set_option maxRecDepth 8192

noncomputable section

open scoped BigOperators
open Idealize.ShloMosaic Idealize.ShloMosaic.TcCoe

namespace Cert.ReferenceIdeal.RMap

open Cert.ReferenceIdeal Cert.ReferenceIdeal.ReadP Cert.Spec Cert.ReferenceIdeal.Gen

/-! ## The literals, and the arithmetic of extended reals the reading needs -/

private theorem lit_zero : Ideal.ofBits .f32 0x00000000#32 = 0 := Ideal.ofBits_zero_f32
private theorem lit_one : Ideal.ofBits .f32 0x3F800000#32 = 1 := by
  simp [Ideal.ofBits, Ideal.ieee, -EReal.coe_mul]; norm_num
private theorem lit_two : Ideal.ofBits .f32 0x40000000#32 = 2 := by
  simp [Ideal.ofBits, Ideal.ieee, -EReal.coe_mul]; norm_num; rfl
private theorem lit_four : Ideal.ofBits .f32 0x40800000#32 = 4 := by
  simp [Ideal.ofBits, Ideal.ieee, -EReal.coe_mul]; norm_num; rfl
private theorem lit_half : Ideal.ofBits .f32 0x3F000000#32 = half := by
  simp [half, Ideal.ofBits, Ideal.ieee, -EReal.coe_mul]; norm_num
private theorem lit_1414 : Ideal.ofBits .f32 0x3FB4FDF4#32 = c1414 := by
  simp [c1414, Ideal.ofBits, Ideal.ieee, -EReal.coe_mul]; norm_num

private theorem sitofp_ideal (b : BitVec 32) : FloatOps.sitofp (F := Ideal) .f32 b = ((b.toInt : ℝ) : EReal) := rfl
private theorem fptosi_ideal (x : Ideal .f32) : FloatOps.fptosi 32 x = Ideal.fptosi 32 x := rfl

/-- Halving commutes with the maximum: half of `max 1.414 s` is `max 0.707 (s / 2)`, `1.414` being exactly twice `0.707`. -/
private theorem half_mul_max (s : EReal) : half * max c1414 s = max c707 (half * s) := by
  have hmono : Monotone (fun x : EReal => half * x) := fun a b hab =>
    mul_le_mul_of_nonneg_left hab (by unfold half; exact_mod_cast (by norm_num : (0:ℝ) ≤ 1/2))
  have h : half * max c1414 s = max (half * c1414) (half * s) := hmono.map_max
  rw [h]
  congr 1
  unfold half c1414 c707
  rw [← EReal.coe_mul]
  norm_num

/-- Subtracting zero and dividing by one change nothing. -/
private theorem div_one' (x : EReal) : Ideal.div (x - 0) 1 = x := by
  have : (1 : EReal) = ((1 : ℝ) : EReal) := rfl
  rw [this, Ideal.div_coe one_ne_zero, sub_zero]
  norm_num

/-- The clamped truncation lands between its bounds. -/
private theorem toIntClamped_mem (lo hi : ℤ) (h : lo ≤ hi) (x : EReal) :
    lo ≤ Ideal.toIntClamped lo hi x ∧ Ideal.toIntClamped lo hi x ≤ hi := by
  induction x using EReal.rec with
  | bot => simp [h]
  | top => simp [h]
  | coe r =>
    rw [Ideal.toIntClamped_coe]
    constructor
    · exact le_max_left _ _
    · exact max_le h (min_le_left _ _)

/-! ## Words: the clamped start bin, the bin offsets, the on-map flag and the flat cell number -/

/-- Clamping the word of a 32-bit integer `t` to `0 … 1023` by signed maximum and minimum gives the word of the clamped integer. -/
private theorem clampWord (t : ℤ) (h0 : -(2 ^ 31) ≤ t) (h1 : t < 2 ^ 31) :
    IntOp.minsi 1023#32 (IntOp.maxsi 0#32 (BitVec.ofInt 32 t)) = BitVec.ofNat 32 (min 1023 (max 0 t)).toNat := by
  have ht : (BitVec.ofInt 32 t).toInt = t := BitVec.toInt_ofInt_eq_self (by decide) (by simpa using h0) (by simpa using h1)
  apply BitVec.eq_of_toInt_eq
  rw [StableHlo.Predicate.toInt_ofNat_small _ (by omega)]
  unfold IntOp.minsi IntOp.maxsi
  have z0 : (0#32 : BitVec 32).toInt = 0 := by decide
  have z1 : (1023#32 : BitVec 32).toInt = 1023 := by decide
  by_cases hc : (BitVec.ofInt 32 t).slt 0#32
  · rw [if_pos hc]
    simp only [BitVec.slt, ht, z0, decide_eq_true_eq] at hc
    rw [if_neg (by simp only [BitVec.slt, z0, z1]; decide)]
    rw [z0]; omega
  · rw [if_neg hc]
    simp only [BitVec.slt, ht, z0, decide_eq_true_eq] at hc
    by_cases hd : (1023#32 : BitVec 32).slt (BitVec.ofInt 32 t)
    · rw [if_pos hd]
      simp only [BitVec.slt, ht, z1, decide_eq_true_eq] at hd
      rw [z1]; omega
    · rw [if_neg hd]
      simp only [BitVec.slt, ht, z1, decide_eq_true_eq] at hd
      rw [ht]; omega

/-- The program's start-bin word of a lower edge `lo` is the word of `bstart lo`. -/
private theorem bstart_word (lo : EReal) :
    IntOp.minsi 1023#32 (IntOp.maxsi 0#32 (Ideal.fptosi 32 (Ideal.liftRound Int.floor lo))) = BitVec.ofNat 32 (bstart lo) := by
  unfold Ideal.fptosi bstart
  have hm := toIntClamped_mem (-(2 ^ (32 - 1) : ℕ)) ((2 ^ (32 - 1) : ℕ) - 1) (by norm_num) (Ideal.liftRound Int.floor lo)
  exact clampWord (Ideal.toIntClamped (-(2 ^ (32 - 1) : ℕ)) ((2 ^ (32 - 1) : ℕ) - 1) (Ideal.liftRound Int.floor lo))
    (by have := hm.1; push_cast at this ⊢; omega) (by have := hm.2; push_cast at this ⊢; omega)

private theorem bstart_le (lo : EReal) : bstart lo ≤ 1023 := by
  unfold bstart; omega

private theorem and1 (a b : BitVec 1) : IntOp.andi a b = 1#1 ↔ (a = 1#1 ∧ b = 1#1) := by
  unfold IntOp.andi; revert a b; decide

/-- The on-map flag of a pass at one node: both bin coordinates below 1024. -/
private def flagS (bx by' : BitVec 32) : BitVec 1 := IntOp.andi (IntOp.cmpi .slt bx 1024#32) (IntOp.cmpi .slt by' 1024#32)
/-- The flat cell word of a pass at one node: `bx · 1024 + by` on the map, `0` off it. -/
private def cellW0 (bx by' : BitVec 32) : BitVec 32 := Scalar.select (flagS bx by') (IntOp.addi (IntOp.muli bx 1024#32) by') 0#32
/-- The same after a negative index is wrapped by the map's size (no index is negative here). -/
private def cellS (bx by' : BitVec 32) : BitVec 32 :=
  Scalar.select (IntOp.cmpi .slt (cellW0 bx by') 0#32) (IntOp.addi (cellW0 bx by') 1048576#32) (cellW0 bx by')

private theorem addi_ofNat (a b : ℕ) : IntOp.addi (BitVec.ofNat 32 a) (BitVec.ofNat 32 b) = BitVec.ofNat 32 (a + b) := by
  unfold IntOp.addi; rw [BitVec.ofNat_add]

private theorem flagS_iff (X Y : ℕ) (hX : X < 2 ^ 31) (hY : Y < 2 ^ 31) :
    flagS (BitVec.ofNat 32 X) (BitVec.ofNat 32 Y) = 1#1 ↔ (X < 1024 ∧ Y < 1024) := by
  unfold flagS
  rw [and1]
  have e : (1024#32 : BitVec 32) = BitVec.ofNat 32 1024 := rfl
  unfold IntOp.cmpi
  rw [e, StableHlo.Predicate.slt_ofNat_iff X 1024 hX (by norm_num), StableHlo.Predicate.slt_ofNat_iff Y 1024 hY (by norm_num)]

/-- With small coordinates nothing wraps: the cell word reads, signed, as `X · 1024 + Y` on the map and `0` off it. -/
private theorem cellS_toInt (X Y : ℕ) (hX : X < 2048) (hY : Y < 2048) :
    (cellS (BitVec.ofNat 32 X) (BitVec.ofNat 32 Y)).toInt = if (X < 1024 ∧ Y < 1024) then ((X * 1024 + Y : ℕ) : ℤ) else 0 := by
  have hw : cellW0 (BitVec.ofNat 32 X) (BitVec.ofNat 32 Y) = BitVec.ofNat 32 (if (X < 1024 ∧ Y < 1024) then X * 1024 + Y else 0) := by
    unfold cellW0
    by_cases h : X < 1024 ∧ Y < 1024
    · rw [(flagS_iff X Y (by omega) (by omega)).2 h, ValueIdx.select_one, if_pos h]
      unfold IntOp.addi IntOp.muli
      have e : (1024#32 : BitVec 32) = BitVec.ofNat 32 1024 := rfl
      rw [e, ← BitVec.ofNat_mul, ← BitVec.ofNat_add]
    · rw [ValueIdx.eq_zero_of_ne_one (fun hf => h ((flagS_iff X Y (by omega) (by omega)).1 hf)), ValueIdx.select_zero, if_neg h]
  unfold cellS
  rw [hw]
  set n := (if (X < 1024 ∧ Y < 1024) then X * 1024 + Y else 0) with hn
  have hnlt : n < 2 ^ 31 := by
    rw [hn]; split
    · omega
    · norm_num
  have hneg : ¬ (IntOp.cmpi .slt (BitVec.ofNat 32 n) 0#32 = 1#1) := by
    have e : (0#32 : BitVec 32) = BitVec.ofNat 32 0 := rfl
    unfold IntOp.cmpi
    rw [e, StableHlo.Predicate.slt_ofNat_iff n 0 hnlt (by norm_num)]
    omega
  rw [ValueIdx.eq_zero_of_ne_one hneg, ValueIdx.select_zero, StableHlo.Predicate.toInt_ofNat_small n hnlt, hn]
  split <;> simp

/-- The program's overlap of `[lo, hi]` with the unit bin whose lower edge is the word `b` read as a number. -/
private def ovS (lo hi : EReal) (b : BitVec 32) : EReal :=
  max (Ideal.ofBits .f32 0x00000000#32)
    (min hi ((Ideal.ofBits .f32 0x00000000#32 + ((b.toInt : ℝ) : EReal) * Ideal.ofBits .f32 0x3F800000#32) + Ideal.ofBits .f32 0x3F800000#32)
      - max lo (Ideal.ofBits .f32 0x00000000#32 + ((b.toInt : ℝ) : EReal) * Ideal.ofBits .f32 0x3F800000#32))

private theorem ovS_eq (lo hi : EReal) (n : ℕ) (hn : n < 2 ^ 31) : ovS lo hi (BitVec.ofNat 32 n) = ov lo hi n := by
  unfold ovS ov
  rw [lit_zero, lit_one, StableHlo.Predicate.toInt_ofNat_small n hn, zero_add, mul_one, Int.cast_natCast]

/-! ## The scatter-add read at a cell, and its sum over the nodes re-indexed by node number -/

private abbrev sd := scatter_S1048576_S3000000x1_S3000000_n_0_0_1

/-- The scatter's start index for node `j` is the word the index column holds at `j`, read signed. -/
private theorem start_eq (w : IVec S3000000 32) (j : S3000000.Idx) (a : Fin S1048576.rank) :
    sd.start j (broadcastInDim S3000000x1 ![0] bcast_S3000000_S3000000x1_0 w) a = (w j).toInt := by
  have ha : a = 0 := Subsingleton.elim _ _
  subst ha
  unfold ScatterDims.start
  rw [dif_pos (by decide)]
  congr 1
  unfold broadcastInDim
  congr 1
  funext b
  have hb : b = 0 := Subsingleton.elim _ _
  subst hb
  rfl

/-- The scatter has no window axes: the window coordinate is zero. -/
private theorem window_eq (j : S3000000.Idx) (a : Fin S1048576.rank) : sd.window j a = 0 := by
  have ha : a = 0 := Subsingleton.elim _ _
  subst ha
  unfold ScatterDims.window
  rw [dif_neg (by decide)]

/-- Node `j` lands on cell `i` exactly when its index word, in range, is `i`'s number. -/
private theorem result_iff (w : IVec S3000000 32) (j : S3000000.Idx) (i : S1048576.Idx)
    (h0 : 0 ≤ (w j).toInt) (h1 : (w j).toInt < 1048576) :
    sd.resultIdx? j (broadcastInDim S3000000x1 ![0] bcast_S3000000_S3000000x1_0 w) = some i ↔ (w j).toInt = ((i 0).val : ℤ) := by
  unfold ScatterDims.resultIdx?
  have hall : ∀ a : Fin S1048576.rank, 0 ≤ sd.start j (broadcastInDim S3000000x1 ![0] bcast_S3000000_S3000000x1_0 w) a + sd.window j a ∧
      sd.start j (broadcastInDim S3000000x1 ![0] bcast_S3000000_S3000000x1_0 w) a + (sd.window j a : ℤ) < S1048576.size a := by
    intro a
    rw [start_eq, window_eq]
    have ha : a = 0 := Subsingleton.elim _ _
    subst ha
    refine ⟨by simpa using h0, ?_⟩
    show (w j).toInt + ((0 : ℕ) : ℤ) < ((1048576 : ℕ) : ℤ)
    simpa using h1
  rw [dif_pos hall]
  constructor
  · intro h
    have h' := congrFun (Option.some.inj h) 0
    have h'' : (sd.start j (broadcastInDim S3000000x1 ![0] bcast_S3000000_S3000000x1_0 w) 0 + (sd.window j 0 : ℤ)).toNat = (i 0).val :=
      congrArg Fin.val h'
    rw [start_eq, window_eq] at h''
    omega
  · intro h
    congr 1
    funext a
    have ha : a = 0 := Subsingleton.elim _ _
    subst ha
    apply Fin.ext
    show (sd.start j (broadcastInDim S3000000x1 ![0] bcast_S3000000_S3000000x1_0 w) 0 + (sd.window j 0 : ℤ)).toNat = (i 0).val
    rw [start_eq, window_eq]
    omega

/-- The scatter-add at cell `i`: the cell's old value plus what the nodes whose index word is `i` bring. -/
private theorem scatter_read (acc : FVec Ideal S1048576 .f32) (w : IVec S3000000 32) (u : FVec Ideal S3000000 .f32) (i : S1048576.Idx)
    (hw : ∀ j, 0 ≤ (w j).toInt ∧ (w j).toInt < 1048576) :
    Host.scatterAdd sd acc (broadcastInDim S3000000x1 ![0] bcast_S3000000_S3000000x1_0 w) u i
      = acc i + ∑ j ∈ Finset.univ.filter (fun j : S3000000.Idx => (w j).toInt = ((i 0).val : ℤ)), u j := by
  unfold Host.scatterAdd
  rw [Ideal.hostScatterAdd_def]
  unfold Ideal.hostScatterAdd
  refine congrArg (fun z => acc i + z) ?_
  exact Finset.sum_congr (Finset.filter_congr fun j _ => result_iff w j i (hw j).1 (hw j).2) (fun _ _ => rfl)

/-- A filtered sum over the node indices, whose filter and summand depend on the node number only, is the filtered sum over the node numbers. -/
private theorem sum_nodes (f : ℕ → EReal) (c : ℕ → ℕ) (t : ℕ) (w : IVec S3000000 32) (u : FVec Ideal S3000000 .f32)
    (hw : ∀ j, (w j).toInt = ((c (j 0).val : ℕ) : ℤ)) (hu : ∀ j, u j = f (j 0).val) :
    ∑ j ∈ Finset.univ.filter (fun j : S3000000.Idx => (w j).toInt = (t : ℤ)), u j
      = ∑ k ∈ (Finset.range 3000000).filter (fun k => c k = t), f k := by
  rw [Finset.sum_filter, Finset.sum_filter]
  have h1 : ∀ j : S3000000.Idx, (if (w j).toInt = (t : ℤ) then u j else 0)
      = (fun a : Fin 3000000 => (fun k => if c k = t then f k else 0) a.val) (ValueIdx.idxEquiv1 j) := by
    intro j
    show _ = if c (j 0).val = t then f (j 0).val else 0
    rw [hw j, hu j]
    simp only [Nat.cast_inj]
  rw [Finset.sum_congr rfl (fun j _ => h1 j)]
  rw [Equiv.sum_comp ValueIdx.idxEquiv1 (fun a : Fin 3000000 => (fun k => if c k = t then f k else 0) a.val)]
  exact Fin.sum_univ_eq_sum_range (fun k => if c k = t then f k else 0) 3000000

/-! ## One pass as a function of its offsets, and the program's sixteen passes as instances of it -/

section Pass

/-- A word spread over the nodes. -/
private def splatI (c : BitVec 32) : IVec S3000000 32 := broadcastInDim S3000000 ![] bcast_S_S3000000 (constantI S_ 32 c)
private def flag (bx by' : IVec S3000000 32) : IVec S3000000 1 := andi (cmpi .slt bx (splatI 1024#32)) (cmpi .slt by' (splatI 1024#32))
private def cellW (bx by' : IVec S3000000 32) : IVec S3000000 32 := select (flag bx by') (addi (muli bx (splatI 1024#32)) by') (splatI 0#32)
private def cellV (bx by' : IVec S3000000 32) : IVec S3000000 32 :=
  select (cmpi .slt (cellW bx by') (splatI 0#32)) (addi (cellW bx by') (splatI 1048576#32)) (cellW bx by')
private def cellIdx (bx by' : IVec S3000000 32) : IVec S3000000x1 32 :=
  broadcastInDim S3000000x1 ![0] bcast_S3000000_S3000000x1_0 (cellV bx by')

variable {F : FTy → Type} [FloatOps F]

/-- A float literal spread over the nodes. -/
private def splatF (c : BitVec 32) : FVec F S3000000 .f32 := broadcastInDim S3000000 ![] bcast_S_S3000000 (constant (F := F) S_ .f32 c)
/-- The lower edge of the bins whose coordinate words are `b`. -/
private def binLo (b : IVec S3000000 32) : FVec F S3000000 .f32 := addf (splatF 0x00000000#32) (mulf (sitofp .f32 b) (splatF 0x3F800000#32))
/-- The overlap of each node's `[lo, hi]` with the unit bin at coordinate word `b`. -/
private def ovl (lo hi : FVec F S3000000 .f32) (b : IVec S3000000 32) : FVec F S3000000 .f32 :=
  maximumf (splatF 0x00000000#32) (subf (minimumf hi (addf (binLo b) (splatF 0x3F800000#32))) (maximumf lo (binLo b)))
private def upd (dens ox oy : FVec F S3000000 .f32) (bx by' : IVec S3000000 32) : FVec F S3000000 .f32 :=
  select (flag bx by') (mulf (mulf dens ox) oy) (splatF 0x00000000#32)
/-- One scatter pass at the offset words `di`, `dj`, as a function of its inputs. -/
private def pass (acc : FVec F S1048576 .f32) (dens xlo xhi ylo yhi : FVec F S3000000 .f32) (bxl byl : IVec S3000000 32) (di dj : BitVec 32) :
    FVec F S1048576 .f32 :=
  Host.scatterAdd scatter_S1048576_S3000000x1_S3000000_n_0_0_1 acc
    (cellIdx (addi bxl (splatI di)) (addi byl (splatI dj)))
    (upd dens (ovl xlo xhi (addi bxl (splatI di))) (ovl ylo yhi (addi byl (splatI dj)))
      (addi bxl (splatI di)) (addi byl (splatI dj)))

variable (P : (⟨S8000000, .f32⟩ : BufTy).Contents (Elt F)) (SX SY : (⟨S4000000, .f32⟩ : BufTy).Contents (Elt F)) (PW : (⟨S3000000, .i32⟩ : BufTy).Contents (Elt F))

/-- The pass on this program's phase-one quantities. -/
private def passP (acc : FVec F S1048576 .f32) (di dj : BitVec 32) : FVec F S1048576 .f32 :=
  pass acc (val_main_v26 (F := F) SX SY PW) (val_main_v18 (F := F) P SX) (val_main_v19 (F := F) P SX)
    (val_main_v20 (F := F) P SY) (val_main_v21 (F := F) P SY) (val_main_v33 (F := F) P SX) (val_main_v40 (F := F) P SY) di dj

private theorem p00 : val_main_v86 (F := F) P SX SY PW = passP P SX SY PW (val_main_v41 (F := F)) 0#32 0#32 := rfl
private theorem p01 : val_main_v116 (F := F) P SX SY PW = passP P SX SY PW (val_main_v86 (F := F) P SX SY PW) 0#32 1#32 := rfl
private theorem p02 : val_main_v146 (F := F) P SX SY PW = passP P SX SY PW (val_main_v116 (F := F) P SX SY PW) 0#32 2#32 := rfl
private theorem p03 : val_main_v176 (F := F) P SX SY PW = passP P SX SY PW (val_main_v146 (F := F) P SX SY PW) 0#32 3#32 := rfl
private theorem p10 : val_main_v221 (F := F) P SX SY PW = passP P SX SY PW (val_main_v176 (F := F) P SX SY PW) 1#32 0#32 := rfl
private theorem p11 : val_main_v251 (F := F) P SX SY PW = passP P SX SY PW (val_main_v221 (F := F) P SX SY PW) 1#32 1#32 := rfl
private theorem p12 : val_main_v281 (F := F) P SX SY PW = passP P SX SY PW (val_main_v251 (F := F) P SX SY PW) 1#32 2#32 := rfl
private theorem p13 : val_main_v311 (F := F) P SX SY PW = passP P SX SY PW (val_main_v281 (F := F) P SX SY PW) 1#32 3#32 := rfl
private theorem p20 : val_main_v356 (F := F) P SX SY PW = passP P SX SY PW (val_main_v311 (F := F) P SX SY PW) 2#32 0#32 := rfl
private theorem p21 : val_main_v386 (F := F) P SX SY PW = passP P SX SY PW (val_main_v356 (F := F) P SX SY PW) 2#32 1#32 := rfl
private theorem p22 : val_main_v416 (F := F) P SX SY PW = passP P SX SY PW (val_main_v386 (F := F) P SX SY PW) 2#32 2#32 := rfl
private theorem p23 : val_main_v446 (F := F) P SX SY PW = passP P SX SY PW (val_main_v416 (F := F) P SX SY PW) 2#32 3#32 := rfl
private theorem p30 : val_main_v491 (F := F) P SX SY PW = passP P SX SY PW (val_main_v446 (F := F) P SX SY PW) 3#32 0#32 := rfl
private theorem p31 : val_main_v521 (F := F) P SX SY PW = passP P SX SY PW (val_main_v491 (F := F) P SX SY PW) 3#32 1#32 := rfl
private theorem p32 : val_main_v551 (F := F) P SX SY PW = passP P SX SY PW (val_main_v521 (F := F) P SX SY PW) 3#32 2#32 := rfl
private theorem p33 : val_main_v581 (F := F) P SX SY PW = passP P SX SY PW (val_main_v551 (F := F) P SX SY PW) 3#32 3#32 := rfl

end Pass

/-! ## The prefix read at a node: sizes, half-extents, box edges, density and start bins are the specification's -/

variable (P : FVec Ideal S8000000 .f32) (SX SY : FVec Ideal S4000000 .f32) (PW : IVec S3000000 32)

private theorem sx_read (j : S3000000.Idx) : val_main_v0 (F := Ideal) SX j = at1 SX (j 0).val := by
  have h : (j 0).val < 4000000 := by have h0 : (j 0).val < 3000000 := (j 0).isLt; show (j 0).val < 4000000; omega
  rw [val_main_v0_apply, at1, dif_pos h]
  exact congrArg SX (funext fun a => match a with | ⟨0, _⟩ => rfl)

private theorem sy_read (j : S3000000.Idx) : val_main_v1 (F := Ideal) SY j = at1 SY (j 0).val := by
  have h : (j 0).val < 4000000 := by have h0 : (j 0).val < 3000000 := (j 0).isLt; show (j 0).val < 4000000; omega
  rw [val_main_v1_apply, at1, dif_pos h]
  exact congrArg SY (funext fun a => match a with | ⟨0, _⟩ => rfl)

private theorem px_read (j : S3000000.Idx) : val_main_v10 (F := Ideal) P j = at1 P (j 0).val := by
  have h : (j 0).val < 8000000 := by have h0 : (j 0).val < 3000000 := (j 0).isLt; show (j 0).val < 8000000; omega
  rw [val_main_v10_apply, at1, dif_pos h]
  exact congrArg P (funext fun a => match a with | ⟨0, _⟩ => rfl)

private theorem py_read (j : S3000000.Idx) : val_main_v14 (F := Ideal) P j = at1 P (4000000 + (j 0).val) := by
  have h : 4000000 + (j 0).val < 8000000 := by have h0 : (j 0).val < 3000000 := (j 0).isLt; show 4000000 + (j 0).val < 8000000; omega
  rw [val_main_v14_apply, at1, dif_pos h]
  exact congrArg P (funext fun a => match a with | ⟨0, _⟩ => rfl)

private theorem w_read (j : S3000000.Idx) : (PW j).toInt = atW PW (j 0).val := by
  have h : (j 0).val < 3000000 := (j 0).isLt
  rw [atW, dif_pos h]
  exact congrArg (fun q => (PW q).toInt) (ValueIdx.eq_ix1 j)

private theorem hx_read (j : S3000000.Idx) : val_main_v5 (F := Ideal) SX j = hx (at1 SX) (j 0).val := by
  simp only [val_main_v5_apply, val_main_v4_apply, val_main_cst_0_apply, val_main_v3_apply, val_main_v2_apply, val_main_cst_apply,
    sx_read, Ideal.mulf_def, Ideal.maximumf_def, Ideal.ofBits_def, lit_half, lit_1414]
  exact half_mul_max _

private theorem hy_read (j : S3000000.Idx) : val_main_v9 (F := Ideal) SY j = hy (at1 SY) (j 0).val := by
  simp only [val_main_v9_apply, val_main_v8_apply, val_main_cst_2_apply, val_main_v7_apply, val_main_v6_apply, val_main_cst_1_apply,
    sy_read, Ideal.mulf_def, Ideal.maximumf_def, Ideal.ofBits_def, lit_half, lit_1414]
  exact half_mul_max _

private theorem cx_read (j : S3000000.Idx) : val_main_v13 (F := Ideal) P SX j = at1 P (j 0).val + half * at1 SX (j 0).val := by
  simp only [val_main_v13_apply, val_main_v12_apply, val_main_v11_apply, val_main_cst_3_apply, px_read, sx_read,
    Ideal.addf_def, Ideal.mulf_def, Ideal.ofBits_def, lit_half]

private theorem cy_read (j : S3000000.Idx) : val_main_v17 (F := Ideal) P SY j = at1 P (4000000 + (j 0).val) + half * at1 SY (j 0).val := by
  simp only [val_main_v17_apply, val_main_v16_apply, val_main_v15_apply, val_main_cst_4_apply, py_read, sy_read,
    Ideal.addf_def, Ideal.mulf_def, Ideal.ofBits_def, lit_half]

private theorem xlo_read (j : S3000000.Idx) : val_main_v18 (F := Ideal) P SX j = xlo (at1 P) (at1 SX) (j 0).val := by
  simp only [val_main_v18_apply, cx_read, hx_read, Ideal.subf_def]; rfl
private theorem xhi_read (j : S3000000.Idx) : val_main_v19 (F := Ideal) P SX j = xhi (at1 P) (at1 SX) (j 0).val := by
  simp only [val_main_v19_apply, cx_read, hx_read, Ideal.addf_def]; rfl
private theorem ylo_read (j : S3000000.Idx) :
    val_main_v20 (F := Ideal) P SY j = ylo (fun k => at1 P (4000000 + k)) (at1 SY) (j 0).val := by
  simp only [val_main_v20_apply, cy_read, hy_read, Ideal.subf_def]; rfl
private theorem yhi_read (j : S3000000.Idx) :
    val_main_v21 (F := Ideal) P SY j = yhi (fun k => at1 P (4000000 + k)) (at1 SY) (j 0).val := by
  simp only [val_main_v21_apply, cy_read, hy_read, Ideal.addf_def]; rfl

private theorem dens_read (j : S3000000.Idx) :
    val_main_v26 (F := Ideal) SX SY PW j = dens (at1 SX) (at1 SY) (atW PW) (j 0).val := by
  simp only [val_main_v26_apply, val_main_v22_apply, val_main_v25_apply, val_main_v24_apply, val_main_v23_apply, val_main_cst_5_apply,
    hx_read, hy_read, sitofp_ideal, w_read, Ideal.hostDivf_def, Ideal.mulf_def, Ideal.ofBits_def, lit_four]
  rfl

private theorem bxl_read (j : S3000000.Idx) :
    val_main_v33 (F := Ideal) P SX j = BitVec.ofNat 32 (bstart (xlo (at1 P) (at1 SX) (j 0).val)) := by
  simp only [val_main_v33_apply, val_main_call0_v4_apply, val_main_call0_v3_apply, val_main_c_8_apply, val_main_call0_v2_apply,
    val_main_call0_v1_apply, val_main_call0_v0_apply, val_main_c_apply, val_main_v32_apply, val_main_v31_apply, val_main_v30_apply,
    val_main_v29_apply, val_main_cst_7_apply, val_main_v28_apply, val_main_v27_apply, val_main_cst_6_apply, xlo_read,
    fptosi_ideal, Ideal.hostUnary_floor_def, Ideal.hostDivf_def, Ideal.subf_def, Ideal.ofBits_def, lit_zero, lit_one, div_one']
  exact bstart_word _

private theorem byl_read (j : S3000000.Idx) :
    val_main_v40 (F := Ideal) P SY j = BitVec.ofNat 32 (bstart (ylo (fun k => at1 P (4000000 + k)) (at1 SY) (j 0).val)) := by
  simp only [val_main_v40_apply, val_main_call1_v4_apply, val_main_call1_v3_apply, val_main_c_12_apply, val_main_call1_v2_apply,
    val_main_call1_v1_apply, val_main_call1_v0_apply, val_main_c_11_apply, val_main_v39_apply, val_main_v38_apply, val_main_v37_apply,
    val_main_v36_apply, val_main_cst_10_apply, val_main_v35_apply, val_main_v34_apply, val_main_cst_9_apply, ylo_read,
    fptosi_ideal, Ideal.hostUnary_floor_def, Ideal.hostDivf_def, Ideal.subf_def, Ideal.ofBits_def, lit_zero, lit_one, div_one']
  exact bstart_word _

private theorem zero_read (i : S1048576.Idx) : val_main_v41 (F := Ideal) i = (fun _ : ℕ => (0 : EReal)) (i 0).val := by
  simp only [val_main_v41_apply, val_main_cst_13_apply, Ideal.ofBits_def, lit_zero]

/-! ## One pass read at a cell -/

private theorem cellV_apply (bx by' : IVec S3000000 32) (j : S3000000.Idx) : cellV bx by' j = cellS (bx j) (by' j) := rfl

private theorem upd_apply (d ox oy : FVec Ideal S3000000 .f32) (bx by' : IVec S3000000 32) (j : S3000000.Idx) :
    upd d ox oy bx by' j = Scalar.select (flagS (bx j) (by' j)) (d j * ox j * oy j) (Ideal.ofBits .f32 0x00000000#32) := rfl

private theorem ovl_apply (lo hi : FVec Ideal S3000000 .f32) (b : IVec S3000000 32) (j : S3000000.Idx) :
    ovl lo hi b j = ovS (lo j) (hi j) (b j) := rfl

private theorem addi_splat_apply (b : IVec S3000000 32) (d : BitVec 32) (j : S3000000.Idx) :
    addi b (splatI d) j = IntOp.addi (b j) d := rfl

/-- A pass at offsets `(di, dj)`, its accumulator `A` by cell number, is the specification's pass. -/
private theorem pass_read (acc : FVec Ideal S1048576 .f32) (A : ℕ → EReal) (hA : ∀ i : S1048576.Idx, acc i = A (i 0).val)
    (di dj : ℕ) (hdi : di ≤ 3) (hdj : dj ≤ 3) : ∀ i : S1048576.Idx,
    passP (F := Ideal) P SX SY PW acc (BitVec.ofNat 32 di) (BitVec.ofNat 32 dj) i
      = pass1 (at1 P) (fun k => at1 P (4000000 + k)) (at1 SX) (at1 SY) (atW PW) di dj A (i 0).val := by
  intro i
  have hbx : ∀ j : S3000000.Idx, addi (val_main_v33 (F := Ideal) P SX) (splatI (BitVec.ofNat 32 di)) j
      = BitVec.ofNat 32 (bstart (xlo (at1 P) (at1 SX) (j 0).val) + di) := by
    intro j; rw [addi_splat_apply, bxl_read, addi_ofNat]
  have hby : ∀ j : S3000000.Idx, addi (val_main_v40 (F := Ideal) P SY) (splatI (BitVec.ofNat 32 dj)) j
      = BitVec.ofNat 32 (bstart (ylo (fun k => at1 P (4000000 + k)) (at1 SY) (j 0).val) + dj) := by
    intro j; rw [addi_splat_apply, byl_read, addi_ofNat]
  have hcell : ∀ j : S3000000.Idx,
      (cellV (addi (val_main_v33 (F := Ideal) P SX) (splatI (BitVec.ofNat 32 di))) (addi (val_main_v40 (F := Ideal) P SY) (splatI (BitVec.ofNat 32 dj))) j).toInt
        = ((cell1 (at1 P) (fun k => at1 P (4000000 + k)) (at1 SX) (at1 SY) di dj (j 0).val : ℕ) : ℤ) := by
    intro j
    have h1 := bstart_le (xlo (at1 P) (at1 SX) (j 0).val)
    have h2 := bstart_le (ylo (fun k => at1 P (4000000 + k)) (at1 SY) (j 0).val)
    rw [cellV_apply, hbx, hby, cellS_toInt _ _ (by omega) (by omega)]
    unfold cell1
    by_cases h : onMap1 (at1 P) (fun k => at1 P (4000000 + k)) (at1 SX) (at1 SY) di dj (j 0).val
    · rw [if_pos h, if_pos (show _ ∧ _ from h)]
    · rw [if_neg h, if_neg (show ¬ (_ ∧ _) from h)]; rfl
  have hupd : ∀ j : S3000000.Idx,
      upd (F := Ideal) (val_main_v26 (F := Ideal) SX SY PW)
        (ovl (F := Ideal) (val_main_v18 (F := Ideal) P SX) (val_main_v19 (F := Ideal) P SX) (addi (val_main_v33 (F := Ideal) P SX) (splatI (BitVec.ofNat 32 di))))
        (ovl (F := Ideal) (val_main_v20 (F := Ideal) P SY) (val_main_v21 (F := Ideal) P SY) (addi (val_main_v40 (F := Ideal) P SY) (splatI (BitVec.ofNat 32 dj))))
        (addi (val_main_v33 (F := Ideal) P SX) (splatI (BitVec.ofNat 32 di))) (addi (val_main_v40 (F := Ideal) P SY) (splatI (BitVec.ofNat 32 dj))) j
        = contrib1 (at1 P) (fun k => at1 P (4000000 + k)) (at1 SX) (at1 SY) (atW PW) di dj (j 0).val := by
    intro j
    have h1 := bstart_le (xlo (at1 P) (at1 SX) (j 0).val)
    have h2 := bstart_le (ylo (fun k => at1 P (4000000 + k)) (at1 SY) (j 0).val)
    rw [upd_apply, ovl_apply, ovl_apply, hbx, hby, ovS_eq _ _ _ (by omega), ovS_eq _ _ _ (by omega),
      dens_read, xlo_read, xhi_read, ylo_read, yhi_read]
    unfold contrib1
    by_cases h : onMap1 (at1 P) (fun k => at1 P (4000000 + k)) (at1 SX) (at1 SY) di dj (j 0).val
    · rw [if_pos h, (flagS_iff _ _ (by omega) (by omega)).2 (show _ ∧ _ from h), ValueIdx.select_one]
    · rw [if_neg h, ValueIdx.eq_zero_of_ne_one (fun hf => h ((flagS_iff _ _ (by omega) (by omega)).1 hf)), ValueIdx.select_zero, lit_zero]
  have hrange : ∀ j : S3000000.Idx,
      0 ≤ (cellV (addi (val_main_v33 (F := Ideal) P SX) (splatI (BitVec.ofNat 32 di))) (addi (val_main_v40 (F := Ideal) P SY) (splatI (BitVec.ofNat 32 dj))) j).toInt ∧
      (cellV (addi (val_main_v33 (F := Ideal) P SX) (splatI (BitVec.ofNat 32 di))) (addi (val_main_v40 (F := Ideal) P SY) (splatI (BitVec.ofNat 32 dj))) j).toInt < 1048576 := by
    intro j
    rw [hcell j]
    have hc : cell1 (at1 P) (fun k => at1 P (4000000 + k)) (at1 SX) (at1 SY) di dj (j 0).val < 1048576 := by
      unfold cell1
      split
      · next h => have := h.1; have := h.2; omega
      · norm_num
    omega
  unfold passP pass cellIdx
  rw [scatter_read _ _ _ _ hrange, hA i]
  unfold pass1
  refine congrArg (fun z => A (i 0).val + z) ?_
  exact sum_nodes _ _ _ _ _ hcell hupd

/-- The sixteen passes of the scattered form, written out. -/
private theorem pmR_unfold (px py sx sy : ℕ → EReal) (w : ℕ → ℤ) :
    pmR px py sx sy w = (pass1 px py sx sy w 3 3
      (pass1 px py sx sy w 3 2
      (pass1 px py sx sy w 3 1
      (pass1 px py sx sy w 3 0
      (pass1 px py sx sy w 2 3
      (pass1 px py sx sy w 2 2
      (pass1 px py sx sy w 2 1
      (pass1 px py sx sy w 2 0
      (pass1 px py sx sy w 1 3
      (pass1 px py sx sy w 1 2
      (pass1 px py sx sy w 1 1
      (pass1 px py sx sy w 1 0
      (pass1 px py sx sy w 0 3
      (pass1 px py sx sy w 0 2
      (pass1 px py sx sy w 0 1
      (pass1 px py sx sy w 0 0
      (fun _ => 0))))))))))))))))) := by
  unfold pmR offsets
  rw [List.foldl_cons, List.foldl_cons, List.foldl_cons, List.foldl_cons, List.foldl_cons, List.foldl_cons, List.foldl_cons, List.foldl_cons,
    List.foldl_cons, List.foldl_cons, List.foldl_cons, List.foldl_cons, List.foldl_cons, List.foldl_cons, List.foldl_cons, List.foldl_cons,
    List.foldl_nil]

/-! ## The sixteen passes, and the adjustment table -/

/-- The map after the sixteenth scatter pass, cell by cell. -/
theorem pmap_eq (i : S1048576.Idx) :
    (val_main_v581 (F := Ideal) P SX SY PW : FVec Ideal S1048576 .f32) i
      = pmR (at1 P) (fun k => at1 P (4000000 + k)) (at1 SX) (at1 SY) (atW PW) (i 0).val := by
  have s00 := pass_read P SX SY PW _ (fun _ => 0) zero_read 0 0 (by norm_num) (by norm_num)
  rw [← p00 (F := Ideal) P SX SY PW] at s00
  have s01 := pass_read P SX SY PW _ _ s00 0 1 (by norm_num) (by norm_num)
  rw [← p01 (F := Ideal) P SX SY PW] at s01
  have s02 := pass_read P SX SY PW _ _ s01 0 2 (by norm_num) (by norm_num)
  rw [← p02 (F := Ideal) P SX SY PW] at s02
  have s03 := pass_read P SX SY PW _ _ s02 0 3 (by norm_num) (by norm_num)
  rw [← p03 (F := Ideal) P SX SY PW] at s03
  have s10 := pass_read P SX SY PW _ _ s03 1 0 (by norm_num) (by norm_num)
  rw [← p10 (F := Ideal) P SX SY PW] at s10
  have s11 := pass_read P SX SY PW _ _ s10 1 1 (by norm_num) (by norm_num)
  rw [← p11 (F := Ideal) P SX SY PW] at s11
  have s12 := pass_read P SX SY PW _ _ s11 1 2 (by norm_num) (by norm_num)
  rw [← p12 (F := Ideal) P SX SY PW] at s12
  have s13 := pass_read P SX SY PW _ _ s12 1 3 (by norm_num) (by norm_num)
  rw [← p13 (F := Ideal) P SX SY PW] at s13
  have s20 := pass_read P SX SY PW _ _ s13 2 0 (by norm_num) (by norm_num)
  rw [← p20 (F := Ideal) P SX SY PW] at s20
  have s21 := pass_read P SX SY PW _ _ s20 2 1 (by norm_num) (by norm_num)
  rw [← p21 (F := Ideal) P SX SY PW] at s21
  have s22 := pass_read P SX SY PW _ _ s21 2 2 (by norm_num) (by norm_num)
  rw [← p22 (F := Ideal) P SX SY PW] at s22
  have s23 := pass_read P SX SY PW _ _ s22 2 3 (by norm_num) (by norm_num)
  rw [← p23 (F := Ideal) P SX SY PW] at s23
  have s30 := pass_read P SX SY PW _ _ s23 3 0 (by norm_num) (by norm_num)
  rw [← p30 (F := Ideal) P SX SY PW] at s30
  have s31 := pass_read P SX SY PW _ _ s30 3 1 (by norm_num) (by norm_num)
  rw [← p31 (F := Ideal) P SX SY PW] at s31
  have s32 := pass_read P SX SY PW _ _ s31 3 2 (by norm_num) (by norm_num)
  rw [← p32 (F := Ideal) P SX SY PW] at s32
  have s33 := pass_read P SX SY PW _ _ s32 3 3 (by norm_num) (by norm_num)
  rw [← p33 (F := Ideal) P SX SY PW] at s33
  rw [pmR_unfold]
  exact s33 i

/-- The adjustment table: the map divided by the bin area 1 and the capacity 2, clipped. -/
theorem adj_eq (i : S1048576.Idx) :
    (val_main_v586 (F := Ideal) P SX SY PW : FVec Ideal S1048576 .f32) i
      = adjOf (pmR (at1 P) (fun k => at1 P (4000000 + k)) (at1 SX) (at1 SY) (atW PW) (i 0).val) := by
  simp only [val_main_v586_apply, val_main_call54_v4_apply, val_main_call54_v3_apply, val_main_cst_217_apply, val_main_call54_v2_apply,
    val_main_call54_v1_apply, val_main_call54_v0_apply, val_main_cst_216_apply, val_main_v585_apply, val_main_v584_apply,
    val_main_cst_215_apply, val_main_v583_apply, val_main_v582_apply, val_main_cst_214_apply, pmap_eq,
    Ideal.minimumf_def, Ideal.maximumf_def, Ideal.hostDivf_def, Ideal.ofBits_def, lit_one, lit_two]
  unfold adjOf cHi cLo
  rfl

end Cert.ReferenceIdeal.RMap

end
-- ==== Proof.RArea.lean ====
/-
  The reference's second phase, read: for each of the first 2,500,000 nodes it adds, pass by pass, the node's
  footprint overlap with the bin at each of the sixteen offsets from its start bin times the adjustment table's
  entry gathered at that bin's flat cell number — the gathered form of the adjusted area.

  The sixteen passes are one composite of array operations at sixteen pairs of offsets. That composite is written
  once (`termT`), each pass's stage is shown to be it, and it is read at a node: when both shifted bin numbers are
  on the map it is the product of the two overlap lengths and the table's entry at the flat cell number, and
  otherwise it is zero. The start-bin words are the words of `bstart`, small enough that no word operation wraps.
-/
import proofs.«430719_j53558242181775_3_alg».proof.Proof.RefRead
import proofs.«430719_j53558242181775_3_alg».proof.Proof.Spec
import proofs.«430719_j53558242181775_3_alg».proof.Proof.RMap
import Idealize.ShloMosaic.Lib.ValueIdx
import Idealize.ShloMosaic.Lib.Pipeline.Value
import Idealize.ShloMosaic.PureOps.Ideal.Laws
import Idealize.ShloMosaic.Lib.StableHlo.Predicate

set_option maxRecDepth 8192

noncomputable section

open scoped BigOperators
open Idealize.ShloMosaic Idealize.ShloMosaic.TcCoe

namespace Cert.ReferenceIdeal.RArea

open Cert.ReferenceIdeal Cert.ReferenceIdeal.ReadP Cert.Spec

/-! ## One pass as a function of its two offsets -/

section Pass
variable {F : FTy → Type} [FloatOps F]

/-- A float literal spread over the nodes. -/
def bcF (w : BitVec 32) : FVec F S2500000 .f32 :=
  broadcastInDim S2500000 ![] Gen.bcast_S_S2500000 (constant S_ .f32 w)

/-- An integer literal spread over the nodes. -/
def bcI (w : BitVec 32) : IVec S2500000 32 :=
  broadcastInDim S2500000 ![] Gen.bcast_S_S2500000 (constantI S_ 32 w)

/-- Node by node, the length of the overlap of `[lo, lo + sz]` with the unit bin whose number is the word `b`:
    the bin's lower edge is `0 + b · 1`, its upper edge one more. -/
def ovT (lo sz : FVec F S2500000 .f32) (b : IVec S2500000 32) : FVec F S2500000 .f32 :=
  maximumf (bcF 0x00000000#32)
    (subf
      (minimumf (addf lo sz)
        (addf (addf (bcF 0x00000000#32) (mulf (sitofp .f32 b) (bcF 0x3F800000#32))) (bcF 0x3F800000#32)))
      (maximumf lo (addf (bcF 0x00000000#32) (mulf (sitofp .f32 b) (bcF 0x3F800000#32)))))

/-- Node by node, whether both bin numbers are below 1024. -/
def flagT (bx by_ : IVec S2500000 32) : IVec S2500000 1 :=
  andi (cmpi .slt bx (bcI 1024#32)) (cmpi .slt by_ (bcI 1024#32))

/-- Node by node, the flat cell number `bx · 1024 + by` when both are on the map, else cell 0. -/
def cellT (bx by_ : IVec S2500000 32) : IVec S2500000 32 :=
  select (flagT bx by_) (addi (muli bx (bcI 1024#32)) by_) (bcI 0#32)

/-- A negative position counts from the end of the table. -/
def wrapT (c : IVec S2500000 32) : IVec S2500000 32 :=
  select (cmpi .slt c (bcI 0#32)) (addi c (bcI 1048576#32)) c

/-- THE PASS at offsets `(di, dj)`: the two overlaps' product times the table's entry at the cell, where the cell
    is on the map, and zero elsewhere. -/
def termT (di dj : BitVec 32) (mx my msx msy : FVec F S2500000 .f32) (bxl byl : IVec S2500000 32)
    (adj : FVec F S1048576 .f32) : FVec F S2500000 .f32 :=
  select (flagT (addi bxl (bcI di)) (addi byl (bcI dj)))
    (mulf (mulf (ovT mx msx (addi bxl (bcI di))) (ovT my msy (addi byl (bcI dj))))
      (Host.gather gather_S1048576_S2500000x1_S2500000_n_0_n_n_0_1_1 adj
        (broadcastInDim S2500000x1 ![0] Gen.bcast_S2500000_S2500000x1_0
          (wrapT (cellT (addi bxl (bcI di)) (addi byl (bcI dj)))))))
    (bcF 0x00000000#32)

/-! Each of the sixteen stages is the pass at its offsets: both sides are the same tree of operations. -/

theorem pass_0_0 (x0 : FVec F S8000000 .f32) (x1 x2 : FVec F S4000000 .f32) (x3 : IVec S3000000 32) :
    val_main_v652 (F := F) x0 x1 x2 x3
      = termT 0#32 0#32 (val_main_v587 x0) (val_main_v588 x0) (val_main_v589 x1) (val_main_v590 x2)
          (val_main_v597 x0) (val_main_v604 x0) (val_main_v586 x0 x1 x2 x3) := rfl

theorem pass_0_1 (x0 : FVec F S8000000 .f32) (x1 x2 : FVec F S4000000 .f32) (x3 : IVec S3000000 32) :
    val_main_v684 (F := F) x0 x1 x2 x3
      = termT 0#32 1#32 (val_main_v587 x0) (val_main_v588 x0) (val_main_v589 x1) (val_main_v590 x2)
          (val_main_v597 x0) (val_main_v604 x0) (val_main_v586 x0 x1 x2 x3) := rfl

theorem pass_0_2 (x0 : FVec F S8000000 .f32) (x1 x2 : FVec F S4000000 .f32) (x3 : IVec S3000000 32) :
    val_main_v716 (F := F) x0 x1 x2 x3
      = termT 0#32 2#32 (val_main_v587 x0) (val_main_v588 x0) (val_main_v589 x1) (val_main_v590 x2)
          (val_main_v597 x0) (val_main_v604 x0) (val_main_v586 x0 x1 x2 x3) := rfl

theorem pass_0_3 (x0 : FVec F S8000000 .f32) (x1 x2 : FVec F S4000000 .f32) (x3 : IVec S3000000 32) :
    val_main_v748 (F := F) x0 x1 x2 x3
      = termT 0#32 3#32 (val_main_v587 x0) (val_main_v588 x0) (val_main_v589 x1) (val_main_v590 x2)
          (val_main_v597 x0) (val_main_v604 x0) (val_main_v586 x0 x1 x2 x3) := rfl

theorem pass_1_0 (x0 : FVec F S8000000 .f32) (x1 x2 : FVec F S4000000 .f32) (x3 : IVec S3000000 32) :
    val_main_v796 (F := F) x0 x1 x2 x3
      = termT 1#32 0#32 (val_main_v587 x0) (val_main_v588 x0) (val_main_v589 x1) (val_main_v590 x2)
          (val_main_v597 x0) (val_main_v604 x0) (val_main_v586 x0 x1 x2 x3) := rfl

theorem pass_1_1 (x0 : FVec F S8000000 .f32) (x1 x2 : FVec F S4000000 .f32) (x3 : IVec S3000000 32) :
    val_main_v828 (F := F) x0 x1 x2 x3
      = termT 1#32 1#32 (val_main_v587 x0) (val_main_v588 x0) (val_main_v589 x1) (val_main_v590 x2)
          (val_main_v597 x0) (val_main_v604 x0) (val_main_v586 x0 x1 x2 x3) := rfl

theorem pass_1_2 (x0 : FVec F S8000000 .f32) (x1 x2 : FVec F S4000000 .f32) (x3 : IVec S3000000 32) :
    val_main_v860 (F := F) x0 x1 x2 x3
      = termT 1#32 2#32 (val_main_v587 x0) (val_main_v588 x0) (val_main_v589 x1) (val_main_v590 x2)
          (val_main_v597 x0) (val_main_v604 x0) (val_main_v586 x0 x1 x2 x3) := rfl

theorem pass_1_3 (x0 : FVec F S8000000 .f32) (x1 x2 : FVec F S4000000 .f32) (x3 : IVec S3000000 32) :
    val_main_v892 (F := F) x0 x1 x2 x3
      = termT 1#32 3#32 (val_main_v587 x0) (val_main_v588 x0) (val_main_v589 x1) (val_main_v590 x2)
          (val_main_v597 x0) (val_main_v604 x0) (val_main_v586 x0 x1 x2 x3) := rfl

theorem pass_2_0 (x0 : FVec F S8000000 .f32) (x1 x2 : FVec F S4000000 .f32) (x3 : IVec S3000000 32) :
    val_main_v940 (F := F) x0 x1 x2 x3
      = termT 2#32 0#32 (val_main_v587 x0) (val_main_v588 x0) (val_main_v589 x1) (val_main_v590 x2)
          (val_main_v597 x0) (val_main_v604 x0) (val_main_v586 x0 x1 x2 x3) := rfl

theorem pass_2_1 (x0 : FVec F S8000000 .f32) (x1 x2 : FVec F S4000000 .f32) (x3 : IVec S3000000 32) :
    val_main_v972 (F := F) x0 x1 x2 x3
      = termT 2#32 1#32 (val_main_v587 x0) (val_main_v588 x0) (val_main_v589 x1) (val_main_v590 x2)
          (val_main_v597 x0) (val_main_v604 x0) (val_main_v586 x0 x1 x2 x3) := rfl

theorem pass_2_2 (x0 : FVec F S8000000 .f32) (x1 x2 : FVec F S4000000 .f32) (x3 : IVec S3000000 32) :
    val_main_v1004 (F := F) x0 x1 x2 x3
      = termT 2#32 2#32 (val_main_v587 x0) (val_main_v588 x0) (val_main_v589 x1) (val_main_v590 x2)
          (val_main_v597 x0) (val_main_v604 x0) (val_main_v586 x0 x1 x2 x3) := rfl

theorem pass_2_3 (x0 : FVec F S8000000 .f32) (x1 x2 : FVec F S4000000 .f32) (x3 : IVec S3000000 32) :
    val_main_v1036 (F := F) x0 x1 x2 x3
      = termT 2#32 3#32 (val_main_v587 x0) (val_main_v588 x0) (val_main_v589 x1) (val_main_v590 x2)
          (val_main_v597 x0) (val_main_v604 x0) (val_main_v586 x0 x1 x2 x3) := rfl

theorem pass_3_0 (x0 : FVec F S8000000 .f32) (x1 x2 : FVec F S4000000 .f32) (x3 : IVec S3000000 32) :
    val_main_v1084 (F := F) x0 x1 x2 x3
      = termT 3#32 0#32 (val_main_v587 x0) (val_main_v588 x0) (val_main_v589 x1) (val_main_v590 x2)
          (val_main_v597 x0) (val_main_v604 x0) (val_main_v586 x0 x1 x2 x3) := rfl

theorem pass_3_1 (x0 : FVec F S8000000 .f32) (x1 x2 : FVec F S4000000 .f32) (x3 : IVec S3000000 32) :
    val_main_v1116 (F := F) x0 x1 x2 x3
      = termT 3#32 1#32 (val_main_v587 x0) (val_main_v588 x0) (val_main_v589 x1) (val_main_v590 x2)
          (val_main_v597 x0) (val_main_v604 x0) (val_main_v586 x0 x1 x2 x3) := rfl

theorem pass_3_2 (x0 : FVec F S8000000 .f32) (x1 x2 : FVec F S4000000 .f32) (x3 : IVec S3000000 32) :
    val_main_v1148 (F := F) x0 x1 x2 x3
      = termT 3#32 2#32 (val_main_v587 x0) (val_main_v588 x0) (val_main_v589 x1) (val_main_v590 x2)
          (val_main_v597 x0) (val_main_v604 x0) (val_main_v586 x0 x1 x2 x3) := rfl

theorem pass_3_3 (x0 : FVec F S8000000 .f32) (x1 x2 : FVec F S4000000 .f32) (x3 : IVec S3000000 32) :
    val_main_v1180 (F := F) x0 x1 x2 x3
      = termT 3#32 3#32 (val_main_v587 x0) (val_main_v588 x0) (val_main_v589 x1) (val_main_v590 x2)
          (val_main_v597 x0) (val_main_v604 x0) (val_main_v586 x0 x1 x2 x3) := rfl

end Pass

/-! ## Literals and words -/

/-- The word 0x3F800000 denotes the real number one. -/
private theorem lit_one : Ideal.ofBits .f32 0x3F800000#32 = 1 := by
  simp [Ideal.ofBits, Ideal.ieee, -EReal.coe_mul]; norm_num

/-- Dividing by one changes nothing, at the infinities too. -/
private theorem div_one' (x : EReal) : Ideal.div x 1 = x := by
  have h := Ideal.div_coe (y := 1) one_ne_zero x
  simpa using h

/-- The signed value of the larger of two words is the larger of their signed values. -/
private theorem toInt_maxsi (x y : BitVec 32) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

/-- The signed value of the smaller of two words is the smaller of their signed values. -/
private theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- A clamped conversion lands between its two ends. -/
private theorem toIntClamped_mem (lo hi : ℤ) (h : lo ≤ hi) (x : EReal) :
    lo ≤ Ideal.toIntClamped lo hi x ∧ Ideal.toIntClamped lo hi x ≤ hi := by
  induction x using EReal.rec with
  | bot => simp [h]
  | top => simp [h]
  | coe r => rw [Ideal.toIntClamped_coe]; omega

/-- THE START-BIN WORD: the floor, converted to a 32-bit integer and clamped into 0 … 1023, is the word of
    `bstart`, which is at most 1023. -/
private theorem bstart_word (x : EReal) :
    IntOp.minsi 1023#32 (IntOp.maxsi 0#32 (Ideal.fptosi 32 (Ideal.liftRound Int.floor x)))
      = BitVec.ofNat 32 (bstart x) ∧ bstart x ≤ 1023 := by
  unfold bstart Ideal.fptosi
  obtain ⟨h1, h2⟩ := toIntClamped_mem (-(2 ^ 31 : ℕ)) ((2 ^ 31 : ℕ) - 1) (by norm_num) (Ideal.liftRound Int.floor x)
  show IntOp.minsi 1023#32 (IntOp.maxsi 0#32 (BitVec.ofInt 32
    (Ideal.toIntClamped (-(2 ^ 31 : ℕ)) ((2 ^ 31 : ℕ) - 1) (Ideal.liftRound Int.floor x)))) = _ ∧ _
  generalize Ideal.toIntClamped (-(2 ^ 31 : ℕ)) ((2 ^ 31 : ℕ) - 1) (Ideal.liftRound Int.floor x) = z at h1 h2 ⊢
  have hz : (BitVec.ofInt 32 z).toInt = z :=
    BitVec.toInt_ofInt_eq_self (by norm_num) (by push_cast at h1 ⊢; omega) (by push_cast at h2 ⊢; omega)
  constructor
  · apply BitVec.eq_of_toInt_eq
    have hr : (BitVec.ofNat 32 (min 1023 (max 0 z)).toNat).toInt = ((min 1023 (max 0 z)).toNat : ℤ) :=
      StableHlo.Predicate.toInt_ofNat_small _ (by omega)
    have e1 : (1023#32 : BitVec 32).toInt = 1023 := by decide
    have e0 : (0#32 : BitVec 32).toInt = 0 := by decide
    rw [toInt_minsi, toInt_maxsi, hz, hr, e1, e0]
    omega
  · omega

/-- The anded comparison bits of two small words say that both are below 1024. -/
private theorem flag_iff (a b : ℕ) (ha : a < 2 ^ 31) (hb : b < 2 ^ 31) :
    IntOp.andi (IntOp.cmpi .slt (BitVec.ofNat 32 a) 1024#32) (IntOp.cmpi .slt (BitVec.ofNat 32 b) 1024#32) = 1#1
      ↔ a < 1024 ∧ b < 1024 := by
  have hA : IntOp.cmpi .slt (BitVec.ofNat 32 a) 1024#32 = 1#1 ↔ a < 1024 :=
    StableHlo.Predicate.slt_ofNat_iff a 1024 ha (by norm_num)
  have hB : IntOp.cmpi .slt (BitVec.ofNat 32 b) 1024#32 = 1#1 ↔ b < 1024 :=
    StableHlo.Predicate.slt_ofNat_iff b 1024 hb (by norm_num)
  rw [← hA, ← hB]
  generalize IntOp.cmpi .slt (BitVec.ofNat 32 a) 1024#32 = u
  generalize IntOp.cmpi .slt (BitVec.ofNat 32 b) 1024#32 = v
  unfold IntOp.andi
  rcases BitVec.eq_zero_or_eq_one u with rfl | rfl <;> rcases BitVec.eq_zero_or_eq_one v with rfl | rfl <;> decide

/-- A small word is not negative. -/
private theorem not_neg_word (m : ℕ) (hm : m < 2 ^ 31) : IntOp.cmpi .slt (BitVec.ofNat 32 m) 0#32 = 0#1 := by
  apply ValueIdx.eq_zero_of_ne_one
  intro h
  have := (StableHlo.Predicate.slt_ofNat_iff m 0 hm (by norm_num)).mp h
  omega

/-- The overlap as the program spells it, at the bin numbered by a small word, is `ov` at that bin. -/
private theorem ov_word (lo sz : EReal) (k : ℕ) (hk : k < 2 ^ 31) :
    max (Ideal.ofBits .f32 0x00000000#32)
      (min (lo + sz)
          (Ideal.ofBits .f32 0x00000000#32
              + (((BitVec.ofNat 32 k).toInt : ℝ) : EReal) * Ideal.ofBits .f32 0x3F800000#32
            + Ideal.ofBits .f32 0x3F800000#32)
        - max lo (Ideal.ofBits .f32 0x00000000#32
              + (((BitVec.ofNat 32 k).toInt : ℝ) : EReal) * Ideal.ofBits .f32 0x3F800000#32))
      = ov lo (lo + sz) k := by
  rw [StableHlo.Predicate.toInt_ofNat_small k hk, Ideal.ofBits_zero_f32, lit_one]
  unfold ov
  simp

/-! ## The pass read at a node -/

/-- The table gathered at a column of positions reads, at a node whose position word is a small number `m`,
    the table's entry `m`. -/
private theorem gather_read {α : Type} (adj : S1048576.Idx → α) (c : IVec S2500000 32) (i : S2500000.Idx)
    (m : ℕ) (hm : m < 1048576) (hc : c i = BitVec.ofNat 32 m) :
    Host.gather gather_S1048576_S2500000x1_S2500000_n_0_n_n_0_1_1 adj
        (broadcastInDim S2500000x1 ![0] Gen.bcast_S2500000_S2500000x1_0 c) i
      = adj (ValueIdx.ix1 ⟨m, hm⟩) := by
  obtain ⟨p, rfl⟩ : ∃ p, i = Shape.Idx.ofFin p := ⟨i 0, Shape.Idx.eq_ofFin i⟩
  rw [StableHlo.Predicate.gather_take _ rfl rfl rfl rfl adj _ p (by norm_num)]
  refine congrArg adj ?_
  funext a
  match a with
  | ⟨0, _⟩ =>
    refine Fin.ext ?_
    show min ((broadcastInDim S2500000x1 ![0] Gen.bcast_S2500000_S2500000x1_0 c
      (StableHlo.Predicate.ixP p)).toInt.toNat) (1048576 - 1) = m
    rw [StableHlo.Predicate.bcast_col1, hc, StableHlo.Predicate.toInt_ofNat_small m (by omega)]
    omega

/-- THE PASS AT A NODE whose two shifted bin numbers are the small numbers `a` and `b`: on the map, the product
    of the overlaps with bins `a` and `b` and the table's entry `a · 1024 + b`; off it, zero. -/
private theorem termT_read (di dj : BitVec 32) (mx my msx msy : FVec Ideal S2500000 .f32)
    (bxl byl : IVec S2500000 32) (adj : FVec Ideal S1048576 .f32) (i : S2500000.Idx) (a b : ℕ)
    (ha : a < 2048) (hb : b < 2048)
    (hbx : bxl i + di = BitVec.ofNat 32 a) (hby : byl i + dj = BitVec.ofNat 32 b) :
    termT (F := Ideal) di dj mx my msx msy bxl byl adj i
      = if h : a < 1024 ∧ b < 1024 then
          ov (mx i) (mx i + msx i) a * ov (my i) (my i + msy i) b
            * adj (ValueIdx.ix1 ⟨a * 1024 + b, by omega⟩)
        else 0 := by
  have hbx' : addi bxl (bcI di) i = BitVec.ofNat 32 a := hbx
  have hby' : addi byl (bcI dj) i = BitVec.ofNat 32 b := hby
  have hflag : flagT (addi bxl (bcI di)) (addi byl (bcI dj)) i = 1#1 ↔ (a < 1024 ∧ b < 1024) := by
    show IntOp.andi (IntOp.cmpi .slt (addi bxl (bcI di) i) 1024#32)
      (IntOp.cmpi .slt (addi byl (bcI dj) i) 1024#32) = 1#1 ↔ _
    rw [hbx', hby']
    exact flag_iff a b (by omega) (by omega)
  have hox : ovT (F := Ideal) mx msx (addi bxl (bcI di)) i = ov (mx i) (mx i + msx i) a := by
    show max (Ideal.ofBits .f32 0x00000000#32)
      (min (mx i + msx i)
          (Ideal.ofBits .f32 0x00000000#32
              + (((addi bxl (bcI di) i).toInt : ℝ) : EReal) * Ideal.ofBits .f32 0x3F800000#32
            + Ideal.ofBits .f32 0x3F800000#32)
        - max (mx i) (Ideal.ofBits .f32 0x00000000#32
              + (((addi bxl (bcI di) i).toInt : ℝ) : EReal) * Ideal.ofBits .f32 0x3F800000#32)) = _
    rw [hbx']
    exact ov_word _ _ a (by omega)
  have hoy : ovT (F := Ideal) my msy (addi byl (bcI dj)) i = ov (my i) (my i + msy i) b := by
    show max (Ideal.ofBits .f32 0x00000000#32)
      (min (my i + msy i)
          (Ideal.ofBits .f32 0x00000000#32
              + (((addi byl (bcI dj) i).toInt : ℝ) : EReal) * Ideal.ofBits .f32 0x3F800000#32
            + Ideal.ofBits .f32 0x3F800000#32)
        - max (my i) (Ideal.ofBits .f32 0x00000000#32
              + (((addi byl (bcI dj) i).toInt : ℝ) : EReal) * Ideal.ofBits .f32 0x3F800000#32)) = _
    rw [hby']
    exact ov_word _ _ b (by omega)
  by_cases h : a < 1024 ∧ b < 1024
  · rw [dif_pos h]
    have hc : cellT (addi bxl (bcI di)) (addi byl (bcI dj)) i = BitVec.ofNat 32 (a * 1024 + b) := by
      show Scalar.select (flagT (addi bxl (bcI di)) (addi byl (bcI dj)) i)
        (addi bxl (bcI di) i * 1024#32 + addi byl (bcI dj) i) 0#32 = _
      rw [hflag.mpr h, ValueIdx.select_one, hbx', hby', BitVec.ofNat_add, BitVec.ofNat_mul]
    have hw : wrapT (cellT (addi bxl (bcI di)) (addi byl (bcI dj))) i = BitVec.ofNat 32 (a * 1024 + b) := by
      show Scalar.select (IntOp.cmpi .slt (cellT (addi bxl (bcI di)) (addi byl (bcI dj)) i) 0#32)
        (cellT (addi bxl (bcI di)) (addi byl (bcI dj)) i + 1048576#32)
        (cellT (addi bxl (bcI di)) (addi byl (bcI dj)) i) = _
      rw [hc, not_neg_word _ (by omega), ValueIdx.select_zero]
    show Scalar.select (flagT (addi bxl (bcI di)) (addi byl (bcI dj)) i)
      (ovT (F := Ideal) mx msx (addi bxl (bcI di)) i * ovT (F := Ideal) my msy (addi byl (bcI dj)) i
        * Host.gather gather_S1048576_S2500000x1_S2500000_n_0_n_n_0_1_1 adj
            (broadcastInDim S2500000x1 ![0] Gen.bcast_S2500000_S2500000x1_0
              (wrapT (cellT (addi bxl (bcI di)) (addi byl (bcI dj))))) i)
      (Ideal.ofBits .f32 0x00000000#32) = _
    rw [hflag.mpr h, ValueIdx.select_one, hox, hoy, gather_read adj _ i (a * 1024 + b) (by omega) hw]
  · rw [dif_neg h]
    show Scalar.select (flagT (addi bxl (bcI di)) (addi byl (bcI dj)) i) _ (Ideal.ofBits .f32 0x00000000#32) = 0
    rw [ValueIdx.eq_zero_of_ne_one (fun e => h (hflag.mp e)), ValueIdx.select_zero, Ideal.ofBits_zero_f32]

variable (P : FVec Ideal S8000000 .f32) (SX SY : FVec Ideal S4000000 .f32) (PW : IVec S3000000 32)

/-! ## The second phase's inputs at a node -/

/-- The node's x position. -/
private theorem mx_read (i : S2500000.Idx) : val_main_v587 (F := Ideal) P i = at1 P (i 0).val := by
  have h0 : (i 0).val < 2500000 := (i 0).isLt
  rw [val_main_v587_apply]
  unfold at1
  rw [dif_pos (show (i 0).val < 8000000 by omega)]
  refine congrArg P ?_
  funext a
  match a with
  | ⟨0, _⟩ => rfl

/-- The node's y position, in the second half of the positions. -/
private theorem my_read (i : S2500000.Idx) : val_main_v588 (F := Ideal) P i = at1 P (4000000 + (i 0).val) := by
  have h0 : (i 0).val < 2500000 := (i 0).isLt
  rw [val_main_v588_apply]
  unfold at1
  rw [dif_pos (show 4000000 + (i 0).val < 8000000 by omega)]
  refine congrArg P ?_
  funext a
  match a with
  | ⟨0, _⟩ => rfl

/-- The node's x size. -/
private theorem sx_read (i : S2500000.Idx) : val_main_v589 (F := Ideal) SX i = at1 SX (i 0).val := by
  have h0 : (i 0).val < 2500000 := (i 0).isLt
  rw [val_main_v589_apply]
  unfold at1
  rw [dif_pos (show (i 0).val < 4000000 by omega)]
  refine congrArg SX ?_
  funext a
  match a with
  | ⟨0, _⟩ => rfl

/-- The node's y size. -/
private theorem sy_read (i : S2500000.Idx) : val_main_v590 (F := Ideal) SY i = at1 SY (i 0).val := by
  have h0 : (i 0).val < 2500000 := (i 0).isLt
  rw [val_main_v590_apply]
  unfold at1
  rw [dif_pos (show (i 0).val < 4000000 by omega)]
  refine congrArg SY ?_
  funext a
  match a with
  | ⟨0, _⟩ => rfl

/-- The node's x start-bin word is the word of `bstart` of its x position: the position less zero, over one,
    floored, converted and clamped. -/
private theorem bxl_read (i : S2500000.Idx) :
    val_main_v597 (F := Ideal) P i = BitVec.ofNat 32 (bstart (at1 P (i 0).val)) := by
  show IntOp.minsi 1023#32 (IntOp.maxsi 0#32 (Ideal.fptosi 32 (Ideal.liftRound Int.floor
    (Ideal.div (val_main_v587 (F := Ideal) P i - Ideal.ofBits .f32 0x00000000#32)
      (Ideal.ofBits .f32 0x3F800000#32))))) = _
  rw [Ideal.ofBits_zero_f32, lit_one, sub_zero, div_one', mx_read]
  exact (bstart_word _).1

/-- Likewise the y start-bin word. -/
private theorem byl_read (i : S2500000.Idx) :
    val_main_v604 (F := Ideal) P i = BitVec.ofNat 32 (bstart (at1 P (4000000 + (i 0).val))) := by
  show IntOp.minsi 1023#32 (IntOp.maxsi 0#32 (Ideal.fptosi 32 (Ideal.liftRound Int.floor
    (Ideal.div (val_main_v588 (F := Ideal) P i - Ideal.ofBits .f32 0x00000000#32)
      (Ideal.ofBits .f32 0x3F800000#32))))) = _
  rw [Ideal.ofBits_zero_f32, lit_one, sub_zero, div_one', my_read]
  exact (bstart_word _).1

/-- THE PASS at offsets `(di, dj)` over the second phase's inputs is, at node `i`, the gathered form's term: the
    footprint's overlaps with the bin at those offsets from the node's start bin, times the adjustment there. -/
private theorem term_read (di dj : ℕ) (hdi : di < 4) (hdj : dj < 4) (i : S2500000.Idx) :
    termT (F := Ideal) (BitVec.ofNat 32 di) (BitVec.ofNat 32 dj)
        (val_main_v587 (F := Ideal) P) (val_main_v588 (F := Ideal) P)
        (val_main_v589 (F := Ideal) SX) (val_main_v590 (F := Ideal) SY)
        (val_main_v597 (F := Ideal) P) (val_main_v604 (F := Ideal) P)
        (val_main_v586 (F := Ideal) P SX SY PW) i
      = term2 (at1 P) (fun k => at1 P (4000000 + k)) (at1 SX) (at1 SY) (atW PW) di dj (i 0).val := by
  have hlx : bstart (at1 P (i 0).val) ≤ 1023 := (bstart_word _).2
  have hly : bstart (at1 P (4000000 + (i 0).val)) ≤ 1023 := (bstart_word _).2
  have hbx : val_main_v597 (F := Ideal) P i + BitVec.ofNat 32 di
      = BitVec.ofNat 32 (bstart (at1 P (i 0).val) + di) := by
    rw [bxl_read, BitVec.ofNat_add]
  have hby : val_main_v604 (F := Ideal) P i + BitVec.ofNat 32 dj
      = BitVec.ofNat 32 (bstart (at1 P (4000000 + (i 0).val)) + dj) := by
    rw [byl_read, BitVec.ofNat_add]
  rw [termT_read (BitVec.ofNat 32 di) (BitVec.ofNat 32 dj) _ _ _ _ _ _ _ i _ _ (by omega) (by omega) hbx hby,
    mx_read, my_read, sx_read, sy_read]
  unfold term2
  by_cases h : onMap2 (at1 P) (fun k => at1 P (4000000 + k)) di dj (i 0).val
  · have h' : bstart (at1 P (i 0).val) + di < 1024 ∧ bstart (at1 P (4000000 + (i 0).val)) + dj < 1024 := h
    rw [dif_pos h', if_pos h, RMap.adj_eq]
  · have h' : ¬ (bstart (at1 P (i 0).val) + di < 1024 ∧ bstart (at1 P (4000000 + (i 0).val)) + dj < 1024) := h
    rw [dif_neg h', if_neg h]

/-! ## The sixteen terms, and their sum -/

private theorem t_0_0 (i : S2500000.Idx) :
    val_main_v652 (F := Ideal) P SX SY PW i
      = term2 (at1 P) (fun k => at1 P (4000000 + k)) (at1 SX) (at1 SY) (atW PW) 0 0 (i 0).val := by
  rw [pass_0_0]
  exact term_read P SX SY PW 0 0 (by norm_num) (by norm_num) i

private theorem t_0_1 (i : S2500000.Idx) :
    val_main_v684 (F := Ideal) P SX SY PW i
      = term2 (at1 P) (fun k => at1 P (4000000 + k)) (at1 SX) (at1 SY) (atW PW) 0 1 (i 0).val := by
  rw [pass_0_1]
  exact term_read P SX SY PW 0 1 (by norm_num) (by norm_num) i

private theorem t_0_2 (i : S2500000.Idx) :
    val_main_v716 (F := Ideal) P SX SY PW i
      = term2 (at1 P) (fun k => at1 P (4000000 + k)) (at1 SX) (at1 SY) (atW PW) 0 2 (i 0).val := by
  rw [pass_0_2]
  exact term_read P SX SY PW 0 2 (by norm_num) (by norm_num) i

private theorem t_0_3 (i : S2500000.Idx) :
    val_main_v748 (F := Ideal) P SX SY PW i
      = term2 (at1 P) (fun k => at1 P (4000000 + k)) (at1 SX) (at1 SY) (atW PW) 0 3 (i 0).val := by
  rw [pass_0_3]
  exact term_read P SX SY PW 0 3 (by norm_num) (by norm_num) i

private theorem t_1_0 (i : S2500000.Idx) :
    val_main_v796 (F := Ideal) P SX SY PW i
      = term2 (at1 P) (fun k => at1 P (4000000 + k)) (at1 SX) (at1 SY) (atW PW) 1 0 (i 0).val := by
  rw [pass_1_0]
  exact term_read P SX SY PW 1 0 (by norm_num) (by norm_num) i

private theorem t_1_1 (i : S2500000.Idx) :
    val_main_v828 (F := Ideal) P SX SY PW i
      = term2 (at1 P) (fun k => at1 P (4000000 + k)) (at1 SX) (at1 SY) (atW PW) 1 1 (i 0).val := by
  rw [pass_1_1]
  exact term_read P SX SY PW 1 1 (by norm_num) (by norm_num) i

private theorem t_1_2 (i : S2500000.Idx) :
    val_main_v860 (F := Ideal) P SX SY PW i
      = term2 (at1 P) (fun k => at1 P (4000000 + k)) (at1 SX) (at1 SY) (atW PW) 1 2 (i 0).val := by
  rw [pass_1_2]
  exact term_read P SX SY PW 1 2 (by norm_num) (by norm_num) i

private theorem t_1_3 (i : S2500000.Idx) :
    val_main_v892 (F := Ideal) P SX SY PW i
      = term2 (at1 P) (fun k => at1 P (4000000 + k)) (at1 SX) (at1 SY) (atW PW) 1 3 (i 0).val := by
  rw [pass_1_3]
  exact term_read P SX SY PW 1 3 (by norm_num) (by norm_num) i

private theorem t_2_0 (i : S2500000.Idx) :
    val_main_v940 (F := Ideal) P SX SY PW i
      = term2 (at1 P) (fun k => at1 P (4000000 + k)) (at1 SX) (at1 SY) (atW PW) 2 0 (i 0).val := by
  rw [pass_2_0]
  exact term_read P SX SY PW 2 0 (by norm_num) (by norm_num) i

private theorem t_2_1 (i : S2500000.Idx) :
    val_main_v972 (F := Ideal) P SX SY PW i
      = term2 (at1 P) (fun k => at1 P (4000000 + k)) (at1 SX) (at1 SY) (atW PW) 2 1 (i 0).val := by
  rw [pass_2_1]
  exact term_read P SX SY PW 2 1 (by norm_num) (by norm_num) i

private theorem t_2_2 (i : S2500000.Idx) :
    val_main_v1004 (F := Ideal) P SX SY PW i
      = term2 (at1 P) (fun k => at1 P (4000000 + k)) (at1 SX) (at1 SY) (atW PW) 2 2 (i 0).val := by
  rw [pass_2_2]
  exact term_read P SX SY PW 2 2 (by norm_num) (by norm_num) i

private theorem t_2_3 (i : S2500000.Idx) :
    val_main_v1036 (F := Ideal) P SX SY PW i
      = term2 (at1 P) (fun k => at1 P (4000000 + k)) (at1 SX) (at1 SY) (atW PW) 2 3 (i 0).val := by
  rw [pass_2_3]
  exact term_read P SX SY PW 2 3 (by norm_num) (by norm_num) i

private theorem t_3_0 (i : S2500000.Idx) :
    val_main_v1084 (F := Ideal) P SX SY PW i
      = term2 (at1 P) (fun k => at1 P (4000000 + k)) (at1 SX) (at1 SY) (atW PW) 3 0 (i 0).val := by
  rw [pass_3_0]
  exact term_read P SX SY PW 3 0 (by norm_num) (by norm_num) i

private theorem t_3_1 (i : S2500000.Idx) :
    val_main_v1116 (F := Ideal) P SX SY PW i
      = term2 (at1 P) (fun k => at1 P (4000000 + k)) (at1 SX) (at1 SY) (atW PW) 3 1 (i 0).val := by
  rw [pass_3_1]
  exact term_read P SX SY PW 3 1 (by norm_num) (by norm_num) i

private theorem t_3_2 (i : S2500000.Idx) :
    val_main_v1148 (F := Ideal) P SX SY PW i
      = term2 (at1 P) (fun k => at1 P (4000000 + k)) (at1 SX) (at1 SY) (atW PW) 3 2 (i 0).val := by
  rw [pass_3_2]
  exact term_read P SX SY PW 3 2 (by norm_num) (by norm_num) i

private theorem t_3_3 (i : S2500000.Idx) :
    val_main_v1180 (F := Ideal) P SX SY PW i
      = term2 (at1 P) (fun k => at1 P (4000000 + k)) (at1 SX) (at1 SY) (atW PW) 3 3 (i 0).val := by
  rw [pass_3_3]
  exact term_read P SX SY PW 3 3 (by norm_num) (by norm_num) i

/-- The running area after the last pass is zero plus the sixteen terms, added in pass order. -/
private theorem sum_read (i : S2500000.Idx) :
    val_main_v1181 (F := Ideal) P SX SY PW i
      = (((((((((((((((0 + val_main_v652 (F := Ideal) P SX SY PW i
          + val_main_v684 (F := Ideal) P SX SY PW i)
          + val_main_v716 (F := Ideal) P SX SY PW i)
          + val_main_v748 (F := Ideal) P SX SY PW i)
          + val_main_v796 (F := Ideal) P SX SY PW i)
          + val_main_v828 (F := Ideal) P SX SY PW i)
          + val_main_v860 (F := Ideal) P SX SY PW i)
          + val_main_v892 (F := Ideal) P SX SY PW i)
          + val_main_v940 (F := Ideal) P SX SY PW i)
          + val_main_v972 (F := Ideal) P SX SY PW i)
          + val_main_v1004 (F := Ideal) P SX SY PW i)
          + val_main_v1036 (F := Ideal) P SX SY PW i)
          + val_main_v1084 (F := Ideal) P SX SY PW i)
          + val_main_v1116 (F := Ideal) P SX SY PW i)
          + val_main_v1148 (F := Ideal) P SX SY PW i)
          + val_main_v1180 (F := Ideal) P SX SY PW i) := by
  rw [← Ideal.ofBits_zero_f32]
  rfl

/-- THE REFERENCE'S VALUE: entry `i` of its result's last stage is the gathered adjusted area of node `i`. -/
theorem ref_value (i : S2500000.Idx) :
    (val_main_v1181 (F := Ideal) P SX SY PW : FVec Ideal S2500000 .f32) i
      = areaR (at1 P) (fun k => at1 P (4000000 + k)) (at1 SX) (at1 SY) (atW PW) (i 0).val := by
  rw [sum_read, t_0_0, t_0_1, t_0_2, t_0_3, t_1_0, t_1_1, t_1_2, t_1_3, t_2_0, t_2_1, t_2_2, t_2_3, t_3_0, t_3_1, t_3_2, t_3_3]
  rfl

end Cert.ReferenceIdeal.RArea

end
-- ==== Proof.MathSpan.lean ====
/-
  Where an interval of width at most two can overlap the unit bins: only the four bins from the one that holds
  its lower end (clamped to the map).
-/
import proofs.«430719_j53558242181775_3_alg».proof.Proof.Spec

noncomputable section

open scoped BigOperators

namespace Cert.Spec

open Idealize.ShloMosaic

/-- An overlap length is never negative. -/
theorem ov_nonneg (lo hi : EReal) (b : ℕ) : 0 ≤ ov lo hi b := le_max_left _ _

/-- The embedding of the reals keeps the order, so it commutes with `max`. -/
private theorem coe_max' (a b : ℝ) : ((max a b : ℝ) : EReal) = max (a : EReal) (b : EReal) :=
  EReal.coe_strictMono.monotone.map_max

/-- The embedding of the reals keeps the order, so it commutes with `min`. -/
private theorem coe_min' (a b : ℝ) : ((min a b : ℝ) : EReal) = min (a : EReal) (b : EReal) :=
  EReal.coe_strictMono.monotone.map_min

/-- For real end points the overlap length is the real number `max 0 (min h (b+1) - max l b)`. -/
private theorem ov_coe (l h : ℝ) (b : ℕ) :
    ov (l : EReal) (h : EReal) b = ((max 0 (min h ((b : ℝ) + 1) - max l (b : ℝ)) : ℝ) : EReal) := by
  unfold ov
  rw [coe_max', EReal.coe_sub, coe_min', coe_max', EReal.coe_add]
  rfl

/-- For a real lower end the start bin is the floor, clamped to `0 … 1023`: rounding a floor again changes
    nothing, and the clamp to the 32-bit range is absorbed by the narrower clamp to the map. -/
private theorem bstart_coe (l : ℝ) : bstart (l : EReal) = (min 1023 (max 0 ⌊l⌋)).toNat := by
  unfold bstart
  rw [Ideal.liftRound_coe, Ideal.toIntClamped_coe]
  simp only [Int.floor_intCast, Int.ceil_intCast, ite_self]
  congr 1
  omega

/-- The overlap of a finite interval with a bin is a finite number. -/
theorem ov_finite {lo hi : EReal} (hlo : lo ≠ ⊤ ∧ lo ≠ ⊥) (hhi : hi ≠ ⊤ ∧ hi ≠ ⊥) (b : ℕ) :
    ov lo hi b ≠ ⊤ ∧ ov lo hi b ≠ ⊥ := by
  lift lo to ℝ using hlo
  lift hi to ℝ using hhi
  rw [ov_coe]
  exact ⟨EReal.coe_ne_top _, EReal.coe_ne_bot _⟩

/-- The start bin lies on the map. -/
theorem bstart_le (lo : EReal) : bstart lo ≤ 1023 := by
  unfold bstart
  omega

/-- THE SPAN: a finite interval `[lo, hi]` no wider than two bins overlaps a bin `x` of the map only if `x` is one
    of the four bins from the start bin of `lo`. (Below the start bin the bin ends at or before `lo`; from four
    bins on, it begins at or after `hi`. Where `lo` lies left of the map the start bin is 0 and `hi < 2`; where it
    lies right of the map no bin of the map is met at all.) -/
theorem ov_ne_zero_span {lo hi : EReal} (hlo : lo ≠ ⊤ ∧ lo ≠ ⊥) (hhi : hi ≠ ⊤ ∧ hi ≠ ⊥) (hw : hi ≤ lo + 2)
    {x : ℕ} (hx : x < 1024) (h : ov lo hi x ≠ 0) : bstart lo ≤ x ∧ x ≤ bstart lo + 3 := by
  lift lo to ℝ using hlo
  lift hi to ℝ using hhi
  rw [ov_coe] at h
  rw [bstart_coe]
  -- the width bound and the nonzero overlap, as statements about real numbers
  have hw' : hi ≤ lo + 2 := by
    have h2 : (2 : EReal) = ((2 : ℝ) : EReal) := rfl
    rw [h2, ← EReal.coe_add, EReal.coe_le_coe_iff] at hw
    exact hw
  have hpos : max 0 (min hi ((x : ℝ) + 1) - max lo (x : ℝ)) ≠ 0 := by
    intro h0
    apply h
    rw [h0]
    rfl
  -- a nonzero overlap means the larger of the left ends lies strictly below the smaller of the right ends
  have hlt : max lo (x : ℝ) < min hi ((x : ℝ) + 1) := by
    by_contra hge
    rw [not_lt] at hge
    apply hpos
    exact max_eq_left (by linarith)
  have h1 : lo < (x : ℝ) + 1 := lt_of_le_of_lt (le_max_left _ _) (lt_of_lt_of_le hlt (min_le_right _ _))
  have h2 : (x : ℝ) < hi := lt_of_le_of_lt (le_max_right _ _) (lt_of_lt_of_le hlt (min_le_left _ _))
  -- the floor of the lower end is at most the bin, and the bin is at most two past it
  have hf1 : ⌊lo⌋ ≤ (x : ℤ) := by
    have : ((⌊lo⌋ : ℤ) : ℝ) < ((x : ℤ) : ℝ) + 1 := by
      have := Int.floor_le lo
      push_cast
      linarith
    have : (⌊lo⌋ : ℤ) < (x : ℤ) + 1 := by exact_mod_cast this
    omega
  have hf2 : (x : ℤ) ≤ ⌊lo⌋ + 2 := by
    have : ((x : ℤ) : ℝ) < ((⌊lo⌋ : ℤ) : ℝ) + 3 := by
      have := Int.lt_floor_add_one lo
      push_cast
      linarith
    have : (x : ℤ) < (⌊lo⌋ : ℤ) + 3 := by exact_mod_cast this
    omega
  omega

end Cert.Spec

end
-- ==== Proof.MathMap.lean ====
/-
  The scattered pin-density map is the dense one: cell `x·1024 + y` of the sixteen passes holds the sum over all
  nodes of density × x-overlap × y-overlap with bin `(x, y)`.
-/
import proofs.«430719_j53558242181775_3_alg».proof.Proof.MathSpan

noncomputable section

open scoped BigOperators

namespace Cert.Spec

open Idealize.ShloMosaic

/-- A box of centre `p + s/2` and half-extent `max(c707, s/2)` with `p` finite and `s` a number at most 2:
    both edges are finite numbers and the width `max(c1414, s)` is at most 2. -/
private theorem box_facts (p s : EReal) (hp : p ≠ ⊤ ∧ p ≠ ⊥) (hs : s ≠ ⊥ ∧ s ≤ 2) :
    (((p + half * s) - max c707 (half * s)) ≠ ⊤ ∧ ((p + half * s) - max c707 (half * s)) ≠ ⊥) ∧
    (((p + half * s) + max c707 (half * s)) ≠ ⊤ ∧ ((p + half * s) + max c707 (half * s)) ≠ ⊥) ∧
    ((p + half * s) + max c707 (half * s)) ≤ ((p + half * s) - max c707 (half * s)) + 2 := by
  have two : (2 : EReal) = ((2 : ℝ) : EReal) := rfl
  rw [two] at hs ⊢
  have hs_top : s ≠ ⊤ := by
    intro h
    rw [h] at hs
    exact absurd (top_le_iff.mp hs.2) (EReal.coe_ne_top _)
  lift p to ℝ using hp
  lift s to ℝ using ⟨hs_top, hs.1⟩
  have hs2 : s ≤ 2 := by exact_mod_cast hs.2
  have e1 : (p : EReal) + half * (s : EReal) - max c707 (half * (s : EReal))
      = ((p + 1 / 2 * s - max (11861492 / 16777216) (1 / 2 * s) : ℝ) : EReal) := by
    simp only [half, c707]
    push_cast
    rfl
  have e2 : (p : EReal) + half * (s : EReal) + max c707 (half * (s : EReal))
      = ((p + 1 / 2 * s + max (11861492 / 16777216) (1 / 2 * s) : ℝ) : EReal) := by
    simp only [half, c707]
    push_cast
    rfl
  rw [e1, e2]
  refine ⟨⟨EReal.coe_ne_top _, EReal.coe_ne_bot _⟩, ⟨EReal.coe_ne_top _, EReal.coe_ne_bot _⟩, ?_⟩
  have hm : max (11861492 / 16777216 : ℝ) (1 / 2 * s) ≤ 1 := max_le (by norm_num) (by linarith)
  have : (p + 1 / 2 * s + max (11861492 / 16777216) (1 / 2 * s) : ℝ)
      ≤ (p + 1 / 2 * s - max (11861492 / 16777216) (1 / 2 * s)) + 2 := by linarith
  exact_mod_cast this

/-- The stretched box's x edges are finite and at most two apart (its width is `max(c1414, sx) ≤ 2`). -/
theorem xbox_facts (px sx : ℕ → EReal) (hpx : ∀ k, px k ≠ ⊤ ∧ px k ≠ ⊥) (hsx : ∀ k, sx k ≠ ⊥ ∧ sx k ≤ 2) (k : ℕ) :
    (xlo px sx k ≠ ⊤ ∧ xlo px sx k ≠ ⊥) ∧ (xhi px sx k ≠ ⊤ ∧ xhi px sx k ≠ ⊥) ∧ xhi px sx k ≤ xlo px sx k + 2 := by
  unfold xlo xhi hx
  exact box_facts (px k) (sx k) (hpx k) (hsx k)

/-- The same along y. -/
theorem ybox_facts (py sy : ℕ → EReal) (hpy : ∀ k, py k ≠ ⊤ ∧ py k ≠ ⊥) (hsy : ∀ k, sy k ≠ ⊥ ∧ sy k ≤ 2) (k : ℕ) :
    (ylo py sy k ≠ ⊤ ∧ ylo py sy k ≠ ⊥) ∧ (yhi py sy k ≠ ⊤ ∧ yhi py sy k ≠ ⊥) ∧ yhi py sy k ≤ ylo py sy k + 2 := by
  unfold ylo yhi hy
  exact box_facts (py k) (sy k) (hpy k) (hsy k)

/-- Every offset of the sixteen passes is at most three along each axis. -/
private theorem offsets_le : ∀ d ∈ offsets, d.1 ≤ 3 ∧ d.2 ≤ 3 := by decide

/-- Running the passes of a list from any map: the cell holds its starting value plus, node by node, what the
    node scatters to that cell over all the passes of the list (sums regroup freely). -/
private theorem foldl_pass1 (px py sx sy : ℕ → EReal) (w : ℕ → ℤ) (i : ℕ) (l : List (ℕ × ℕ)) :
    ∀ acc : ℕ → EReal,
    (l.foldl (fun acc d => pass1 px py sx sy w d.1 d.2 acc) acc) i
      = acc i + ∑ k ∈ Finset.range 3000000,
          (l.map (fun d => if cell1 px py sx sy d.1 d.2 k = i then contrib1 px py sx sy w d.1 d.2 k else 0)).sum := by
  induction l with
  | nil => intro acc; simp
  | cons d l ih =>
    intro acc
    rw [List.foldl_cons, ih]
    simp only [List.map_cons, List.sum_cons, Finset.sum_add_distrib, pass1, Finset.sum_filter, add_assoc]

/-- Among the sixteen offsets exactly one carries the start bins `(a, b)` to `(x, y)` when `x` and `y` lie within
    three of them, and none otherwise. -/
private theorem sum_offsets_ite (a b x y : ℕ) (v : EReal) :
    (offsets.map (fun d => if a + d.1 = x ∧ b + d.2 = y then v else 0)).sum
      = if (a ≤ x ∧ x ≤ a + 3) ∧ (b ≤ y ∧ y ≤ b + 3) then v else 0 := by
  by_cases h : (a ≤ x ∧ x ≤ a + 3) ∧ (b ≤ y ∧ y ≤ b + 3)
  · rw [if_pos h]
    obtain ⟨⟨h1, h2⟩, h3, h4⟩ := h
    obtain ⟨di, rfl⟩ := Nat.exists_eq_add_of_le h1
    obtain ⟨dj, rfl⟩ := Nat.exists_eq_add_of_le h3
    have hdi : di ≤ 3 := by omega
    have hdj : dj ≤ 3 := by omega
    interval_cases di <;> interval_cases dj <;> simp [offsets]
  · rw [if_neg h]
    apply List.sum_eq_zero
    intro t ht
    rw [List.mem_map] at ht
    obtain ⟨d, hd, rfl⟩ := ht
    have := offsets_le d hd
    rw [if_neg]
    omega

/-- One pass seen from the cell `x·1024 + y`: a pass on the map lands there exactly when its bin is `(x, y)`
    (both coordinates are below 1024, so the cell number determines the pair), and a pass off the map scatters
    nothing wherever it lands. -/
private theorem term_eq (px py sx sy : ℕ → EReal) (w : ℕ → ℤ) {x y : ℕ} (hx : x < 1024) (hy : y < 1024)
    (di dj k : ℕ) :
    (if cell1 px py sx sy di dj k = x * 1024 + y then contrib1 px py sx sy w di dj k else 0)
      = if bstart (xlo px sx k) + di = x ∧ bstart (ylo py sy k) + dj = y then
          dens sx sy w k * ov (xlo px sx k) (xhi px sx k) x * ov (ylo py sy k) (yhi py sy k) y else 0 := by
  unfold cell1 contrib1
  by_cases hon : onMap1 px py sx sy di dj k
  · rw [if_pos hon, if_pos hon]
    have hon' := hon
    unfold onMap1 at hon'
    by_cases hc : bstart (xlo px sx k) + di = x ∧ bstart (ylo py sy k) + dj = y
    · rw [if_pos hc, hc.1, hc.2, if_pos rfl]
    · rw [if_neg hc, if_neg]
      intro he
      apply hc
      omega
  · rw [if_neg hon, if_neg hon]
    have hc : ¬ (bstart (xlo px sx k) + di = x ∧ bstart (ylo py sy k) + dj = y) := by
      intro hc
      apply hon
      unfold onMap1
      omega
    rw [if_neg hc]
    simp

/-- THE MAP: for finite positions and sizes at most 2, the scattered form at cell `x·1024 + y` is the dense form
    at bin `(x, y)`: each node reaches the cell in at most one of the sixteen passes, and where it reaches it in none
    its overlap with the bin is zero. -/
theorem pmR_eq (px py sx sy : ℕ → EReal) (w : ℕ → ℤ)
    (hpx : ∀ k, px k ≠ ⊤ ∧ px k ≠ ⊥) (hpy : ∀ k, py k ≠ ⊤ ∧ py k ≠ ⊥)
    (hsx : ∀ k, sx k ≠ ⊥ ∧ sx k ≤ 2) (hsy : ∀ k, sy k ≠ ⊥ ∧ sy k ≤ 2)
    {x y : ℕ} (hx : x < 1024) (hy : y < 1024) :
    pmR px py sx sy w (x * 1024 + y) = pm px py sx sy w x y := by
  unfold pmR pm
  rw [foldl_pass1]
  simp only [zero_add]
  apply Finset.sum_congr rfl
  intro k _
  have hxb := xbox_facts px sx hpx hsx k
  have hyb := ybox_facts py sy hpy hsy k
  have hmap : (offsets.map (fun d => if cell1 px py sx sy d.1 d.2 k = x * 1024 + y
        then contrib1 px py sx sy w d.1 d.2 k else 0))
      = offsets.map (fun d => if bstart (xlo px sx k) + d.1 = x ∧ bstart (ylo py sy k) + d.2 = y then
          dens sx sy w k * ov (xlo px sx k) (xhi px sx k) x * ov (ylo py sy k) (yhi py sy k) y else 0) := by
    apply List.map_congr_left
    intro d _
    exact term_eq px py sx sy w hx hy d.1 d.2 k
  rw [hmap, sum_offsets_ite]
  split_ifs with h
  · rfl
  · by_cases h1 : bstart (xlo px sx k) ≤ x ∧ x ≤ bstart (xlo px sx k) + 3
    · have h2 : ¬ (bstart (ylo py sy k) ≤ y ∧ y ≤ bstart (ylo py sy k) + 3) := fun h2 => h ⟨h1, h2⟩
      have h0 : ov (ylo py sy k) (yhi py sy k) y = 0 := by
        by_contra hne
        exact h2 (ov_ne_zero_span hyb.1 hyb.2.1 hyb.2.2 hy hne)
      rw [h0, mul_zero]
    · have h0 : ov (xlo px sx k) (xhi px sx k) x = 0 := by
        by_contra hne
        exact h1 (ov_ne_zero_span hxb.1 hxb.2.1 hxb.2.2 hx hne)
      rw [h0, mul_zero, zero_mul]

end Cert.Spec

end
-- ==== Proof.MathArea.lean ====
/-
  The gathered area is the dense one: a node's footprint meets only the sixteen bins from its start bin, and the
  product with a sum over bins distributes because every factor is a non-negative finite number.
-/
import proofs.«430719_j53558242181775_3_alg».proof.Proof.MathMap

noncomputable section

open scoped BigOperators

namespace Cert.Spec

open Idealize.ShloMosaic

/-- The lower clip is the positive real 13421773 / 33554432. -/
private theorem cLo_eq : cLo = ((13421773 / 33554432 : ℝ) : EReal) := by
  simp [cLo, Ideal.ofBits, Ideal.ieee, -EReal.coe_mul]; norm_num

/-- The upper clip is the real 5 / 2. -/
private theorem cHi_eq : cHi = ((5 / 2 : ℝ) : EReal) := by
  simp [cHi, Ideal.ofBits, Ideal.ieee, -EReal.coe_mul]; norm_num

/-- The lower clip is not negative. -/
private theorem cLo_nonneg : 0 ≤ cLo := by
  rw [cLo_eq]; exact_mod_cast (by norm_num : (0 : ℝ) ≤ 13421773 / 33554432)

/-- The upper clip is not negative. -/
private theorem cHi_nonneg : 0 ≤ cHi := by
  rw [cHi_eq]; exact_mod_cast (by norm_num : (0 : ℝ) ≤ 5 / 2)

/-- The adjustment factor is a non-negative finite number whatever the map holds. -/
theorem adjOf_facts (p : EReal) : 0 ≤ adjOf p ∧ adjOf p ≠ ⊤ := by
  refine ⟨le_min cHi_nonneg (le_max_of_le_left cLo_nonneg), ?_⟩
  have h : adjOf p ≤ cHi := min_le_left _ _
  rw [cHi_eq] at h
  exact ne_top_of_le_ne_top (EReal.coe_ne_top _) h

/-- A factor moves inside a finite sum of non-negative terms. -/
private theorem mul_sum_nonneg (c : EReal) (s : Finset ℕ) (t : ℕ → EReal) (ht : ∀ i ∈ s, 0 ≤ t i) :
    c * ∑ i ∈ s, t i = ∑ i ∈ s, c * t i := by
  induction s using Finset.induction_on with
  | empty => simp
  | insert i s hi ih =>
    rw [Finset.sum_insert hi, Finset.sum_insert hi,
      EReal.left_distrib_of_nonneg (ht i (Finset.mem_insert_self _ _))
        (Finset.sum_nonneg (fun j hj => ht j (Finset.mem_insert_of_mem hj))),
      ih (fun j hj => ht j (Finset.mem_insert_of_mem hj))]

/-- A sum over the 1024 bins of a function that vanishes off the four bins from `b` is the sum over those of
    the four that lie on the map. -/
private theorem sum_span (F : ℕ → EReal) (b : ℕ)
    (h : ∀ x, x < 1024 → F x ≠ 0 → b ≤ x ∧ x ≤ b + 3) :
    ∑ x ∈ Finset.range 1024, F x = ∑ d ∈ Finset.range 4, if b + d < 1024 then F (b + d) else 0 := by
  have h1 : ∀ x ∈ Finset.range 1024, F x = ∑ d ∈ Finset.range 4, if x = b + d then F x else 0 := by
    intro x hx
    by_cases h0 : F x = 0
    · simp [h0]
    · obtain ⟨h2, h3⟩ := h x (Finset.mem_range.mp hx) h0
      rw [Finset.sum_eq_single (x - b)]
      · rw [if_pos (by omega)]
      · intro d _ hd
        rw [if_neg (by omega)]
      · intro hd
        exact absurd (Finset.mem_range.mpr (by omega)) hd
  rw [Finset.sum_congr rfl h1, Finset.sum_comm]
  refine Finset.sum_congr rfl (fun d _ => ?_)
  rw [Finset.sum_ite_eq' ]
  simp [Finset.mem_range]

/-- THE AREA: for finite positions and sizes at most 2, the dense form of every node's adjusted area is the
    gathered form. -/
theorem area_eq (px py sx sy : ℕ → EReal) (w : ℕ → ℤ)
    (hpx : ∀ k, px k ≠ ⊤ ∧ px k ≠ ⊥) (hpy : ∀ k, py k ≠ ⊤ ∧ py k ≠ ⊥)
    (hsx : ∀ k, sx k ≠ ⊥ ∧ sx k ≤ 2) (hsy : ∀ k, sy k ≠ ⊥ ∧ sy k ≤ 2) (n : ℕ) :
    area px py sx sy w n = areaR px py sx sy w n := by
  -- a size that is at most 2 is not +∞, so both ends of the footprint are finite along each axis
  have h2 : (2 : EReal) ≠ ⊤ := by
    have : (2 : EReal) = ((2 : ℝ) : EReal) := by norm_cast
    rw [this]; exact EReal.coe_ne_top _
  have hsxt : sx n ≠ ⊤ := ne_top_of_le_ne_top h2 (hsx n).2
  have hsyt : sy n ≠ ⊤ := ne_top_of_le_ne_top h2 (hsy n).2
  have hxhi : px n + sx n ≠ ⊤ ∧ px n + sx n ≠ ⊥ :=
    ⟨EReal.add_ne_top (hpx n).1 hsxt, EReal.add_ne_bot_iff.mpr ⟨(hpx n).2, (hsx n).1⟩⟩
  have hyhi : py n + sy n ≠ ⊤ ∧ py n + sy n ≠ ⊥ :=
    ⟨EReal.add_ne_top (hpy n).1 hsyt, EReal.add_ne_bot_iff.mpr ⟨(hpy n).2, (hsy n).1⟩⟩
  -- the footprint is at most two bins wide, so it meets only the four bins from its start bin
  have hax : ∀ x, x < 1024 → ov (px n) (px n + sx n) x ≠ 0 →
      bstart (px n) ≤ x ∧ x ≤ bstart (px n) + 3 :=
    fun x hx h => ov_ne_zero_span (hpx n) hxhi (add_le_add le_rfl (hsx n).2) hx h
  have hay : ∀ y, y < 1024 → ov (py n) (py n + sy n) y ≠ 0 →
      bstart (py n) ≤ y ∧ y ≤ bstart (py n) + 3 :=
    fun y hy h => ov_ne_zero_span (hpy n) hyhi (add_le_add le_rfl (hsy n).2) hy h
  unfold area
  -- inside one column: distribute the x-overlap over the y-sum, then keep the four bins along y
  have e1 : ∀ x ∈ Finset.range 1024,
      ov (px n) (px n + sx n) x *
        ∑ y ∈ Finset.range 1024, adjOf (pm px py sx sy w x y) * ov (py n) (py n + sy n) y
      = ∑ dj ∈ Finset.range 4, if bstart (py n) + dj < 1024 then
          ov (px n) (px n + sx n) x *
            (adjOf (pm px py sx sy w x (bstart (py n) + dj)) * ov (py n) (py n + sy n) (bstart (py n) + dj))
        else 0 := by
    intro x _
    rw [mul_sum_nonneg _ _ _ (fun y _ => EReal.mul_nonneg (adjOf_facts _).1 (ov_nonneg _ _ _))]
    exact sum_span _ _ (fun y hy h => hay y hy (fun h0 => h (by rw [h0]; simp)))
  rw [Finset.sum_congr rfl e1]
  -- across columns: keep the four bins along x
  rw [sum_span _ (bstart (px n)) (fun x hx h => hax x hx (fun h0 => h (by simp [h0])))]
  -- each kept bin is one term of the gathered form
  have e2 : ∀ di, (if bstart (px n) + di < 1024 then
        ∑ dj ∈ Finset.range 4, if bstart (py n) + dj < 1024 then
          ov (px n) (px n + sx n) (bstart (px n) + di) *
            (adjOf (pm px py sx sy w (bstart (px n) + di) (bstart (py n) + dj))
              * ov (py n) (py n + sy n) (bstart (py n) + dj))
        else 0
      else 0) = ∑ dj ∈ Finset.range 4, term2 px py sx sy w di dj n := by
    intro di
    by_cases h1 : bstart (px n) + di < 1024
    · rw [if_pos h1]
      refine Finset.sum_congr rfl (fun dj _ => ?_)
      by_cases h3 : bstart (py n) + dj < 1024
      · rw [if_pos h3]
        unfold term2
        rw [if_pos (show onMap2 px py di dj n from ⟨h1, h3⟩),
          pmR_eq px py sx sy w hpx hpy hsx hsy h1 h3, mul_comm (adjOf _) _, mul_assoc]
      · rw [if_neg h3]
        unfold term2
        rw [if_neg (show ¬ onMap2 px py di dj n from fun h => h3 h.2)]
    · rw [if_neg h1]
      symm
      refine Finset.sum_eq_zero (fun dj _ => ?_)
      unfold term2
      rw [if_neg (show ¬ onMap2 px py di dj n from fun h => h1 h.1)]
  rw [Finset.sum_congr rfl (fun di _ => e2 di)]
  -- the sixteen terms, written out, are the gathered form's fold
  simp only [Finset.sum_range_succ, Finset.sum_range_zero, areaR, offsets, List.foldl, zero_add, add_assoc]

end Cert.Spec

end
-- ==== Proof.PreFacts.lean ====
/-
  What the precondition says entry by entry: every position and size is a finite number and no size exceeds 2.
-/
import proofs.«430719_j53558242181775_3_alg».proof.Pre_finite_inputs
import proofs.«430719_j53558242181775_3_alg».proof.Proof.Spec
import Idealize.ShloMosaic.Lib.ReduceAll

noncomputable section

namespace Cert.PreFacts

open Idealize.ShloMosaic Cert.Spec

variable [Cert.Pre_finite_inputs.Facts]

/-- The shape with no axes has exactly one index. -/
private instance : Subsingleton Cert.Pre_finite_inputs.S_.Idx := ⟨fun a b => funext fun d => d.elim0⟩

/-- A one-bit word made from a truth value is 1 exactly when the truth value is true. -/
private theorem ofBool_one (b : Bool) : BitVec.ofBool b = 1#1 ↔ b = true := by cases b <;> decide

/-- The single-precision pattern with all exponent bits set and no fraction denotes `+∞`. -/
private theorem ofBits_inf : Ideal.ofBits .f32 0x7F800000#32 = ⊤ := by
  simp [Ideal.ofBits, Ideal.ieee]

/-- The single-precision pattern `0x40000000` denotes `2`. -/
private theorem ofBits_two : Ideal.ofBits .f32 0x40000000#32 = 2 := by
  simp [Ideal.ofBits, Ideal.ieee, -EReal.coe_mul]; norm_num; rfl

/-- `max x (-x) < +∞` says `x` is neither infinity: `x = +∞` makes the first argument `+∞`, `x = -∞` the second. -/
private theorem finite_of_abs_lt (x : EReal)
    (h : Ideal.cmp .olt (max x (-x)) (Ideal.ofBits .f32 0x7F800000#32) = 1#1) : x ≠ ⊤ ∧ x ≠ ⊥ := by
  rw [ofBits_inf] at h
  unfold Ideal.cmp at h
  rw [ofBool_one, decide_eq_true_eq, max_lt_iff] at h
  refine ⟨ne_of_lt h.1, ?_⟩
  rintro rfl
  exact absurd h.2 (by simp)

/-- The comparison `x ≤ 2.0` coming out 1 says `x ≤ 2`. -/
private theorem le_two_of_cmp (x : EReal)
    (h : Ideal.cmp .ole x (Ideal.ofBits .f32 0x40000000#32) = 1#1) : x ≤ 2 := by
  rw [ofBits_two] at h
  unfold Ideal.cmp at h
  rwa [ofBool_one, decide_eq_true_eq] at h

/-- An entry past the end of an array reads `0`, and an entry inside reads the array: a property of every array
    element that also holds of `0` holds of every entry. -/
private theorem at1_all {n : ℕ} (v : (⟨1, ![n]⟩ : Shape).Idx → EReal) (p : EReal → Prop) (h0 : p 0)
    (hv : ∀ i, p (v i)) (k : ℕ) : p (at1 v k) := by
  unfold at1
  split
  · exact hv _
  · exact h0

/-- The precondition, all ones, gives: positions finite; sizes finite and at most 2 (so in particular not `+∞`). -/
theorem of_pre (P : FVec Ideal Cert.Pre_finite_inputs.S8000000 .f32) (SX SY : FVec Ideal Cert.Pre_finite_inputs.S4000000 .f32)
    (PW : IVec Cert.Pre_finite_inputs.S3000000 32)
    (h : Cert.Pre_finite_inputs.fn (F := Ideal) P SX SY PW = fun _ => 1#1) :
    (∀ k, at1 P k ≠ ⊤ ∧ at1 P k ≠ ⊥) ∧ (∀ k, at1 SX k ≠ ⊥ ∧ at1 SX k ≤ 2) ∧ (∀ k, at1 SY k ≠ ⊥ ∧ at1 SY k ≤ 2) := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨hP, hSX⟩, hSY⟩, hSX2⟩, hSY2⟩ := h0
  have eP : ∀ i, P i ≠ ⊤ ∧ P i ≠ ⊥ := fun i =>
    finite_of_abs_lt (P i) (Host.reduce_andi_all _ _ _ _ _ hP i)
  have eSX : ∀ i, SX i ≠ ⊤ ∧ SX i ≠ ⊥ := fun i =>
    finite_of_abs_lt (SX i) (Host.reduce_andi_all _ _ _ _ _ hSX i)
  have eSY : ∀ i, SY i ≠ ⊤ ∧ SY i ≠ ⊥ := fun i =>
    finite_of_abs_lt (SY i) (Host.reduce_andi_all _ _ _ _ _ hSY i)
  have eSX2 : ∀ i, SX i ≤ 2 := fun i =>
    le_two_of_cmp (SX i) (Host.reduce_andi_all _ _ _ _ _ hSX2 i)
  have eSY2 : ∀ i, SY i ≤ 2 := fun i =>
    le_two_of_cmp (SY i) (Host.reduce_andi_all _ _ _ _ _ hSY2 i)
  refine ⟨fun k => ?_, fun k => ?_, fun k => ?_⟩
  · exact at1_all P (fun x => x ≠ ⊤ ∧ x ≠ ⊥) ⟨by simp, by simp⟩ eP k
  · exact at1_all SX (fun x => x ≠ ⊥ ∧ x ≤ 2) ⟨by simp, by norm_num⟩ (fun i => ⟨(eSX i).2, eSX2 i⟩) k
  · exact at1_all SY (fun x => x ≠ ⊥ ∧ x ≤ 2) ⟨by simp, by norm_num⟩ (fun i => ⟨(eSY i).2, eSY2 i⟩) k

end Cert.PreFacts

end
-- ==== Proof.lean ====
/-
  The certificate: a placement kernel that computes every node's pin-adjusted area DENSELY (each node's overlap
  with all 1024 × 1024 bins, as two matrix products) against a reference that SCATTERS each node to, and gathers it
  from, the 4 × 4 bins starting at the bin of its lower corner.

  Over the extended reals the two agree exactly when every box meets at most four bins per axis; the reference
  states that domain itself ("max bins any box spans per axis (sizes <= 2*bin)"), and the precondition carries it:
  positions and sizes finite, sizes at most 2. Then
    * the stretched box of a physical node has width max(1.414, size) ≤ 2, a node's own footprint has width
      size ≤ 2, so each overlaps only the four bins from its (clamped) start bin: the dense sums collapse to the
      reference's sixteen terms;
    * the scattered map at cell x·1024 + y is the dense map at (x, y), hence the two adjustment tables agree;
    * the kernel's product "x-overlap × Σ_y (table × y-overlap)" distributes because every factor is a
      non-negative finite number.
  The kernel's half-extent literal 0.707 is exactly half of the reference's 1.414 as single-precision numbers, so
  max(0.707, s/2) = max(1.414, s)/2 with no rounding to bridge; bf16 conversions are the identity over the reals.

  The three frames: the two kernel programs' frames are the generated ones; the reference's is its run with the
  result dropped. The ideal pass rewrote nothing, so the idealization claim is trivial.
-/
import proofs.«430719_j53558242181775_3_alg».proof.Defs
import proofs.«430719_j53558242181775_3_alg».proof.Proof.Gen.Kernel
import proofs.«430719_j53558242181775_3_alg».proof.Proof.Gen.Kernel.Frame
import proofs.«430719_j53558242181775_3_alg».proof.Proof.Gen.KernelIdeal
import proofs.«430719_j53558242181775_3_alg».proof.Proof.Gen.KernelIdeal.Frame
import proofs.«430719_j53558242181775_3_alg».proof.Proof.Gen.ReferenceIdeal
import proofs.«430719_j53558242181775_3_alg».proof.Proof.Gen.Pre_finite_inputs
import proofs.«430719_j53558242181775_3_alg».proof.Proof.KRun
import proofs.«430719_j53558242181775_3_alg».proof.Proof.KValue
import proofs.«430719_j53558242181775_3_alg».proof.Proof.RefRunAll
import proofs.«430719_j53558242181775_3_alg».proof.Proof.RArea
import proofs.«430719_j53558242181775_3_alg».proof.Proof.MathArea
import proofs.«430719_j53558242181775_3_alg».proof.Proof.PreFacts
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Entry by entry, under the precondition, the reference's last stage of arrays that agree with the kernel's
    launch arrays is the kernel's result at its last boundary: both are the adjusted area of the node, the reference
    in its gathered form, the kernel in its dense form, and the two forms agree on finite positions and sizes at
    most 2. -/
theorem values_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.ReadP.val_main_v1181 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Gen.W7 m ρ c (Proc.devRef .tc Cert.KernelIdeal.main_v19) := by
  obtain ⟨hP, hX, hY⟩ := Cert.PreFacts.of_pre _ _ _ _ (hpre c)
  funext i
  rw [Cert.ReferenceIdeal.RArea.ref_value]
  exact ((Cert.KernelIdeal.KValue.kernel_value m ρ c i).trans
    (Cert.Spec.area_eq _ _ _ _ _ hP (fun k => hP (4000000 + k)) hX hY _)).symm

theorem algebraic : Cert.algebraic_KernelIdeal_ReferenceIdeal := by
  intro m ρ m' ρ' hpre hagree
  refine ⟨fun c => Cert.KernelIdeal.Gen.W7 m ρ c (Proc.devRef .tc Cert.KernelIdeal.main_v19),
    Cert.KernelIdeal.ValueRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact values_agree m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
